-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : IVec S4096 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 32 := constantI S_ 32 4096#32
  let main_v6 : IVec S4096 32 := broadcastInDim S4096 ![] bcast_S_S4096 main_c_1
  let main_v7 : IVec S4096 1 := cmpi .slt main_arg1 main_v6
  let main_v8 : IVec S4096 1 := andi main_v5 main_v7
  let main_c_2 : IVec S_ 1 := constantI S_ 1 1#1
  let main_v9 : IVec S_ 1 := (fun x v => Host.reduce IntOp.andi x v reducesTo_S4096_S_d0 h_S_) main_v8 main_c_2
  let main_v10 : IVec S_ 1 := andi main_v3 main_v9
  main_v10
-- ==== Kernel.lean ====
abbrev S16384x4096 : Shape := ⟨2, ![16384, 4096]⟩
abbrev S4096 : Shape := ⟨1, ![4096]⟩
abbrev S4096x16384 : Shape := ⟨2, ![4096, 16384]⟩
abbrev S1024x1024 : Shape := ⟨2, ![1024, 1024]⟩
abbrev S16384x128 : Shape := ⟨2, ![16384, 128]⟩
abbrev S128x16384 : Shape := ⟨2, ![128, 16384]⟩
abbrev S16 : Shape := ⟨1, ![16]⟩
abbrev S1 : Shape := ⟨1, ![1]⟩
abbrev S_ : Shape := ⟨0, ![]⟩
abbrev S1x16384 : Shape := ⟨2, ![1, 16384]⟩
abbrev S16384 : Shape := ⟨1, ![16384]⟩
abbrev S128x2048 : Shape := ⟨2, ![128, 2048]⟩
abbrev S2048x128 : Shape := ⟨2, ![2048, 128]⟩

abbrev nBuf : Space → Nat
  | .hbm => 3
  | .vmem => 7
  | .smem => 1
  | _ => 0

abbrev bufTy : (tb : Table) → Fin (tcTables nBuf tb) → BufTy
  | .hbm, ⟨0, _⟩ => ⟨S16384x4096, .f32⟩
  | .hbm, ⟨1, _⟩ => ⟨S4096x16384, .f32⟩
  | .hbm, ⟨2, _⟩ => ⟨S16384x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S16384x128, .f32⟩
  | .local _ .vmem, ⟨5, _⟩ => ⟨S16384x128, .f32⟩
  | .local _ .vmem, ⟨6, _⟩ => ⟨S128x16384, .f32⟩
  | .local _ .smem, ⟨0, _⟩ => ⟨S4096, .i32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![32], ![false]⟩

abbrev pre1 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let v1 : BitVec 32 := Scalar.addi v0 c0_i32
  let v2 : Index := Scalar.indexCast v1
  ![v2.toNat]
def k1_off2 (v3 : BitVec 32) : Fin 2 → Nat :=
  let c0_i32_3 : BitVec 32 := 0#32
  ![v3.toNat, 0]

def k1_chk1 (v3 : BitVec 32) : Prop :=
  (∀ a, (k1_off2 v3) a + S1x16384.size a ≤ S4096x16384.size a)
instance k1_chk1.dec : ∀ (v3 : BitVec 32), Decidable (k1_chk1 v3) := fun v3 => decidable_of_iff' _ (Iff.of_eq (k1_chk1.eq_1 v3))
theorem k1_off2_inb : ∀ (v3 : BitVec 32) (k1_hw1 : k1_chk1 v3), ∀ a, (k1_off2 v3) a + S1x16384.size a ≤ S4096x16384.size a := fun v3 k1_hw1 => k1_hw1

def k1_off3 (i : grid1.Coords) : Fin 1 → Nat :=
  let arg0 : BitVec 32 := BitVec.ofNat 32 (i 0).val
  let c128_i32 : BitVec 32 := 128#32
  let v0 : BitVec 32 := Scalar.muli arg0 c128_i32
  let c1_i32 : BitVec 32 := 1#32
  let v10 : BitVec 32 := Scalar.addi v0 c1_i32
  let v11 : Index := Scalar.indexCast v10
  ![v11.toNat]
def k1_off4 (v12 : BitVec 32) : Fin 2 → Nat :=
  let c0_i32_7 : BitVec 32 := 0#32
  ![v12.toNat, 0]

def k1_chk2 (v12 : BitVec 32) : Prop :=
  (∀ a, (k1_off4 v12) a + S1x16384.size a ≤ S4096x16384.size a)
instance k1_chk2.dec : ∀ (v12 : BitVec 32), Decidable (k1_chk2 v12) := fun v12 => decidable_of_iff' _ (Iff.of_eq (k1_chk2.eq_1 v12))
theorem k1_off4_inb : ∀ (v12 : BitVec 32) (k1_hw2 : k1_chk2 v12), ∀ a, (k1_off4 v12) a + S1x16384.size a ≤ S4096x16384.size a := fun v12 k1_hw2 => k1_hw2

def k1_off5 (i : grid1.Coords) : Fin 1 → Nat :=
  let arg0 : BitVec 32 := BitVec.ofNat 32 (i 0).val
  let c128_i32 : BitVec 32 := 128#32
  let v0 : BitVec 32 := Scalar.muli arg0 c128_i32
  let c2_i32 : BitVec 32 := 2#32
  let v19 : BitVec 32 := Scalar.addi v0 c2_i32
  let v20 : Index := Scalar.indexCast v19
  ![v20.toNat]
def k1_off6 (v21 : BitVec 32) : Fin 2 → Nat :=
  let c0_i32_11 : BitVec 32 := 0#32
  ![v21.toNat, 0]

def k1_chk3 (v21 : BitVec 32) : Prop :=
  (∀ a, (k1_off6 v21) a + S1x16384.size a ≤ S4096x16384.size a)
instance k1_chk3.dec : ∀ (v21 : BitVec 32), Decidable (k1_chk3 v21) := fun v21 => decidable_of_iff' _ (Iff.of_eq (k1_chk3.eq_1 v21))
theorem k1_off6_inb : ∀ (v21 : BitVec 32) (k1_hw3 : k1_chk3 v21), ∀ a, (k1_off6 v21) a + S1x16384.size a ≤ S4096x16384.size a := fun v21 k1_hw3 => k1_hw3

def k1_off7 (i : grid1.Coords) : Fin 1 → Nat :=
  let arg0 : BitVec 32 := BitVec.ofNat 32 (i 0).val
  let c128_i32 : BitVec 32 := 128#32
  let v0 : BitVec 32 := Scalar.muli arg0 c128_i32
  let c3_i32 : BitVec 32 := 3#32
  let v28 : BitVec 32 := Scalar.addi v0 c3_i32
  let v29 : Index := Scalar.indexCast v28
  ![v29.toNat]
def k1_off8 (v30 : BitVec 32) : Fin 2 → Nat :=
  let c0_i32_15 : BitVec 32 := 0#32
  ![v30.toNat, 0]

def k1_chk4 (v30 : BitVec 32) : Prop :=
  (∀ a, (k1_off8 v30) a + S1x16384.size a ≤ S4096x16384.size a)
instance k1_chk4.dec : ∀ (v30 : BitVec 32), Decidable (k1_chk4 v30) := fun v30 => decidable_of_iff' _ (Iff.of_eq (k1_chk4.eq_1 v30))
theorem k1_off8_inb : ∀ (v30 : BitVec 32) (k1_hw4 : k1_chk4 v30), ∀ a, (k1_off8 v30) a + S1x16384.size a ≤ S4096x16384.size a := fun v30 k1_hw4 => k1_hw4

def k1_off9 (i : grid1.Coords) : Fin 1 → Nat :=
  let arg0 : BitVec 32 := BitVec.ofNat 32 (i 0).val
  let c128_i32 : BitVec 32 := 128#32
  let v0 : BitVec 32 := Scalar.muli arg0 c128_i32
  let c4_i32 : BitVec 32 := 4#32
  let v37 : BitVec 32 := Scalar.addi v0 c4_i32
  let v38 : Index := Scalar.indexCast v37
  ![v38.toNat]
def k1_off10 (v39 : BitVec 32) : Fin 2 → Nat :=
  let c0_i32_19 : BitVec 32 := 0#32
  ![v39.toNat, 0]

def k1_chk5 (v39 : BitVec 32) : Prop :=
  (∀ a, (k1_off10 v39) a + S1x16384.size a ≤ S4096x16384.size a)
instance k1_chk5.dec : ∀ (v39 : BitVec 32), Decidable (k1_chk5 v39) := fun v39 => decidable_of_iff' _ (Iff.of_eq (k1_chk5.eq_1 v39))
theorem k1_off10_inb : ∀ (v39 : BitVec 32) (k1_hw5 : k1_chk5 v39), ∀ a, (k1_off10 v39) a + S1x16384.size a ≤ S4096x16384.size a := fun v39 k1_hw5 => k1_hw5

def k1_off11 (i : grid1.Coords) : Fin 1 → Nat :=
  let arg0 : BitVec 32 := BitVec.ofNat 32 (i 0).val
  let c128_i32 : BitVec 32 := 128#32
  let v0 : BitVec 32 := Scalar.muli arg0 c128_i32
  let c5_i32 : BitVec 32 := 5#32
  let v46 : BitVec 32 := Scalar.addi v0 c5_i32
  let v47 : Index := Scalar.indexCast v46
  ![v47.toNat]
def k1_off12 (v48 : BitVec 32) : Fin 2 → Nat :=
  let c0_i32_23 : BitVec 32 := 0#32
  ![v48.toNat, 0]

def k1_chk6 (v48 : BitVec 32) : Prop :=
  (∀ a, (k1_off12 v48) a + S1x16384.size a ≤ S4096x16384.size a)
instance k1_chk6.dec : ∀ (v48 : BitVec 32), Decidable (k1_chk6 v48) := fun v48 => decidable_of_iff' _ (Iff.of_eq (k1_chk6.eq_1 v48))
theorem k1_off12_inb : ∀ (v48 : BitVec 32) (k1_hw6 : k1_chk6 v48), ∀ a, (k1_off12 v48) a + S1x16384.size a ≤ S4096x16384.size a := fun v48 k1_hw6 => k1_hw6

def k1_off13 (i : grid1.Coords) : Fin 1 → Nat :=
  let arg0 : BitVec 32 := BitVec.ofNat 32 (i 0).val
  let c128_i32 : BitVec 32 := 128#32
  let v0 : BitVec 32 := Scalar.muli arg0 c128_i32
  let c6_i32 : BitVec 32 := 6#32
  let v55 : BitVec 32 := Scalar.addi v0 c6_i32
  let v56 : Index := Scalar.indexCast v55
  ![v56.toNat]
def k1_off14 (v57 : BitVec 32) : Fin 2 → Nat :=
  let c0_i32_27 : BitVec 32 := 0#32
  ![v57.toNat, 0]

def k1_chk7 (v57 : BitVec 32) : Prop :=
  (∀ a, (k1_off14 v57) a + S1x16384.size a ≤ S4096x16384.size a)
instance k1_chk7.dec : ∀ (v57 : BitVec 32), Decidable (k1_chk7 v57) := fun v57 => decidable_of_iff' _ (Iff.of_eq (k1_chk7.eq_1 v57))
theorem k1_off14_inb : ∀ (v57 : BitVec 32) (k1_hw7 : k1_chk7 v57), ∀ a, (k1_off14 v57) a + S1x16384.size a ≤ S4096x16384.size a := fun v57 k1_hw7 => k1_hw7

def k1_off15 (i : grid1.Coords) : Fin 1 → Nat :=
  let arg0 : BitVec 32 := BitVec.ofNat 32 (i 0).val
  let c128_i32 : BitVec 32 := 128#32
  let v0 : BitVec 32 := Scalar.muli arg0 c128_i32
  let c7_i32 : BitVec 32 := 7#32
  let v64 : BitVec 32 := Scalar.addi v0 c7_i32
  let v65 : Index := Scalar.indexCast v64
  ![v65.toNat]
def k1_off16 (v66 : BitVec 32) : Fin 2 → Nat :=
  let c0_i32_31 : BitVec 32 := 0#32
  ![v66.toNat, 0]

def k1_chk8 (v66 : BitVec 32) : Prop :=
  (∀ a, (k1_off16 v66) a + S1x16384.size a ≤ S4096x16384.size a)
instance k1_chk8.dec : ∀ (v66 : BitVec 32), Decidable (k1_chk8 v66) := fun v66 => decidable_of_iff' _ (Iff.of_eq (k1_chk8.eq_1 v66))
theorem k1_off16_inb : ∀ (v66 : BitVec 32) (k1_hw8 : k1_chk8 v66), ∀ a, (k1_off16 v66) a + S1x16384.size a ≤ S4096x16384.size a := fun v66 k1_hw8 => k1_hw8

def k1_off17 (i : grid1.Coords) : Fin 1 → Nat :=
  let arg0 : BitVec 32 := BitVec.ofNat 32 (i 0).val
  let c128_i32 : BitVec 32 := 128#32
  let v0 : BitVec 32 := Scalar.muli arg0 c128_i32
  let c8_i32 : BitVec 32 := 8#32
  let v73 : BitVec 32 := Scalar.addi v0 c8_i32
  let v74 : Index := Scalar.indexCast v73
  ![v74.toNat]
def k1_off18 (v75 : BitVec 32) : Fin 2 → Nat :=
  let c0_i32_35 : BitVec 32 := 0#32
  ![v75.toNat, 0]

def k1_chk9 (v75 : BitVec 32) : Prop :=
  (∀ a, (k1_off18 v75) a + S1x16384.size a ≤ S4096x16384.size a)
instance k1_chk9.dec : ∀ (v75 : BitVec 32), Decidable (k1_chk9 v75) := fun v75 => decidable_of_iff' _ (Iff.of_eq (k1_chk9.eq_1 v75))
theorem k1_off18_inb : ∀ (v75 : BitVec 32) (k1_hw9 : k1_chk9 v75), ∀ a, (k1_off18 v75) a + S1x16384.size a ≤ S4096x16384.size a := fun v75 k1_hw9 => k1_hw9

def k1_off19 (i : grid1.Coords) : Fin 1 → Nat :=
  let arg0 : BitVec 32 := BitVec.ofNat 32 (i 0).val
  let c128_i32 : BitVec 32 := 128#32
  let v0 : BitVec 32 := Scalar.muli arg0 c128_i32
  let c9_i32 : BitVec 32 := 9#32
  let v82 : BitVec 32 := Scalar.addi v0 c9_i32
  let v83 : Index := Scalar.indexCast v82
  ![v83.toNat]
def k1_off20 (v84 : BitVec 32) : Fin 2 → Nat :=
  let c0_i32_39 : BitVec 32 := 0#32
  ![v84.toNat, 0]

def k1_chk10 (v84 : BitVec 32) : Prop :=
  (∀ a, (k1_off20 v84) a + S1x16384.size a ≤ S4096x16384.size a)
instance k1_chk10.dec : ∀ (v84 : BitVec 32), Decidable (k1_chk10 v84) := fun v84 => decidable_of_iff' _ (Iff.of_eq (k1_chk10.eq_1 v84))
theorem k1_off20_inb : ∀ (v84 : BitVec 32) (k1_hw10 : k1_chk10 v84), ∀ a, (k1_off20 v84) a + S1x16384.size a ≤ S4096x16384.size a := fun v84 k1_hw10 => k1_hw10

def k1_off21 (i : grid1.Coords) : Fin 1 → Nat :=
  let arg0 : BitVec 32 := BitVec.ofNat 32 (i 0).val
  let c128_i32 : BitVec 32 := 128#32
  let v0 : BitVec 32 := Scalar.muli arg0 c128_i32
  let c10_i32 : BitVec 32 := 10#32
  let v91 : BitVec 32 := Scalar.addi v0 c10_i32
  let v92 : Index := Scalar.indexCast v91
  ![v92.toNat]
def k1_off22 (v93 : BitVec 32) : Fin 2 → Nat :=
  let c0_i32_43 : BitVec 32 := 0#32
  ![v93.toNat, 0]

def k1_chk11 (v93 : BitVec 32) : Prop :=
  (∀ a, (k1_off22 v93) a + S1x16384.size a ≤ S4096x16384.size a)
instance k1_chk11.dec : ∀ (v93 : BitVec 32), Decidable (k1_chk11 v93) := fun v93 => decidable_of_iff' _ (Iff.of_eq (k1_chk11.eq_1 v93))
theorem k1_off22_inb : ∀ (v93 : BitVec 32) (k1_hw11 : k1_chk11 v93), ∀ a, (k1_off22 v93) a + S1x16384.size a ≤ S4096x16384.size a := fun v93 k1_hw11 => k1_hw11

def k1_off23 (i : grid1.Coords) : Fin 1 → Nat :=
  let arg0 : BitVec 32 := BitVec.ofNat 32 (i 0).val
  let c128_i32 : BitVec 32 := 128#32
  let v0 : BitVec 32 := Scalar.muli arg0 c128_i32
  let c11_i32 : BitVec 32 := 11#32
  let v100 : BitVec 32 := Scalar.addi v0 c11_i32
  let v101 : Index := Scalar.indexCast v100
  ![v101.toNat]
def k1_off24 (v102 : BitVec 32) : Fin 2 → Nat :=
  let c0_i32_47 : BitVec 32 := 0#32
  ![v102.toNat, 0]

def k1_chk12 (v102 : BitVec 32) : Prop :=
  (∀ a, (k1_off24 v102) a + S1x16384.size a ≤ S4096x16384.size a)
instance k1_chk12.dec : ∀ (v102 : BitVec 32), Decidable (k1_chk12 v102) := fun v102 => decidable_of_iff' _ (Iff.of_eq (k1_chk12.eq_1 v102))
theorem k1_off24_inb : ∀ (v102 : BitVec 32) (k1_hw12 : k1_chk12 v102), ∀ a, (k1_off24 v102) a + S1x16384.size a ≤ S4096x16384.size a := fun v102 k1_hw12 => k1_hw12

def k1_off25 (i : grid1.Coords) : Fin 1 → Nat :=
  let arg0 : BitVec 32 := BitVec.ofNat 32 (i 0).val
  let c128_i32 : BitVec 32 := 128#32
  let v0 : BitVec 32 := Scalar.muli arg0 c128_i32
  let c12_i32 : BitVec 32 := 12#32
  let v109 : BitVec 32 := Scalar.addi v0 c12_i32
  let v110 : Index := Scalar.indexCast v109
  ![v110.toNat]
def k1_off26 (v111 : BitVec 32) : Fin 2 → Nat :=
  let c0_i32_51 : BitVec 32 := 0#32
  ![v111.toNat, 0]

def k1_chk13 (v111 : BitVec 32) : Prop :=
  (∀ a, (k1_off26 v111) a + S1x16384.size a ≤ S4096x16384.size a)
instance k1_chk13.dec : ∀ (v111 : BitVec 32), Decidable (k1_chk13 v111) := fun v111 => decidable_of_iff' _ (Iff.of_eq (k1_chk13.eq_1 v111))
theorem k1_off26_inb : ∀ (v111 : BitVec 32) (k1_hw13 : k1_chk13 v111), ∀ a, (k1_off26 v111) a + S1x16384.size a ≤ S4096x16384.size a := fun v111 k1_hw13 => k1_hw13

def k1_off27 (i : grid1.Coords) : Fin 1 → Nat :=
  let arg0 : BitVec 32 := BitVec.ofNat 32 (i 0).val
  let c128_i32 : BitVec 32 := 128#32
  let v0 : BitVec 32 := Scalar.muli arg0 c128_i32
  let c13_i32 : BitVec 32 := 13#32
  let v118 : BitVec 32 := Scalar.addi v0 c13_i32
  let v119 : Index := Scalar.indexCast v118
  ![v119.toNat]
def k1_off28 (v120 : BitVec 32) : Fin 2 → Nat :=
  let c0_i32_55 : BitVec 32 := 0#32
  ![v120.toNat, 0]

def k1_chk14 (v120 : BitVec 32) : Prop :=
  (∀ a, (k1_off28 v120) a + S1x16384.size a ≤ S4096x16384.size a)
instance k1_chk14.dec : ∀ (v120 : BitVec 32), Decidable (k1_chk14 v120) := fun v120 => decidable_of_iff' _ (Iff.of_eq (k1_chk14.eq_1 v120))
theorem k1_off28_inb : ∀ (v120 : BitVec 32) (k1_hw14 : k1_chk14 v120), ∀ a, (k1_off28 v120) a + S1x16384.size a ≤ S4096x16384.size a := fun v120 k1_hw14 => k1_hw14

def k1_off29 (i : grid1.Coords) : Fin 1 → Nat :=
  let arg0 : BitVec 32 := BitVec.ofNat 32 (i 0).val
  let c128_i32 : BitVec 32 := 128#32
  let v0 : BitVec 32 := Scalar.muli arg0 c128_i32
  let c14_i32 : BitVec 32 := 14#32
  let v127 : BitVec 32 := Scalar.addi v0 c14_i32
  let v128 : Index := Scalar.indexCast v127
  ![v128.toNat]
def k1_off30 (v129 : BitVec 32) : Fin 2 → Nat :=
  let c0_i32_59 : BitVec 32 := 0#32
  ![v129.toNat, 0]

def k1_chk15 (v129 : BitVec 32) : Prop :=
  (∀ a, (k1_off30 v129) a + S1x16384.size a ≤ S4096x16384.size a)
instance k1_chk15.dec : ∀ (v129 : BitVec 32), Decidable (k1_chk15 v129) := fun v129 => decidable_of_iff' _ (Iff.of_eq (k1_chk15.eq_1 v129))
theorem k1_off30_inb : ∀ (v129 : BitVec 32) (k1_hw15 : k1_chk15 v129), ∀ a, (k1_off30 v129) a + S1x16384.size a ≤ S4096x16384.size a := fun v129 k1_hw15 => k1_hw15

def k1_off31 (i : grid1.Coords) : Fin 1 → Nat :=
  let arg0 : BitVec 32 := BitVec.ofNat 32 (i 0).val
  let c128_i32 : BitVec 32 := 128#32
  let v0 : BitVec 32 := Scalar.muli arg0 c128_i32
  let c15_i32 : BitVec 32 := 15#32
  let v136 : BitVec 32 := Scalar.addi v0 c15_i32
  let v137 : Index := Scalar.indexCast v136
  ![v137.toNat]
def k1_off32 (v138 : BitVec 32) : Fin 2 → Nat :=
  let c0_i32_63 : BitVec 32 := 0#32
  ![v138.toNat, 0]

def k1_chk16 (v138 : BitVec 32) : Prop :=
  (∀ a, (k1_off32 v138) a + S1x16384.size a ≤ S4096x16384.size a)
instance k1_chk16.dec : ∀ (v138 : BitVec 32), Decidable (k1_chk16 v138) := fun v138 => decidable_of_iff' _ (Iff.of_eq (k1_chk16.eq_1 v138))
theorem k1_off32_inb : ∀ (v138 : BitVec 32) (k1_hw16 : k1_chk16 v138), ∀ a, (k1_off32 v138) a + S1x16384.size a ≤ S4096x16384.size a := fun v138 k1_hw16 => k1_hw16

def k1_off33 (i : grid1.Coords) : Fin 1 → Nat :=
  let arg0 : BitVec 32 := BitVec.ofNat 32 (i 0).val
  let c128_i32 : BitVec 32 := 128#32
  let v0 : BitVec 32 := Scalar.muli arg0 c128_i32
  let c16_i32 : BitVec 32 := 16#32
  let v241 : BitVec 32 := Scalar.addi v0 c16_i32
  let v242 : Index := Scalar.indexCast v241
  ![v242.toNat]
def k1_off34 (v243 : BitVec 32) : Fin 2 → Nat :=
  let c0_i32_147 : BitVec 32 := 0#32
  ![v243.toNat, 0]

def k1_chk17 (v243 : BitVec 32) : Prop :=
  (∀ a, (k1_off34 v243) a + S1x16384.size a ≤ S4096x16384.size a)
instance k1_chk17.dec : ∀ (v243 : BitVec 32), Decidable (k1_chk17 v243) := fun v243 => decidable_of_iff' _ (Iff.of_eq (k1_chk17.eq_1 v243))
theorem k1_off34_inb : ∀ (v243 : BitVec 32) (k1_hw17 : k1_chk17 v243), ∀ a, (k1_off34 v243) a + S1x16384.size a ≤ S4096x16384.size a := fun v243 k1_hw17 => k1_hw17

def k1_off35 (i : grid1.Coords) : Fin 1 → Nat :=
  let arg0 : BitVec 32 := BitVec.ofNat 32 (i 0).val
  let c128_i32 : BitVec 32 := 128#32
  let v0 : BitVec 32 := Scalar.muli arg0 c128_i32
  let c17_i32 : BitVec 32 := 17#32
  let v250 : BitVec 32 := Scalar.addi v0 c17_i32
  let v251 : Index := Scalar.indexCast v250
  ![v251.toNat]
def k1_off36 (v252 : BitVec 32) : Fin 2 → Nat :=
  let c0_i32_151 : BitVec 32 := 0#32
  ![v252.toNat, 0]

def k1_chk18 (v252 : BitVec 32) : Prop :=
  (∀ a, (k1_off36 v252) a + S1x16384.size a ≤ S4096x16384.size a)
instance k1_chk18.dec : ∀ (v252 : BitVec 32), Decidable (k1_chk18 v252) := fun v252 => decidable_of_iff' _ (Iff.of_eq (k1_chk18.eq_1 v252))
theorem k1_off36_inb : ∀ (v252 : BitVec 32) (k1_hw18 : k1_chk18 v252), ∀ a, (k1_off36 v252) a + S1x16384.size a ≤ S4096x16384.size a := fun v252 k1_hw18 => k1_hw18

def k1_off37 (i : grid1.Coords) : Fin 1 → Nat :=
  let arg0 : BitVec 32 := BitVec.ofNat 32 (i 0).val
  let c128_i32 : BitVec 32 := 128#32
  let v0 : BitVec 32 := Scalar.muli arg0 c128_i32
  let c18_i32 : BitVec 32 := 18#32
  let v259 : BitVec 32 := Scalar.addi v0 c18_i32
  let v260 : Index := Scalar.indexCast v259
  ![v260.toNat]
def k1_off38 (v261 : BitVec 32) : Fin 2 → Nat :=
  let c0_i32_155 : BitVec 32 := 0#32
  ![v261.toNat, 0]

def k1_chk19 (v261 : BitVec 32) : Prop :=
  (∀ a, (k1_off38 v261) a + S1x16384.size a ≤ S4096x16384.size a)
instance k1_chk19.dec : ∀ (v261 : BitVec 32), Decidable (k1_chk19 v261) := fun v261 => decidable_of_iff' _ (Iff.of_eq (k1_chk19.eq_1 v261))
theorem k1_off38_inb : ∀ (v261 : BitVec 32) (k1_hw19 : k1_chk19 v261), ∀ a, (k1_off38 v261) a + S1x16384.size a ≤ S4096x16384.size a := fun v261 k1_hw19 => k1_hw19

def k1_off39 (i : grid1.Coords) : Fin 1 → Nat :=
  let arg0 : BitVec 32 := BitVec.ofNat 32 (i 0).val
  let c128_i32 : BitVec 32 := 128#32
  let v0 : BitVec 32 := Scalar.muli arg0 c128_i32
  let c19_i32 : BitVec 32 := 19#32
  let v268 : BitVec 32 := Scalar.addi v0 c19_i32
  let v269 : Index := Scalar.indexCast v268
  ![v269.toNat]
def k1_off40 (v270 : BitVec 32) : Fin 2 → Nat :=
  let c0_i32_159 : BitVec 32 := 0#32
  ![v270.toNat, 0]

def k1_chk20 (v270 : BitVec 32) : Prop :=
  (∀ a, (k1_off40 v270) a + S1x16384.size a ≤ S4096x16384.size a)
instance k1_chk20.dec : ∀ (v270 : BitVec 32), Decidable (k1_chk20 v270) := fun v270 => decidable_of_iff' _ (Iff.of_eq (k1_chk20.eq_1 v270))
theorem k1_off40_inb : ∀ (v270 : BitVec 32) (k1_hw20 : k1_chk20 v270), ∀ a, (k1_off40 v270) a + S1x16384.size a ≤ S4096x16384.size a := fun v270 k1_hw20 => k1_hw20

def k1_off41 (i : grid1.Coords) : Fin 1 → Nat :=
  let arg0 : BitVec 32 := BitVec.ofNat 32 (i 0).val
  let c128_i32 : BitVec 32 := 128#32
  let v0 : BitVec 32 := Scalar.muli arg0 c128_i32
  let c20_i32 : BitVec 32 := 20#32
  let v277 : BitVec 32 := Scalar.addi v0 c20_i32
  let v278 : Index := Scalar.indexCast v277
  ![v278.toNat]
def k1_off42 (v279 : BitVec 32) : Fin 2 → Nat :=
  let c0_i32_163 : BitVec 32 := 0#32
  ![v279.toNat, 0]

def k1_chk21 (v279 : BitVec 32) : Prop :=
  (∀ a, (k1_off42 v279) a + S1x16384.size a ≤ S4096x16384.size a)
instance k1_chk21.dec : ∀ (v279 : BitVec 32), Decidable (k1_chk21 v279) := fun v279 => decidable_of_iff' _ (Iff.of_eq (k1_chk21.eq_1 v279))
theorem k1_off42_inb : ∀ (v279 : BitVec 32) (k1_hw21 : k1_chk21 v279), ∀ a, (k1_off42 v279) a + S1x16384.size a ≤ S4096x16384.size a := fun v279 k1_hw21 => k1_hw21

def k1_off43 (i : grid1.Coords) : Fin 1 → Nat :=
  let arg0 : BitVec 32 := BitVec.ofNat 32 (i 0).val
  let c128_i32 : BitVec 32 := 128#32
  let v0 : BitVec 32 := Scalar.muli arg0 c128_i32
  let c21_i32 : BitVec 32 := 21#32
  let v286 : BitVec 32 := Scalar.addi v0 c21_i32
  let v287 : Index := Scalar.indexCast v286
  ![v287.toNat]
def k1_off44 (v288 : BitVec 32) : Fin 2 → Nat :=
  let c0_i32_167 : BitVec 32 := 0#32
  ![v288.toNat, 0]

def k1_chk22 (v288 : BitVec 32) : Prop :=
  (∀ a, (k1_off44 v288) a + S1x16384.size a ≤ S4096x16384.size a)
instance k1_chk22.dec : ∀ (v288 : BitVec 32), Decidable (k1_chk22 v288) := fun v288 => decidable_of_iff' _ (Iff.of_eq (k1_chk22.eq_1 v288))
theorem k1_off44_inb : ∀ (v288 : BitVec 32) (k1_hw22 : k1_chk22 v288), ∀ a, (k1_off44 v288) a + S1x16384.size a ≤ S4096x16384.size a := fun v288 k1_hw22 => k1_hw22

def k1_off45 (i : grid1.Coords) : Fin 1 → Nat :=
  let arg0 : BitVec 32 := BitVec.ofNat 32 (i 0).val
  let c128_i32 : BitVec 32 := 128#32
  let v0 : BitVec 32 := Scalar.muli arg0 c128_i32
  let c22_i32 : BitVec 32 := 22#32
  let v295 : BitVec 32 := Scalar.addi v0 c22_i32
  let v296 : Index := Scalar.indexCast v295
  ![v296.toNat]
def k1_off46 (v297 : BitVec 32) : Fin 2 → Nat :=
  let c0_i32_171 : BitVec 32 := 0#32
  ![v297.toNat, 0]

def k1_chk23 (v297 : BitVec 32) : Prop :=
  (∀ a, (k1_off46 v297) a + S1x16384.size a ≤ S4096x16384.size a)
instance k1_chk23.dec : ∀ (v297 : BitVec 32), Decidable (k1_chk23 v297) := fun v297 => decidable_of_iff' _ (Iff.of_eq (k1_chk23.eq_1 v297))
theorem k1_off46_inb : ∀ (v297 : BitVec 32) (k1_hw23 : k1_chk23 v297), ∀ a, (k1_off46 v297) a + S1x16384.size a ≤ S4096x16384.size a := fun v297 k1_hw23 => k1_hw23

def k1_off47 (i : grid1.Coords) : Fin 1 → Nat :=
  let arg0 : BitVec 32 := BitVec.ofNat 32 (i 0).val
  let c128_i32 : BitVec 32 := 128#32
  let v0 : BitVec 32 := Scalar.muli arg0 c128_i32
  let c23_i32 : BitVec 32 := 23#32
  let v304 : BitVec 32 := Scalar.addi v0 c23_i32
  let v305 : Index := Scalar.indexCast v304
  ![v305.toNat]
def k1_off48 (v306 : BitVec 32) : Fin 2 → Nat :=
  let c0_i32_175 : BitVec 32 := 0#32
  ![v306.toNat, 0]

def k1_chk24 (v306 : BitVec 32) : Prop :=
  (∀ a, (k1_off48 v306) a + S1x16384.size a ≤ S4096x16384.size a)
instance k1_chk24.dec : ∀ (v306 : BitVec 32), Decidable (k1_chk24 v306) := fun v306 => decidable_of_iff' _ (Iff.of_eq (k1_chk24.eq_1 v306))
theorem k1_off48_inb : ∀ (v306 : BitVec 32) (k1_hw24 : k1_chk24 v306), ∀ a, (k1_off48 v306) a + S1x16384.size a ≤ S4096x16384.size a := fun v306 k1_hw24 => k1_hw24

def k1_off49 (i : grid1.Coords) : Fin 1 → Nat :=
  let arg0 : BitVec 32 := BitVec.ofNat 32 (i 0).val
  let c128_i32 : BitVec 32 := 128#32
  let v0 : BitVec 32 := Scalar.muli arg0 c128_i32
  let c24_i32 : BitVec 32 := 24#32
  let v313 : BitVec 32 := Scalar.addi v0 c24_i32
  let v314 : Index := Scalar.indexCast v313
  ![v314.toNat]
def k1_off50 (v315 : BitVec 32) : Fin 2 → Nat :=
  let c0_i32_179 : BitVec 32 := 0#32
  ![v315.toNat, 0]

def k1_chk25 (v315 : BitVec 32) : Prop :=
  (∀ a, (k1_off50 v315) a + S1x16384.size a ≤ S4096x16384.size a)
instance k1_chk25.dec : ∀ (v315 : BitVec 32), Decidable (k1_chk25 v315) := fun v315 => decidable_of_iff' _ (Iff.of_eq (k1_chk25.eq_1 v315))
theorem k1_off50_inb : ∀ (v315 : BitVec 32) (k1_hw25 : k1_chk25 v315), ∀ a, (k1_off50 v315) a + S1x16384.size a ≤ S4096x16384.size a := fun v315 k1_hw25 => k1_hw25

def k1_off51 (i : grid1.Coords) : Fin 1 → Nat :=
  let arg0 : BitVec 32 := BitVec.ofNat 32 (i 0).val
  let c128_i32 : BitVec 32 := 128#32
  let v0 : BitVec 32 := Scalar.muli arg0 c128_i32
  let c25_i32 : BitVec 32 := 25#32
  let v322 : BitVec 32 := Scalar.addi v0 c25_i32
  let v323 : Index := Scalar.indexCast v322
  ![v323.toNat]
def k1_off52 (v324 : BitVec 32) : Fin 2 → Nat :=
  let c0_i32_183 : BitVec 32 := 0#32
  ![v324.toNat, 0]

def k1_chk26 (v324 : BitVec 32) : Prop :=
  (∀ a, (k1_off52 v324) a + S1x16384.size a ≤ S4096x16384.size a)
instance k1_chk26.dec : ∀ (v324 : BitVec 32), Decidable (k1_chk26 v324) := fun v324 => decidable_of_iff' _ (Iff.of_eq (k1_chk26.eq_1 v324))
theorem k1_off52_inb : ∀ (v324 : BitVec 32) (k1_hw26 : k1_chk26 v324), ∀ a, (k1_off52 v324) a + S1x16384.size a ≤ S4096x16384.size a := fun v324 k1_hw26 => k1_hw26

def k1_off53 (i : grid1.Coords) : Fin 1 → Nat :=
  let arg0 : BitVec 32 := BitVec.ofNat 32 (i 0).val
  let c128_i32 : BitVec 32 := 128#32
  let v0 : BitVec 32 := Scalar.muli arg0 c128_i32
  let c26_i32 : BitVec 32 := 26#32
  let v331 : BitVec 32 := Scalar.addi v0 c26_i32
  let v332 : Index := Scalar.indexCast v331
  ![v332.toNat]
def k1_off54 (v333 : BitVec 32) : Fin 2 → Nat :=
  let c0_i32_187 : BitVec 32 := 0#32
  ![v333.toNat, 0]

def k1_chk27 (v333 : BitVec 32) : Prop :=
  (∀ a, (k1_off54 v333) a + S1x16384.size a ≤ S4096x16384.size a)
instance k1_chk27.dec : ∀ (v333 : BitVec 32), Decidable (k1_chk27 v333) := fun v333 => decidable_of_iff' _ (Iff.of_eq (k1_chk27.eq_1 v333))
theorem k1_off54_inb : ∀ (v333 : BitVec 32) (k1_hw27 : k1_chk27 v333), ∀ a, (k1_off54 v333) a + S1x16384.size a ≤ S4096x16384.size a := fun v333 k1_hw27 => k1_hw27

def k1_off55 (i : grid1.Coords) : Fin 1 → Nat :=
  let arg0 : BitVec 32 := BitVec.ofNat 32 (i 0).val
  let c128_i32 : BitVec 32 := 128#32
  let v0 : BitVec 32 := Scalar.muli arg0 c128_i32
  let c27_i32 : BitVec 32 := 27#32
  let v340 : BitVec 32 := Scalar.addi v0 c27_i32
  let v341 : Index := Scalar.indexCast v340
  ![v341.toNat]
def k1_off56 (v342 : BitVec 32) : Fin 2 → Nat :=
  let c0_i32_191 : BitVec 32 := 0#32
  ![v342.toNat, 0]

def k1_chk28 (v342 : BitVec 32) : Prop :=
  (∀ a, (k1_off56 v342) a + S1x16384.size a ≤ S4096x16384.size a)
instance k1_chk28.dec : ∀ (v342 : BitVec 32), Decidable (k1_chk28 v342) := fun v342 => decidable_of_iff' _ (Iff.of_eq (k1_chk28.eq_1 v342))
theorem k1_off56_inb : ∀ (v342 : BitVec 32) (k1_hw28 : k1_chk28 v342), ∀ a, (k1_off56 v342) a + S1x16384.size a ≤ S4096x16384.size a := fun v342 k1_hw28 => k1_hw28

def k1_off57 (i : grid1.Coords) : Fin 1 → Nat :=
  let arg0 : BitVec 32 := BitVec.ofNat 32 (i 0).val
  let c128_i32 : BitVec 32 := 128#32
  let v0 : BitVec 32 := Scalar.muli arg0 c128_i32
  let c28_i32 : BitVec 32 := 28#32
  let v349 : BitVec 32 := Scalar.addi v0 c28_i32
  let v350 : Index := Scalar.indexCast v349
  ![v350.toNat]
def k1_off58 (v351 : BitVec 32) : Fin 2 → Nat :=
  let c0_i32_195 : BitVec 32 := 0#32
  ![v351.toNat, 0]

def k1_chk29 (v351 : BitVec 32) : Prop :=
  (∀ a, (k1_off58 v351) a + S1x16384.size a ≤ S4096x16384.size a)
instance k1_chk29.dec : ∀ (v351 : BitVec 32), Decidable (k1_chk29 v351) := fun v351 => decidable_of_iff' _ (Iff.of_eq (k1_chk29.eq_1 v351))
theorem k1_off58_inb : ∀ (v351 : BitVec 32) (k1_hw29 : k1_chk29 v351), ∀ a, (k1_off58 v351) a + S1x16384.size a ≤ S4096x16384.size a := fun v351 k1_hw29 => k1_hw29

def k1_off59 (i : grid1.Coords) : Fin 1 → Nat :=
  let arg0 : BitVec 32 := BitVec.ofNat 32 (i 0).val
  let c128_i32 : BitVec 32 := 128#32
  let v0 : BitVec 32 := Scalar.muli arg0 c128_i32
  let c29_i32 : BitVec 32 := 29#32
  let v358 : BitVec 32 := Scalar.addi v0 c29_i32
  let v359 : Index := Scalar.indexCast v358
  ![v359.toNat]
def k1_off60 (v360 : BitVec 32) : Fin 2 → Nat :=
  let c0_i32_199 : BitVec 32 := 0#32
  ![v360.toNat, 0]

def k1_chk30 (v360 : BitVec 32) : Prop :=
  (∀ a, (k1_off60 v360) a + S1x16384.size a ≤ S4096x16384.size a)
instance k1_chk30.dec : ∀ (v360 : BitVec 32), Decidable (k1_chk30 v360) := fun v360 => decidable_of_iff' _ (Iff.of_eq (k1_chk30.eq_1 v360))
theorem k1_off60_inb : ∀ (v360 : BitVec 32) (k1_hw30 : k1_chk30 v360), ∀ a, (k1_off60 v360) a + S1x16384.size a ≤ S4096x16384.size a := fun v360 k1_hw30 => k1_hw30

def k1_off61 (i : grid1.Coords) : Fin 1 → Nat :=
  let arg0 : BitVec 32 := BitVec.ofNat 32 (i 0).val
  let c128_i32 : BitVec 32 := 128#32
  let v0 : BitVec 32 := Scalar.muli arg0 c128_i32
  let c30_i32 : BitVec 32 := 30#32
  let v367 : BitVec 32 := Scalar.addi v0 c30_i32
  let v368 : Index := Scalar.indexCast v367
  ![v368.toNat]
def k1_off62 (v369 : BitVec 32) : Fin 2 → Nat :=
  let c0_i32_203 : BitVec 32 := 0#32
  ![v369.toNat, 0]

def k1_chk31 (v369 : BitVec 32) : Prop :=
  (∀ a, (k1_off62 v369) a + S1x16384.size a ≤ S4096x16384.size a)
instance k1_chk31.dec : ∀ (v369 : BitVec 32), Decidable (k1_chk31 v369) := fun v369 => decidable_of_iff' _ (Iff.of_eq (k1_chk31.eq_1 v369))
theorem k1_off62_inb : ∀ (v369 : BitVec 32) (k1_hw31 : k1_chk31 v369), ∀ a, (k1_off62 v369) a + S1x16384.size a ≤ S4096x16384.size a := fun v369 k1_hw31 => k1_hw31

def k1_off63 (i : grid1.Coords) : Fin 1 → Nat :=
  let arg0 : BitVec 32 := BitVec.ofNat 32 (i 0).val
  let c128_i32 : BitVec 32 := 128#32
  let v0 : BitVec 32 := Scalar.muli arg0 c128_i32
  let c31_i32 : BitVec 32 := 31#32
  let v376 : BitVec 32 := Scalar.addi v0 c31_i32
  let v377 : Index := Scalar.indexCast v376
  ![v377.toNat]
def k1_off64 (v378 : BitVec 32) : Fin 2 → Nat :=
  let c0_i32_207 : BitVec 32 := 0#32
  ![v378.toNat, 0]

def k1_chk32 (v378 : BitVec 32) : Prop :=
  (∀ a, (k1_off64 v378) a + S1x16384.size a ≤ S4096x16384.size a)
instance k1_chk32.dec : ∀ (v378 : BitVec 32), Decidable (k1_chk32 v378) := fun v378 => decidable_of_iff' _ (Iff.of_eq (k1_chk32.eq_1 v378))
theorem k1_off64_inb : ∀ (v378 : BitVec 32) (k1_hw32 : k1_chk32 v378), ∀ a, (k1_off64 v378) a + S1x16384.size a ≤ S4096x16384.size a := fun v378 k1_hw32 => k1_hw32

def k1_off65 (i : grid1.Coords) : Fin 1 → Nat :=
  let arg0 : BitVec 32 := BitVec.ofNat 32 (i 0).val
  let c128_i32 : BitVec 32 := 128#32
  let v0 : BitVec 32 := Scalar.muli arg0 c128_i32
  let c32_i32 : BitVec 32 := 32#32
  let v481 : BitVec 32 := Scalar.addi v0 c32_i32
  let v482 : Index := Scalar.indexCast v481
  ![v482.toNat]
def k1_off66 (v483 : BitVec 32) : Fin 2 → Nat :=
  let c0_i32_291 : BitVec 32 := 0#32
  ![v483.toNat, 0]

def k1_chk33 (v483 : BitVec 32) : Prop :=
  (∀ a, (k1_off66 v483) a + S1x16384.size a ≤ S4096x16384.size a)
instance k1_chk33.dec : ∀ (v483 : BitVec 32), Decidable (k1_chk33 v483) := fun v483 => decidable_of_iff' _ (Iff.of_eq (k1_chk33.eq_1 v483))
theorem k1_off66_inb : ∀ (v483 : BitVec 32) (k1_hw33 : k1_chk33 v483), ∀ a, (k1_off66 v483) a + S1x16384.size a ≤ S4096x16384.size a := fun v483 k1_hw33 => k1_hw33

def k1_off67 (i : grid1.Coords) : Fin 1 → Nat :=
  let arg0 : BitVec 32 := BitVec.ofNat 32 (i 0).val
  let c128_i32 : BitVec 32 := 128#32
  let v0 : BitVec 32 := Scalar.muli arg0 c128_i32
  let c33_i32 : BitVec 32 := 33#32
  let v490 : BitVec 32 := Scalar.addi v0 c33_i32
  let v491 : Index := Scalar.indexCast v490
  ![v491.toNat]
def k1_off68 (v492 : BitVec 32) : Fin 2 → Nat :=
  let c0_i32_295 : BitVec 32 := 0#32
  ![v492.toNat, 0]

def k1_chk34 (v492 : BitVec 32) : Prop :=
  (∀ a, (k1_off68 v492) a + S1x16384.size a ≤ S4096x16384.size a)
instance k1_chk34.dec : ∀ (v492 : BitVec 32), Decidable (k1_chk34 v492) := fun v492 => decidable_of_iff' _ (Iff.of_eq (k1_chk34.eq_1 v492))
theorem k1_off68_inb : ∀ (v492 : BitVec 32) (k1_hw34 : k1_chk34 v492), ∀ a, (k1_off68 v492) a + S1x16384.size a ≤ S4096x16384.size a := fun v492 k1_hw34 => k1_hw34

def k1_off69 (i : grid1.Coords) : Fin 1 → Nat :=
  let arg0 : BitVec 32 := BitVec.ofNat 32 (i 0).val
  let c128_i32 : BitVec 32 := 128#32
  let v0 : BitVec 32 := Scalar.muli arg0 c128_i32
  let c34_i32 : BitVec 32 := 34#32
  let v499 : BitVec 32 := Scalar.addi v0 c34_i32
  let v500 : Index := Scalar.indexCast v499
  ![v500.toNat]
def k1_off70 (v501 : BitVec 32) : Fin 2 → Nat :=
  let c0_i32_299 : BitVec 32 := 0#32
  ![v501.toNat, 0]

def k1_chk35 (v501 : BitVec 32) : Prop :=
  (∀ a, (k1_off70 v501) a + S1x16384.size a ≤ S4096x16384.size a)
instance k1_chk35.dec : ∀ (v501 : BitVec 32), Decidable (k1_chk35 v501) := fun v501 => decidable_of_iff' _ (Iff.of_eq (k1_chk35.eq_1 v501))
theorem k1_off70_inb : ∀ (v501 : BitVec 32) (k1_hw35 : k1_chk35 v501), ∀ a, (k1_off70 v501) a + S1x16384.size a ≤ S4096x16384.size a := fun v501 k1_hw35 => k1_hw35

def k1_off71 (i : grid1.Coords) : Fin 1 → Nat :=
  let arg0 : BitVec 32 := BitVec.ofNat 32 (i 0).val
  let c128_i32 : BitVec 32 := 128#32
  let v0 : BitVec 32 := Scalar.muli arg0 c128_i32
  let c35_i32 : BitVec 32 := 35#32
  let v508 : BitVec 32 := Scalar.addi v0 c35_i32
  let v509 : Index := Scalar.indexCast v508
  ![v509.toNat]
def k1_off72 (v510 : BitVec 32) : Fin 2 → Nat :=
  let c0_i32_303 : BitVec 32 := 0#32
  ![v510.toNat, 0]

def k1_chk36 (v510 : BitVec 32) : Prop :=
  (∀ a, (k1_off72 v510) a + S1x16384.size a ≤ S4096x16384.size a)
instance k1_chk36.dec : ∀ (v510 : BitVec 32), Decidable (k1_chk36 v510) := fun v510 => decidable_of_iff' _ (Iff.of_eq (k1_chk36.eq_1 v510))
theorem k1_off72_inb : ∀ (v510 : BitVec 32) (k1_hw36 : k1_chk36 v510), ∀ a, (k1_off72 v510) a + S1x16384.size a ≤ S4096x16384.size a := fun v510 k1_hw36 => k1_hw36

def k1_off73 (i : grid1.Coords) : Fin 1 → Nat :=
  let arg0 : BitVec 32 := BitVec.ofNat 32 (i 0).val
  let c128_i32 : BitVec 32 := 128#32
  let v0 : BitVec 32 := Scalar.muli arg0 c128_i32
  let c36_i32 : BitVec 32 := 36#32
  let v517 : BitVec 32 := Scalar.addi v0 c36_i32
  let v518 : Index := Scalar.indexCast v517
  ![v518.toNat]
def k1_off74 (v519 : BitVec 32) : Fin 2 → Nat :=
  let c0_i32_307 : BitVec 32 := 0#32
  ![v519.toNat, 0]

def k1_chk37 (v519 : BitVec 32) : Prop :=
  (∀ a, (k1_off74 v519) a + S1x16384.size a ≤ S4096x16384.size a)
instance k1_chk37.dec : ∀ (v519 : BitVec 32), Decidable (k1_chk37 v519) := fun v519 => decidable_of_iff' _ (Iff.of_eq (k1_chk37.eq_1 v519))
theorem k1_off74_inb : ∀ (v519 : BitVec 32) (k1_hw37 : k1_chk37 v519), ∀ a, (k1_off74 v519) a + S1x16384.size a ≤ S4096x16384.size a := fun v519 k1_hw37 => k1_hw37

def k1_off75 (i : grid1.Coords) : Fin 1 → Nat :=
  let arg0 : BitVec 32 := BitVec.ofNat 32 (i 0).val
  let c128_i32 : BitVec 32 := 128#32
  let v0 : BitVec 32 := Scalar.muli arg0 c128_i32
  let c37_i32 : BitVec 32 := 37#32
  let v526 : BitVec 32 := Scalar.addi v0 c37_i32
  let v527 : Index := Scalar.indexCast v526
  ![v527.toNat]
def k1_off76 (v528 : BitVec 32) : Fin 2 → Nat :=
  let c0_i32_311 : BitVec 32 := 0#32
  ![v528.toNat, 0]

def k1_chk38 (v528 : BitVec 32) : Prop :=
  (∀ a, (k1_off76 v528) a + S1x16384.size a ≤ S4096x16384.size a)
instance k1_chk38.dec : ∀ (v528 : BitVec 32), Decidable (k1_chk38 v528) := fun v528 => decidable_of_iff' _ (Iff.of_eq (k1_chk38.eq_1 v528))
theorem k1_off76_inb : ∀ (v528 : BitVec 32) (k1_hw38 : k1_chk38 v528), ∀ a, (k1_off76 v528) a + S1x16384.size a ≤ S4096x16384.size a := fun v528 k1_hw38 => k1_hw38

def k1_off77 (i : grid1.Coords) : Fin 1 → Nat :=
  let arg0 : BitVec 32 := BitVec.ofNat 32 (i 0).val
  let c128_i32 : BitVec 32 := 128#32
  let v0 : BitVec 32 := Scalar.muli arg0 c128_i32
  let c38_i32 : BitVec 32 := 38#32
  let v535 : BitVec 32 := Scalar.addi v0 c38_i32
  let v536 : Index := Scalar.indexCast v535
  ![v536.toNat]
def k1_off78 (v537 : BitVec 32) : Fin 2 → Nat :=
  let c0_i32_315 : BitVec 32 := 0#32
  ![v537.toNat, 0]

def k1_chk39 (v537 : BitVec 32) : Prop :=
  (∀ a, (k1_off78 v537) a + S1x16384.size a ≤ S4096x16384.size a)
instance k1_chk39.dec : ∀ (v537 : BitVec 32), Decidable (k1_chk39 v537) := fun v537 => decidable_of_iff' _ (Iff.of_eq (k1_chk39.eq_1 v537))
theorem k1_off78_inb : ∀ (v537 : BitVec 32) (k1_hw39 : k1_chk39 v537), ∀ a, (k1_off78 v537) a + S1x16384.size a ≤ S4096x16384.size a := fun v537 k1_hw39 => k1_hw39

def k1_off79 (i : grid1.Coords) : Fin 1 → Nat :=
  let arg0 : BitVec 32 := BitVec.ofNat 32 (i 0).val
  let c128_i32 : BitVec 32 := 128#32
  let v0 : BitVec 32 := Scalar.muli arg0 c128_i32
  let c39_i32 : BitVec 32 := 39#32
  let v544 : BitVec 32 := Scalar.addi v0 c39_i32
  let v545 : Index := Scalar.indexCast v544
  ![v545.toNat]
def k1_off80 (v546 : BitVec 32) : Fin 2 → Nat :=
  let c0_i32_319 : BitVec 32 := 0#32
  ![v546.toNat, 0]

def k1_chk40 (v546 : BitVec 32) : Prop :=
  (∀ a, (k1_off80 v546) a + S1x16384.size a ≤ S4096x16384.size a)
instance k1_chk40.dec : ∀ (v546 : BitVec 32), Decidable (k1_chk40 v546) := fun v546 => decidable_of_iff' _ (Iff.of_eq (k1_chk40.eq_1 v546))
theorem k1_off80_inb : ∀ (v546 : BitVec 32) (k1_hw40 : k1_chk40 v546), ∀ a, (k1_off80 v546) a + S1x16384.size a ≤ S4096x16384.size a := fun v546 k1_hw40 => k1_hw40

def k1_off81 (i : grid1.Coords) : Fin 1 → Nat :=
  let arg0 : BitVec 32 := BitVec.ofNat 32 (i 0).val
  let c128_i32 : BitVec 32 := 128#32
  let v0 : BitVec 32 := Scalar.muli arg0 c128_i32
  let c40_i32 : BitVec 32 := 40#32
  let v553 : BitVec 32 := Scalar.addi v0 c40_i32
  let v554 : Index := Scalar.indexCast v553
  ![v554.toNat]
def k1_off82 (v555 : BitVec 32) : Fin 2 → Nat :=
  let c0_i32_323 : BitVec 32 := 0#32
  ![v555.toNat, 0]

def k1_chk41 (v555 : BitVec 32) : Prop :=
  (∀ a, (k1_off82 v555) a + S1x16384.size a ≤ S4096x16384.size a)
instance k1_chk41.dec : ∀ (v555 : BitVec 32), Decidable (k1_chk41 v555) := fun v555 => decidable_of_iff' _ (Iff.of_eq (k1_chk41.eq_1 v555))
theorem k1_off82_inb : ∀ (v555 : BitVec 32) (k1_hw41 : k1_chk41 v555), ∀ a, (k1_off82 v555) a + S1x16384.size a ≤ S4096x16384.size a := fun v555 k1_hw41 => k1_hw41

def k1_off83 (i : grid1.Coords) : Fin 1 → Nat :=
  let arg0 : BitVec 32 := BitVec.ofNat 32 (i 0).val
  let c128_i32 : BitVec 32 := 128#32
  let v0 : BitVec 32 := Scalar.muli arg0 c128_i32
  let c41_i32 : BitVec 32 := 41#32
  let v562 : BitVec 32 := Scalar.addi v0 c41_i32
  let v563 : Index := Scalar.indexCast v562
  ![v563.toNat]
def k1_off84 (v564 : BitVec 32) : Fin 2 → Nat :=
  let c0_i32_327 : BitVec 32 := 0#32
  ![v564.toNat, 0]

def k1_chk42 (v564 : BitVec 32) : Prop :=
  (∀ a, (k1_off84 v564) a + S1x16384.size a ≤ S4096x16384.size a)
instance k1_chk42.dec : ∀ (v564 : BitVec 32), Decidable (k1_chk42 v564) := fun v564 => decidable_of_iff' _ (Iff.of_eq (k1_chk42.eq_1 v564))
theorem k1_off84_inb : ∀ (v564 : BitVec 32) (k1_hw42 : k1_chk42 v564), ∀ a, (k1_off84 v564) a + S1x16384.size a ≤ S4096x16384.size a := fun v564 k1_hw42 => k1_hw42

def k1_off85 (i : grid1.Coords) : Fin 1 → Nat :=
  let arg0 : BitVec 32 := BitVec.ofNat 32 (i 0).val
  let c128_i32 : BitVec 32 := 128#32
  let v0 : BitVec 32 := Scalar.muli arg0 c128_i32
  let c42_i32 : BitVec 32 := 42#32
  let v571 : BitVec 32 := Scalar.addi v0 c42_i32
  let v572 : Index := Scalar.indexCast v571
  ![v572.toNat]
def k1_off86 (v573 : BitVec 32) : Fin 2 → Nat :=
  let c0_i32_331 : BitVec 32 := 0#32
  ![v573.toNat, 0]

def k1_chk43 (v573 : BitVec 32) : Prop :=
  (∀ a, (k1_off86 v573) a + S1x16384.size a ≤ S4096x16384.size a)
instance k1_chk43.dec : ∀ (v573 : BitVec 32), Decidable (k1_chk43 v573) := fun v573 => decidable_of_iff' _ (Iff.of_eq (k1_chk43.eq_1 v573))
theorem k1_off86_inb : ∀ (v573 : BitVec 32) (k1_hw43 : k1_chk43 v573), ∀ a, (k1_off86 v573) a + S1x16384.size a ≤ S4096x16384.size a := fun v573 k1_hw43 => k1_hw43

def k1_off87 (i : grid1.Coords) : Fin 1 → Nat :=
  let arg0 : BitVec 32 := BitVec.ofNat 32 (i 0).val
  let c128_i32 : BitVec 32 := 128#32
  let v0 : BitVec 32 := Scalar.muli arg0 c128_i32
  let c43_i32 : BitVec 32 := 43#32
  let v580 : BitVec 32 := Scalar.addi v0 c43_i32
  let v581 : Index := Scalar.indexCast v580
  ![v581.toNat]
def k1_off88 (v582 : BitVec 32) : Fin 2 → Nat :=
  let c0_i32_335 : BitVec 32 := 0#32
  ![v582.toNat, 0]

def k1_chk44 (v582 : BitVec 32) : Prop :=
  (∀ a, (k1_off88 v582) a + S1x16384.size a ≤ S4096x16384.size a)
instance k1_chk44.dec : ∀ (v582 : BitVec 32), Decidable (k1_chk44 v582) := fun v582 => decidable_of_iff' _ (Iff.of_eq (k1_chk44.eq_1 v582))
theorem k1_off88_inb : ∀ (v582 : BitVec 32) (k1_hw44 : k1_chk44 v582), ∀ a, (k1_off88 v582) a + S1x16384.size a ≤ S4096x16384.size a := fun v582 k1_hw44 => k1_hw44

def k1_off89 (i : grid1.Coords) : Fin 1 → Nat :=
  let arg0 : BitVec 32 := BitVec.ofNat 32 (i 0).val
  let c128_i32 : BitVec 32 := 128#32
  let v0 : BitVec 32 := Scalar.muli arg0 c128_i32
  let c44_i32 : BitVec 32 := 44#32
  let v589 : BitVec 32 := Scalar.addi v0 c44_i32
  let v590 : Index := Scalar.indexCast v589
  ![v590.toNat]
def k1_off90 (v591 : BitVec 32) : Fin 2 → Nat :=
  let c0_i32_339 : BitVec 32 := 0#32
  ![v591.toNat, 0]

def k1_chk45 (v591 : BitVec 32) : Prop :=
  (∀ a, (k1_off90 v591) a + S1x16384.size a ≤ S4096x16384.size a)
instance k1_chk45.dec : ∀ (v591 : BitVec 32), Decidable (k1_chk45 v591) := fun v591 => decidable_of_iff' _ (Iff.of_eq (k1_chk45.eq_1 v591))
theorem k1_off90_inb : ∀ (v591 : BitVec 32) (k1_hw45 : k1_chk45 v591), ∀ a, (k1_off90 v591) a + S1x16384.size a ≤ S4096x16384.size a := fun v591 k1_hw45 => k1_hw45

def k1_off91 (i : grid1.Coords) : Fin 1 → Nat :=
  let arg0 : BitVec 32 := BitVec.ofNat 32 (i 0).val
  let c128_i32 : BitVec 32 := 128#32
  let v0 : BitVec 32 := Scalar.muli arg0 c128_i32
  let c45_i32 : BitVec 32 := 45#32
  let v598 : BitVec 32 := Scalar.addi v0 c45_i32
  let v599 : Index := Scalar.indexCast v598
  ![v599.toNat]
def k1_off92 (v600 : BitVec 32) : Fin 2 → Nat :=
  let c0_i32_343 : BitVec 32 := 0#32
  ![v600.toNat, 0]

def k1_chk46 (v600 : BitVec 32) : Prop :=
  (∀ a, (k1_off92 v600) a + S1x16384.size a ≤ S4096x16384.size a)
instance k1_chk46.dec : ∀ (v600 : BitVec 32), Decidable (k1_chk46 v600) := fun v600 => decidable_of_iff' _ (Iff.of_eq (k1_chk46.eq_1 v600))
theorem k1_off92_inb : ∀ (v600 : BitVec 32) (k1_hw46 : k1_chk46 v600), ∀ a, (k1_off92 v600) a + S1x16384.size a ≤ S4096x16384.size a := fun v600 k1_hw46 => k1_hw46

def k1_off93 (i : grid1.Coords) : Fin 1 → Nat :=
  let arg0 : BitVec 32 := BitVec.ofNat 32 (i 0).val
  let c128_i32 : BitVec 32 := 128#32
  let v0 : BitVec 32 := Scalar.muli arg0 c128_i32
  let c46_i32 : BitVec 32 := 46#32
  let v607 : BitVec 32 := Scalar.addi v0 c46_i32
  let v608 : Index := Scalar.indexCast v607
  ![v608.toNat]
def k1_off94 (v609 : BitVec 32) : Fin 2 → Nat :=
  let c0_i32_347 : BitVec 32 := 0#32
  ![v609.toNat, 0]

def k1_chk47 (v609 : BitVec 32) : Prop :=
  (∀ a, (k1_off94 v609) a + S1x16384.size a ≤ S4096x16384.size a)
instance k1_chk47.dec : ∀ (v609 : BitVec 32), Decidable (k1_chk47 v609) := fun v609 => decidable_of_iff' _ (Iff.of_eq (k1_chk47.eq_1 v609))
theorem k1_off94_inb : ∀ (v609 : BitVec 32) (k1_hw47 : k1_chk47 v609), ∀ a, (k1_off94 v609) a + S1x16384.size a ≤ S4096x16384.size a := fun v609 k1_hw47 => k1_hw47

def k1_off95 (i : grid1.Coords) : Fin 1 → Nat :=
  let arg0 : BitVec 32 := BitVec.ofNat 32 (i 0).val
  let c128_i32 : BitVec 32 := 128#32
  let v0 : BitVec 32 := Scalar.muli arg0 c128_i32
  let c47_i32 : BitVec 32 := 47#32
  let v616 : BitVec 32 := Scalar.addi v0 c47_i32
  let v617 : Index := Scalar.indexCast v616
  ![v617.toNat]
def k1_off96 (v618 : BitVec 32) : Fin 2 → Nat :=
  let c0_i32_351 : BitVec 32 := 0#32
  ![v618.toNat, 0]

def k1_chk48 (v618 : BitVec 32) : Prop :=
  (∀ a, (k1_off96 v618) a + S1x16384.size a ≤ S4096x16384.size a)
instance k1_chk48.dec : ∀ (v618 : BitVec 32), Decidable (k1_chk48 v618) := fun v618 => decidable_of_iff' _ (Iff.of_eq (k1_chk48.eq_1 v618))
theorem k1_off96_inb : ∀ (v618 : BitVec 32) (k1_hw48 : k1_chk48 v618), ∀ a, (k1_off96 v618) a + S1x16384.size a ≤ S4096x16384.size a := fun v618 k1_hw48 => k1_hw48

def k1_off97 (i : grid1.Coords) : Fin 1 → Nat :=
  let arg0 : BitVec 32 := BitVec.ofNat 32 (i 0).val
  let c128_i32 : BitVec 32 := 128#32
  let v0 : BitVec 32 := Scalar.muli arg0 c128_i32
  let c48_i32 : BitVec 32 := 48#32
  let v721 : BitVec 32 := Scalar.addi v0 c48_i32
  let v722 : Index := Scalar.indexCast v721
  ![v722.toNat]
def k1_off98 (v723 : BitVec 32) : Fin 2 → Nat :=
  let c0_i32_435 : BitVec 32 := 0#32
  ![v723.toNat, 0]

def k1_chk49 (v723 : BitVec 32) : Prop :=
  (∀ a, (k1_off98 v723) a + S1x16384.size a ≤ S4096x16384.size a)
instance k1_chk49.dec : ∀ (v723 : BitVec 32), Decidable (k1_chk49 v723) := fun v723 => decidable_of_iff' _ (Iff.of_eq (k1_chk49.eq_1 v723))
theorem k1_off98_inb : ∀ (v723 : BitVec 32) (k1_hw49 : k1_chk49 v723), ∀ a, (k1_off98 v723) a + S1x16384.size a ≤ S4096x16384.size a := fun v723 k1_hw49 => k1_hw49

def k1_off99 (i : grid1.Coords) : Fin 1 → Nat :=
  let arg0 : BitVec 32 := BitVec.ofNat 32 (i 0).val
  let c128_i32 : BitVec 32 := 128#32
  let v0 : BitVec 32 := Scalar.muli arg0 c128_i32
  let c49_i32 : BitVec 32 := 49#32
  let v730 : BitVec 32 := Scalar.addi v0 c49_i32
  let v731 : Index := Scalar.indexCast v730
  ![v731.toNat]
def k1_off100 (v732 : BitVec 32) : Fin 2 → Nat :=
  let c0_i32_439 : BitVec 32 := 0#32
  ![v732.toNat, 0]

def k1_chk50 (v732 : BitVec 32) : Prop :=
  (∀ a, (k1_off100 v732) a + S1x16384.size a ≤ S4096x16384.size a)
instance k1_chk50.dec : ∀ (v732 : BitVec 32), Decidable (k1_chk50 v732) := fun v732 => decidable_of_iff' _ (Iff.of_eq (k1_chk50.eq_1 v732))
theorem k1_off100_inb : ∀ (v732 : BitVec 32) (k1_hw50 : k1_chk50 v732), ∀ a, (k1_off100 v732) a + S1x16384.size a ≤ S4096x16384.size a := fun v732 k1_hw50 => k1_hw50

def k1_off101 (i : grid1.Coords) : Fin 1 → Nat :=
  let arg0 : BitVec 32 := BitVec.ofNat 32 (i 0).val
  let c128_i32 : BitVec 32 := 128#32
  let v0 : BitVec 32 := Scalar.muli arg0 c128_i32
  let c50_i32 : BitVec 32 := 50#32
  let v739 : BitVec 32 := Scalar.addi v0 c50_i32
  let v740 : Index := Scalar.indexCast v739
  ![v740.toNat]
def k1_off102 (v741 : BitVec 32) : Fin 2 → Nat :=
  let c0_i32_443 : BitVec 32 := 0#32
  ![v741.toNat, 0]

def k1_chk51 (v741 : BitVec 32) : Prop :=
  (∀ a, (k1_off102 v741) a + S1x16384.size a ≤ S4096x16384.size a)
instance k1_chk51.dec : ∀ (v741 : BitVec 32), Decidable (k1_chk51 v741) := fun v741 => decidable_of_iff' _ (Iff.of_eq (k1_chk51.eq_1 v741))
theorem k1_off102_inb : ∀ (v741 : BitVec 32) (k1_hw51 : k1_chk51 v741), ∀ a, (k1_off102 v741) a + S1x16384.size a ≤ S4096x16384.size a := fun v741 k1_hw51 => k1_hw51

def k1_off103 (i : grid1.Coords) : Fin 1 → Nat :=
  let arg0 : BitVec 32 := BitVec.ofNat 32 (i 0).val
  let c128_i32 : BitVec 32 := 128#32
  let v0 : BitVec 32 := Scalar.muli arg0 c128_i32
  let c51_i32 : BitVec 32 := 51#32
  let v748 : BitVec 32 := Scalar.addi v0 c51_i32
  let v749 : Index := Scalar.indexCast v748
  ![v749.toNat]
def k1_off104 (v750 : BitVec 32) : Fin 2 → Nat :=
  let c0_i32_447 : BitVec 32 := 0#32
  ![v750.toNat, 0]

def k1_chk52 (v750 : BitVec 32) : Prop :=
  (∀ a, (k1_off104 v750) a + S1x16384.size a ≤ S4096x16384.size a)
instance k1_chk52.dec : ∀ (v750 : BitVec 32), Decidable (k1_chk52 v750) := fun v750 => decidable_of_iff' _ (Iff.of_eq (k1_chk52.eq_1 v750))
theorem k1_off104_inb : ∀ (v750 : BitVec 32) (k1_hw52 : k1_chk52 v750), ∀ a, (k1_off104 v750) a + S1x16384.size a ≤ S4096x16384.size a := fun v750 k1_hw52 => k1_hw52

def k1_off105 (i : grid1.Coords) : Fin 1 → Nat :=
  let arg0 : BitVec 32 := BitVec.ofNat 32 (i 0).val
  let c128_i32 : BitVec 32 := 128#32
  let v0 : BitVec 32 := Scalar.muli arg0 c128_i32
  let c52_i32 : BitVec 32 := 52#32
  let v757 : BitVec 32 := Scalar.addi v0 c52_i32
  let v758 : Index := Scalar.indexCast v757
  ![v758.toNat]
def k1_off106 (v759 : BitVec 32) : Fin 2 → Nat :=
  let c0_i32_451 : BitVec 32 := 0#32
  ![v759.toNat, 0]

def k1_chk53 (v759 : BitVec 32) : Prop :=
  (∀ a, (k1_off106 v759) a + S1x16384.size a ≤ S4096x16384.size a)
instance k1_chk53.dec : ∀ (v759 : BitVec 32), Decidable (k1_chk53 v759) := fun v759 => decidable_of_iff' _ (Iff.of_eq (k1_chk53.eq_1 v759))
theorem k1_off106_inb : ∀ (v759 : BitVec 32) (k1_hw53 : k1_chk53 v759), ∀ a, (k1_off106 v759) a + S1x16384.size a ≤ S4096x16384.size a := fun v759 k1_hw53 => k1_hw53

def k1_off107 (i : grid1.Coords) : Fin 1 → Nat :=
  let arg0 : BitVec 32 := BitVec.ofNat 32 (i 0).val
  let c128_i32 : BitVec 32 := 128#32
  let v0 : BitVec 32 := Scalar.muli arg0 c128_i32
  let c53_i32 : BitVec 32 := 53#32
  let v766 : BitVec 32 := Scalar.addi v0 c53_i32
  let v767 : Index := Scalar.indexCast v766
  ![v767.toNat]
def k1_off108 (v768 : BitVec 32) : Fin 2 → Nat :=
  let c0_i32_455 : BitVec 32 := 0#32
  ![v768.toNat, 0]

def k1_chk54 (v768 : BitVec 32) : Prop :=
  (∀ a, (k1_off108 v768) a + S1x16384.size a ≤ S4096x16384.size a)
instance k1_chk54.dec : ∀ (v768 : BitVec 32), Decidable (k1_chk54 v768) := fun v768 => decidable_of_iff' _ (Iff.of_eq (k1_chk54.eq_1 v768))
theorem k1_off108_inb : ∀ (v768 : BitVec 32) (k1_hw54 : k1_chk54 v768), ∀ a, (k1_off108 v768) a + S1x16384.size a ≤ S4096x16384.size a := fun v768 k1_hw54 => k1_hw54

def k1_off109 (i : grid1.Coords) : Fin 1 → Nat :=
  let arg0 : BitVec 32 := BitVec.ofNat 32 (i 0).val
  let c128_i32 : BitVec 32 := 128#32
  let v0 : BitVec 32 := Scalar.muli arg0 c128_i32
  let c54_i32 : BitVec 32 := 54#32
  let v775 : BitVec 32 := Scalar.addi v0 c54_i32
  let v776 : Index := Scalar.indexCast v775
  ![v776.toNat]
def k1_off110 (v777 : BitVec 32) : Fin 2 → Nat :=
  let c0_i32_459 : BitVec 32 := 0#32
  ![v777.toNat, 0]

def k1_chk55 (v777 : BitVec 32) : Prop :=
  (∀ a, (k1_off110 v777) a + S1x16384.size a ≤ S4096x16384.size a)
instance k1_chk55.dec : ∀ (v777 : BitVec 32), Decidable (k1_chk55 v777) := fun v777 => decidable_of_iff' _ (Iff.of_eq (k1_chk55.eq_1 v777))
theorem k1_off110_inb : ∀ (v777 : BitVec 32) (k1_hw55 : k1_chk55 v777), ∀ a, (k1_off110 v777) a + S1x16384.size a ≤ S4096x16384.size a := fun v777 k1_hw55 => k1_hw55

def k1_off111 (i : grid1.Coords) : Fin 1 → Nat :=
  let arg0 : BitVec 32 := BitVec.ofNat 32 (i 0).val
  let c128_i32 : BitVec 32 := 128#32
  let v0 : BitVec 32 := Scalar.muli arg0 c128_i32
  let c55_i32 : BitVec 32 := 55#32
  let v784 : BitVec 32 := Scalar.addi v0 c55_i32
  let v785 : Index := Scalar.indexCast v784
  ![v785.toNat]
def k1_off112 (v786 : BitVec 32) : Fin 2 → Nat :=
  let c0_i32_463 : BitVec 32 := 0#32
  ![v786.toNat, 0]

def k1_chk56 (v786 : BitVec 32) : Prop :=
  (∀ a, (k1_off112 v786) a + S1x16384.size a ≤ S4096x16384.size a)
instance k1_chk56.dec : ∀ (v786 : BitVec 32), Decidable (k1_chk56 v786) := fun v786 => decidable_of_iff' _ (Iff.of_eq (k1_chk56.eq_1 v786))
theorem k1_off112_inb : ∀ (v786 : BitVec 32) (k1_hw56 : k1_chk56 v786), ∀ a, (k1_off112 v786) a + S1x16384.size a ≤ S4096x16384.size a := fun v786 k1_hw56 => k1_hw56

def k1_off113 (i : grid1.Coords) : Fin 1 → Nat :=
  let arg0 : BitVec 32 := BitVec.ofNat 32 (i 0).val
  let c128_i32 : BitVec 32 := 128#32
  let v0 : BitVec 32 := Scalar.muli arg0 c128_i32
  let c56_i32 : BitVec 32 := 56#32
  let v793 : BitVec 32 := Scalar.addi v0 c56_i32
  let v794 : Index := Scalar.indexCast v793
  ![v794.toNat]
def k1_off114 (v795 : BitVec 32) : Fin 2 → Nat :=
  let c0_i32_467 : BitVec 32 := 0#32
  ![v795.toNat, 0]

def k1_chk57 (v795 : BitVec 32) : Prop :=
  (∀ a, (k1_off114 v795) a + S1x16384.size a ≤ S4096x16384.size a)
instance k1_chk57.dec : ∀ (v795 : BitVec 32), Decidable (k1_chk57 v795) := fun v795 => decidable_of_iff' _ (Iff.of_eq (k1_chk57.eq_1 v795))
theorem k1_off114_inb : ∀ (v795 : BitVec 32) (k1_hw57 : k1_chk57 v795), ∀ a, (k1_off114 v795) a + S1x16384.size a ≤ S4096x16384.size a := fun v795 k1_hw57 => k1_hw57

def k1_off115 (i : grid1.Coords) : Fin 1 → Nat :=
  let arg0 : BitVec 32 := BitVec.ofNat 32 (i 0).val
  let c128_i32 : BitVec 32 := 128#32
  let v0 : BitVec 32 := Scalar.muli arg0 c128_i32
  let c57_i32 : BitVec 32 := 57#32
  let v802 : BitVec 32 := Scalar.addi v0 c57_i32
  let v803 : Index := Scalar.indexCast v802
  ![v803.toNat]
def k1_off116 (v804 : BitVec 32) : Fin 2 → Nat :=
  let c0_i32_471 : BitVec 32 := 0#32
  ![v804.toNat, 0]

def k1_chk58 (v804 : BitVec 32) : Prop :=
  (∀ a, (k1_off116 v804) a + S1x16384.size a ≤ S4096x16384.size a)
instance k1_chk58.dec : ∀ (v804 : BitVec 32), Decidable (k1_chk58 v804) := fun v804 => decidable_of_iff' _ (Iff.of_eq (k1_chk58.eq_1 v804))
theorem k1_off116_inb : ∀ (v804 : BitVec 32) (k1_hw58 : k1_chk58 v804), ∀ a, (k1_off116 v804) a + S1x16384.size a ≤ S4096x16384.size a := fun v804 k1_hw58 => k1_hw58

def k1_off117 (i : grid1.Coords) : Fin 1 → Nat :=
  let arg0 : BitVec 32 := BitVec.ofNat 32 (i 0).val
  let c128_i32 : BitVec 32 := 128#32
  let v0 : BitVec 32 := Scalar.muli arg0 c128_i32
  let c58_i32 : BitVec 32 := 58#32
  let v811 : BitVec 32 := Scalar.addi v0 c58_i32
  let v812 : Index := Scalar.indexCast v811
  ![v812.toNat]
def k1_off118 (v813 : BitVec 32) : Fin 2 → Nat :=
  let c0_i32_475 : BitVec 32 := 0#32
  ![v813.toNat, 0]

def k1_chk59 (v813 : BitVec 32) : Prop :=
  (∀ a, (k1_off118 v813) a + S1x16384.size a ≤ S4096x16384.size a)
instance k1_chk59.dec : ∀ (v813 : BitVec 32), Decidable (k1_chk59 v813) := fun v813 => decidable_of_iff' _ (Iff.of_eq (k1_chk59.eq_1 v813))
theorem k1_off118_inb : ∀ (v813 : BitVec 32) (k1_hw59 : k1_chk59 v813), ∀ a, (k1_off118 v813) a + S1x16384.size a ≤ S4096x16384.size a := fun v813 k1_hw59 => k1_hw59

def k1_off119 (i : grid1.Coords) : Fin 1 → Nat :=
  let arg0 : BitVec 32 := BitVec.ofNat 32 (i 0).val
  let c128_i32 : BitVec 32 := 128#32
  let v0 : BitVec 32 := Scalar.muli arg0 c128_i32
  let c59_i32 : BitVec 32 := 59#32
  let v820 : BitVec 32 := Scalar.addi v0 c59_i32
  let v821 : Index := Scalar.indexCast v820
  ![v821.toNat]
def k1_off120 (v822 : BitVec 32) : Fin 2 → Nat :=
  let c0_i32_479 : BitVec 32 := 0#32
  ![v822.toNat, 0]

def k1_chk60 (v822 : BitVec 32) : Prop :=
  (∀ a, (k1_off120 v822) a + S1x16384.size a ≤ S4096x16384.size a)
instance k1_chk60.dec : ∀ (v822 : BitVec 32), Decidable (k1_chk60 v822) := fun v822 => decidable_of_iff' _ (Iff.of_eq (k1_chk60.eq_1 v822))
theorem k1_off120_inb : ∀ (v822 : BitVec 32) (k1_hw60 : k1_chk60 v822), ∀ a, (k1_off120 v822) a + S1x16384.size a ≤ S4096x16384.size a := fun v822 k1_hw60 => k1_hw60

def k1_off121 (i : grid1.Coords) : Fin 1 → Nat :=
  let arg0 : BitVec 32 := BitVec.ofNat 32 (i 0).val
  let c128_i32 : BitVec 32 := 128#32
  let v0 : BitVec 32 := Scalar.muli arg0 c128_i32
  let c60_i32 : BitVec 32 := 60#32
  let v829 : BitVec 32 := Scalar.addi v0 c60_i32
  let v830 : Index := Scalar.indexCast v829
  ![v830.toNat]
def k1_off122 (v831 : BitVec 32) : Fin 2 → Nat :=
  let c0_i32_483 : BitVec 32 := 0#32
  ![v831.toNat, 0]

def k1_chk61 (v831 : BitVec 32) : Prop :=
  (∀ a, (k1_off122 v831) a + S1x16384.size a ≤ S4096x16384.size a)
instance k1_chk61.dec : ∀ (v831 : BitVec 32), Decidable (k1_chk61 v831) := fun v831 => decidable_of_iff' _ (Iff.of_eq (k1_chk61.eq_1 v831))
theorem k1_off122_inb : ∀ (v831 : BitVec 32) (k1_hw61 : k1_chk61 v831), ∀ a, (k1_off122 v831) a + S1x16384.size a ≤ S4096x16384.size a := fun v831 k1_hw61 => k1_hw61

def k1_off123 (i : grid1.Coords) : Fin 1 → Nat :=
  let arg0 : BitVec 32 := BitVec.ofNat 32 (i 0).val
  let c128_i32 : BitVec 32 := 128#32
  let v0 : BitVec 32 := Scalar.muli arg0 c128_i32
  let c61_i32 : BitVec 32 := 61#32
  let v838 : BitVec 32 := Scalar.addi v0 c61_i32
  let v839 : Index := Scalar.indexCast v838
  ![v839.toNat]
def k1_off124 (v840 : BitVec 32) : Fin 2 → Nat :=
  let c0_i32_487 : BitVec 32 := 0#32
  ![v840.toNat, 0]

def k1_chk62 (v840 : BitVec 32) : Prop :=
  (∀ a, (k1_off124 v840) a + S1x16384.size a ≤ S4096x16384.size a)
instance k1_chk62.dec : ∀ (v840 : BitVec 32), Decidable (k1_chk62 v840) := fun v840 => decidable_of_iff' _ (Iff.of_eq (k1_chk62.eq_1 v840))
theorem k1_off124_inb : ∀ (v840 : BitVec 32) (k1_hw62 : k1_chk62 v840), ∀ a, (k1_off124 v840) a + S1x16384.size a ≤ S4096x16384.size a := fun v840 k1_hw62 => k1_hw62

def k1_off125 (i : grid1.Coords) : Fin 1 → Nat :=
  let arg0 : BitVec 32 := BitVec.ofNat 32 (i 0).val
  let c128_i32 : BitVec 32 := 128#32
  let v0 : BitVec 32 := Scalar.muli arg0 c128_i32
  let c62_i32 : BitVec 32 := 62#32
  let v847 : BitVec 32 := Scalar.addi v0 c62_i32
  let v848 : Index := Scalar.indexCast v847
  ![v848.toNat]
def k1_off126 (v849 : BitVec 32) : Fin 2 → Nat :=
  let c0_i32_491 : BitVec 32 := 0#32
  ![v849.toNat, 0]

def k1_chk63 (v849 : BitVec 32) : Prop :=
  (∀ a, (k1_off126 v849) a + S1x16384.size a ≤ S4096x16384.size a)
instance k1_chk63.dec : ∀ (v849 : BitVec 32), Decidable (k1_chk63 v849) := fun v849 => decidable_of_iff' _ (Iff.of_eq (k1_chk63.eq_1 v849))
theorem k1_off126_inb : ∀ (v849 : BitVec 32) (k1_hw63 : k1_chk63 v849), ∀ a, (k1_off126 v849) a + S1x16384.size a ≤ S4096x16384.size a := fun v849 k1_hw63 => k1_hw63

def k1_off127 (i : grid1.Coords) : Fin 1 → Nat :=
  let arg0 : BitVec 32 := BitVec.ofNat 32 (i 0).val
  let c128_i32 : BitVec 32 := 128#32
  let v0 : BitVec 32 := Scalar.muli arg0 c128_i32
  let c63_i32 : BitVec 32 := 63#32
  let v856 : BitVec 32 := Scalar.addi v0 c63_i32
  let v857 : Index := Scalar.indexCast v856
  ![v857.toNat]
def k1_off128 (v858 : BitVec 32) : Fin 2 → Nat :=
  let c0_i32_495 : BitVec 32 := 0#32
  ![v858.toNat, 0]

def k1_chk64 (v858 : BitVec 32) : Prop :=
  (∀ a, (k1_off128 v858) a + S1x16384.size a ≤ S4096x16384.size a)
instance k1_chk64.dec : ∀ (v858 : BitVec 32), Decidable (k1_chk64 v858) := fun v858 => decidable_of_iff' _ (Iff.of_eq (k1_chk64.eq_1 v858))
theorem k1_off128_inb : ∀ (v858 : BitVec 32) (k1_hw64 : k1_chk64 v858), ∀ a, (k1_off128 v858) a + S1x16384.size a ≤ S4096x16384.size a := fun v858 k1_hw64 => k1_hw64

def k1_off129 (i : grid1.Coords) : Fin 1 → Nat :=
  let arg0 : BitVec 32 := BitVec.ofNat 32 (i 0).val
  let c128_i32 : BitVec 32 := 128#32
  let v0 : BitVec 32 := Scalar.muli arg0 c128_i32
  let c64_i32 : BitVec 32 := 64#32
  let v961 : BitVec 32 := Scalar.addi v0 c64_i32
  let v962 : Index := Scalar.indexCast v961
  ![v962.toNat]
def k1_off130 (v963 : BitVec 32) : Fin 2 → Nat :=
  let c0_i32_579 : BitVec 32 := 0#32
  ![v963.toNat, 0]

def k1_chk65 (v963 : BitVec 32) : Prop :=
  (∀ a, (k1_off130 v963) a + S1x16384.size a ≤ S4096x16384.size a)
instance k1_chk65.dec : ∀ (v963 : BitVec 32), Decidable (k1_chk65 v963) := fun v963 => decidable_of_iff' _ (Iff.of_eq (k1_chk65.eq_1 v963))
theorem k1_off130_inb : ∀ (v963 : BitVec 32) (k1_hw65 : k1_chk65 v963), ∀ a, (k1_off130 v963) a + S1x16384.size a ≤ S4096x16384.size a := fun v963 k1_hw65 => k1_hw65

def k1_off131 (i : grid1.Coords) : Fin 1 → Nat :=
  let arg0 : BitVec 32 := BitVec.ofNat 32 (i 0).val
  let c128_i32 : BitVec 32 := 128#32
  let v0 : BitVec 32 := Scalar.muli arg0 c128_i32
  let c65_i32 : BitVec 32 := 65#32
  let v970 : BitVec 32 := Scalar.addi v0 c65_i32
  let v971 : Index := Scalar.indexCast v970
  ![v971.toNat]
def k1_off132 (v972 : BitVec 32) : Fin 2 → Nat :=
  let c0_i32_583 : BitVec 32 := 0#32
  ![v972.toNat, 0]

def k1_chk66 (v972 : BitVec 32) : Prop :=
  (∀ a, (k1_off132 v972) a + S1x16384.size a ≤ S4096x16384.size a)
instance k1_chk66.dec : ∀ (v972 : BitVec 32), Decidable (k1_chk66 v972) := fun v972 => decidable_of_iff' _ (Iff.of_eq (k1_chk66.eq_1 v972))
theorem k1_off132_inb : ∀ (v972 : BitVec 32) (k1_hw66 : k1_chk66 v972), ∀ a, (k1_off132 v972) a + S1x16384.size a ≤ S4096x16384.size a := fun v972 k1_hw66 => k1_hw66

def k1_off133 (i : grid1.Coords) : Fin 1 → Nat :=
  let arg0 : BitVec 32 := BitVec.ofNat 32 (i 0).val
  let c128_i32 : BitVec 32 := 128#32
  let v0 : BitVec 32 := Scalar.muli arg0 c128_i32
  let c66_i32 : BitVec 32 := 66#32
  let v979 : BitVec 32 := Scalar.addi v0 c66_i32
  let v980 : Index := Scalar.indexCast v979
  ![v980.toNat]
def k1_off134 (v981 : BitVec 32) : Fin 2 → Nat :=
  let c0_i32_587 : BitVec 32 := 0#32
  ![v981.toNat, 0]

def k1_chk67 (v981 : BitVec 32) : Prop :=
  (∀ a, (k1_off134 v981) a + S1x16384.size a ≤ S4096x16384.size a)
instance k1_chk67.dec : ∀ (v981 : BitVec 32), Decidable (k1_chk67 v981) := fun v981 => decidable_of_iff' _ (Iff.of_eq (k1_chk67.eq_1 v981))
theorem k1_off134_inb : ∀ (v981 : BitVec 32) (k1_hw67 : k1_chk67 v981), ∀ a, (k1_off134 v981) a + S1x16384.size a ≤ S4096x16384.size a := fun v981 k1_hw67 => k1_hw67

def k1_off135 (i : grid1.Coords) : Fin 1 → Nat :=
  let arg0 : BitVec 32 := BitVec.ofNat 32 (i 0).val
  let c128_i32 : BitVec 32 := 128#32
  let v0 : BitVec 32 := Scalar.muli arg0 c128_i32
  let c67_i32 : BitVec 32 := 67#32
  let v988 : BitVec 32 := Scalar.addi v0 c67_i32
  let v989 : Index := Scalar.indexCast v988
  ![v989.toNat]
def k1_off136 (v990 : BitVec 32) : Fin 2 → Nat :=
  let c0_i32_591 : BitVec 32 := 0#32
  ![v990.toNat, 0]

def k1_chk68 (v990 : BitVec 32) : Prop :=
  (∀ a, (k1_off136 v990) a + S1x16384.size a ≤ S4096x16384.size a)
instance k1_chk68.dec : ∀ (v990 : BitVec 32), Decidable (k1_chk68 v990) := fun v990 => decidable_of_iff' _ (Iff.of_eq (k1_chk68.eq_1 v990))
theorem k1_off136_inb : ∀ (v990 : BitVec 32) (k1_hw68 : k1_chk68 v990), ∀ a, (k1_off136 v990) a + S1x16384.size a ≤ S4096x16384.size a := fun v990 k1_hw68 => k1_hw68

def k1_off137 (i : grid1.Coords) : Fin 1 → Nat :=
  let arg0 : BitVec 32 := BitVec.ofNat 32 (i 0).val
  let c128_i32 : BitVec 32 := 128#32
  let v0 : BitVec 32 := Scalar.muli arg0 c128_i32
  let c68_i32 : BitVec 32 := 68#32
  let v997 : BitVec 32 := Scalar.addi v0 c68_i32
  let v998 : Index := Scalar.indexCast v997
  ![v998.toNat]
def k1_off138 (v999 : BitVec 32) : Fin 2 → Nat :=
  let c0_i32_595 : BitVec 32 := 0#32
  ![v999.toNat, 0]

def k1_chk69 (v999 : BitVec 32) : Prop :=
  (∀ a, (k1_off138 v999) a + S1x16384.size a ≤ S4096x16384.size a)
instance k1_chk69.dec : ∀ (v999 : BitVec 32), Decidable (k1_chk69 v999) := fun v999 => decidable_of_iff' _ (Iff.of_eq (k1_chk69.eq_1 v999))
theorem k1_off138_inb : ∀ (v999 : BitVec 32) (k1_hw69 : k1_chk69 v999), ∀ a, (k1_off138 v999) a + S1x16384.size a ≤ S4096x16384.size a := fun v999 k1_hw69 => k1_hw69

def k1_off139 (i : grid1.Coords) : Fin 1 → Nat :=
  let arg0 : BitVec 32 := BitVec.ofNat 32 (i 0).val
  let c128_i32 : BitVec 32 := 128#32
  let v0 : BitVec 32 := Scalar.muli arg0 c128_i32
  let c69_i32 : BitVec 32 := 69#32
  let v1006 : BitVec 32 := Scalar.addi v0 c69_i32
  let v1007 : Index := Scalar.indexCast v1006
  ![v1007.toNat]
def k1_off140 (v1008 : BitVec 32) : Fin 2 → Nat :=
  let c0_i32_599 : BitVec 32 := 0#32
  ![v1008.toNat, 0]

def k1_chk70 (v1008 : BitVec 32) : Prop :=
  (∀ a, (k1_off140 v1008) a + S1x16384.size a ≤ S4096x16384.size a)
instance k1_chk70.dec : ∀ (v1008 : BitVec 32), Decidable (k1_chk70 v1008) := fun v1008 => decidable_of_iff' _ (Iff.of_eq (k1_chk70.eq_1 v1008))
theorem k1_off140_inb : ∀ (v1008 : BitVec 32) (k1_hw70 : k1_chk70 v1008), ∀ a, (k1_off140 v1008) a + S1x16384.size a ≤ S4096x16384.size a := fun v1008 k1_hw70 => k1_hw70

def k1_off141 (i : grid1.Coords) : Fin 1 → Nat :=
  let arg0 : BitVec 32 := BitVec.ofNat 32 (i 0).val
  let c128_i32 : BitVec 32 := 128#32
  let v0 : BitVec 32 := Scalar.muli arg0 c128_i32
  let c70_i32 : BitVec 32 := 70#32
  let v1015 : BitVec 32 := Scalar.addi v0 c70_i32
  let v1016 : Index := Scalar.indexCast v1015
  ![v1016.toNat]
def k1_off142 (v1017 : BitVec 32) : Fin 2 → Nat :=
  let c0_i32_603 : BitVec 32 := 0#32
  ![v1017.toNat, 0]

def k1_chk71 (v1017 : BitVec 32) : Prop :=
  (∀ a, (k1_off142 v1017) a + S1x16384.size a ≤ S4096x16384.size a)
instance k1_chk71.dec : ∀ (v1017 : BitVec 32), Decidable (k1_chk71 v1017) := fun v1017 => decidable_of_iff' _ (Iff.of_eq (k1_chk71.eq_1 v1017))
theorem k1_off142_inb : ∀ (v1017 : BitVec 32) (k1_hw71 : k1_chk71 v1017), ∀ a, (k1_off142 v1017) a + S1x16384.size a ≤ S4096x16384.size a := fun v1017 k1_hw71 => k1_hw71

def k1_off143 (i : grid1.Coords) : Fin 1 → Nat :=
  let arg0 : BitVec 32 := BitVec.ofNat 32 (i 0).val
  let c128_i32 : BitVec 32 := 128#32
  let v0 : BitVec 32 := Scalar.muli arg0 c128_i32
  let c71_i32 : BitVec 32 := 71#32
  let v1024 : BitVec 32 := Scalar.addi v0 c71_i32
  let v1025 : Index := Scalar.indexCast v1024
  ![v1025.toNat]
def k1_off144 (v1026 : BitVec 32) : Fin 2 → Nat :=
  let c0_i32_607 : BitVec 32 := 0#32
  ![v1026.toNat, 0]

def k1_chk72 (v1026 : BitVec 32) : Prop :=
  (∀ a, (k1_off144 v1026) a + S1x16384.size a ≤ S4096x16384.size a)
instance k1_chk72.dec : ∀ (v1026 : BitVec 32), Decidable (k1_chk72 v1026) := fun v1026 => decidable_of_iff' _ (Iff.of_eq (k1_chk72.eq_1 v1026))
theorem k1_off144_inb : ∀ (v1026 : BitVec 32) (k1_hw72 : k1_chk72 v1026), ∀ a, (k1_off144 v1026) a + S1x16384.size a ≤ S4096x16384.size a := fun v1026 k1_hw72 => k1_hw72

def k1_off145 (i : grid1.Coords) : Fin 1 → Nat :=
  let arg0 : BitVec 32 := BitVec.ofNat 32 (i 0).val
  let c128_i32 : BitVec 32 := 128#32
  let v0 : BitVec 32 := Scalar.muli arg0 c128_i32
  let c72_i32 : BitVec 32 := 72#32
  let v1033 : BitVec 32 := Scalar.addi v0 c72_i32
  let v1034 : Index := Scalar.indexCast v1033
  ![v1034.toNat]
def k1_off146 (v1035 : BitVec 32) : Fin 2 → Nat :=
  let c0_i32_611 : BitVec 32 := 0#32
  ![v1035.toNat, 0]

def k1_chk73 (v1035 : BitVec 32) : Prop :=
  (∀ a, (k1_off146 v1035) a + S1x16384.size a ≤ S4096x16384.size a)
instance k1_chk73.dec : ∀ (v1035 : BitVec 32), Decidable (k1_chk73 v1035) := fun v1035 => decidable_of_iff' _ (Iff.of_eq (k1_chk73.eq_1 v1035))
theorem k1_off146_inb : ∀ (v1035 : BitVec 32) (k1_hw73 : k1_chk73 v1035), ∀ a, (k1_off146 v1035) a + S1x16384.size a ≤ S4096x16384.size a := fun v1035 k1_hw73 => k1_hw73

def k1_off147 (i : grid1.Coords) : Fin 1 → Nat :=
  let arg0 : BitVec 32 := BitVec.ofNat 32 (i 0).val
  let c128_i32 : BitVec 32 := 128#32
  let v0 : BitVec 32 := Scalar.muli arg0 c128_i32
  let c73_i32 : BitVec 32 := 73#32
  let v1042 : BitVec 32 := Scalar.addi v0 c73_i32
  let v1043 : Index := Scalar.indexCast v1042
  ![v1043.toNat]
def k1_off148 (v1044 : BitVec 32) : Fin 2 → Nat :=
  let c0_i32_615 : BitVec 32 := 0#32
  ![v1044.toNat, 0]

def k1_chk74 (v1044 : BitVec 32) : Prop :=
  (∀ a, (k1_off148 v1044) a + S1x16384.size a ≤ S4096x16384.size a)
instance k1_chk74.dec : ∀ (v1044 : BitVec 32), Decidable (k1_chk74 v1044) := fun v1044 => decidable_of_iff' _ (Iff.of_eq (k1_chk74.eq_1 v1044))
theorem k1_off148_inb : ∀ (v1044 : BitVec 32) (k1_hw74 : k1_chk74 v1044), ∀ a, (k1_off148 v1044) a + S1x16384.size a ≤ S4096x16384.size a := fun v1044 k1_hw74 => k1_hw74

def k1_off149 (i : grid1.Coords) : Fin 1 → Nat :=
  let arg0 : BitVec 32 := BitVec.ofNat 32 (i 0).val
  let c128_i32 : BitVec 32 := 128#32
  let v0 : BitVec 32 := Scalar.muli arg0 c128_i32
  let c74_i32 : BitVec 32 := 74#32
  let v1051 : BitVec 32 := Scalar.addi v0 c74_i32
  let v1052 : Index := Scalar.indexCast v1051
  ![v1052.toNat]
def k1_off150 (v1053 : BitVec 32) : Fin 2 → Nat :=
  let c0_i32_619 : BitVec 32 := 0#32
  ![v1053.toNat, 0]

def k1_chk75 (v1053 : BitVec 32) : Prop :=
  (∀ a, (k1_off150 v1053) a + S1x16384.size a ≤ S4096x16384.size a)
instance k1_chk75.dec : ∀ (v1053 : BitVec 32), Decidable (k1_chk75 v1053) := fun v1053 => decidable_of_iff' _ (Iff.of_eq (k1_chk75.eq_1 v1053))
theorem k1_off150_inb : ∀ (v1053 : BitVec 32) (k1_hw75 : k1_chk75 v1053), ∀ a, (k1_off150 v1053) a + S1x16384.size a ≤ S4096x16384.size a := fun v1053 k1_hw75 => k1_hw75

def k1_off151 (i : grid1.Coords) : Fin 1 → Nat :=
  let arg0 : BitVec 32 := BitVec.ofNat 32 (i 0).val
  let c128_i32 : BitVec 32 := 128#32
  let v0 : BitVec 32 := Scalar.muli arg0 c128_i32
  let c75_i32 : BitVec 32 := 75#32
  let v1060 : BitVec 32 := Scalar.addi v0 c75_i32
  let v1061 : Index := Scalar.indexCast v1060
  ![v1061.toNat]
def k1_off152 (v1062 : BitVec 32) : Fin 2 → Nat :=
  let c0_i32_623 : BitVec 32 := 0#32
  ![v1062.toNat, 0]

def k1_chk76 (v1062 : BitVec 32) : Prop :=
  (∀ a, (k1_off152 v1062) a + S1x16384.size a ≤ S4096x16384.size a)
instance k1_chk76.dec : ∀ (v1062 : BitVec 32), Decidable (k1_chk76 v1062) := fun v1062 => decidable_of_iff' _ (Iff.of_eq (k1_chk76.eq_1 v1062))
theorem k1_off152_inb : ∀ (v1062 : BitVec 32) (k1_hw76 : k1_chk76 v1062), ∀ a, (k1_off152 v1062) a + S1x16384.size a ≤ S4096x16384.size a := fun v1062 k1_hw76 => k1_hw76

def k1_off153 (i : grid1.Coords) : Fin 1 → Nat :=
  let arg0 : BitVec 32 := BitVec.ofNat 32 (i 0).val
  let c128_i32 : BitVec 32 := 128#32
  let v0 : BitVec 32 := Scalar.muli arg0 c128_i32
  let c76_i32 : BitVec 32 := 76#32
  let v1069 : BitVec 32 := Scalar.addi v0 c76_i32
  let v1070 : Index := Scalar.indexCast v1069
  ![v1070.toNat]
def k1_off154 (v1071 : BitVec 32) : Fin 2 → Nat :=
  let c0_i32_627 : BitVec 32 := 0#32
  ![v1071.toNat, 0]

def k1_chk77 (v1071 : BitVec 32) : Prop :=
  (∀ a, (k1_off154 v1071) a + S1x16384.size a ≤ S4096x16384.size a)
instance k1_chk77.dec : ∀ (v1071 : BitVec 32), Decidable (k1_chk77 v1071) := fun v1071 => decidable_of_iff' _ (Iff.of_eq (k1_chk77.eq_1 v1071))
theorem k1_off154_inb : ∀ (v1071 : BitVec 32) (k1_hw77 : k1_chk77 v1071), ∀ a, (k1_off154 v1071) a + S1x16384.size a ≤ S4096x16384.size a := fun v1071 k1_hw77 => k1_hw77

def k1_off155 (i : grid1.Coords) : Fin 1 → Nat :=
  let arg0 : BitVec 32 := BitVec.ofNat 32 (i 0).val
  let c128_i32 : BitVec 32 := 128#32
  let v0 : BitVec 32 := Scalar.muli arg0 c128_i32
  let c77_i32 : BitVec 32 := 77#32
  let v1078 : BitVec 32 := Scalar.addi v0 c77_i32
  let v1079 : Index := Scalar.indexCast v1078
  ![v1079.toNat]
def k1_off156 (v1080 : BitVec 32) : Fin 2 → Nat :=
  let c0_i32_631 : BitVec 32 := 0#32
  ![v1080.toNat, 0]

def k1_chk78 (v1080 : BitVec 32) : Prop :=
  (∀ a, (k1_off156 v1080) a + S1x16384.size a ≤ S4096x16384.size a)
instance k1_chk78.dec : ∀ (v1080 : BitVec 32), Decidable (k1_chk78 v1080) := fun v1080 => decidable_of_iff' _ (Iff.of_eq (k1_chk78.eq_1 v1080))
theorem k1_off156_inb : ∀ (v1080 : BitVec 32) (k1_hw78 : k1_chk78 v1080), ∀ a, (k1_off156 v1080) a + S1x16384.size a ≤ S4096x16384.size a := fun v1080 k1_hw78 => k1_hw78

def k1_off157 (i : grid1.Coords) : Fin 1 → Nat :=
  let arg0 : BitVec 32 := BitVec.ofNat 32 (i 0).val
  let c128_i32 : BitVec 32 := 128#32
  let v0 : BitVec 32 := Scalar.muli arg0 c128_i32
  let c78_i32 : BitVec 32 := 78#32
  let v1087 : BitVec 32 := Scalar.addi v0 c78_i32
  let v1088 : Index := Scalar.indexCast v1087
  ![v1088.toNat]
def k1_off158 (v1089 : BitVec 32) : Fin 2 → Nat :=
  let c0_i32_635 : BitVec 32 := 0#32
  ![v1089.toNat, 0]

def k1_chk79 (v1089 : BitVec 32) : Prop :=
  (∀ a, (k1_off158 v1089) a + S1x16384.size a ≤ S4096x16384.size a)
instance k1_chk79.dec : ∀ (v1089 : BitVec 32), Decidable (k1_chk79 v1089) := fun v1089 => decidable_of_iff' _ (Iff.of_eq (k1_chk79.eq_1 v1089))
theorem k1_off158_inb : ∀ (v1089 : BitVec 32) (k1_hw79 : k1_chk79 v1089), ∀ a, (k1_off158 v1089) a + S1x16384.size a ≤ S4096x16384.size a := fun v1089 k1_hw79 => k1_hw79

def k1_off159 (i : grid1.Coords) : Fin 1 → Nat :=
  let arg0 : BitVec 32 := BitVec.ofNat 32 (i 0).val
  let c128_i32 : BitVec 32 := 128#32
  let v0 : BitVec 32 := Scalar.muli arg0 c128_i32
  let c79_i32 : BitVec 32 := 79#32
  let v1096 : BitVec 32 := Scalar.addi v0 c79_i32
  let v1097 : Index := Scalar.indexCast v1096
  ![v1097.toNat]
def k1_off160 (v1098 : BitVec 32) : Fin 2 → Nat :=
  let c0_i32_639 : BitVec 32 := 0#32
  ![v1098.toNat, 0]

def k1_chk80 (v1098 : BitVec 32) : Prop :=
  (∀ a, (k1_off160 v1098) a + S1x16384.size a ≤ S4096x16384.size a)
instance k1_chk80.dec : ∀ (v1098 : BitVec 32), Decidable (k1_chk80 v1098) := fun v1098 => decidable_of_iff' _ (Iff.of_eq (k1_chk80.eq_1 v1098))
theorem k1_off160_inb : ∀ (v1098 : BitVec 32) (k1_hw80 : k1_chk80 v1098), ∀ a, (k1_off160 v1098) a + S1x16384.size a ≤ S4096x16384.size a := fun v1098 k1_hw80 => k1_hw80

def k1_off161 (i : grid1.Coords) : Fin 1 → Nat :=
  let arg0 : BitVec 32 := BitVec.ofNat 32 (i 0).val
  let c128_i32 : BitVec 32 := 128#32
  let v0 : BitVec 32 := Scalar.muli arg0 c128_i32
  let c80_i32 : BitVec 32 := 80#32
  let v1201 : BitVec 32 := Scalar.addi v0 c80_i32
  let v1202 : Index := Scalar.indexCast v1201
  ![v1202.toNat]
def k1_off162 (v1203 : BitVec 32) : Fin 2 → Nat :=
  let c0_i32_723 : BitVec 32 := 0#32
  ![v1203.toNat, 0]

def k1_chk81 (v1203 : BitVec 32) : Prop :=
  (∀ a, (k1_off162 v1203) a + S1x16384.size a ≤ S4096x16384.size a)
instance k1_chk81.dec : ∀ (v1203 : BitVec 32), Decidable (k1_chk81 v1203) := fun v1203 => decidable_of_iff' _ (Iff.of_eq (k1_chk81.eq_1 v1203))
theorem k1_off162_inb : ∀ (v1203 : BitVec 32) (k1_hw81 : k1_chk81 v1203), ∀ a, (k1_off162 v1203) a + S1x16384.size a ≤ S4096x16384.size a := fun v1203 k1_hw81 => k1_hw81

def k1_off163 (i : grid1.Coords) : Fin 1 → Nat :=
  let arg0 : BitVec 32 := BitVec.ofNat 32 (i 0).val
  let c128_i32 : BitVec 32 := 128#32
  let v0 : BitVec 32 := Scalar.muli arg0 c128_i32
  let c81_i32 : BitVec 32 := 81#32
  let v1210 : BitVec 32 := Scalar.addi v0 c81_i32
  let v1211 : Index := Scalar.indexCast v1210
  ![v1211.toNat]
def k1_off164 (v1212 : BitVec 32) : Fin 2 → Nat :=
  let c0_i32_727 : BitVec 32 := 0#32
  ![v1212.toNat, 0]

def k1_chk82 (v1212 : BitVec 32) : Prop :=
  (∀ a, (k1_off164 v1212) a + S1x16384.size a ≤ S4096x16384.size a)
instance k1_chk82.dec : ∀ (v1212 : BitVec 32), Decidable (k1_chk82 v1212) := fun v1212 => decidable_of_iff' _ (Iff.of_eq (k1_chk82.eq_1 v1212))
theorem k1_off164_inb : ∀ (v1212 : BitVec 32) (k1_hw82 : k1_chk82 v1212), ∀ a, (k1_off164 v1212) a + S1x16384.size a ≤ S4096x16384.size a := fun v1212 k1_hw82 => k1_hw82

def k1_off165 (i : grid1.Coords) : Fin 1 → Nat :=
  let arg0 : BitVec 32 := BitVec.ofNat 32 (i 0).val
  let c128_i32 : BitVec 32 := 128#32
  let v0 : BitVec 32 := Scalar.muli arg0 c128_i32
  let c82_i32 : BitVec 32 := 82#32
  let v1219 : BitVec 32 := Scalar.addi v0 c82_i32
  let v1220 : Index := Scalar.indexCast v1219
  ![v1220.toNat]
def k1_off166 (v1221 : BitVec 32) : Fin 2 → Nat :=
  let c0_i32_731 : BitVec 32 := 0#32
  ![v1221.toNat, 0]

def k1_chk83 (v1221 : BitVec 32) : Prop :=
  (∀ a, (k1_off166 v1221) a + S1x16384.size a ≤ S4096x16384.size a)
instance k1_chk83.dec : ∀ (v1221 : BitVec 32), Decidable (k1_chk83 v1221) := fun v1221 => decidable_of_iff' _ (Iff.of_eq (k1_chk83.eq_1 v1221))
theorem k1_off166_inb : ∀ (v1221 : BitVec 32) (k1_hw83 : k1_chk83 v1221), ∀ a, (k1_off166 v1221) a + S1x16384.size a ≤ S4096x16384.size a := fun v1221 k1_hw83 => k1_hw83

def k1_off167 (i : grid1.Coords) : Fin 1 → Nat :=
  let arg0 : BitVec 32 := BitVec.ofNat 32 (i 0).val
  let c128_i32 : BitVec 32 := 128#32
  let v0 : BitVec 32 := Scalar.muli arg0 c128_i32
  let c83_i32 : BitVec 32 := 83#32
  let v1228 : BitVec 32 := Scalar.addi v0 c83_i32
  let v1229 : Index := Scalar.indexCast v1228
  ![v1229.toNat]
def k1_off168 (v1230 : BitVec 32) : Fin 2 → Nat :=
  let c0_i32_735 : BitVec 32 := 0#32
  ![v1230.toNat, 0]

def k1_chk84 (v1230 : BitVec 32) : Prop :=
  (∀ a, (k1_off168 v1230) a + S1x16384.size a ≤ S4096x16384.size a)
instance k1_chk84.dec : ∀ (v1230 : BitVec 32), Decidable (k1_chk84 v1230) := fun v1230 => decidable_of_iff' _ (Iff.of_eq (k1_chk84.eq_1 v1230))
theorem k1_off168_inb : ∀ (v1230 : BitVec 32) (k1_hw84 : k1_chk84 v1230), ∀ a, (k1_off168 v1230) a + S1x16384.size a ≤ S4096x16384.size a := fun v1230 k1_hw84 => k1_hw84

def k1_off169 (i : grid1.Coords) : Fin 1 → Nat :=
  let arg0 : BitVec 32 := BitVec.ofNat 32 (i 0).val
  let c128_i32 : BitVec 32 := 128#32
  let v0 : BitVec 32 := Scalar.muli arg0 c128_i32
  let c84_i32 : BitVec 32 := 84#32
  let v1237 : BitVec 32 := Scalar.addi v0 c84_i32
  let v1238 : Index := Scalar.indexCast v1237
  ![v1238.toNat]
def k1_off170 (v1239 : BitVec 32) : Fin 2 → Nat :=
  let c0_i32_739 : BitVec 32 := 0#32
  ![v1239.toNat, 0]

def k1_chk85 (v1239 : BitVec 32) : Prop :=
  (∀ a, (k1_off170 v1239) a + S1x16384.size a ≤ S4096x16384.size a)
instance k1_chk85.dec : ∀ (v1239 : BitVec 32), Decidable (k1_chk85 v1239) := fun v1239 => decidable_of_iff' _ (Iff.of_eq (k1_chk85.eq_1 v1239))
theorem k1_off170_inb : ∀ (v1239 : BitVec 32) (k1_hw85 : k1_chk85 v1239), ∀ a, (k1_off170 v1239) a + S1x16384.size a ≤ S4096x16384.size a := fun v1239 k1_hw85 => k1_hw85

def k1_off171 (i : grid1.Coords) : Fin 1 → Nat :=
  let arg0 : BitVec 32 := BitVec.ofNat 32 (i 0).val
  let c128_i32 : BitVec 32 := 128#32
  let v0 : BitVec 32 := Scalar.muli arg0 c128_i32
  let c85_i32 : BitVec 32 := 85#32
  let v1246 : BitVec 32 := Scalar.addi v0 c85_i32
  let v1247 : Index := Scalar.indexCast v1246
  ![v1247.toNat]
def k1_off172 (v1248 : BitVec 32) : Fin 2 → Nat :=
  let c0_i32_743 : BitVec 32 := 0#32
  ![v1248.toNat, 0]

def k1_chk86 (v1248 : BitVec 32) : Prop :=
  (∀ a, (k1_off172 v1248) a + S1x16384.size a ≤ S4096x16384.size a)
instance k1_chk86.dec : ∀ (v1248 : BitVec 32), Decidable (k1_chk86 v1248) := fun v1248 => decidable_of_iff' _ (Iff.of_eq (k1_chk86.eq_1 v1248))
theorem k1_off172_inb : ∀ (v1248 : BitVec 32) (k1_hw86 : k1_chk86 v1248), ∀ a, (k1_off172 v1248) a + S1x16384.size a ≤ S4096x16384.size a := fun v1248 k1_hw86 => k1_hw86

def k1_off173 (i : grid1.Coords) : Fin 1 → Nat :=
  let arg0 : BitVec 32 := BitVec.ofNat 32 (i 0).val
  let c128_i32 : BitVec 32 := 128#32
  let v0 : BitVec 32 := Scalar.muli arg0 c128_i32
  let c86_i32 : BitVec 32 := 86#32
  let v1255 : BitVec 32 := Scalar.addi v0 c86_i32
  let v1256 : Index := Scalar.indexCast v1255
  ![v1256.toNat]
def k1_off174 (v1257 : BitVec 32) : Fin 2 → Nat :=
  let c0_i32_747 : BitVec 32 := 0#32
  ![v1257.toNat, 0]

def k1_chk87 (v1257 : BitVec 32) : Prop :=
  (∀ a, (k1_off174 v1257) a + S1x16384.size a ≤ S4096x16384.size a)
instance k1_chk87.dec : ∀ (v1257 : BitVec 32), Decidable (k1_chk87 v1257) := fun v1257 => decidable_of_iff' _ (Iff.of_eq (k1_chk87.eq_1 v1257))
theorem k1_off174_inb : ∀ (v1257 : BitVec 32) (k1_hw87 : k1_chk87 v1257), ∀ a, (k1_off174 v1257) a + S1x16384.size a ≤ S4096x16384.size a := fun v1257 k1_hw87 => k1_hw87

def k1_off175 (i : grid1.Coords) : Fin 1 → Nat :=
  let arg0 : BitVec 32 := BitVec.ofNat 32 (i 0).val
  let c128_i32 : BitVec 32 := 128#32
  let v0 : BitVec 32 := Scalar.muli arg0 c128_i32
  let c87_i32 : BitVec 32 := 87#32
  let v1264 : BitVec 32 := Scalar.addi v0 c87_i32
  let v1265 : Index := Scalar.indexCast v1264
  ![v1265.toNat]
def k1_off176 (v1266 : BitVec 32) : Fin 2 → Nat :=
  let c0_i32_751 : BitVec 32 := 0#32
  ![v1266.toNat, 0]

def k1_chk88 (v1266 : BitVec 32) : Prop :=
  (∀ a, (k1_off176 v1266) a + S1x16384.size a ≤ S4096x16384.size a)
instance k1_chk88.dec : ∀ (v1266 : BitVec 32), Decidable (k1_chk88 v1266) := fun v1266 => decidable_of_iff' _ (Iff.of_eq (k1_chk88.eq_1 v1266))
theorem k1_off176_inb : ∀ (v1266 : BitVec 32) (k1_hw88 : k1_chk88 v1266), ∀ a, (k1_off176 v1266) a + S1x16384.size a ≤ S4096x16384.size a := fun v1266 k1_hw88 => k1_hw88

def k1_off177 (i : grid1.Coords) : Fin 1 → Nat :=
  let arg0 : BitVec 32 := BitVec.ofNat 32 (i 0).val
  let c128_i32 : BitVec 32 := 128#32
  let v0 : BitVec 32 := Scalar.muli arg0 c128_i32
  let c88_i32 : BitVec 32 := 88#32
  let v1273 : BitVec 32 := Scalar.addi v0 c88_i32
  let v1274 : Index := Scalar.indexCast v1273
  ![v1274.toNat]
def k1_off178 (v1275 : BitVec 32) : Fin 2 → Nat :=
  let c0_i32_755 : BitVec 32 := 0#32
  ![v1275.toNat, 0]

def k1_chk89 (v1275 : BitVec 32) : Prop :=
  (∀ a, (k1_off178 v1275) a + S1x16384.size a ≤ S4096x16384.size a)
instance k1_chk89.dec : ∀ (v1275 : BitVec 32), Decidable (k1_chk89 v1275) := fun v1275 => decidable_of_iff' _ (Iff.of_eq (k1_chk89.eq_1 v1275))
theorem k1_off178_inb : ∀ (v1275 : BitVec 32) (k1_hw89 : k1_chk89 v1275), ∀ a, (k1_off178 v1275) a + S1x16384.size a ≤ S4096x16384.size a := fun v1275 k1_hw89 => k1_hw89

def k1_off179 (i : grid1.Coords) : Fin 1 → Nat :=
  let arg0 : BitVec 32 := BitVec.ofNat 32 (i 0).val
  let c128_i32 : BitVec 32 := 128#32
  let v0 : BitVec 32 := Scalar.muli arg0 c128_i32
  let c89_i32 : BitVec 32 := 89#32
  let v1282 : BitVec 32 := Scalar.addi v0 c89_i32
  let v1283 : Index := Scalar.indexCast v1282
  ![v1283.toNat]
def k1_off180 (v1284 : BitVec 32) : Fin 2 → Nat :=
  let c0_i32_759 : BitVec 32 := 0#32
  ![v1284.toNat, 0]

def k1_chk90 (v1284 : BitVec 32) : Prop :=
  (∀ a, (k1_off180 v1284) a + S1x16384.size a ≤ S4096x16384.size a)
instance k1_chk90.dec : ∀ (v1284 : BitVec 32), Decidable (k1_chk90 v1284) := fun v1284 => decidable_of_iff' _ (Iff.of_eq (k1_chk90.eq_1 v1284))
theorem k1_off180_inb : ∀ (v1284 : BitVec 32) (k1_hw90 : k1_chk90 v1284), ∀ a, (k1_off180 v1284) a + S1x16384.size a ≤ S4096x16384.size a := fun v1284 k1_hw90 => k1_hw90

def k1_off181 (i : grid1.Coords) : Fin 1 → Nat :=
  let arg0 : BitVec 32 := BitVec.ofNat 32 (i 0).val
  let c128_i32 : BitVec 32 := 128#32
  let v0 : BitVec 32 := Scalar.muli arg0 c128_i32
  let c90_i32 : BitVec 32 := 90#32
  let v1291 : BitVec 32 := Scalar.addi v0 c90_i32
  let v1292 : Index := Scalar.indexCast v1291
  ![v1292.toNat]
def k1_off182 (v1293 : BitVec 32) : Fin 2 → Nat :=
  let c0_i32_763 : BitVec 32 := 0#32
  ![v1293.toNat, 0]

def k1_chk91 (v1293 : BitVec 32) : Prop :=
  (∀ a, (k1_off182 v1293) a + S1x16384.size a ≤ S4096x16384.size a)
instance k1_chk91.dec : ∀ (v1293 : BitVec 32), Decidable (k1_chk91 v1293) := fun v1293 => decidable_of_iff' _ (Iff.of_eq (k1_chk91.eq_1 v1293))
theorem k1_off182_inb : ∀ (v1293 : BitVec 32) (k1_hw91 : k1_chk91 v1293), ∀ a, (k1_off182 v1293) a + S1x16384.size a ≤ S4096x16384.size a := fun v1293 k1_hw91 => k1_hw91

def k1_off183 (i : grid1.Coords) : Fin 1 → Nat :=
  let arg0 : BitVec 32 := BitVec.ofNat 32 (i 0).val
  let c128_i32 : BitVec 32 := 128#32
  let v0 : BitVec 32 := Scalar.muli arg0 c128_i32
  let c91_i32 : BitVec 32 := 91#32
  let v1300 : BitVec 32 := Scalar.addi v0 c91_i32
  let v1301 : Index := Scalar.indexCast v1300
  ![v1301.toNat]
def k1_off184 (v1302 : BitVec 32) : Fin 2 → Nat :=
  let c0_i32_767 : BitVec 32 := 0#32
  ![v1302.toNat, 0]

def k1_chk92 (v1302 : BitVec 32) : Prop :=
  (∀ a, (k1_off184 v1302) a + S1x16384.size a ≤ S4096x16384.size a)
instance k1_chk92.dec : ∀ (v1302 : BitVec 32), Decidable (k1_chk92 v1302) := fun v1302 => decidable_of_iff' _ (Iff.of_eq (k1_chk92.eq_1 v1302))
theorem k1_off184_inb : ∀ (v1302 : BitVec 32) (k1_hw92 : k1_chk92 v1302), ∀ a, (k1_off184 v1302) a + S1x16384.size a ≤ S4096x16384.size a := fun v1302 k1_hw92 => k1_hw92

def k1_off185 (i : grid1.Coords) : Fin 1 → Nat :=
  let arg0 : BitVec 32 := BitVec.ofNat 32 (i 0).val
  let c128_i32 : BitVec 32 := 128#32
  let v0 : BitVec 32 := Scalar.muli arg0 c128_i32
  let c92_i32 : BitVec 32 := 92#32
  let v1309 : BitVec 32 := Scalar.addi v0 c92_i32
  let v1310 : Index := Scalar.indexCast v1309
  ![v1310.toNat]
def k1_off186 (v1311 : BitVec 32) : Fin 2 → Nat :=
  let c0_i32_771 : BitVec 32 := 0#32
  ![v1311.toNat, 0]

def k1_chk93 (v1311 : BitVec 32) : Prop :=
  (∀ a, (k1_off186 v1311) a + S1x16384.size a ≤ S4096x16384.size a)
instance k1_chk93.dec : ∀ (v1311 : BitVec 32), Decidable (k1_chk93 v1311) := fun v1311 => decidable_of_iff' _ (Iff.of_eq (k1_chk93.eq_1 v1311))
theorem k1_off186_inb : ∀ (v1311 : BitVec 32) (k1_hw93 : k1_chk93 v1311), ∀ a, (k1_off186 v1311) a + S1x16384.size a ≤ S4096x16384.size a := fun v1311 k1_hw93 => k1_hw93

def k1_off187 (i : grid1.Coords) : Fin 1 → Nat :=
  let arg0 : BitVec 32 := BitVec.ofNat 32 (i 0).val
  let c128_i32 : BitVec 32 := 128#32
  let v0 : BitVec 32 := Scalar.muli arg0 c128_i32
  let c93_i32 : BitVec 32 := 93#32
  let v1318 : BitVec 32 := Scalar.addi v0 c93_i32
  let v1319 : Index := Scalar.indexCast v1318
  ![v1319.toNat]
def k1_off188 (v1320 : BitVec 32) : Fin 2 → Nat :=
  let c0_i32_775 : BitVec 32 := 0#32
  ![v1320.toNat, 0]

def k1_chk94 (v1320 : BitVec 32) : Prop :=
  (∀ a, (k1_off188 v1320) a + S1x16384.size a ≤ S4096x16384.size a)
instance k1_chk94.dec : ∀ (v1320 : BitVec 32), Decidable (k1_chk94 v1320) := fun v1320 => decidable_of_iff' _ (Iff.of_eq (k1_chk94.eq_1 v1320))
theorem k1_off188_inb : ∀ (v1320 : BitVec 32) (k1_hw94 : k1_chk94 v1320), ∀ a, (k1_off188 v1320) a + S1x16384.size a ≤ S4096x16384.size a := fun v1320 k1_hw94 => k1_hw94

def k1_off189 (i : grid1.Coords) : Fin 1 → Nat :=
  let arg0 : BitVec 32 := BitVec.ofNat 32 (i 0).val
  let c128_i32 : BitVec 32 := 128#32
  let v0 : BitVec 32 := Scalar.muli arg0 c128_i32
  let c94_i32 : BitVec 32 := 94#32
  let v1327 : BitVec 32 := Scalar.addi v0 c94_i32
  let v1328 : Index := Scalar.indexCast v1327
  ![v1328.toNat]
def k1_off190 (v1329 : BitVec 32) : Fin 2 → Nat :=
  let c0_i32_779 : BitVec 32 := 0#32
  ![v1329.toNat, 0]

def k1_chk95 (v1329 : BitVec 32) : Prop :=
  (∀ a, (k1_off190 v1329) a + S1x16384.size a ≤ S4096x16384.size a)
instance k1_chk95.dec : ∀ (v1329 : BitVec 32), Decidable (k1_chk95 v1329) := fun v1329 => decidable_of_iff' _ (Iff.of_eq (k1_chk95.eq_1 v1329))
theorem k1_off190_inb : ∀ (v1329 : BitVec 32) (k1_hw95 : k1_chk95 v1329), ∀ a, (k1_off190 v1329) a + S1x16384.size a ≤ S4096x16384.size a := fun v1329 k1_hw95 => k1_hw95

def k1_off191 (i : grid1.Coords) : Fin 1 → Nat :=
  let arg0 : BitVec 32 := BitVec.ofNat 32 (i 0).val
  let c128_i32 : BitVec 32 := 128#32
  let v0 : BitVec 32 := Scalar.muli arg0 c128_i32
  let c95_i32 : BitVec 32 := 95#32
  let v1336 : BitVec 32 := Scalar.addi v0 c95_i32
  let v1337 : Index := Scalar.indexCast v1336
  ![v1337.toNat]
def k1_off192 (v1338 : BitVec 32) : Fin 2 → Nat :=
  let c0_i32_783 : BitVec 32 := 0#32
  ![v1338.toNat, 0]

def k1_chk96 (v1338 : BitVec 32) : Prop :=
  (∀ a, (k1_off192 v1338) a + S1x16384.size a ≤ S4096x16384.size a)
instance k1_chk96.dec : ∀ (v1338 : BitVec 32), Decidable (k1_chk96 v1338) := fun v1338 => decidable_of_iff' _ (Iff.of_eq (k1_chk96.eq_1 v1338))
theorem k1_off192_inb : ∀ (v1338 : BitVec 32) (k1_hw96 : k1_chk96 v1338), ∀ a, (k1_off192 v1338) a + S1x16384.size a ≤ S4096x16384.size a := fun v1338 k1_hw96 => k1_hw96

def k1_off193 (i : grid1.Coords) : Fin 1 → Nat :=
  let arg0 : BitVec 32 := BitVec.ofNat 32 (i 0).val
  let c128_i32 : BitVec 32 := 128#32
  let v0 : BitVec 32 := Scalar.muli arg0 c128_i32
  let c96_i32 : BitVec 32 := 96#32
  let v1441 : BitVec 32 := Scalar.addi v0 c96_i32
  let v1442 : Index := Scalar.indexCast v1441
  ![v1442.toNat]
def k1_off194 (v1443 : BitVec 32) : Fin 2 → Nat :=
  let c0_i32_867 : BitVec 32 := 0#32
  ![v1443.toNat, 0]

def k1_chk97 (v1443 : BitVec 32) : Prop :=
  (∀ a, (k1_off194 v1443) a + S1x16384.size a ≤ S4096x16384.size a)
instance k1_chk97.dec : ∀ (v1443 : BitVec 32), Decidable (k1_chk97 v1443) := fun v1443 => decidable_of_iff' _ (Iff.of_eq (k1_chk97.eq_1 v1443))
theorem k1_off194_inb : ∀ (v1443 : BitVec 32) (k1_hw97 : k1_chk97 v1443), ∀ a, (k1_off194 v1443) a + S1x16384.size a ≤ S4096x16384.size a := fun v1443 k1_hw97 => k1_hw97

def k1_off195 (i : grid1.Coords) : Fin 1 → Nat :=
  let arg0 : BitVec 32 := BitVec.ofNat 32 (i 0).val
  let c128_i32 : BitVec 32 := 128#32
  let v0 : BitVec 32 := Scalar.muli arg0 c128_i32
  let c97_i32 : BitVec 32 := 97#32
  let v1450 : BitVec 32 := Scalar.addi v0 c97_i32
  let v1451 : Index := Scalar.indexCast v1450
  ![v1451.toNat]
def k1_off196 (v1452 : BitVec 32) : Fin 2 → Nat :=
  let c0_i32_871 : BitVec 32 := 0#32
  ![v1452.toNat, 0]

def k1_chk98 (v1452 : BitVec 32) : Prop :=
  (∀ a, (k1_off196 v1452) a + S1x16384.size a ≤ S4096x16384.size a)
instance k1_chk98.dec : ∀ (v1452 : BitVec 32), Decidable (k1_chk98 v1452) := fun v1452 => decidable_of_iff' _ (Iff.of_eq (k1_chk98.eq_1 v1452))
theorem k1_off196_inb : ∀ (v1452 : BitVec 32) (k1_hw98 : k1_chk98 v1452), ∀ a, (k1_off196 v1452) a + S1x16384.size a ≤ S4096x16384.size a := fun v1452 k1_hw98 => k1_hw98

def k1_off197 (i : grid1.Coords) : Fin 1 → Nat :=
  let arg0 : BitVec 32 := BitVec.ofNat 32 (i 0).val
  let c128_i32 : BitVec 32 := 128#32
  let v0 : BitVec 32 := Scalar.muli arg0 c128_i32
  let c98_i32 : BitVec 32 := 98#32
  let v1459 : BitVec 32 := Scalar.addi v0 c98_i32
  let v1460 : Index := Scalar.indexCast v1459
  ![v1460.toNat]
def k1_off198 (v1461 : BitVec 32) : Fin 2 → Nat :=
  let c0_i32_875 : BitVec 32 := 0#32
  ![v1461.toNat, 0]

def k1_chk99 (v1461 : BitVec 32) : Prop :=
  (∀ a, (k1_off198 v1461) a + S1x16384.size a ≤ S4096x16384.size a)
instance k1_chk99.dec : ∀ (v1461 : BitVec 32), Decidable (k1_chk99 v1461) := fun v1461 => decidable_of_iff' _ (Iff.of_eq (k1_chk99.eq_1 v1461))
theorem k1_off198_inb : ∀ (v1461 : BitVec 32) (k1_hw99 : k1_chk99 v1461), ∀ a, (k1_off198 v1461) a + S1x16384.size a ≤ S4096x16384.size a := fun v1461 k1_hw99 => k1_hw99

def k1_off199 (i : grid1.Coords) : Fin 1 → Nat :=
  let arg0 : BitVec 32 := BitVec.ofNat 32 (i 0).val
  let c128_i32 : BitVec 32 := 128#32
  let v0 : BitVec 32 := Scalar.muli arg0 c128_i32
  let c99_i32 : BitVec 32 := 99#32
  let v1468 : BitVec 32 := Scalar.addi v0 c99_i32
  let v1469 : Index := Scalar.indexCast v1468
  ![v1469.toNat]
def k1_off200 (v1470 : BitVec 32) : Fin 2 → Nat :=
  let c0_i32_879 : BitVec 32 := 0#32
  ![v1470.toNat, 0]

def k1_chk100 (v1470 : BitVec 32) : Prop :=
  (∀ a, (k1_off200 v1470) a + S1x16384.size a ≤ S4096x16384.size a)
instance k1_chk100.dec : ∀ (v1470 : BitVec 32), Decidable (k1_chk100 v1470) := fun v1470 => decidable_of_iff' _ (Iff.of_eq (k1_chk100.eq_1 v1470))
theorem k1_off200_inb : ∀ (v1470 : BitVec 32) (k1_hw100 : k1_chk100 v1470), ∀ a, (k1_off200 v1470) a + S1x16384.size a ≤ S4096x16384.size a := fun v1470 k1_hw100 => k1_hw100

def k1_off201 (i : grid1.Coords) : Fin 1 → Nat :=
  let arg0 : BitVec 32 := BitVec.ofNat 32 (i 0).val
  let c128_i32 : BitVec 32 := 128#32
  let v0 : BitVec 32 := Scalar.muli arg0 c128_i32
  let c100_i32 : BitVec 32 := 100#32
  let v1477 : BitVec 32 := Scalar.addi v0 c100_i32
  let v1478 : Index := Scalar.indexCast v1477
  ![v1478.toNat]
def k1_off202 (v1479 : BitVec 32) : Fin 2 → Nat :=
  let c0_i32_883 : BitVec 32 := 0#32
  ![v1479.toNat, 0]

def k1_chk101 (v1479 : BitVec 32) : Prop :=
  (∀ a, (k1_off202 v1479) a + S1x16384.size a ≤ S4096x16384.size a)
instance k1_chk101.dec : ∀ (v1479 : BitVec 32), Decidable (k1_chk101 v1479) := fun v1479 => decidable_of_iff' _ (Iff.of_eq (k1_chk101.eq_1 v1479))
theorem k1_off202_inb : ∀ (v1479 : BitVec 32) (k1_hw101 : k1_chk101 v1479), ∀ a, (k1_off202 v1479) a + S1x16384.size a ≤ S4096x16384.size a := fun v1479 k1_hw101 => k1_hw101

def k1_off203 (i : grid1.Coords) : Fin 1 → Nat :=
  let arg0 : BitVec 32 := BitVec.ofNat 32 (i 0).val
  let c128_i32 : BitVec 32 := 128#32
  let v0 : BitVec 32 := Scalar.muli arg0 c128_i32
  let c101_i32 : BitVec 32 := 101#32
  let v1486 : BitVec 32 := Scalar.addi v0 c101_i32
  let v1487 : Index := Scalar.indexCast v1486
  ![v1487.toNat]
def k1_off204 (v1488 : BitVec 32) : Fin 2 → Nat :=
  let c0_i32_887 : BitVec 32 := 0#32
  ![v1488.toNat, 0]

def k1_chk102 (v1488 : BitVec 32) : Prop :=
  (∀ a, (k1_off204 v1488) a + S1x16384.size a ≤ S4096x16384.size a)
instance k1_chk102.dec : ∀ (v1488 : BitVec 32), Decidable (k1_chk102 v1488) := fun v1488 => decidable_of_iff' _ (Iff.of_eq (k1_chk102.eq_1 v1488))
theorem k1_off204_inb : ∀ (v1488 : BitVec 32) (k1_hw102 : k1_chk102 v1488), ∀ a, (k1_off204 v1488) a + S1x16384.size a ≤ S4096x16384.size a := fun v1488 k1_hw102 => k1_hw102

def k1_off205 (i : grid1.Coords) : Fin 1 → Nat :=
  let arg0 : BitVec 32 := BitVec.ofNat 32 (i 0).val
  let c128_i32 : BitVec 32 := 128#32
  let v0 : BitVec 32 := Scalar.muli arg0 c128_i32
  let c102_i32 : BitVec 32 := 102#32
  let v1495 : BitVec 32 := Scalar.addi v0 c102_i32
  let v1496 : Index := Scalar.indexCast v1495
  ![v1496.toNat]
def k1_off206 (v1497 : BitVec 32) : Fin 2 → Nat :=
  let c0_i32_891 : BitVec 32 := 0#32
  ![v1497.toNat, 0]

def k1_chk103 (v1497 : BitVec 32) : Prop :=
  (∀ a, (k1_off206 v1497) a + S1x16384.size a ≤ S4096x16384.size a)
instance k1_chk103.dec : ∀ (v1497 : BitVec 32), Decidable (k1_chk103 v1497) := fun v1497 => decidable_of_iff' _ (Iff.of_eq (k1_chk103.eq_1 v1497))
theorem k1_off206_inb : ∀ (v1497 : BitVec 32) (k1_hw103 : k1_chk103 v1497), ∀ a, (k1_off206 v1497) a + S1x16384.size a ≤ S4096x16384.size a := fun v1497 k1_hw103 => k1_hw103

def k1_off207 (i : grid1.Coords) : Fin 1 → Nat :=
  let arg0 : BitVec 32 := BitVec.ofNat 32 (i 0).val
  let c128_i32 : BitVec 32 := 128#32
  let v0 : BitVec 32 := Scalar.muli arg0 c128_i32
  let c103_i32 : BitVec 32 := 103#32
  let v1504 : BitVec 32 := Scalar.addi v0 c103_i32
  let v1505 : Index := Scalar.indexCast v1504
  ![v1505.toNat]
def k1_off208 (v1506 : BitVec 32) : Fin 2 → Nat :=
  let c0_i32_895 : BitVec 32 := 0#32
  ![v1506.toNat, 0]

def k1_chk104 (v1506 : BitVec 32) : Prop :=
  (∀ a, (k1_off208 v1506) a + S1x16384.size a ≤ S4096x16384.size a)
instance k1_chk104.dec : ∀ (v1506 : BitVec 32), Decidable (k1_chk104 v1506) := fun v1506 => decidable_of_iff' _ (Iff.of_eq (k1_chk104.eq_1 v1506))
theorem k1_off208_inb : ∀ (v1506 : BitVec 32) (k1_hw104 : k1_chk104 v1506), ∀ a, (k1_off208 v1506) a + S1x16384.size a ≤ S4096x16384.size a := fun v1506 k1_hw104 => k1_hw104

def k1_off209 (i : grid1.Coords) : Fin 1 → Nat :=
  let arg0 : BitVec 32 := BitVec.ofNat 32 (i 0).val
  let c128_i32 : BitVec 32 := 128#32
  let v0 : BitVec 32 := Scalar.muli arg0 c128_i32
  let c104_i32 : BitVec 32 := 104#32
  let v1513 : BitVec 32 := Scalar.addi v0 c104_i32
  let v1514 : Index := Scalar.indexCast v1513
  ![v1514.toNat]
def k1_off210 (v1515 : BitVec 32) : Fin 2 → Nat :=
  let c0_i32_899 : BitVec 32 := 0#32
  ![v1515.toNat, 0]

def k1_chk105 (v1515 : BitVec 32) : Prop :=
  (∀ a, (k1_off210 v1515) a + S1x16384.size a ≤ S4096x16384.size a)
instance k1_chk105.dec : ∀ (v1515 : BitVec 32), Decidable (k1_chk105 v1515) := fun v1515 => decidable_of_iff' _ (Iff.of_eq (k1_chk105.eq_1 v1515))
theorem k1_off210_inb : ∀ (v1515 : BitVec 32) (k1_hw105 : k1_chk105 v1515), ∀ a, (k1_off210 v1515) a + S1x16384.size a ≤ S4096x16384.size a := fun v1515 k1_hw105 => k1_hw105

def k1_off211 (i : grid1.Coords) : Fin 1 → Nat :=
  let arg0 : BitVec 32 := BitVec.ofNat 32 (i 0).val
  let c128_i32 : BitVec 32 := 128#32
  let v0 : BitVec 32 := Scalar.muli arg0 c128_i32
  let c105_i32 : BitVec 32 := 105#32
  let v1522 : BitVec 32 := Scalar.addi v0 c105_i32
  let v1523 : Index := Scalar.indexCast v1522
  ![v1523.toNat]
def k1_off212 (v1524 : BitVec 32) : Fin 2 → Nat :=
  let c0_i32_903 : BitVec 32 := 0#32
  ![v1524.toNat, 0]

def k1_chk106 (v1524 : BitVec 32) : Prop :=
  (∀ a, (k1_off212 v1524) a + S1x16384.size a ≤ S4096x16384.size a)
instance k1_chk106.dec : ∀ (v1524 : BitVec 32), Decidable (k1_chk106 v1524) := fun v1524 => decidable_of_iff' _ (Iff.of_eq (k1_chk106.eq_1 v1524))
theorem k1_off212_inb : ∀ (v1524 : BitVec 32) (k1_hw106 : k1_chk106 v1524), ∀ a, (k1_off212 v1524) a + S1x16384.size a ≤ S4096x16384.size a := fun v1524 k1_hw106 => k1_hw106

def k1_off213 (i : grid1.Coords) : Fin 1 → Nat :=
  let arg0 : BitVec 32 := BitVec.ofNat 32 (i 0).val
  let c128_i32 : BitVec 32 := 128#32
  let v0 : BitVec 32 := Scalar.muli arg0 c128_i32
  let c106_i32 : BitVec 32 := 106#32
  let v1531 : BitVec 32 := Scalar.addi v0 c106_i32
  let v1532 : Index := Scalar.indexCast v1531
  ![v1532.toNat]
def k1_off214 (v1533 : BitVec 32) : Fin 2 → Nat :=
  let c0_i32_907 : BitVec 32 := 0#32
  ![v1533.toNat, 0]

def k1_chk107 (v1533 : BitVec 32) : Prop :=
  (∀ a, (k1_off214 v1533) a + S1x16384.size a ≤ S4096x16384.size a)
instance k1_chk107.dec : ∀ (v1533 : BitVec 32), Decidable (k1_chk107 v1533) := fun v1533 => decidable_of_iff' _ (Iff.of_eq (k1_chk107.eq_1 v1533))
theorem k1_off214_inb : ∀ (v1533 : BitVec 32) (k1_hw107 : k1_chk107 v1533), ∀ a, (k1_off214 v1533) a + S1x16384.size a ≤ S4096x16384.size a := fun v1533 k1_hw107 => k1_hw107

def k1_off215 (i : grid1.Coords) : Fin 1 → Nat :=
  let arg0 : BitVec 32 := BitVec.ofNat 32 (i 0).val
  let c128_i32 : BitVec 32 := 128#32
  let v0 : BitVec 32 := Scalar.muli arg0 c128_i32
  let c107_i32 : BitVec 32 := 107#32
  let v1540 : BitVec 32 := Scalar.addi v0 c107_i32
  let v1541 : Index := Scalar.indexCast v1540
  ![v1541.toNat]
def k1_off216 (v1542 : BitVec 32) : Fin 2 → Nat :=
  let c0_i32_911 : BitVec 32 := 0#32
  ![v1542.toNat, 0]

def k1_chk108 (v1542 : BitVec 32) : Prop :=
  (∀ a, (k1_off216 v1542) a + S1x16384.size a ≤ S4096x16384.size a)
instance k1_chk108.dec : ∀ (v1542 : BitVec 32), Decidable (k1_chk108 v1542) := fun v1542 => decidable_of_iff' _ (Iff.of_eq (k1_chk108.eq_1 v1542))
theorem k1_off216_inb : ∀ (v1542 : BitVec 32) (k1_hw108 : k1_chk108 v1542), ∀ a, (k1_off216 v1542) a + S1x16384.size a ≤ S4096x16384.size a := fun v1542 k1_hw108 => k1_hw108

def k1_off217 (i : grid1.Coords) : Fin 1 → Nat :=
  let arg0 : BitVec 32 := BitVec.ofNat 32 (i 0).val
  let c128_i32 : BitVec 32 := 128#32
  let v0 : BitVec 32 := Scalar.muli arg0 c128_i32
  let c108_i32 : BitVec 32 := 108#32
  let v1549 : BitVec 32 := Scalar.addi v0 c108_i32
  let v1550 : Index := Scalar.indexCast v1549
  ![v1550.toNat]
def k1_off218 (v1551 : BitVec 32) : Fin 2 → Nat :=
  let c0_i32_915 : BitVec 32 := 0#32
  ![v1551.toNat, 0]

def k1_chk109 (v1551 : BitVec 32) : Prop :=
  (∀ a, (k1_off218 v1551) a + S1x16384.size a ≤ S4096x16384.size a)
instance k1_chk109.dec : ∀ (v1551 : BitVec 32), Decidable (k1_chk109 v1551) := fun v1551 => decidable_of_iff' _ (Iff.of_eq (k1_chk109.eq_1 v1551))
theorem k1_off218_inb : ∀ (v1551 : BitVec 32) (k1_hw109 : k1_chk109 v1551), ∀ a, (k1_off218 v1551) a + S1x16384.size a ≤ S4096x16384.size a := fun v1551 k1_hw109 => k1_hw109

def k1_off219 (i : grid1.Coords) : Fin 1 → Nat :=
  let arg0 : BitVec 32 := BitVec.ofNat 32 (i 0).val
  let c128_i32 : BitVec 32 := 128#32
  let v0 : BitVec 32 := Scalar.muli arg0 c128_i32
  let c109_i32 : BitVec 32 := 109#32
  let v1558 : BitVec 32 := Scalar.addi v0 c109_i32
  let v1559 : Index := Scalar.indexCast v1558
  ![v1559.toNat]
def k1_off220 (v1560 : BitVec 32) : Fin 2 → Nat :=
  let c0_i32_919 : BitVec 32 := 0#32
  ![v1560.toNat, 0]

def k1_chk110 (v1560 : BitVec 32) : Prop :=
  (∀ a, (k1_off220 v1560) a + S1x16384.size a ≤ S4096x16384.size a)
instance k1_chk110.dec : ∀ (v1560 : BitVec 32), Decidable (k1_chk110 v1560) := fun v1560 => decidable_of_iff' _ (Iff.of_eq (k1_chk110.eq_1 v1560))
theorem k1_off220_inb : ∀ (v1560 : BitVec 32) (k1_hw110 : k1_chk110 v1560), ∀ a, (k1_off220 v1560) a + S1x16384.size a ≤ S4096x16384.size a := fun v1560 k1_hw110 => k1_hw110

def k1_off221 (i : grid1.Coords) : Fin 1 → Nat :=
  let arg0 : BitVec 32 := BitVec.ofNat 32 (i 0).val
  let c128_i32 : BitVec 32 := 128#32
  let v0 : BitVec 32 := Scalar.muli arg0 c128_i32
  let c110_i32 : BitVec 32 := 110#32
  let v1567 : BitVec 32 := Scalar.addi v0 c110_i32
  let v1568 : Index := Scalar.indexCast v1567
  ![v1568.toNat]
def k1_off222 (v1569 : BitVec 32) : Fin 2 → Nat :=
  let c0_i32_923 : BitVec 32 := 0#32
  ![v1569.toNat, 0]

def k1_chk111 (v1569 : BitVec 32) : Prop :=
  (∀ a, (k1_off222 v1569) a + S1x16384.size a ≤ S4096x16384.size a)
instance k1_chk111.dec : ∀ (v1569 : BitVec 32), Decidable (k1_chk111 v1569) := fun v1569 => decidable_of_iff' _ (Iff.of_eq (k1_chk111.eq_1 v1569))
theorem k1_off222_inb : ∀ (v1569 : BitVec 32) (k1_hw111 : k1_chk111 v1569), ∀ a, (k1_off222 v1569) a + S1x16384.size a ≤ S4096x16384.size a := fun v1569 k1_hw111 => k1_hw111

def k1_off223 (i : grid1.Coords) : Fin 1 → Nat :=
  let arg0 : BitVec 32 := BitVec.ofNat 32 (i 0).val
  let c128_i32 : BitVec 32 := 128#32
  let v0 : BitVec 32 := Scalar.muli arg0 c128_i32
  let c111_i32 : BitVec 32 := 111#32
  let v1576 : BitVec 32 := Scalar.addi v0 c111_i32
  let v1577 : Index := Scalar.indexCast v1576
  ![v1577.toNat]
def k1_off224 (v1578 : BitVec 32) : Fin 2 → Nat :=
  let c0_i32_927 : BitVec 32 := 0#32
  ![v1578.toNat, 0]

def k1_chk112 (v1578 : BitVec 32) : Prop :=
  (∀ a, (k1_off224 v1578) a + S1x16384.size a ≤ S4096x16384.size a)
instance k1_chk112.dec : ∀ (v1578 : BitVec 32), Decidable (k1_chk112 v1578) := fun v1578 => decidable_of_iff' _ (Iff.of_eq (k1_chk112.eq_1 v1578))
theorem k1_off224_inb : ∀ (v1578 : BitVec 32) (k1_hw112 : k1_chk112 v1578), ∀ a, (k1_off224 v1578) a + S1x16384.size a ≤ S4096x16384.size a := fun v1578 k1_hw112 => k1_hw112

def k1_off225 (i : grid1.Coords) : Fin 1 → Nat :=
  let arg0 : BitVec 32 := BitVec.ofNat 32 (i 0).val
  let c128_i32 : BitVec 32 := 128#32
  let v0 : BitVec 32 := Scalar.muli arg0 c128_i32
  let c112_i32 : BitVec 32 := 112#32
  let v1681 : BitVec 32 := Scalar.addi v0 c112_i32
  let v1682 : Index := Scalar.indexCast v1681
  ![v1682.toNat]
def k1_off226 (v1683 : BitVec 32) : Fin 2 → Nat :=
  let c0_i32_1011 : BitVec 32 := 0#32
  ![v1683.toNat, 0]

def k1_chk113 (v1683 : BitVec 32) : Prop :=
  (∀ a, (k1_off226 v1683) a + S1x16384.size a ≤ S4096x16384.size a)
instance k1_chk113.dec : ∀ (v1683 : BitVec 32), Decidable (k1_chk113 v1683) := fun v1683 => decidable_of_iff' _ (Iff.of_eq (k1_chk113.eq_1 v1683))
theorem k1_off226_inb : ∀ (v1683 : BitVec 32) (k1_hw113 : k1_chk113 v1683), ∀ a, (k1_off226 v1683) a + S1x16384.size a ≤ S4096x16384.size a := fun v1683 k1_hw113 => k1_hw113

def k1_off227 (i : grid1.Coords) : Fin 1 → Nat :=
  let arg0 : BitVec 32 := BitVec.ofNat 32 (i 0).val
  let c128_i32 : BitVec 32 := 128#32
  let v0 : BitVec 32 := Scalar.muli arg0 c128_i32
  let c113_i32 : BitVec 32 := 113#32
  let v1690 : BitVec 32 := Scalar.addi v0 c113_i32
  let v1691 : Index := Scalar.indexCast v1690
  ![v1691.toNat]
def k1_off228 (v1692 : BitVec 32) : Fin 2 → Nat :=
  let c0_i32_1015 : BitVec 32 := 0#32
  ![v1692.toNat, 0]

def k1_chk114 (v1692 : BitVec 32) : Prop :=
  (∀ a, (k1_off228 v1692) a + S1x16384.size a ≤ S4096x16384.size a)
instance k1_chk114.dec : ∀ (v1692 : BitVec 32), Decidable (k1_chk114 v1692) := fun v1692 => decidable_of_iff' _ (Iff.of_eq (k1_chk114.eq_1 v1692))
theorem k1_off228_inb : ∀ (v1692 : BitVec 32) (k1_hw114 : k1_chk114 v1692), ∀ a, (k1_off228 v1692) a + S1x16384.size a ≤ S4096x16384.size a := fun v1692 k1_hw114 => k1_hw114

def k1_off229 (i : grid1.Coords) : Fin 1 → Nat :=
  let arg0 : BitVec 32 := BitVec.ofNat 32 (i 0).val
  let c128_i32 : BitVec 32 := 128#32
  let v0 : BitVec 32 := Scalar.muli arg0 c128_i32
  let c114_i32 : BitVec 32 := 114#32
  let v1699 : BitVec 32 := Scalar.addi v0 c114_i32
  let v1700 : Index := Scalar.indexCast v1699
  ![v1700.toNat]
def k1_off230 (v1701 : BitVec 32) : Fin 2 → Nat :=
  let c0_i32_1019 : BitVec 32 := 0#32
  ![v1701.toNat, 0]

def k1_chk115 (v1701 : BitVec 32) : Prop :=
  (∀ a, (k1_off230 v1701) a + S1x16384.size a ≤ S4096x16384.size a)
instance k1_chk115.dec : ∀ (v1701 : BitVec 32), Decidable (k1_chk115 v1701) := fun v1701 => decidable_of_iff' _ (Iff.of_eq (k1_chk115.eq_1 v1701))
theorem k1_off230_inb : ∀ (v1701 : BitVec 32) (k1_hw115 : k1_chk115 v1701), ∀ a, (k1_off230 v1701) a + S1x16384.size a ≤ S4096x16384.size a := fun v1701 k1_hw115 => k1_hw115

def k1_off231 (i : grid1.Coords) : Fin 1 → Nat :=
  let arg0 : BitVec 32 := BitVec.ofNat 32 (i 0).val
  let c128_i32 : BitVec 32 := 128#32
  let v0 : BitVec 32 := Scalar.muli arg0 c128_i32
  let c115_i32 : BitVec 32 := 115#32
  let v1708 : BitVec 32 := Scalar.addi v0 c115_i32
  let v1709 : Index := Scalar.indexCast v1708
  ![v1709.toNat]
def k1_off232 (v1710 : BitVec 32) : Fin 2 → Nat :=
  let c0_i32_1023 : BitVec 32 := 0#32
  ![v1710.toNat, 0]

def k1_chk116 (v1710 : BitVec 32) : Prop :=
  (∀ a, (k1_off232 v1710) a + S1x16384.size a ≤ S4096x16384.size a)
instance k1_chk116.dec : ∀ (v1710 : BitVec 32), Decidable (k1_chk116 v1710) := fun v1710 => decidable_of_iff' _ (Iff.of_eq (k1_chk116.eq_1 v1710))
theorem k1_off232_inb : ∀ (v1710 : BitVec 32) (k1_hw116 : k1_chk116 v1710), ∀ a, (k1_off232 v1710) a + S1x16384.size a ≤ S4096x16384.size a := fun v1710 k1_hw116 => k1_hw116

def k1_off233 (i : grid1.Coords) : Fin 1 → Nat :=
  let arg0 : BitVec 32 := BitVec.ofNat 32 (i 0).val
  let c128_i32 : BitVec 32 := 128#32
  let v0 : BitVec 32 := Scalar.muli arg0 c128_i32
  let c116_i32 : BitVec 32 := 116#32
  let v1717 : BitVec 32 := Scalar.addi v0 c116_i32
  let v1718 : Index := Scalar.indexCast v1717
  ![v1718.toNat]
def k1_off234 (v1719 : BitVec 32) : Fin 2 → Nat :=
  let c0_i32_1027 : BitVec 32 := 0#32
  ![v1719.toNat, 0]

def k1_chk117 (v1719 : BitVec 32) : Prop :=
  (∀ a, (k1_off234 v1719) a + S1x16384.size a ≤ S4096x16384.size a)
instance k1_chk117.dec : ∀ (v1719 : BitVec 32), Decidable (k1_chk117 v1719) := fun v1719 => decidable_of_iff' _ (Iff.of_eq (k1_chk117.eq_1 v1719))
theorem k1_off234_inb : ∀ (v1719 : BitVec 32) (k1_hw117 : k1_chk117 v1719), ∀ a, (k1_off234 v1719) a + S1x16384.size a ≤ S4096x16384.size a := fun v1719 k1_hw117 => k1_hw117

def k1_off235 (i : grid1.Coords) : Fin 1 → Nat :=
  let arg0 : BitVec 32 := BitVec.ofNat 32 (i 0).val
  let c128_i32 : BitVec 32 := 128#32
  let v0 : BitVec 32 := Scalar.muli arg0 c128_i32
  let c117_i32 : BitVec 32 := 117#32
  let v1726 : BitVec 32 := Scalar.addi v0 c117_i32
  let v1727 : Index := Scalar.indexCast v1726
  ![v1727.toNat]
def k1_off236 (v1728 : BitVec 32) : Fin 2 → Nat :=
  let c0_i32_1031 : BitVec 32 := 0#32
  ![v1728.toNat, 0]

def k1_chk118 (v1728 : BitVec 32) : Prop :=
  (∀ a, (k1_off236 v1728) a + S1x16384.size a ≤ S4096x16384.size a)
instance k1_chk118.dec : ∀ (v1728 : BitVec 32), Decidable (k1_chk118 v1728) := fun v1728 => decidable_of_iff' _ (Iff.of_eq (k1_chk118.eq_1 v1728))
theorem k1_off236_inb : ∀ (v1728 : BitVec 32) (k1_hw118 : k1_chk118 v1728), ∀ a, (k1_off236 v1728) a + S1x16384.size a ≤ S4096x16384.size a := fun v1728 k1_hw118 => k1_hw118

def k1_off237 (i : grid1.Coords) : Fin 1 → Nat :=
  let arg0 : BitVec 32 := BitVec.ofNat 32 (i 0).val
  let c128_i32 : BitVec 32 := 128#32
  let v0 : BitVec 32 := Scalar.muli arg0 c128_i32
  let c118_i32 : BitVec 32 := 118#32
  let v1735 : BitVec 32 := Scalar.addi v0 c118_i32
  let v1736 : Index := Scalar.indexCast v1735
  ![v1736.toNat]
def k1_off238 (v1737 : BitVec 32) : Fin 2 → Nat :=
  let c0_i32_1035 : BitVec 32 := 0#32
  ![v1737.toNat, 0]

def k1_chk119 (v1737 : BitVec 32) : Prop :=
  (∀ a, (k1_off238 v1737) a + S1x16384.size a ≤ S4096x16384.size a)
instance k1_chk119.dec : ∀ (v1737 : BitVec 32), Decidable (k1_chk119 v1737) := fun v1737 => decidable_of_iff' _ (Iff.of_eq (k1_chk119.eq_1 v1737))
theorem k1_off238_inb : ∀ (v1737 : BitVec 32) (k1_hw119 : k1_chk119 v1737), ∀ a, (k1_off238 v1737) a + S1x16384.size a ≤ S4096x16384.size a := fun v1737 k1_hw119 => k1_hw119

def k1_off239 (i : grid1.Coords) : Fin 1 → Nat :=
  let arg0 : BitVec 32 := BitVec.ofNat 32 (i 0).val
  let c128_i32 : BitVec 32 := 128#32
  let v0 : BitVec 32 := Scalar.muli arg0 c128_i32
  let c119_i32 : BitVec 32 := 119#32
  let v1744 : BitVec 32 := Scalar.addi v0 c119_i32
  let v1745 : Index := Scalar.indexCast v1744
  ![v1745.toNat]
def k1_off240 (v1746 : BitVec 32) : Fin 2 → Nat :=
  let c0_i32_1039 : BitVec 32 := 0#32
  ![v1746.toNat, 0]

def k1_chk120 (v1746 : BitVec 32) : Prop :=
  (∀ a, (k1_off240 v1746) a + S1x16384.size a ≤ S4096x16384.size a)
instance k1_chk120.dec : ∀ (v1746 : BitVec 32), Decidable (k1_chk120 v1746) := fun v1746 => decidable_of_iff' _ (Iff.of_eq (k1_chk120.eq_1 v1746))
theorem k1_off240_inb : ∀ (v1746 : BitVec 32) (k1_hw120 : k1_chk120 v1746), ∀ a, (k1_off240 v1746) a + S1x16384.size a ≤ S4096x16384.size a := fun v1746 k1_hw120 => k1_hw120

def k1_off241 (i : grid1.Coords) : Fin 1 → Nat :=
  let arg0 : BitVec 32 := BitVec.ofNat 32 (i 0).val
  let c128_i32 : BitVec 32 := 128#32
  let v0 : BitVec 32 := Scalar.muli arg0 c128_i32
  let c120_i32 : BitVec 32 := 120#32
  let v1753 : BitVec 32 := Scalar.addi v0 c120_i32
  let v1754 : Index := Scalar.indexCast v1753
  ![v1754.toNat]
def k1_off242 (v1755 : BitVec 32) : Fin 2 → Nat :=
  let c0_i32_1043 : BitVec 32 := 0#32
  ![v1755.toNat, 0]

def k1_chk121 (v1755 : BitVec 32) : Prop :=
  (∀ a, (k1_off242 v1755) a + S1x16384.size a ≤ S4096x16384.size a)
instance k1_chk121.dec : ∀ (v1755 : BitVec 32), Decidable (k1_chk121 v1755) := fun v1755 => decidable_of_iff' _ (Iff.of_eq (k1_chk121.eq_1 v1755))
theorem k1_off242_inb : ∀ (v1755 : BitVec 32) (k1_hw121 : k1_chk121 v1755), ∀ a, (k1_off242 v1755) a + S1x16384.size a ≤ S4096x16384.size a := fun v1755 k1_hw121 => k1_hw121

def k1_off243 (i : grid1.Coords) : Fin 1 → Nat :=
  let arg0 : BitVec 32 := BitVec.ofNat 32 (i 0).val
  let c128_i32 : BitVec 32 := 128#32
  let v0 : BitVec 32 := Scalar.muli arg0 c128_i32
  let c121_i32 : BitVec 32 := 121#32
  let v1762 : BitVec 32 := Scalar.addi v0 c121_i32
  let v1763 : Index := Scalar.indexCast v1762
  ![v1763.toNat]
def k1_off244 (v1764 : BitVec 32) : Fin 2 → Nat :=
  let c0_i32_1047 : BitVec 32 := 0#32
  ![v1764.toNat, 0]

def k1_chk122 (v1764 : BitVec 32) : Prop :=
  (∀ a, (k1_off244 v1764) a + S1x16384.size a ≤ S4096x16384.size a)
instance k1_chk122.dec : ∀ (v1764 : BitVec 32), Decidable (k1_chk122 v1764) := fun v1764 => decidable_of_iff' _ (Iff.of_eq (k1_chk122.eq_1 v1764))
theorem k1_off244_inb : ∀ (v1764 : BitVec 32) (k1_hw122 : k1_chk122 v1764), ∀ a, (k1_off244 v1764) a + S1x16384.size a ≤ S4096x16384.size a := fun v1764 k1_hw122 => k1_hw122

def k1_off245 (i : grid1.Coords) : Fin 1 → Nat :=
  let arg0 : BitVec 32 := BitVec.ofNat 32 (i 0).val
  let c128_i32 : BitVec 32 := 128#32
  let v0 : BitVec 32 := Scalar.muli arg0 c128_i32
  let c122_i32 : BitVec 32 := 122#32
  let v1771 : BitVec 32 := Scalar.addi v0 c122_i32
  let v1772 : Index := Scalar.indexCast v1771
  ![v1772.toNat]
def k1_off246 (v1773 : BitVec 32) : Fin 2 → Nat :=
  let c0_i32_1051 : BitVec 32 := 0#32
  ![v1773.toNat, 0]

def k1_chk123 (v1773 : BitVec 32) : Prop :=
  (∀ a, (k1_off246 v1773) a + S1x16384.size a ≤ S4096x16384.size a)
instance k1_chk123.dec : ∀ (v1773 : BitVec 32), Decidable (k1_chk123 v1773) := fun v1773 => decidable_of_iff' _ (Iff.of_eq (k1_chk123.eq_1 v1773))
theorem k1_off246_inb : ∀ (v1773 : BitVec 32) (k1_hw123 : k1_chk123 v1773), ∀ a, (k1_off246 v1773) a + S1x16384.size a ≤ S4096x16384.size a := fun v1773 k1_hw123 => k1_hw123

def k1_off247 (i : grid1.Coords) : Fin 1 → Nat :=
  let arg0 : BitVec 32 := BitVec.ofNat 32 (i 0).val
  let c128_i32 : BitVec 32 := 128#32
  let v0 : BitVec 32 := Scalar.muli arg0 c128_i32
  let c123_i32 : BitVec 32 := 123#32
  let v1780 : BitVec 32 := Scalar.addi v0 c123_i32
  let v1781 : Index := Scalar.indexCast v1780
  ![v1781.toNat]
def k1_off248 (v1782 : BitVec 32) : Fin 2 → Nat :=
  let c0_i32_1055 : BitVec 32 := 0#32
  ![v1782.toNat, 0]

def k1_chk124 (v1782 : BitVec 32) : Prop :=
  (∀ a, (k1_off248 v1782) a + S1x16384.size a ≤ S4096x16384.size a)
instance k1_chk124.dec : ∀ (v1782 : BitVec 32), Decidable (k1_chk124 v1782) := fun v1782 => decidable_of_iff' _ (Iff.of_eq (k1_chk124.eq_1 v1782))
theorem k1_off248_inb : ∀ (v1782 : BitVec 32) (k1_hw124 : k1_chk124 v1782), ∀ a, (k1_off248 v1782) a + S1x16384.size a ≤ S4096x16384.size a := fun v1782 k1_hw124 => k1_hw124

def k1_off249 (i : grid1.Coords) : Fin 1 → Nat :=
  let arg0 : BitVec 32 := BitVec.ofNat 32 (i 0).val
  let c128_i32 : BitVec 32 := 128#32
  let v0 : BitVec 32 := Scalar.muli arg0 c128_i32
  let c124_i32 : BitVec 32 := 124#32
  let v1789 : BitVec 32 := Scalar.addi v0 c124_i32
  let v1790 : Index := Scalar.indexCast v1789
  ![v1790.toNat]
def k1_off250 (v1791 : BitVec 32) : Fin 2 → Nat :=
  let c0_i32_1059 : BitVec 32 := 0#32
  ![v1791.toNat, 0]

def k1_chk125 (v1791 : BitVec 32) : Prop :=
  (∀ a, (k1_off250 v1791) a + S1x16384.size a ≤ S4096x16384.size a)
instance k1_chk125.dec : ∀ (v1791 : BitVec 32), Decidable (k1_chk125 v1791) := fun v1791 => decidable_of_iff' _ (Iff.of_eq (k1_chk125.eq_1 v1791))
theorem k1_off250_inb : ∀ (v1791 : BitVec 32) (k1_hw125 : k1_chk125 v1791), ∀ a, (k1_off250 v1791) a + S1x16384.size a ≤ S4096x16384.size a := fun v1791 k1_hw125 => k1_hw125

def k1_off251 (i : grid1.Coords) : Fin 1 → Nat :=
  let arg0 : BitVec 32 := BitVec.ofNat 32 (i 0).val
  let c128_i32 : BitVec 32 := 128#32
  let v0 : BitVec 32 := Scalar.muli arg0 c128_i32
  let c125_i32 : BitVec 32 := 125#32
  let v1798 : BitVec 32 := Scalar.addi v0 c125_i32
  let v1799 : Index := Scalar.indexCast v1798
  ![v1799.toNat]
def k1_off252 (v1800 : BitVec 32) : Fin 2 → Nat :=
  let c0_i32_1063 : BitVec 32 := 0#32
  ![v1800.toNat, 0]

def k1_chk126 (v1800 : BitVec 32) : Prop :=
  (∀ a, (k1_off252 v1800) a + S1x16384.size a ≤ S4096x16384.size a)
instance k1_chk126.dec : ∀ (v1800 : BitVec 32), Decidable (k1_chk126 v1800) := fun v1800 => decidable_of_iff' _ (Iff.of_eq (k1_chk126.eq_1 v1800))
theorem k1_off252_inb : ∀ (v1800 : BitVec 32) (k1_hw126 : k1_chk126 v1800), ∀ a, (k1_off252 v1800) a + S1x16384.size a ≤ S4096x16384.size a := fun v1800 k1_hw126 => k1_hw126

def k1_off253 (i : grid1.Coords) : Fin 1 → Nat :=
  let arg0 : BitVec 32 := BitVec.ofNat 32 (i 0).val
  let c128_i32 : BitVec 32 := 128#32
  let v0 : BitVec 32 := Scalar.muli arg0 c128_i32
  let c126_i32 : BitVec 32 := 126#32
  let v1807 : BitVec 32 := Scalar.addi v0 c126_i32
  let v1808 : Index := Scalar.indexCast v1807
  ![v1808.toNat]
def k1_off254 (v1809 : BitVec 32) : Fin 2 → Nat :=
  let c0_i32_1067 : BitVec 32 := 0#32
  ![v1809.toNat, 0]

def k1_chk127 (v1809 : BitVec 32) : Prop :=
  (∀ a, (k1_off254 v1809) a + S1x16384.size a ≤ S4096x16384.size a)
instance k1_chk127.dec : ∀ (v1809 : BitVec 32), Decidable (k1_chk127 v1809) := fun v1809 => decidable_of_iff' _ (Iff.of_eq (k1_chk127.eq_1 v1809))
theorem k1_off254_inb : ∀ (v1809 : BitVec 32) (k1_hw127 : k1_chk127 v1809), ∀ a, (k1_off254 v1809) a + S1x16384.size a ≤ S4096x16384.size a := fun v1809 k1_hw127 => k1_hw127

def k1_off255 (i : grid1.Coords) : Fin 1 → Nat :=
  let arg0 : BitVec 32 := BitVec.ofNat 32 (i 0).val
  let c128_i32 : BitVec 32 := 128#32
  let v0 : BitVec 32 := Scalar.muli arg0 c128_i32
  let c127_i32 : BitVec 32 := 127#32
  let v1816 : BitVec 32 := Scalar.addi v0 c127_i32
  let v1817 : Index := Scalar.indexCast v1816
  ![v1817.toNat]
def k1_off256 (v1818 : BitVec 32) : Fin 2 → Nat :=
  let c0_i32_1071 : BitVec 32 := 0#32
  ![v1818.toNat, 0]

def k1_chk128 (v1818 : BitVec 32) : Prop :=
  (∀ a, (k1_off256 v1818) a + S1x16384.size a ≤ S4096x16384.size a)
instance k1_chk128.dec : ∀ (v1818 : BitVec 32), Decidable (k1_chk128 v1818) := fun v1818 => decidable_of_iff' _ (Iff.of_eq (k1_chk128.eq_1 v1818))
theorem k1_off256_inb : ∀ (v1818 : BitVec 32) (k1_hw128 : k1_chk128 v1818), ∀ a, (k1_off256 v1818) a + S1x16384.size a ≤ S4096x16384.size a := fun v1818 k1_hw128 => k1_hw128

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S16384x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  transposes_S1024x1024_p1_0_S1024x1024 : S1024x1024.Transposes [1, 0] S1024x1024
  numel1_S1 : S1.numel = 1
  inb_S16_S1_0 : ∀ a, (![0] : Fin 1 → Nat) a + S1.size a ≤ S16.size a
  squeezes_S1_S_ : S1.Squeezes S_
  inb_S128x16384_S1x16384_0_0 : ∀ a, (![0, 0] : Fin 2 → Nat) a + S1x16384.size a ≤ S128x16384.size a
  squeezes_S1x16384_S16384 : S1x16384.Squeezes S16384
  inb_S16_S1_1 : ∀ a, (![1] : Fin 1 → Nat) a + S1.size a ≤ S16.size a
  inb_S128x16384_S1x16384_1_0 : ∀ a, (![1, 0] : Fin 2 → Nat) a + S1x16384.size a ≤ S128x16384.size a
  inb_S16_S1_2 : ∀ a, (![2] : Fin 1 → Nat) a + S1.size a ≤ S16.size a
  inb_S128x16384_S1x16384_2_0 : ∀ a, (![2, 0] : Fin 2 → Nat) a + S1x16384.size a ≤ S128x16384.size a
  inb_S16_S1_3 : ∀ a, (![3] : Fin 1 → Nat) a + S1.size a ≤ S16.size a
  inb_S128x16384_S1x16384_3_0 : ∀ a, (![3, 0] : Fin 2 → Nat) a + S1x16384.size a ≤ S128x16384.size a
  inb_S16_S1_4 : ∀ a, (![4] : Fin 1 → Nat) a + S1.size a ≤ S16.size a
  inb_S128x16384_S1x16384_4_0 : ∀ a, (![4, 0] : Fin 2 → Nat) a + S1x16384.size a ≤ S128x16384.size a
  inb_S16_S1_5 : ∀ a, (![5] : Fin 1 → Nat) a + S1.size a ≤ S16.size a
  inb_S128x16384_S1x16384_5_0 : ∀ a, (![5, 0] : Fin 2 → Nat) a + S1x16384.size a ≤ S128x16384.size a
  inb_S16_S1_6 : ∀ a, (![6] : Fin 1 → Nat) a + S1.size a ≤ S16.size a
  inb_S128x16384_S1x16384_6_0 : ∀ a, (![6, 0] : Fin 2 → Nat) a + S1x16384.size a ≤ S128x16384.size a
  inb_S16_S1_7 : ∀ a, (![7] : Fin 1 → Nat) a + S1.size a ≤ S16.size a
  inb_S128x16384_S1x16384_7_0 : ∀ a, (![7, 0] : Fin 2 → Nat) a + S1x16384.size a ≤ S128x16384.size a
  inb_S16_S1_8 : ∀ a, (![8] : Fin 1 → Nat) a + S1.size a ≤ S16.size a
  inb_S128x16384_S1x16384_8_0 : ∀ a, (![8, 0] : Fin 2 → Nat) a + S1x16384.size a ≤ S128x16384.size a
  inb_S16_S1_9 : ∀ a, (![9] : Fin 1 → Nat) a + S1.size a ≤ S16.size a
  inb_S128x16384_S1x16384_9_0 : ∀ a, (![9, 0] : Fin 2 → Nat) a + S1x16384.size a ≤ S128x16384.size a
  inb_S16_S1_10 : ∀ a, (![10] : Fin 1 → Nat) a + S1.size a ≤ S16.size a
  inb_S128x16384_S1x16384_10_0 : ∀ a, (![10, 0] : Fin 2 → Nat) a + S1x16384.size a ≤ S128x16384.size a
  inb_S16_S1_11 : ∀ a, (![11] : Fin 1 → Nat) a + S1.size a ≤ S16.size a
  inb_S128x16384_S1x16384_11_0 : ∀ a, (![11, 0] : Fin 2 → Nat) a + S1x16384.size a ≤ S128x16384.size a
  inb_S16_S1_12 : ∀ a, (![12] : Fin 1 → Nat) a + S1.size a ≤ S16.size a
  inb_S128x16384_S1x16384_12_0 : ∀ a, (![12, 0] : Fin 2 → Nat) a + S1x16384.size a ≤ S128x16384.size a
  inb_S16_S1_13 : ∀ a, (![13] : Fin 1 → Nat) a + S1.size a ≤ S16.size a
  inb_S128x16384_S1x16384_13_0 : ∀ a, (![13, 0] : Fin 2 → Nat) a + S1x16384.size a ≤ S128x16384.size a
  inb_S16_S1_14 : ∀ a, (![14] : Fin 1 → Nat) a + S1.size a ≤ S16.size a
  inb_S128x16384_S1x16384_14_0 : ∀ a, (![14, 0] : Fin 2 → Nat) a + S1x16384.size a ≤ S128x16384.size a
  inb_S16_S1_15 : ∀ a, (![15] : Fin 1 → Nat) a + S1.size a ≤ S16.size a
  inb_S128x16384_S1x16384_15_0 : ∀ a, (![15, 0] : Fin 2 → Nat) a + S1x16384.size a ≤ S128x16384.size a
  inb_S4096x16384_S1x16384_0_0 : ∀ a, (![0, 0] : Fin 2 → Nat) a + S1x16384.size a ≤ S4096x16384.size a
  inb_S128x16384_S1x16384_16_0 : ∀ a, (![16, 0] : Fin 2 → Nat) a + S1x16384.size a ≤ S128x16384.size a
  inb_S128x16384_S1x16384_17_0 : ∀ a, (![17, 0] : Fin 2 → Nat) a + S1x16384.size a ≤ S128x16384.size a
  inb_S128x16384_S1x16384_18_0 : ∀ a, (![18, 0] : Fin 2 → Nat) a + S1x16384.size a ≤ S128x16384.size a
  inb_S128x16384_S1x16384_19_0 : ∀ a, (![19, 0] : Fin 2 → Nat) a + S1x16384.size a ≤ S128x16384.size a
  inb_S128x16384_S1x16384_20_0 : ∀ a, (![20, 0] : Fin 2 → Nat) a + S1x16384.size a ≤ S128x16384.size a
  inb_S128x16384_S1x16384_21_0 : ∀ a, (![21, 0] : Fin 2 → Nat) a + S1x16384.size a ≤ S128x16384.size a
  inb_S128x16384_S1x16384_22_0 : ∀ a, (![22, 0] : Fin 2 → Nat) a + S1x16384.size a ≤ S128x16384.size a
  inb_S128x16384_S1x16384_23_0 : ∀ a, (![23, 0] : Fin 2 → Nat) a + S1x16384.size a ≤ S128x16384.size a
  inb_S128x16384_S1x16384_24_0 : ∀ a, (![24, 0] : Fin 2 → Nat) a + S1x16384.size a ≤ S128x16384.size a
  inb_S128x16384_S1x16384_25_0 : ∀ a, (![25, 0] : Fin 2 → Nat) a + S1x16384.size a ≤ S128x16384.size a
  inb_S128x16384_S1x16384_26_0 : ∀ a, (![26, 0] : Fin 2 → Nat) a + S1x16384.size a ≤ S128x16384.size a
  inb_S128x16384_S1x16384_27_0 : ∀ a, (![27, 0] : Fin 2 → Nat) a + S1x16384.size a ≤ S128x16384.size a
  inb_S128x16384_S1x16384_28_0 : ∀ a, (![28, 0] : Fin 2 → Nat) a + S1x16384.size a ≤ S128x16384.size a
  inb_S128x16384_S1x16384_29_0 : ∀ a, (![29, 0] : Fin 2 → Nat) a + S1x16384.size a ≤ S128x16384.size a
  inb_S128x16384_S1x16384_30_0 : ∀ a, (![30, 0] : Fin 2 → Nat) a + S1x16384.size a ≤ S128x16384.size a
  inb_S128x16384_S1x16384_31_0 : ∀ a, (![31, 0] : Fin 2 → Nat) a + S1x16384.size a ≤ S128x16384.size a
  inb_S128x16384_S1x16384_32_0 : ∀ a, (![32, 0] : Fin 2 → Nat) a + S1x16384.size a ≤ S128x16384.size a
  inb_S128x16384_S1x16384_33_0 : ∀ a, (![33, 0] : Fin 2 → Nat) a + S1x16384.size a ≤ S128x16384.size a
  inb_S128x16384_S1x16384_34_0 : ∀ a, (![34, 0] : Fin 2 → Nat) a + S1x16384.size a ≤ S128x16384.size a
  inb_S128x16384_S1x16384_35_0 : ∀ a, (![35, 0] : Fin 2 → Nat) a + S1x16384.size a ≤ S128x16384.size a
  inb_S128x16384_S1x16384_36_0 : ∀ a, (![36, 0] : Fin 2 → Nat) a + S1x16384.size a ≤ S128x16384.size a
  inb_S128x16384_S1x16384_37_0 : ∀ a, (![37, 0] : Fin 2 → Nat) a + S1x16384.size a ≤ S128x16384.size a
  inb_S128x16384_S1x16384_38_0 : ∀ a, (![38, 0] : Fin 2 → Nat) a + S1x16384.size a ≤ S128x16384.size a
  inb_S128x16384_S1x16384_39_0 : ∀ a, (![39, 0] : Fin 2 → Nat) a + S1x16384.size a ≤ S128x16384.size a
  inb_S128x16384_S1x16384_40_0 : ∀ a, (![40, 0] : Fin 2 → Nat) a + S1x16384.size a ≤ S128x16384.size a
  inb_S128x16384_S1x16384_41_0 : ∀ a, (![41, 0] : Fin 2 → Nat) a + S1x16384.size a ≤ S128x16384.size a
  inb_S128x16384_S1x16384_42_0 : ∀ a, (![42, 0] : Fin 2 → Nat) a + S1x16384.size a ≤ S128x16384.size a
  inb_S128x16384_S1x16384_43_0 : ∀ a, (![43, 0] : Fin 2 → Nat) a + S1x16384.size a ≤ S128x16384.size a
  inb_S128x16384_S1x16384_44_0 : ∀ a, (![44, 0] : Fin 2 → Nat) a + S1x16384.size a ≤ S128x16384.size a
  inb_S128x16384_S1x16384_45_0 : ∀ a, (![45, 0] : Fin 2 → Nat) a + S1x16384.size a ≤ S128x16384.size a
  inb_S128x16384_S1x16384_46_0 : ∀ a, (![46, 0] : Fin 2 → Nat) a + S1x16384.size a ≤ S128x16384.size a
  inb_S128x16384_S1x16384_47_0 : ∀ a, (![47, 0] : Fin 2 → Nat) a + S1x16384.size a ≤ S128x16384.size a
  inb_S128x16384_S1x16384_48_0 : ∀ a, (![48, 0] : Fin 2 → Nat) a + S1x16384.size a ≤ S128x16384.size a
  inb_S128x16384_S1x16384_49_0 : ∀ a, (![49, 0] : Fin 2 → Nat) a + S1x16384.size a ≤ S128x16384.size a
  inb_S128x16384_S1x16384_50_0 : ∀ a, (![50, 0] : Fin 2 → Nat) a + S1x16384.size a ≤ S128x16384.size a
  inb_S128x16384_S1x16384_51_0 : ∀ a, (![51, 0] : Fin 2 → Nat) a + S1x16384.size a ≤ S128x16384.size a
  inb_S128x16384_S1x16384_52_0 : ∀ a, (![52, 0] : Fin 2 → Nat) a + S1x16384.size a ≤ S128x16384.size a
  inb_S128x16384_S1x16384_53_0 : ∀ a, (![53, 0] : Fin 2 → Nat) a + S1x16384.size a ≤ S128x16384.size a
  inb_S128x16384_S1x16384_54_0 : ∀ a, (![54, 0] : Fin 2 → Nat) a + S1x16384.size a ≤ S128x16384.size a
  inb_S128x16384_S1x16384_55_0 : ∀ a, (![55, 0] : Fin 2 → Nat) a + S1x16384.size a ≤ S128x16384.size a
  inb_S128x16384_S1x16384_56_0 : ∀ a, (![56, 0] : Fin 2 → Nat) a + S1x16384.size a ≤ S128x16384.size a
  inb_S128x16384_S1x16384_57_0 : ∀ a, (![57, 0] : Fin 2 → Nat) a + S1x16384.size a ≤ S128x16384.size a
  inb_S128x16384_S1x16384_58_0 : ∀ a, (![58, 0] : Fin 2 → Nat) a + S1x16384.size a ≤ S128x16384.size a
  inb_S128x16384_S1x16384_59_0 : ∀ a, (![59, 0] : Fin 2 → Nat) a + S1x16384.size a ≤ S128x16384.size a
  inb_S128x16384_S1x16384_60_0 : ∀ a, (![60, 0] : Fin 2 → Nat) a + S1x16384.size a ≤ S128x16384.size a
  inb_S128x16384_S1x16384_61_0 : ∀ a, (![61, 0] : Fin 2 → Nat) a + S1x16384.size a ≤ S128x16384.size a
  inb_S128x16384_S1x16384_62_0 : ∀ a, (![62, 0] : Fin 2 → Nat) a + S1x16384.size a ≤ S128x16384.size a
  inb_S128x16384_S1x16384_63_0 : ∀ a, (![63, 0] : Fin 2 → Nat) a + S1x16384.size a ≤ S128x16384.size a
  inb_S128x16384_S1x16384_64_0 : ∀ a, (![64, 0] : Fin 2 → Nat) a + S1x16384.size a ≤ S128x16384.size a
  inb_S128x16384_S1x16384_65_0 : ∀ a, (![65, 0] : Fin 2 → Nat) a + S1x16384.size a ≤ S128x16384.size a
  inb_S128x16384_S1x16384_66_0 : ∀ a, (![66, 0] : Fin 2 → Nat) a + S1x16384.size a ≤ S128x16384.size a
  inb_S128x16384_S1x16384_67_0 : ∀ a, (![67, 0] : Fin 2 → Nat) a + S1x16384.size a ≤ S128x16384.size a
  inb_S128x16384_S1x16384_68_0 : ∀ a, (![68, 0] : Fin 2 → Nat) a + S1x16384.size a ≤ S128x16384.size a
  inb_S128x16384_S1x16384_69_0 : ∀ a, (![69, 0] : Fin 2 → Nat) a + S1x16384.size a ≤ S128x16384.size a
  inb_S128x16384_S1x16384_70_0 : ∀ a, (![70, 0] : Fin 2 → Nat) a + S1x16384.size a ≤ S128x16384.size a
  inb_S128x16384_S1x16384_71_0 : ∀ a, (![71, 0] : Fin 2 → Nat) a + S1x16384.size a ≤ S128x16384.size a
  inb_S128x16384_S1x16384_72_0 : ∀ a, (![72, 0] : Fin 2 → Nat) a + S1x16384.size a ≤ S128x16384.size a
  inb_S128x16384_S1x16384_73_0 : ∀ a, (![73, 0] : Fin 2 → Nat) a + S1x16384.size a ≤ S128x16384.size a
  inb_S128x16384_S1x16384_74_0 : ∀ a, (![74, 0] : Fin 2 → Nat) a + S1x16384.size a ≤ S128x16384.size a
  inb_S128x16384_S1x16384_75_0 : ∀ a, (![75, 0] : Fin 2 → Nat) a + S1x16384.size a ≤ S128x16384.size a
  inb_S128x16384_S1x16384_76_0 : ∀ a, (![76, 0] : Fin 2 → Nat) a + S1x16384.size a ≤ S128x16384.size a
  inb_S128x16384_S1x16384_77_0 : ∀ a, (![77, 0] : Fin 2 → Nat) a + S1x16384.size a ≤ S128x16384.size a
  inb_S128x16384_S1x16384_78_0 : ∀ a, (![78, 0] : Fin 2 → Nat) a + S1x16384.size a ≤ S128x16384.size a
  inb_S128x16384_S1x16384_79_0 : ∀ a, (![79, 0] : Fin 2 → Nat) a + S1x16384.size a ≤ S128x16384.size a
  inb_S128x16384_S1x16384_80_0 : ∀ a, (![80, 0] : Fin 2 → Nat) a + S1x16384.size a ≤ S128x16384.size a
  inb_S128x16384_S1x16384_81_0 : ∀ a, (![81, 0] : Fin 2 → Nat) a + S1x16384.size a ≤ S128x16384.size a
  inb_S128x16384_S1x16384_82_0 : ∀ a, (![82, 0] : Fin 2 → Nat) a + S1x16384.size a ≤ S128x16384.size a
  inb_S128x16384_S1x16384_83_0 : ∀ a, (![83, 0] : Fin 2 → Nat) a + S1x16384.size a ≤ S128x16384.size a
  inb_S128x16384_S1x16384_84_0 : ∀ a, (![84, 0] : Fin 2 → Nat) a + S1x16384.size a ≤ S128x16384.size a
  inb_S128x16384_S1x16384_85_0 : ∀ a, (![85, 0] : Fin 2 → Nat) a + S1x16384.size a ≤ S128x16384.size a
  inb_S128x16384_S1x16384_86_0 : ∀ a, (![86, 0] : Fin 2 → Nat) a + S1x16384.size a ≤ S128x16384.size a
  inb_S128x16384_S1x16384_87_0 : ∀ a, (![87, 0] : Fin 2 → Nat) a + S1x16384.size a ≤ S128x16384.size a
  inb_S128x16384_S1x16384_88_0 : ∀ a, (![88, 0] : Fin 2 → Nat) a + S1x16384.size a ≤ S128x16384.size a
  inb_S128x16384_S1x16384_89_0 : ∀ a, (![89, 0] : Fin 2 → Nat) a + S1x16384.size a ≤ S128x16384.size a
  inb_S128x16384_S1x16384_90_0 : ∀ a, (![90, 0] : Fin 2 → Nat) a + S1x16384.size a ≤ S128x16384.size a
  inb_S128x16384_S1x16384_91_0 : ∀ a, (![91, 0] : Fin 2 → Nat) a + S1x16384.size a ≤ S128x16384.size a
  inb_S128x16384_S1x16384_92_0 : ∀ a, (![92, 0] : Fin 2 → Nat) a + S1x16384.size a ≤ S128x16384.size a
  inb_S128x16384_S1x16384_93_0 : ∀ a, (![93, 0] : Fin 2 → Nat) a + S1x16384.size a ≤ S128x16384.size a
  inb_S128x16384_S1x16384_94_0 : ∀ a, (![94, 0] : Fin 2 → Nat) a + S1x16384.size a ≤ S128x16384.size a
  inb_S128x16384_S1x16384_95_0 : ∀ a, (![95, 0] : Fin 2 → Nat) a + S1x16384.size a ≤ S128x16384.size a
  inb_S128x16384_S1x16384_96_0 : ∀ a, (![96, 0] : Fin 2 → Nat) a + S1x16384.size a ≤ S128x16384.size a
  inb_S128x16384_S1x16384_97_0 : ∀ a, (![97, 0] : Fin 2 → Nat) a + S1x16384.size a ≤ S128x16384.size a
  inb_S128x16384_S1x16384_98_0 : ∀ a, (![98, 0] : Fin 2 → Nat) a + S1x16384.size a ≤ S128x16384.size a
  inb_S128x16384_S1x16384_99_0 : ∀ a, (![99, 0] : Fin 2 → Nat) a + S1x16384.size a ≤ S128x16384.size a
  inb_S128x16384_S1x16384_100_0 : ∀ a, (![100, 0] : Fin 2 → Nat) a + S1x16384.size a ≤ S128x16384.size a
  inb_S128x16384_S1x16384_101_0 : ∀ a, (![101, 0] : Fin 2 → Nat) a + S1x16384.size a ≤ S128x16384.size a
  inb_S128x16384_S1x16384_102_0 : ∀ a, (![102, 0] : Fin 2 → Nat) a + S1x16384.size a ≤ S128x16384.size a
  inb_S128x16384_S1x16384_103_0 : ∀ a, (![103, 0] : Fin 2 → Nat) a + S1x16384.size a ≤ S128x16384.size a
  inb_S128x16384_S1x16384_104_0 : ∀ a, (![104, 0] : Fin 2 → Nat) a + S1x16384.size a ≤ S128x16384.size a
  inb_S128x16384_S1x16384_105_0 : ∀ a, (![105, 0] : Fin 2 → Nat) a + S1x16384.size a ≤ S128x16384.size a
  inb_S128x16384_S1x16384_106_0 : ∀ a, (![106, 0] : Fin 2 → Nat) a + S1x16384.size a ≤ S128x16384.size a
  inb_S128x16384_S1x16384_107_0 : ∀ a, (![107, 0] : Fin 2 → Nat) a + S1x16384.size a ≤ S128x16384.size a
  inb_S128x16384_S1x16384_108_0 : ∀ a, (![108, 0] : Fin 2 → Nat) a + S1x16384.size a ≤ S128x16384.size a
  inb_S128x16384_S1x16384_109_0 : ∀ a, (![109, 0] : Fin 2 → Nat) a + S1x16384.size a ≤ S128x16384.size a
  inb_S128x16384_S1x16384_110_0 : ∀ a, (![110, 0] : Fin 2 → Nat) a + S1x16384.size a ≤ S128x16384.size a
  inb_S128x16384_S1x16384_111_0 : ∀ a, (![111, 0] : Fin 2 → Nat) a + S1x16384.size a ≤ S128x16384.size a
  inb_S128x16384_S1x16384_112_0 : ∀ a, (![112, 0] : Fin 2 → Nat) a + S1x16384.size a ≤ S128x16384.size a
  inb_S128x16384_S1x16384_113_0 : ∀ a, (![113, 0] : Fin 2 → Nat) a + S1x16384.size a ≤ S128x16384.size a
  inb_S128x16384_S1x16384_114_0 : ∀ a, (![114, 0] : Fin 2 → Nat) a + S1x16384.size a ≤ S128x16384.size a
  inb_S128x16384_S1x16384_115_0 : ∀ a, (![115, 0] : Fin 2 → Nat) a + S1x16384.size a ≤ S128x16384.size a
  inb_S128x16384_S1x16384_116_0 : ∀ a, (![116, 0] : Fin 2 → Nat) a + S1x16384.size a ≤ S128x16384.size a
  inb_S128x16384_S1x16384_117_0 : ∀ a, (![117, 0] : Fin 2 → Nat) a + S1x16384.size a ≤ S128x16384.size a
  inb_S128x16384_S1x16384_118_0 : ∀ a, (![118, 0] : Fin 2 → Nat) a + S1x16384.size a ≤ S128x16384.size a
  inb_S128x16384_S1x16384_119_0 : ∀ a, (![119, 0] : Fin 2 → Nat) a + S1x16384.size a ≤ S128x16384.size a
  inb_S128x16384_S1x16384_120_0 : ∀ a, (![120, 0] : Fin 2 → Nat) a + S1x16384.size a ≤ S128x16384.size a
  inb_S128x16384_S1x16384_121_0 : ∀ a, (![121, 0] : Fin 2 → Nat) a + S1x16384.size a ≤ S128x16384.size a
  inb_S128x16384_S1x16384_122_0 : ∀ a, (![122, 0] : Fin 2 → Nat) a + S1x16384.size a ≤ S128x16384.size a
  inb_S128x16384_S1x16384_123_0 : ∀ a, (![123, 0] : Fin 2 → Nat) a + S1x16384.size a ≤ S128x16384.size a
  inb_S128x16384_S1x16384_124_0 : ∀ a, (![124, 0] : Fin 2 → Nat) a + S1x16384.size a ≤ S128x16384.size a
  inb_S128x16384_S1x16384_125_0 : ∀ a, (![125, 0] : Fin 2 → Nat) a + S1x16384.size a ≤ S128x16384.size a
  inb_S128x16384_S1x16384_126_0 : ∀ a, (![126, 0] : Fin 2 → Nat) a + S1x16384.size a ≤ S128x16384.size a
  inb_S128x16384_S1x16384_127_0 : ∀ a, (![127, 0] : Fin 2 → Nat) a + S1x16384.size a ≤ S128x16384.size a
  inb_S128x16384_S128x2048_0_0 : ∀ a, (![0, 0] : Fin 2 → Nat) a + S128x2048.size a ≤ S128x16384.size a
  h_S128x2048 : 0 < S128x2048.numel
  transposes_S128x2048_p1_0_S2048x128 : S128x2048.Transposes [1, 0] S2048x128
  inb_S16384x128_S2048x128_0_0 : ∀ a, (![0, 0] : Fin 2 → Nat) a + S2048x128.size a ≤ S16384x128.size a
  h_S2048x128 : 0 < S2048x128.numel
  inb_S128x16384_S128x2048_0_2048 : ∀ a, (![0, 2048] : Fin 2 → Nat) a + S128x2048.size a ≤ S128x16384.size a
  inb_S16384x128_S2048x128_2048_0 : ∀ a, (![2048, 0] : Fin 2 → Nat) a + S2048x128.size a ≤ S16384x128.size a
  inb_S128x16384_S128x2048_0_4096 : ∀ a, (![0, 4096] : Fin 2 → Nat) a + S128x2048.size a ≤ S128x16384.size a
  inb_S16384x128_S2048x128_4096_0 : ∀ a, (![4096, 0] : Fin 2 → Nat) a + S2048x128.size a ≤ S16384x128.size a
  inb_S128x16384_S128x2048_0_6144 : ∀ a, (![0, 6144] : Fin 2 → Nat) a + S128x2048.size a ≤ S128x16384.size a
  inb_S16384x128_S2048x128_6144_0 : ∀ a, (![6144, 0] : Fin 2 → Nat) a + S2048x128.size a ≤ S16384x128.size a
  inb_S128x16384_S128x2048_0_8192 : ∀ a, (![0, 8192] : Fin 2 → Nat) a + S128x2048.size a ≤ S128x16384.size a
  inb_S16384x128_S2048x128_8192_0 : ∀ a, (![8192, 0] : Fin 2 → Nat) a + S2048x128.size a ≤ S16384x128.size a
  inb_S128x16384_S128x2048_0_10240 : ∀ a, (![0, 10240] : Fin 2 → Nat) a + S128x2048.size a ≤ S128x16384.size a
  inb_S16384x128_S2048x128_10240_0 : ∀ a, (![10240, 0] : Fin 2 → Nat) a + S2048x128.size a ≤ S16384x128.size a
  inb_S128x16384_S128x2048_0_12288 : ∀ a, (![0, 12288] : Fin 2 → Nat) a + S128x2048.size a ≤ S128x16384.size a
  inb_S16384x128_S2048x128_12288_0 : ∀ a, (![12288, 0] : Fin 2 → Nat) a + S2048x128.size a ≤ S16384x128.size a
  inb_S128x16384_S128x2048_0_14336 : ∀ a, (![0, 14336] : Fin 2 → Nat) a + S128x2048.size a ≤ S128x16384.size a
  inb_S16384x128_S2048x128_14336_0 : ∀ a, (![14336, 0] : Fin 2 → Nat) a + S2048x128.size a ≤ S16384x128.size a
  hcc1_scratch1 : 6 + S16.numel ≤ 22
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .f32 = 32 ∨ (Rect.block (s := S16384x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x16384.size a
  hwx0_1 : ∀ i : grid0.Coords, EltTy.bits .f32 = 32 ∨ (Rect.block (s := S4096x16384) S1024x1024.size (cc0_transform_1 i) (hinb0_1 i)).WholeWords (EltTy.packing .f32)
  hrank1 : 0 < grid1.rank
  k1_off1_inb : ∀ i : grid1.Coords, ∀ a, (k1_off1 i) a + S1.size a ≤ S4096.size a
  k1_off3_inb : ∀ i : grid1.Coords, ∀ a, (k1_off3 i) a + S1.size a ≤ S4096.size a
  k1_off5_inb : ∀ i : grid1.Coords, ∀ a, (k1_off5 i) a + S1.size a ≤ S4096.size a
  k1_off7_inb : ∀ i : grid1.Coords, ∀ a, (k1_off7 i) a + S1.size a ≤ S4096.size a
  k1_off9_inb : ∀ i : grid1.Coords, ∀ a, (k1_off9 i) a + S1.size a ≤ S4096.size a
  k1_off11_inb : ∀ i : grid1.Coords, ∀ a, (k1_off11 i) a + S1.size a ≤ S4096.size a
  k1_off13_inb : ∀ i : grid1.Coords, ∀ a, (k1_off13 i) a + S1.size a ≤ S4096.size a
  k1_off15_inb : ∀ i : grid1.Coords, ∀ a, (k1_off15 i) a + S1.size a ≤ S4096.size a
  k1_off17_inb : ∀ i : grid1.Coords, ∀ a, (k1_off17 i) a + S1.size a ≤ S4096.size a
  k1_off19_inb : ∀ i : grid1.Coords, ∀ a, (k1_off19 i) a + S1.size a ≤ S4096.size a
  k1_off21_inb : ∀ i : grid1.Coords, ∀ a, (k1_off21 i) a + S1.size a ≤ S4096.size a
  k1_off23_inb : ∀ i : grid1.Coords, ∀ a, (k1_off23 i) a + S1.size a ≤ S4096.size a
  k1_off25_inb : ∀ i : grid1.Coords, ∀ a, (k1_off25 i) a + S1.size a ≤ S4096.size a
  k1_off27_inb : ∀ i : grid1.Coords, ∀ a, (k1_off27 i) a + S1.size a ≤ S4096.size a
  k1_off29_inb : ∀ i : grid1.Coords, ∀ a, (k1_off29 i) a + S1.size a ≤ S4096.size a
  k1_off31_inb : ∀ i : grid1.Coords, ∀ a, (k1_off31 i) a + S1.size a ≤ S4096.size a
  k1_off33_inb : ∀ i : grid1.Coords, ∀ a, (k1_off33 i) a + S1.size a ≤ S4096.size a
  k1_off35_inb : ∀ i : grid1.Coords, ∀ a, (k1_off35 i) a + S1.size a ≤ S4096.size a
  k1_off37_inb : ∀ i : grid1.Coords, ∀ a, (k1_off37 i) a + S1.size a ≤ S4096.size a
  k1_off39_inb : ∀ i : grid1.Coords, ∀ a, (k1_off39 i) a + S1.size a ≤ S4096.size a
  k1_off41_inb : ∀ i : grid1.Coords, ∀ a, (k1_off41 i) a + S1.size a ≤ S4096.size a
  k1_off43_inb : ∀ i : grid1.Coords, ∀ a, (k1_off43 i) a + S1.size a ≤ S4096.size a
  k1_off45_inb : ∀ i : grid1.Coords, ∀ a, (k1_off45 i) a + S1.size a ≤ S4096.size a
  k1_off47_inb : ∀ i : grid1.Coords, ∀ a, (k1_off47 i) a + S1.size a ≤ S4096.size a
  k1_off49_inb : ∀ i : grid1.Coords, ∀ a, (k1_off49 i) a + S1.size a ≤ S4096.size a
  k1_off51_inb : ∀ i : grid1.Coords, ∀ a, (k1_off51 i) a + S1.size a ≤ S4096.size a
  k1_off53_inb : ∀ i : grid1.Coords, ∀ a, (k1_off53 i) a + S1.size a ≤ S4096.size a
  k1_off55_inb : ∀ i : grid1.Coords, ∀ a, (k1_off55 i) a + S1.size a ≤ S4096.size a
  k1_off57_inb : ∀ i : grid1.Coords, ∀ a, (k1_off57 i) a + S1.size a ≤ S4096.size a
  k1_off59_inb : ∀ i : grid1.Coords, ∀ a, (k1_off59 i) a + S1.size a ≤ S4096.size a
  k1_off61_inb : ∀ i : grid1.Coords, ∀ a, (k1_off61 i) a + S1.size a ≤ S4096.size a
  k1_off63_inb : ∀ i : grid1.Coords, ∀ a, (k1_off63 i) a + S1.size a ≤ S4096.size a
  k1_off65_inb : ∀ i : grid1.Coords, ∀ a, (k1_off65 i) a + S1.size a ≤ S4096.size a
  k1_off67_inb : ∀ i : grid1.Coords, ∀ a, (k1_off67 i) a + S1.size a ≤ S4096.size a
  k1_off69_inb : ∀ i : grid1.Coords, ∀ a, (k1_off69 i) a + S1.size a ≤ S4096.size a
  k1_off71_inb : ∀ i : grid1.Coords, ∀ a, (k1_off71 i) a + S1.size a ≤ S4096.size a
  k1_off73_inb : ∀ i : grid1.Coords, ∀ a, (k1_off73 i) a + S1.size a ≤ S4096.size a
  k1_off75_inb : ∀ i : grid1.Coords, ∀ a, (k1_off75 i) a + S1.size a ≤ S4096.size a
  k1_off77_inb : ∀ i : grid1.Coords, ∀ a, (k1_off77 i) a + S1.size a ≤ S4096.size a
  k1_off79_inb : ∀ i : grid1.Coords, ∀ a, (k1_off79 i) a + S1.size a ≤ S4096.size a
  k1_off81_inb : ∀ i : grid1.Coords, ∀ a, (k1_off81 i) a + S1.size a ≤ S4096.size a
  k1_off83_inb : ∀ i : grid1.Coords, ∀ a, (k1_off83 i) a + S1.size a ≤ S4096.size a
  k1_off85_inb : ∀ i : grid1.Coords, ∀ a, (k1_off85 i) a + S1.size a ≤ S4096.size a
  k1_off87_inb : ∀ i : grid1.Coords, ∀ a, (k1_off87 i) a + S1.size a ≤ S4096.size a
  k1_off89_inb : ∀ i : grid1.Coords, ∀ a, (k1_off89 i) a + S1.size a ≤ S4096.size a
  k1_off91_inb : ∀ i : grid1.Coords, ∀ a, (k1_off91 i) a + S1.size a ≤ S4096.size a
  k1_off93_inb : ∀ i : grid1.Coords, ∀ a, (k1_off93 i) a + S1.size a ≤ S4096.size a
  k1_off95_inb : ∀ i : grid1.Coords, ∀ a, (k1_off95 i) a + S1.size a ≤ S4096.size a
  k1_off97_inb : ∀ i : grid1.Coords, ∀ a, (k1_off97 i) a + S1.size a ≤ S4096.size a
  k1_off99_inb : ∀ i : grid1.Coords, ∀ a, (k1_off99 i) a + S1.size a ≤ S4096.size a
  k1_off101_inb : ∀ i : grid1.Coords, ∀ a, (k1_off101 i) a + S1.size a ≤ S4096.size a
  k1_off103_inb : ∀ i : grid1.Coords, ∀ a, (k1_off103 i) a + S1.size a ≤ S4096.size a
  k1_off105_inb : ∀ i : grid1.Coords, ∀ a, (k1_off105 i) a + S1.size a ≤ S4096.size a
  k1_off107_inb : ∀ i : grid1.Coords, ∀ a, (k1_off107 i) a + S1.size a ≤ S4096.size a
  k1_off109_inb : ∀ i : grid1.Coords, ∀ a, (k1_off109 i) a + S1.size a ≤ S4096.size a
  k1_off111_inb : ∀ i : grid1.Coords, ∀ a, (k1_off111 i) a + S1.size a ≤ S4096.size a
  k1_off113_inb : ∀ i : grid1.Coords, ∀ a, (k1_off113 i) a + S1.size a ≤ S4096.size a
  k1_off115_inb : ∀ i : grid1.Coords, ∀ a, (k1_off115 i) a + S1.size a ≤ S4096.size a
  k1_off117_inb : ∀ i : grid1.Coords, ∀ a, (k1_off117 i) a + S1.size a ≤ S4096.size a
  k1_off119_inb : ∀ i : grid1.Coords, ∀ a, (k1_off119 i) a + S1.size a ≤ S4096.size a
  k1_off121_inb : ∀ i : grid1.Coords, ∀ a, (k1_off121 i) a + S1.size a ≤ S4096.size a
  k1_off123_inb : ∀ i : grid1.Coords, ∀ a, (k1_off123 i) a + S1.size a ≤ S4096.size a
  k1_off125_inb : ∀ i : grid1.Coords, ∀ a, (k1_off125 i) a + S1.size a ≤ S4096.size a
  k1_off127_inb : ∀ i : grid1.Coords, ∀ a, (k1_off127 i) a + S1.size a ≤ S4096.size a
  k1_off129_inb : ∀ i : grid1.Coords, ∀ a, (k1_off129 i) a + S1.size a ≤ S4096.size a
  k1_off131_inb : ∀ i : grid1.Coords, ∀ a, (k1_off131 i) a + S1.size a ≤ S4096.size a
  k1_off133_inb : ∀ i : grid1.Coords, ∀ a, (k1_off133 i) a + S1.size a ≤ S4096.size a
  k1_off135_inb : ∀ i : grid1.Coords, ∀ a, (k1_off135 i) a + S1.size a ≤ S4096.size a
  k1_off137_inb : ∀ i : grid1.Coords, ∀ a, (k1_off137 i) a + S1.size a ≤ S4096.size a
  k1_off139_inb : ∀ i : grid1.Coords, ∀ a, (k1_off139 i) a + S1.size a ≤ S4096.size a
  k1_off141_inb : ∀ i : grid1.Coords, ∀ a, (k1_off141 i) a + S1.size a ≤ S4096.size a
  k1_off143_inb : ∀ i : grid1.Coords, ∀ a, (k1_off143 i) a + S1.size a ≤ S4096.size a
  k1_off145_inb : ∀ i : grid1.Coords, ∀ a, (k1_off145 i) a + S1.size a ≤ S4096.size a
  k1_off147_inb : ∀ i : grid1.Coords, ∀ a, (k1_off147 i) a + S1.size a ≤ S4096.size a
  k1_off149_inb : ∀ i : grid1.Coords, ∀ a, (k1_off149 i) a + S1.size a ≤ S4096.size a
  k1_off151_inb : ∀ i : grid1.Coords, ∀ a, (k1_off151 i) a + S1.size a ≤ S4096.size a
  k1_off153_inb : ∀ i : grid1.Coords, ∀ a, (k1_off153 i) a + S1.size a ≤ S4096.size a
  k1_off155_inb : ∀ i : grid1.Coords, ∀ a, (k1_off155 i) a + S1.size a ≤ S4096.size a
  k1_off157_inb : ∀ i : grid1.Coords, ∀ a, (k1_off157 i) a + S1.size a ≤ S4096.size a
  k1_off159_inb : ∀ i : grid1.Coords, ∀ a, (k1_off159 i) a + S1.size a ≤ S4096.size a
  k1_off161_inb : ∀ i : grid1.Coords, ∀ a, (k1_off161 i) a + S1.size a ≤ S4096.size a
  k1_off163_inb : ∀ i : grid1.Coords, ∀ a, (k1_off163 i) a + S1.size a ≤ S4096.size a
  k1_off165_inb : ∀ i : grid1.Coords, ∀ a, (k1_off165 i) a + S1.size a ≤ S4096.size a
  k1_off167_inb : ∀ i : grid1.Coords, ∀ a, (k1_off167 i) a + S1.size a ≤ S4096.size a
  k1_off169_inb : ∀ i : grid1.Coords, ∀ a, (k1_off169 i) a + S1.size a ≤ S4096.size a
  k1_off171_inb : ∀ i : grid1.Coords, ∀ a, (k1_off171 i) a + S1.size a ≤ S4096.size a
  k1_off173_inb : ∀ i : grid1.Coords, ∀ a, (k1_off173 i) a + S1.size a ≤ S4096.size a
  k1_off175_inb : ∀ i : grid1.Coords, ∀ a, (k1_off175 i) a + S1.size a ≤ S4096.size a
  k1_off177_inb : ∀ i : grid1.Coords, ∀ a, (k1_off177 i) a + S1.size a ≤ S4096.size a
  k1_off179_inb : ∀ i : grid1.Coords, ∀ a, (k1_off179 i) a + S1.size a ≤ S4096.size a
  k1_off181_inb : ∀ i : grid1.Coords, ∀ a, (k1_off181 i) a + S1.size a ≤ S4096.size a
  k1_off183_inb : ∀ i : grid1.Coords, ∀ a, (k1_off183 i) a + S1.size a ≤ S4096.size a
  k1_off185_inb : ∀ i : grid1.Coords, ∀ a, (k1_off185 i) a + S1.size a ≤ S4096.size a
  k1_off187_inb : ∀ i : grid1.Coords, ∀ a, (k1_off187 i) a + S1.size a ≤ S4096.size a
  k1_off189_inb : ∀ i : grid1.Coords, ∀ a, (k1_off189 i) a + S1.size a ≤ S4096.size a
  k1_off191_inb : ∀ i : grid1.Coords, ∀ a, (k1_off191 i) a + S1.size a ≤ S4096.size a
  k1_off193_inb : ∀ i : grid1.Coords, ∀ a, (k1_off193 i) a + S1.size a ≤ S4096.size a
  k1_off195_inb : ∀ i : grid1.Coords, ∀ a, (k1_off195 i) a + S1.size a ≤ S4096.size a
  k1_off197_inb : ∀ i : grid1.Coords, ∀ a, (k1_off197 i) a + S1.size a ≤ S4096.size a
  k1_off199_inb : ∀ i : grid1.Coords, ∀ a, (k1_off199 i) a + S1.size a ≤ S4096.size a
  k1_off201_inb : ∀ i : grid1.Coords, ∀ a, (k1_off201 i) a + S1.size a ≤ S4096.size a
  k1_off203_inb : ∀ i : grid1.Coords, ∀ a, (k1_off203 i) a + S1.size a ≤ S4096.size a
  k1_off205_inb : ∀ i : grid1.Coords, ∀ a, (k1_off205 i) a + S1.size a ≤ S4096.size a
  k1_off207_inb : ∀ i : grid1.Coords, ∀ a, (k1_off207 i) a + S1.size a ≤ S4096.size a
  k1_off209_inb : ∀ i : grid1.Coords, ∀ a, (k1_off209 i) a + S1.size a ≤ S4096.size a
  k1_off211_inb : ∀ i : grid1.Coords, ∀ a, (k1_off211 i) a + S1.size a ≤ S4096.size a
  k1_off213_inb : ∀ i : grid1.Coords, ∀ a, (k1_off213 i) a + S1.size a ≤ S4096.size a
  k1_off215_inb : ∀ i : grid1.Coords, ∀ a, (k1_off215 i) a + S1.size a ≤ S4096.size a
  k1_off217_inb : ∀ i : grid1.Coords, ∀ a, (k1_off217 i) a + S1.size a ≤ S4096.size a
  k1_off219_inb : ∀ i : grid1.Coords, ∀ a, (k1_off219 i) a + S1.size a ≤ S4096.size a
  k1_off221_inb : ∀ i : grid1.Coords, ∀ a, (k1_off221 i) a + S1.size a ≤ S4096.size a
  k1_off223_inb : ∀ i : grid1.Coords, ∀ a, (k1_off223 i) a + S1.size a ≤ S4096.size a
  k1_off225_inb : ∀ i : grid1.Coords, ∀ a, (k1_off225 i) a + S1.size a ≤ S4096.size a
  k1_off227_inb : ∀ i : grid1.Coords, ∀ a, (k1_off227 i) a + S1.size a ≤ S4096.size a
  k1_off229_inb : ∀ i : grid1.Coords, ∀ a, (k1_off229 i) a + S1.size a ≤ S4096.size a
  k1_off231_inb : ∀ i : grid1.Coords, ∀ a, (k1_off231 i) a + S1.size a ≤ S4096.size a
  k1_off233_inb : ∀ i : grid1.Coords, ∀ a, (k1_off233 i) a + S1.size a ≤ S4096.size a
  k1_off235_inb : ∀ i : grid1.Coords, ∀ a, (k1_off235 i) a + S1.size a ≤ S4096.size a
  k1_off237_inb : ∀ i : grid1.Coords, ∀ a, (k1_off237 i) a + S1.size a ≤ S4096.size a
  k1_off239_inb : ∀ i : grid1.Coords, ∀ a, (k1_off239 i) a + S1.size a ≤ S4096.size a
  k1_off241_inb : ∀ i : grid1.Coords, ∀ a, (k1_off241 i) a + S1.size a ≤ S4096.size a
  k1_off243_inb : ∀ i : grid1.Coords, ∀ a, (k1_off243 i) a + S1.size a ≤ S4096.size a
  k1_off245_inb : ∀ i : grid1.Coords, ∀ a, (k1_off245 i) a + S1.size a ≤ S4096.size a
  k1_off247_inb : ∀ i : grid1.Coords, ∀ a, (k1_off247 i) a + S1.size a ≤ S4096.size a
  k1_off249_inb : ∀ i : grid1.Coords, ∀ a, (k1_off249 i) a + S1.size a ≤ S4096.size a
  k1_off251_inb : ∀ i : grid1.Coords, ∀ a, (k1_off251 i) a + S1.size a ≤ S4096.size a
  k1_off253_inb : ∀ i : grid1.Coords, ∀ a, (k1_off253 i) a + S1.size a ≤ S4096.size a
  k1_off255_inb : ∀ i : grid1.Coords, ∀ a, (k1_off255 i) a + S1.size a ≤ S4096.size a
  hstage1_0 : ∀ j, (stage1_0 j).IsWhole
  nbuf1_0 : grid1.bufCount reads1_0 false = 2
  hreads1_0 : ∀ i i' : grid1.Coords, (∀ a, reads1_0 a = true → i a = i' a) → cc1_transform_1 i = cc1_transform_1 i'
  hinb1_0 : ∀ (i : grid1.Coords) a, (cc1_transform_1 i a + 1) * S16384x128.size a ≤ S16384x4096.size a
  hwx1_0 : ∀ i : grid1.Coords, EltTy.bits .f32 = 32 ∨ (Rect.block (s := S16384x4096) S16384x128.size (cc1_transform_1 i) (hinb1_0 i)).WholeWords (EltTy.packing .f32)

variable [Facts₀]

abbrev cc1_scratch1 : DmaSems sig S16 := SemArray.consecutive 6 S16 hcc1_scratch1

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev spec1_0 : Pipeline.WinSpec sig grid1.rank :=
  Pipeline.WinSpec.ofSpec (Memref.whole main_v1) S16384x128.size reads1_0 true false 2 stage1_0 sem1_0 nbuf1_0 hstage1_0

abbrev spec1 : Fin 1 → Pipeline.WinSpec sig grid1.rank := fun | 0 => spec1_0 | ⟨_ + 1, h⟩ => absurd h (Nat.not_lt.2 (Nat.le_add_left _ _))
theorem hcount1 : ∀ w, grid1.bufCount (spec1 w).reads (spec1 w).sync = (spec1 w).nbuf := fun | 0 => nbuf1_0 | ⟨_ + 1, h⟩ => absurd h (Nat.not_lt.2 (Nat.le_add_left _ _))
abbrev ix1 (pf : pre1.Contents (Elt F)) : (w : Fin 1) → grid1.Coords → Fin (spec1 w).shape.rank → Nat := fun | 0 => cc1_transform_1 | ⟨_ + 1, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | ⟨_ + 1, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | ⟨_ + 1, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | ⟨_ + 1, h⟩ => absurd h (Nat.not_lt.2 (Nat.le_add_left _ _))

class Facts : Prop extends Facts₀ where
  harr1 : ∀ w, (spec1 w).arr.IsWhole

variable [Facts]
-- ==== ReferenceIdeal.lean ====
abbrev S16384x4096 : Shape := ⟨2, ![16384, 4096]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .i32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S1, .i32⟩
  | .hbm, ⟨11, _⟩ => ⟨S_, .i32⟩
  | .hbm, ⟨12, _⟩ => ⟨S4096x1, .i32⟩
  | .hbm, ⟨13, _⟩ => ⟨S4096x1, .i1⟩
  | .hbm, ⟨14, _⟩ => ⟨S1x1, .i32⟩
  | .hbm, ⟨15, _⟩ => ⟨S4096x1, .i32⟩
  | .hbm, ⟨16, _⟩ => ⟨S4096x1, .i1⟩
  | .hbm, ⟨17, _⟩ => ⟨S4096x1, .i1⟩
  | .hbm, ⟨18, _⟩ => ⟨S_, .i1⟩
  | .hbm, ⟨19, _⟩ => ⟨S4096, .i1⟩
  | .hbm, ⟨20, _⟩ => ⟨S16384x4096, .f32⟩
  | .hbm, ⟨21, _⟩ => ⟨S16384x4096, .i1⟩
  | .hbm, ⟨22, _⟩ => ⟨S_, .f32⟩
  | .hbm, ⟨23, _⟩ => ⟨S16384x4096, .f32⟩
  | .hbm, ⟨24, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S16384x4096_1 : S4096.BroadcastsInDim S16384x4096 (![1] : Fin 1 → Fin S16384x4096.rank)
  bcast_S_S16384x4096 : S_.BroadcastsInDim S16384x4096 (![] : Fin 0 → Fin S16384x4096.rank)
  gather_S16384x4096_S4096x1_S16384x4096_0_1_n_n_1_1_163841_wf : GatherDims.WF S16384x4096 S4096x1 S16384x4096 [0] [1] [] [1] [] 1 ![16384, 1]

variable [Facts₀]

def gather_S16384x4096_S4096x1_S16384x4096_0_1_n_n_1_1_163841 : GatherDims S16384x4096 S4096x1 S16384x4096 where
  offsetDims := [0]
  collapsedSliceDims := [1]
  operandBatchingDims := []
  startIndicesBatchingDims := []
  startIndexMap := [1]
  indexVectorDim := 1
  sliceSizes := ![16384, 1]
  wf := gather_S16384x4096_S4096x1_S16384x4096_0_1_n_n_1_1_163841_wf

class Facts : Prop extends Facts₀ where

variable [Facts]
-- ==== Proof.Spec.lean ====
/-
  The mathematics both programs are compared against, with no program in sight.

  `z` is a 16384 × 4096 array and `perm` a table of 4096 words. The claim is about the array whose entry
  `(b, i)` is `z (b, perm i)`: the columns of `z` picked out by the table. The table's words are read as
  naturals; every statement that uses `gathered` carries `InRange perm`, under which the reduction
  modulo 4096 in `col` does nothing (it only makes `col` a total function, so that no proof term
  sits inside an index). `transposed z` is the intermediate the kernel materialises: its entry `(d, b)`
  is `z (b, d)`, so that a COLUMN of `z` is a ROW of `transposed z`.
-/
import Idealize.ShloMosaic.Lib.ValueIdx

namespace Cert.Spec

open Idealize.ShloMosaic Idealize.ShloMosaic.ValueIdx

/-- The shape of `z` and of the result. -/
abbrev SZ : Shape := ⟨2, ![16384, 4096]⟩
/-- The shape of the transposed intermediate. -/
abbrev SZT : Shape := ⟨2, ![4096, 16384]⟩
/-- The shape of the index table. -/
abbrev SP : Shape := ⟨1, ![4096]⟩

/-- Every word of the table, read as a natural, names a column of `z`. -/
def InRange (perm : SP.Idx → BitVec 32) : Prop := ∀ i : SP.Idx, (perm i).toNat < 4096

/-- The column the table's word `i` names (total: reduced modulo 4096, which is the identity on a table in range). -/
def col (perm : SP.Idx → BitVec 32) (i : Fin 4096) : Fin 4096 :=
  ⟨(perm (ix1 i)).toNat % 4096, Nat.mod_lt _ (by decide)⟩

theorem col_val (perm : SP.Idx → BitVec 32) (h : InRange perm) (i : Fin 4096) :
    (col perm i).val = (perm (ix1 i)).toNat := Nat.mod_eq_of_lt (h _)

/-- The transposed array: entry `(d, b)` is `z (b, d)`. -/
def transposed {α : Type} (z : SZ.Idx → α) : SZT.Idx → α :=
  fun j => z (ix2 (n0 := 16384) (n1 := 4096) (j 1) (j 0))

/-- The columns of `z` picked by the table: entry `(b, i)` is `z (b, perm i)`. -/
def gathered {α : Type} (z : SZ.Idx → α) (perm : SP.Idx → BitVec 32) : SZ.Idx → α :=
  fun j => z (ix2 (n0 := 16384) (n1 := 4096) (j 0) (col perm (j 1)))

/-- The same array read through the transposed intermediate: row `perm i` of `transposed z`, at `b`. -/
theorem gathered_eq_transposed {α : Type} (z : SZ.Idx → α) (perm : SP.Idx → BitVec 32) (j : SZ.Idx) :
    gathered z perm j = transposed z (ix2 (n0 := 4096) (n1 := 16384) (col perm (j 1)) (j 0)) := rfl

end Cert.Spec
-- ==== Proof.PreRange.lean ====
/-
  The printed precondition, read back on the index table.

  The predicate is a conjunction of two reductions by `and`, each ending in a rank-0 word: the first ranges over
  the entries of `z` (every entry finite), the second over the words of the table (every word `w` passes
  `0 ≤ w` and `w < 4096`, both compared signed, against the two constants broadcast along the table).
  Only the second conjunct is read here. A reduction by `and` that came out 1 met a 1 at every index; at index `i`
  that 1 is again a conjunction, of the two signed comparisons of `perm i`; and a 32-bit word that is
  nonnegative when read signed reads the same unsigned, so `w < 4096` signed is `w.toNat < 4096`.
-/
import proofs.«422614_j16655883174311_1_alg».proof.Pre_finite_inputs
import proofs.«422614_j16655883174311_1_alg».proof.Proof.Gen.Pre_finite_inputs
import proofs.«422614_j16655883174311_1_alg».proof.Proof.Spec
import Idealize.ShloMosaic.Lib.ReduceAll

namespace Cert.PreRange

open Idealize.ShloMosaic

variable {F : FTy → Type} [FloatOps F] [Cert.Pre_finite_inputs.Facts]

/-- A rank-0 shape has one index: there is no coordinate to differ in. -/
instance subsingleton_scalarIdx : Subsingleton Cert.Pre_finite_inputs.S_.Idx := ⟨fun a b => funext fun d => d.elim0⟩

/-- A word in [0, 4096) signed is below 4096 unsigned: nonnegative signed means the top bit is clear, and then
    the signed and the unsigned readings agree. -/
theorem toNat_lt_of_signed (w : BitVec 32) (h0 : IntOp.cmpi .sge w (0#32) = 1#1) (h1 : IntOp.cmpi .slt w (4096#32) = 1#1) :
    w.toNat < 4096 := by
  rw [IntOp.cmpi_sge, show (0#32 : BitVec 32).toInt = 0 from by decide] at h0
  rw [IntOp.cmpi_slt, show (4096#32 : BitVec 32).toInt = 4096 from by decide] at h1
  have htop : 2 * w.toNat < 2 ^ 32 := BitVec.toInt_pos_iff.1 h0
  rw [BitVec.toInt_eq_toNat_of_lt htop] at h1
  omega

/-- A conjunction of two `i1` arrays, read at an index, is the conjunction of the two bits there. -/
theorem andi_apply {s : Shape} (x y : IVec s 1) (j : s.Idx) : andi x y j = IntOp.andi (x j) (y j) := rfl

/-- the printed precondition holds (is the all-ones i1 scalar) only if every word of the table is below 4096 as a natural -/
theorem inRange_of_pre (z : FVec F Cert.Pre_finite_inputs.S16384x4096 .f32) (perm : IVec Cert.Pre_finite_inputs.S4096 32)
    (h : Cert.Pre_finite_inputs.fn (F := F) z perm = fun _ => 1#1) : Cert.Spec.InRange perm := by
  intro i
  -- the predicate at the one index of its rank-0 result
  have e := congrFun h ValueIdx.ix0
  dsimp only [Cert.Pre_finite_inputs.fn] at e
  -- the outer conjunction: keep the table's half, never look into the half over `z`
  rw [andi_apply] at e
  have eT := (IntOp.andi_eq_one.1 e).2
  -- the reduction by `and` over the table's one axis met a 1 at every index, `i` among them
  have ei := Host.reduce_andi_all _ _ _ _ _ eT i
  -- at `i` that 1 is the conjunction of the two signed comparisons of `perm i` with the broadcast constants
  rw [andi_apply] at ei
  obtain ⟨hge, hlt⟩ := IntOp.andi_eq_one.1 ei
  exact toNat_lt_of_signed (perm i) hge hlt

end Cert.PreRange
-- ==== Proof.RefRun.lean ====
/-
  The reference program's run, read back as one pure term.

  The reference is jnp.take along the last axis: @main calls @_take, which calls @_where. Neither function
  launches a kernel, so @main is a straight line of twenty-three host operations once the two bodies are
  substituted at their call sites: @_take's twenty-two over the buffers of the record main_call0, and
  @_where's one select over the buffers of main_call0_call0, in the place of the call. Every weakly fair
  execution of such a line terminates with each buffer at the fold of the operations over the launch contents;
  read at the result buffer that fold is takeTerm of the two arguments' contents, and at an argument buffer
  it is what was there.

  takeTerm names each intermediate value of @_take once, in program order: the sign test of the table's
  words, the words shifted by 4096, the select between them (negative words wrap), that table as a column,
  the two bounds tests and their conjunction, the conjunction reduced along the column's unit axis, the
  gather of z's columns at the table, the mask broadcast along the rows, the broadcast quiet-NaN constant,
  and the final select.
-/
import proofs.«422614_j16655883174311_1_alg».proof.ReferenceIdeal
import proofs.«422614_j16655883174311_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

/-- @_take's body as one pure term of its two arguments: every let is one operation of the body, in order
    (the select of @_where in the place of the call). -/
def takeTerm (z : FVec F S16384x4096 .f32) (perm : IVec S4096 32) : FVec F S16384x4096 .f32 :=
  -- is the word negative?
  let v1 : IVec S4096 1 := cmpi .slt perm (broadcastInDim S4096 ![] bcast_S_S4096 (constantI S_ 32 0#32))
  -- the word plus the axis extent
  let v3 : IVec S4096 32 := addi perm (broadcastInDim S4096 ![] bcast_S_S4096 (constantI S_ 32 4096#32))
  -- a negative word wraps once, any other is kept
  let v4 : IVec S4096 32 := select v1 v3 perm
  -- the table as a column of one-component start indices
  let v5 : IVec S4096x1 32 := broadcastInDim S4096x1 ![0] bcast_S4096_S4096x1_0 v4
  -- lower bound: 0 ≤ index
  let v7 : IVec S4096x1 1 := cmpi .sge v5 (broadcastInDim S4096x1 ![] bcast_S_S4096x1 (constantI S_ 32 0#32))
  -- upper bound: index ≤ 4095, the bound a one-element table broadcast twice
  let v10 : IVec S4096x1 1 := cmpi .sle v5
    (broadcastInDim S4096x1 ![0, 1] bcast_S1x1_S4096x1_0_1 (broadcastInDim S1x1 ![1] bcast_S1_S1x1_1 (constantI S1 32 4095#32)))
  -- both bounds
  let v11 : IVec S4096x1 1 := andi v7 v10
  -- the conjunction along the column's unit axis, from true
  let v12 : IVec S4096 1 := Host.reduce IntOp.andi v11 (constantI S_ 1 1#1) reducesTo_S4096x1_S4096_d1 h_S_
  -- the columns of z at the (clamped) start indices
  let v13 : FVec F S16384x4096 .f32 := Host.gather gather_S16384x4096_S4096x1_S16384x4096_0_1_n_n_1_1_163841 z v5
  -- the mask, constant down each column of the result
  let v14 : IVec S16384x4096 1 := broadcastInDim S16384x4096 ![1] bcast_S4096_S16384x4096_1 v12
  -- the fill value everywhere
  let v15 : FVec F S16384x4096 .f32 := broadcastInDim S16384x4096 ![] bcast_S_S16384x4096 (constant (F := F) S_ .f32 0x7FC00000#32)
  -- gathered where the index was in bounds, the fill value elsewhere
  select v14 v13 v15

/-- @main's twenty-three operations in order, the two calls substituted: @_take's over main_call0's buffers,
    @_where's select (the seventh) over main_call0_call0's. -/
abbrev ops : List (HloOp τ sig (Elt F)) :=
  [ TRef.nullary main_call0.c (constantI S_ 32 0#32),
    TRef.unary main_call0.c main_call0.v0 (broadcastInDim S4096 ![] bcast_S_S4096),
    TRef.binary (.of main_arg1) main_call0.v0 main_call0.v1 (cmpi .slt),
    TRef.nullary main_call0.c_0 (constantI S_ 32 4096#32),
    TRef.unary main_call0.c_0 main_call0.v2 (broadcastInDim S4096 ![] bcast_S_S4096),
    TRef.binary (.of main_arg1) main_call0.v2 main_call0.v3 addi,
    TRef.ternary main_call0.v1 main_call0.v3 (.of main_arg1) main_call0.call0.v0 select,
    TRef.unary main_call0.call0.v0 main_call0.v5 (broadcastInDim S4096x1 ![0] bcast_S4096_S4096x1_0),
    TRef.nullary main_call0.c_1 (constantI S1 32 4095#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_arg0) main_call0.v5 main_call0.v13 (fun x i => Host.gather gather_S16384x4096_S4096x1_S16384x4096_0_1_n_n_1_1_163841 x i),
    TRef.unary main_call0.v12 main_call0.v14 (broadcastInDim S16384x4096 ![1] bcast_S4096_S16384x4096_1),
    TRef.nullary main_call0.cst (constant S_ .f32 0x7FC00000#32),
    TRef.unary main_call0.cst main_call0.v15 (broadcastInDim S16384x4096 ![] bcast_S_S16384x4096),
    TRef.ternary main_call0.v14 main_call0.v13 main_call0.v15 main_call0.v16 select ]

set_option maxRecDepth 1024 in
/-- @main is that straight line: the two bodies substituted at their calls, and the sequencing reassociated. -/
theorem main_eq (c : Dev nD) : main (F := F) c = seq ops := by
  simp only [main, fn_take.body, fn_where.body, seq, bind_assoc, pure_bind]

/-- The signature scopes no TensorCore buffer … -/
theorem scopedRefs_eq : (Finset.univ.filter fun b : Ref sig .tc => b.isScoped) = ∅ := by decide
/-- … and no semaphore. -/
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- The fold of the line at the result buffer is takeTerm of the two arguments' contents: each operation's
    value at its own buffer, what was there at every other, and the typed references' transports the
    identity at literal references. -/
theorem after_v0 (V : Valuation τ sig (Elt F)) :
    after ops V (main_v0 : DevRef τ sig) = takeTerm (V (main_arg0 : DevRef τ sig)) (V (main_arg1 : DevRef τ sig)) := by
  after_results
  rfl

/-- No operation writes the first argument's buffer. -/
theorem after_arg0 (V : Valuation τ sig (Elt F)) :
    after ops V (main_arg0 : DevRef τ sig) = V (main_arg0 : DevRef τ sig) := by
  after_results

/-- No operation writes the second argument's buffer. -/
theorem after_arg1 (V : Valuation τ sig (Elt F)) :
    after ops V (main_arg1 : DevRef τ sig) = V (main_arg1 : DevRef τ sig) := by
  after_results

/-- On every device, for any float values, from any memory with zero counters: every weakly fair execution of
    @main terminates with the result at takeTerm of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v0) = takeTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v0).trans (after_v0 _),
      (h c main_arg0).trans (after_arg0 _),
      (h c main_arg1).trans (after_arg1 _)⟩)
    (run_seq scopedRefs_eq scopedSems_eq defs main (fun _ => ops) main_eq (fun _ => ops_sub) m ρ)

end Cert.ReferenceIdeal.Hand

end
-- ==== Proof.RefValue.lean ====
/-
  The value of the reference's run under the range hypothesis.

  takeTerm z perm is @_take's body as one term. When every word of the table, read as a natural, is below
  4096, it is the array whose entry (b, i) is z (b, perm i):

  * no word is negative as a signed word, so the wrap-around select (word + 4096 where negative) keeps the table;
  * every start index is then within [0, 4095], so both bounds tests pass at every row of the index column, their
    conjunction is all ones, and so is its reduction along the column's unit axis from true: the final select takes
    the gathered branch everywhere and the fill value is never read;
  * the gather has offset axis 0 (operand axis 0 whole), collapses operand axis 1, which is the one axis the start
    index names, and reads its start index for result column i at row i of the index column; the clamp into
    [0, 4095] does nothing to a word already there. So entry (b, i) is z at (b, the word i of the table).
-/
import proofs.«422614_j16655883174311_1_alg».proof.Proof.RefRun
import proofs.«422614_j16655883174311_1_alg».proof.Proof.Spec
import Idealize.ShloMosaic.Lib.StableHlo.Predicate
import Idealize.ShloMosaic.Lib.Pipeline.Value
import Idealize.ShloMosaic.Lib.ValueIdx
import Mathlib.Data.Finset.Fold

noncomputable section

namespace Cert.ReferenceIdeal.Hand

open Cert.ReferenceIdeal Cert.ReferenceIdeal.Gen Idealize.ShloMosaic Idealize.ShloMosaic.ValueIdx
  Idealize.ShloMosaic.StableHlo.Predicate

variable {F : FTy → Type} [FloatOps F]

/-! ## Words: a table word in range, read signed -/

/-- A word below 4096 is not negative. -/
theorem slt_zero_of_small (a : BitVec 32) (ha : a.toNat < 4096) : IntOp.cmpi .slt a 0#32 = 0#1 :=
  eq_zero_of_ne_one fun hc => by
    have h0 : (0#32 : BitVec 32).toNat = 0 := rfl
    have := (slt_iff_toNat (a := a) (b := 0#32) (by omega) (by decide)).mp hc
    omega

/-- A word below 4096 is at least zero, signed … -/
theorem sge_zero_of_small (a : BitVec 32) (ha : a.toNat < 4096) : IntOp.cmpi .sge a 0#32 = 1#1 :=
  (sge_iff_toNat (a := a) (b := 0#32) (by omega) (by decide)).mpr (Nat.zero_le _)

/-- … and at most 4095. -/
theorem sle_4095_of_small (a : BitVec 32) (ha : a.toNat < 4096) : IntOp.cmpi .sle a 4095#32 = 1#1 :=
  (sle_iff_toNat (a := a) (b := 4095#32) (by omega) (by decide)).mpr (by
    have h0 : (4095#32 : BitVec 32).toNat = 4095 := rfl
    omega)

/-- Read signed and clamped into [0, 4095], a word below 4096 is its value. -/
theorem clamp_of_small (a : BitVec 32) (ha : a.toNat < 4096) : min a.toInt.toNat 4095 = a.toNat := by
  rw [toInt_eq_toNat_of_lt (a := a) (by omega), Int.toNat_natCast]
  omega

/-! ## The conjunction of an all-ones mask along any axes, from true, is all ones -/

theorem reduce_and_ones {s t u : Shape} {axes : List (Fin s.rank)} (x : IVec s 1) (hx : ∀ i, x i = 1#1)
    (h : s.ReducesTo axes t) (hu : 0 < u.numel) (j : t.Idx) :
    Host.reduce IntOp.andi x (constantI u 1 1#1) h hu j = 1#1 := by
  classical
  rw [Host.reduce_eq_fold]
  show Finset.fold IntOp.andi 1#1 x _ = 1#1
  induction (Finset.univ.filter fun i => h.drop i = j) using Finset.cons_induction with
  | empty => rfl
  | cons a S ha ih => rw [Finset.fold_cons, ih, hx a]; rfl

/-! ## The gather read at an index

Offset axis 0 of the result is operand axis 0 whole (slice size 16384); operand axis 1 is collapsed and is the
one axis the start index names; the result's axis 1 is the batch axis, reading row i of the start-index column.
So result entry (b, i) is the operand at (b, c) with c the start index of row i, read signed and clamped into
[0, 4095]. -/

theorem gather_cols_apply {α : Type} (z : S16384x4096.Idx → α) (idx : IVec S4096x1 32) (b : Fin 16384) (i : Fin 4096)
    (c : Fin 4096) (hc : c.val = min (idx (ix2 i (0 : Fin 1))).toInt.toNat 4095) :
    Host.gather gather_S16384x4096_S4096x1_S16384x4096_0_1_n_n_1_1_163841 z idx (ix2 b i) = z (ix2 b c) := by
  unfold Host.gather
  refine congrArg z (funext fun a => Fin.ext ?_)
  match a with
  | ⟨0, _⟩ =>
    show GatherDims.start _ (ix2 b i) idx 0 + GatherDims.batchCoord _ (ix2 b i) 0 + GatherDims.offCoord _ (ix2 b i) 0 = b.val
    rw [GatherDims.batchCoord_eq_zero _ _ _ (by decide)]
    unfold GatherDims.start GatherDims.offCoord
    rw [dif_neg (by decide), dif_pos (by decide), Nat.zero_add]
    rfl
  | ⟨1, _⟩ =>
    show GatherDims.start _ (ix2 b i) idx 1 + GatherDims.batchCoord _ (ix2 b i) 1 + GatherDims.offCoord _ (ix2 b i) 1
      = c.val
    rw [hc, GatherDims.batchCoord_eq_zero _ _ _ (by decide), GatherDims.offCoord_eq_zero _ _ _ (by decide)]
    unfold GatherDims.start
    rw [dif_pos (by decide)]
    have hsi : GatherDims.siIdx gather_S16384x4096_S4096x1_S16384x4096_0_1_n_n_1_1_163841 (ix2 b i)
        ⟨List.idxOf (1 : Fin 2) (gather_S16384x4096_S4096x1_S16384x4096_0_1_n_n_1_1_163841).startIndexMap,
          List.idxOf_lt_length_iff.2 (by decide)⟩ = ix2 i (0 : Fin 1) := by
      funext c; refine Fin.ext ?_
      match c with
      | ⟨0, _⟩ => rfl
      | ⟨1, _⟩ => rfl
    rw [hsi]
    rfl

/-! ## The pieces of @_take under the range hypothesis -/

/-- No word is negative, so the wrap-around select keeps every word. -/
theorem wrap_eq (perm : IVec S4096 32) (h : Cert.Spec.InRange perm) :
    select (cmpi .slt perm (broadcastInDim S4096 ![] bcast_S_S4096 (constantI S_ 32 0#32)))
      (addi perm (broadcastInDim S4096 ![] bcast_S_S4096 (constantI S_ 32 4096#32))) perm = perm := by
  funext k
  show Scalar.select (IntOp.cmpi .slt (perm k) 0#32) _ (perm k) = perm k
  rw [slt_zero_of_small _ (h k), select_zero]

/-- Both bounds tests pass at every entry of a column of words below 4096. -/
theorem inb_eq_one (v5 : IVec S4096x1 32) (h5 : ∀ k, (v5 k).toNat < 4096) (k : S4096x1.Idx) :
    andi (cmpi .sge v5 (broadcastInDim S4096x1 ![] bcast_S_S4096x1 (constantI S_ 32 0#32)))
      (cmpi .sle v5 (broadcastInDim S4096x1 ![0, 1] bcast_S1x1_S4096x1_0_1
        (broadcastInDim S1x1 ![1] bcast_S1_S1x1_1 (constantI S1 32 4095#32)))) k = 1#1 := by
  show IntOp.andi (IntOp.cmpi .sge (v5 k) 0#32) (IntOp.cmpi .sle (v5 k) 4095#32) = 1#1
  rw [sge_zero_of_small _ (h5 k), sle_4095_of_small _ (h5 k)]
  rfl

/-- The table as a column reads, at row i, the table's word i. -/
theorem col_read (perm : IVec S4096 32) (i : Fin 4096) :
    broadcastInDim S4096x1 ![0] bcast_S4096_S4096x1_0 perm (ix2 i (0 : Fin 1)) = perm (ix1 i) := by
  refine broadcastInDim_apply ![0] bcast_S4096_S4096x1_0 perm (ix2 i (0 : Fin 1)) (ix1 i) ?_
  intro a
  match a with
  | ⟨0, _⟩ =>
    show i.val = if (4096 : ℕ) = 1 then 0 else i.val
    rw [if_neg (by decide)]

/-- Every entry of that column is a word of the table. -/
theorem col_small (perm : IVec S4096 32) (h : Cert.Spec.InRange perm) (k : S4096x1.Idx) :
    (broadcastInDim S4096x1 ![0] bcast_S4096_S4096x1_0 perm k).toNat < 4096 := h _

/-- Under the range hypothesis @_take's term is the columns of z the table picks. -/
theorem takeTerm_eq (z : FVec F S16384x4096 .f32) (perm : IVec S4096 32) (h : Cert.Spec.InRange perm) :
    takeTerm (F := F) z perm = Cert.Spec.gathered z perm := by
  funext j
  obtain ⟨b, i, rfl⟩ : ∃ (b : Fin 16384) (i : Fin 4096), j = ix2 b i := ⟨j 0, j 1, eq_ix2 j⟩
  simp only [takeTerm]
  rw [wrap_eq perm h]
  have hmask := funext (inb_eq_one _ (col_small perm h))
  rw [hmask]
  have hred : Host.reduce IntOp.andi (fun _ : S4096x1.Idx => (1#1 : BitVec 1)) (constantI S_ 1 1#1) reducesTo_S4096x1_S4096_d1 h_S_
      = fun _ => 1#1 := funext (reduce_and_ones _ (fun _ => rfl) _ _)
  rw [hred, select_apply]
  show Scalar.select 1#1 _ _ = _
  rw [select_one, gather_cols_apply z _ b i (Cert.Spec.col perm i)
    (by rw [col_read, clamp_of_small _ (h _), Cert.Spec.col_val perm h])]
  rfl

end Cert.ReferenceIdeal.Hand

end
-- ==== Proof.KI.Region0.lean ====
/-
  REGION 0: the blocked transpose, as proof data for its pipeline.

  The 16384 × 4096 array z is cut into 16 × 4 blocks of 1024 × 1024. At grid point (i, j) the pipeline stages
  block (i, j) of z; the body reads that block whole, transposes it, reads the output's staging buffer (a read
  whose value nothing uses) and overwrites that buffer whole with the transposed block; the pipeline then writes
  the buffer back as block (j, i) of the 4096 × 16384 result. So what the body leaves in the output's buffer is a
  function of the input block alone, and the buffer's earlier contents do not matter.

  Everything here is stated at an arbitrary contents V of the core's buffers at the region's entry and for an
  arbitrary float family F.
-/
import proofs.«422614_j16655883174311_1_alg».proof.Proof.Gen.KernelIdeal.Launch
import proofs.«422614_j16655883174311_1_alg».proof.Proof.Gen.KernelIdeal.Skeleton
import proofs.«422614_j16655883174311_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## A window's block at a grid point -/

/-- Window w's block at point t: the 1024 × 1024 sub-array of the window's array, as the region finds it, that
    the window's index map selects at t. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window is fetched at every point and its blocks tile z, so whatever proof data has z as the
    window's array and lets the body leave the block in place finds, before the body at point t, the input's
    current staging buffer holding exactly block t. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's one store -/

/-- The whole 1024 × 1024 staging buffer as a rectangle: what each of the body's two loads reads and its store writes. -/
abbrev whole0 : Rect S1024x1024 := Rect.unit (s := S1024x1024) ![0, 0] S1024x1024.size inb_S1024x1024_S1024x1024_0_0

/-- What the body leaves in the output's staging buffer, from the input block x0: the transpose of x0, written
    over the whole buffer by the one store. -/
def out0_1 (x0 : Vec F S1024x1024 .f32) : Vec F S1024x1024 .f32 :=
  View.canon [⟨whole0, k0_pay1 (View.ld x0 whole0)⟩]

/-- The store's rectangle is the whole buffer, so every index of the buffer is written. -/
theorem cover0_1 (p0 : Vec F S1024x1024 .f32) (y : S1024x1024.Idx) :
    ∃ pc ∈ ([⟨whole0, p0⟩] : List (View.Piece (Elt F) S1024x1024 .f32)), y ∈ pc.1.set :=
  View.cover_of_tiled [⟨whole0, p0⟩] S1024x1024.size (by rfl) y

/-! ## The body's triple -/

set_option maxHeartbeats 1000000 in
/-- The body on whole staging memrefs, the input's holding x0 and the output's holding anything: it ends with the
    input's buffer unchanged and the output's at out0_1 x0. The load of the output's buffer reads the contents it is
    held at and its value is used by nothing; the store then overwrites every word. -/
theorem sound_kernel0 (c : Dev nD) (E : Set ℕ) (i : grid0.Coords) (arg2 : Memref sig .tc .vmem S1024x1024 .f32) (harg2 : arg2.IsWhole) (arg3 : Memref sig .tc .vmem S1024x1024 .f32) (harg3 : arg3.IsWhole)
    (x0 : Vec F S1024x1024 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__transpose_kernel i arg2 harg2 arg3 harg3) K := by
  simp only [cc0__transpose_kernel_eq_skeleton]; unfold cc0__transpose_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the transpose's pipeline on core c. The windows' arrays are as the region finds them. After
    the body at point t the input's buffer still holds block t of z and the output's holds out0_1 of that block. The
    invariant is the untouched rest of the core (the other scoped buffers, the generator register); nothing is owed;
    every share is full. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- Before the body at point t the input's current staging buffer holds block t of z. -/
theorem before0_0 (c : Dev nD) (t : Fin cfg0.N) (d) : (dat0 V c).before 0 t d = iblk0 V c 0 t :=
  before0_0_of V (dat0 V c) (A_eq0 V c 0) (after0_0 V c) t d

/-! ## The body obligation, at a symbolic point -/

/-- What the body is called with at point t: the invariant, the core's tally, and each window's current staging
    buffer held whole, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns: the same, the buffers at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds block t, the output's holds something, so the body's triple
    applies; the invariant and the tally are not touched and do not change from one point to the next. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region0Value.lean ====
/-
  REGION 0's result: after its 64 points the result array holds the transpose of z.

  Point (i, j) of the 16 × 4 grid reads block (i, j) of z — rows 1024 i …, columns 1024 j … — and writes back
  block (j, i) of the result — rows 1024 j …, columns 1024 i …. Entry (p, q) of the written block is entry (q, p)
  of the read block, that is z (1024 i + q, 1024 j + p), and it lands at entry (1024 j + p, 1024 i + q) of the
  result: the entry of the transposed array there. The 4 × 16 output blocks tile the 4096 × 16384 result (entry
  (d, b) lies in the block of the point with i = b / 1024, j = d / 1024), so the whole result is the transpose.
  The input array is read only, so it ends as it was entered.
-/
import proofs.«422614_j16655883174311_1_alg».proof.Proof.KI.Region0
import proofs.«422614_j16655883174311_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The input array is kept -/

/-- Window 0 is an input window: its array is never written back, so it ends as the region found it. -/
theorem kept0 (c : Dev nD) : (dat0 V c).arrAt 0 cfg0.N = V c main_arg0 :=
  ((dat0 V c).arrAt_in 0 rfl cfg0.N).trans (A_eq0 V c 0)

/-! ## The body's payload at an index -/

theorem hz0 : (![0, 0] : Fin 2 → Nat) = fun _ => 0 := funext fun a => by fin_cases a <;> rfl

/-- The transposed block at (p, q) is the block at (q, p). -/
theorem pay1_apply (x : Vec F S1024x1024 .f32) (j k : S1024x1024.Idx)
    (h0 : (k 0).val = (j 1).val) (h1 : (k 1).val = (j 0).val) : k0_pay1 x j = x k := by
  unfold k0_pay1
  refine transpose_apply [1, 0] x transposes_S1024x1024_p1_0_S1024x1024 j k fun b => ?_
  match b with
  | ⟨0, _⟩ => exact h1
  | ⟨1, _⟩ => exact h0

/-! ## The two index maps, related over the grid -/

/-- At every point the input's block index is the output's with the axes exchanged, and the output's block
    indices are below 4 and 16. -/
theorem idx_swap0 : ∀ t : Fin cfg0.N, win0_0.index t (0 : Fin 2) = win0_1.index t (1 : Fin 2)
    ∧ win0_0.index t (1 : Fin 2) = win0_1.index t (0 : Fin 2)
    ∧ win0_1.index t (0 : Fin 2) ≤ 3 ∧ win0_1.index t (1 : Fin 2) ≤ 15 :=
  (by decide +kernel : ∀ t : Fin grid0.N, _)

/-- Every output block is some point's. -/
theorem idx_onto0 : ∀ (q0 : Fin 4) (q1 : Fin 16), ∃ t : Fin cfg0.N, win0_1.index t = ![q0.val, q1.val] :=
  (by decide +kernel : ∀ (q0 : Fin 4) (q1 : Fin 16), ∃ t : Fin grid0.N, win0_1.index t = ![q0.val, q1.val])

/-! ## An input block read at an index -/

/-- Entry x of the input block at point t is the entry of z at block index × 1024 + x, axis by axis. -/
theorem iblk0_apply (c : Dev nD) (t : Fin cfg0.N) (x : S1024x1024.Idx) (k : S16384x4096.Idx)
    (hk0 : (k 0).val = win0_0.index t (0 : Fin 2) * 1024 + (x 0).val)
    (hk1 : (k 1).val = win0_0.index t (1 : Fin 2) * 1024 + (x 1).val) :
    (iblk0 V c 0 t : Vec F S1024x1024 .f32) x = (V c main_arg0 : S16384x4096.Idx → Elt F .f32) k := by
  unfold iblk0
  rw [View.read_apply]
  show V c main_arg0 _ = V c main_arg0 _
  congr 1
  funext a
  apply Fin.ext
  match a with
  | ⟨0, _⟩ => show win0_0.index t (0 : Fin 2) * 1024 + 1 * (x 0).val = (k 0).val; omega
  | ⟨1, _⟩ => show win0_0.index t (1 : Fin 2) * 1024 + 1 * (x 1).val = (k 1).val; omega

/-! ## What a point writes back -/

/-- What point t writes back is block t of the transposed array. -/
theorem flushed0_eq (c : Dev nD) (t : Fin cfg0.N) :
    (dat0 V c).flushed 1 t = ((cfg0.win 1).blk t).view.read (Elt F) (Cert.Spec.transposed (V c main_arg0 : S16384x4096.Idx → Elt F .f32)) := by
  show (cfg0.win 1).cut (grid0.coords t) ((dat0 V c).after 1 t) = _
  rw [after0_1]
  unfold out0_1
  rw [View.canon_unit_zero hz0]
  simp only [View.ld_unit_zero (S := S1024x1024) hz0]
  obtain ⟨e0, e1, -, -⟩ := idx_swap0 t
  funext j
  rw [View.read_apply]
  have hj0 : (j 0).val < 1024 := (j 0).isLt
  have hj1 : (j 1).val < 1024 := (j 1).isLt
  show k0_pay1 (iblk0 V c 0 t) ((cfg0.win 1).xinj (grid0.coords t) j)
    = (V c main_arg0 : S16384x4096.Idx → Elt F .f32) (ix2 (n0 := 16384) (n1 := 4096) ((((cfg0.win 1).blk t).view.emb j) 1) ((((cfg0.win 1).blk t).view.emb j) 0))
  refine (pay1_apply (iblk0 V c 0 t) ((cfg0.win 1).xinj (grid0.coords t) j)
    (ix2 (n0 := 1024) (n1 := 1024) ⟨(j 1).val, hj1⟩ ⟨(j 0).val, hj0⟩) rfl rfl).trans ?_
  refine iblk0_apply V c t _ _ ?_ ?_
  · show win0_1.index t (1 : Fin 2) * 1024 + 1 * (j 1).val = win0_0.index t (0 : Fin 2) * 1024 + (j 1).val
    omega
  · show win0_1.index t (0 : Fin 2) * 1024 + 1 * (j 0).val = win0_0.index t (1 : Fin 2) * 1024 + (j 0).val
    omega

/-! ## The output blocks tile the result -/

/-- An index of the result is in point t's block iff each coordinate is in the block's range on its axis. -/
theorem mem_blk0 (t : Fin cfg0.N) (i : S4096x16384.Idx) :
    i ∈ ((cfg0.win 1).blk t).view.set ↔ ∀ a : Fin 2, win0_1.index t a * S1024x1024.size a ≤ (i a).val ∧ (i a).val < win0_1.index t a * S1024x1024.size a + S1024x1024.size a := by
  show i ∈ ((View.whole main_v0).slice (win0_1.rect t)).set ↔ _
  rw [View.set_slice_whole, Rect.mem_set_unit]
  exact Iff.rfl

/-- Entry (d, b) of the result lies in the block with block index (d / 1024, b / 1024), which some point writes back. -/
theorem cover0 (i : S4096x16384.Idx) : ∃ t : Fin cfg0.N, (cfg0.win 1).flush t = true ∧ i ∈ ((cfg0.win 1).blk t).view.set := by
  have hi0 : (i 0).val < 4096 := (i 0).isLt
  have hi1 : (i 1).val < 16384 := (i 1).isLt
  obtain ⟨t, ht⟩ := idx_onto0 ⟨(i 0).val / 1024, by omega⟩ ⟨(i 1).val / 1024, by omega⟩
  have q0 : win0_1.index t (0 : Fin 2) = (i 0).val / 1024 := congrFun ht 0
  have q1 : win0_1.index t (1 : Fin 2) = (i 1).val / 1024 := congrFun ht 1
  refine ⟨t, flush0_1 t, ?_⟩
  rw [mem_blk0]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 1024 ≤ (i 1).val ∧ (i 1).val < win0_1.index t (1 : Fin 2) * 1024 + 1024; omega

/-! ## The result array after the run -/

/-- After the 64 points the result array holds the transpose of z: entry (d, b) is z (b, d). -/
theorem final0 (c : Dev nD) : (dat0 V c).arrAt 1 cfg0.N = Cert.Spec.transposed (V c main_arg0 : S16384x4096.Idx → Elt F .f32) :=
  (dat0 V c).arrAt_eq_of_cover 1 (Cert.Spec.transposed (V c main_arg0 : S16384x4096.Idx → Elt F .f32)) (fun t _ => flushed0_eq V c t) cover0

end Cert.KernelIdeal.Hand

end
-- ==== Proof.KI.Region1Rows.lean ====
/-
  The scratch buffer row by row.

  The body fills the 128 × 16384 scratch by 128 copies, copy `k` writing ROW `k` whole with row `w k` of the
  transposed array, where `w k` is the table word at position `128 s + k`. Written one after another the copies leave a
  tower of row writes over whatever the scratch held before. Rows are pairwise disjoint and together they are the whole
  buffer, so the tower is ONE function of the index, the earlier contents gone: entry `(g, y)` is entry `(w g, y)` of
  the transposed array. This module states the tower as a predicate (`RowsWritten`), reads it back at an index
  (a write to row `n` is seen at row `n` and at no other row), and gives the closed form `gatheredRows`.
-/
import proofs.«422614_j16655883174311_1_alg».proof.Proof.Gen.KernelIdeal
import proofs.«422614_j16655883174311_1_alg».proof.Proof.Spec
import Idealize.ShloMosaic.Lib.ValueIdx

set_option maxRecDepth 16384

noncomputable section

namespace Cert.KernelIdeal.Hand.Rows

open Cert.KernelIdeal
open Idealize.ShloMosaic Idealize.ShloMosaic.ValueIdx Idealize.SL.Sem

variable {F : FTy → Type}

/-- The scratch, the transposed array and the table, each a whole buffer. -/
abbrev scB : Memref sig .tc .vmem S128x16384 .f32 := Memref.whole cc1_scratch0
abbrev zB : Memref sig .tc .hbm S4096x16384 .f32 := Memref.whole main_v0
abbrev tB : Memref sig .tc .smem S4096 .i32 := Memref.whole main_arg1

/-- Row `k` of the scratch as the rank-1 memref a copy lands in: the 1 × 16384 slice at `(k, 0)`, its unit axis dropped. -/
abbrev rowM (k : Nat) (h : ∀ a, (![k, 0] : Fin 2 → Nat) a + S1x16384.size a ≤ S128x16384.size a) :
    Memref sig .tc .vmem S16384 .f32 :=
  (scB.slice (Rect.unit (s := S128x16384) ![k, 0] S1x16384.size h) (fun _ => rfl)).squeeze S16384 Gen.squeezes_S1x16384_S16384

/-- Row `r` of the transposed array as the rank-1 memref a copy reads. -/
abbrev srcM (r : Nat) (h : ∀ a, (![r, 0] : Fin 2 → Nat) a + S1x16384.size a ≤ S4096x16384.size a) :
    Memref sig .tc .hbm S16384 .f32 :=
  (zB.slice (Rect.unit (s := S4096x16384) ![r, 0] S1x16384.size h) (fun _ => rfl)).squeeze S16384 Gen.squeezes_S1x16384_S16384

/-- Dropping the unit axis of a 1 × 16384 index: position `y` sits behind the one coordinate 0. -/
theorem squeeze_row (hn : S16384.numel = S1x16384.numel) (y : S16384.Idx) :
    (Shape.reshapeEquiv hn y : S1x16384.Idx) = ix2 (n0 := 1) (n1 := 16384) ⟨0, Nat.one_pos⟩ (y 0) :=
  Shape.reshapeEquiv_eq_of_rowMajor hn (by
    show ((⟨2, ![1, 16384]⟩ : Shape).rowMajor (ix2 (n0 := 1) (n1 := 16384) ⟨0, Nat.one_pos⟩ (y 0))).val
      = ((⟨1, ![16384]⟩ : Shape).rowMajor y).val
    rw [Shape.rowMajor_val_two, Shape.rowMajor_val_one]
    show 0 * _ + (y 0).val = (y 0).val
    omega)

/-- Where position `y` of scratch row `k` sits in the scratch: at `(k, y)`. -/
theorem rowM_emb (k : Nat) (h : ∀ a, (![k, 0] : Fin 2 → Nat) a + S1x16384.size a ≤ S128x16384.size a) (y : S16384.Idx) (a : Fin 2) :
    (((rowM k h).view.emb y : S128x16384.Idx) a).val = (![k, (y 0).val] : Fin 2 → Nat) a := by
  show (((Rect.unit (s := S128x16384) ![k, 0] S1x16384.size h).emb (Shape.reshapeEquiv _ y)) a).val = _
  rw [Rect.emb_apply, squeeze_row]
  fin_cases a
  · show k + 1 * 0 = k; omega
  · show 0 + 1 * (y 0).val = (y 0).val; omega

/-- Where position `y` of row `r` of the transposed array sits in the array: at `(r, y)`. -/
theorem srcM_emb (r : Nat) (h : ∀ a, (![r, 0] : Fin 2 → Nat) a + S1x16384.size a ≤ S4096x16384.size a) (y : S16384.Idx) (a : Fin 2) :
    (((srcM r h).view.emb y : S4096x16384.Idx) a).val = (![r, (y 0).val] : Fin 2 → Nat) a := by
  show (((Rect.unit (s := S4096x16384) ![r, 0] S1x16384.size h).emb (Shape.reshapeEquiv _ y)) a).val = _
  rw [Rect.emb_apply, squeeze_row]
  fin_cases a
  · show r + 1 * 0 = r; omega
  · show 0 + 1 * (y 0).val = (y 0).val; omega

/-! ## A tower of row writes -/

/-- `RowsWritten base pay n X`: the contents `X` are `base` with rows `0 … n-1` written one after another, row `k`
    whole with `pay k`. -/
inductive RowsWritten (base : S128x16384.Idx → Elt F .f32) (pay : (k : Nat) → k < 128 → S16384.Idx → Elt F .f32) :
    Nat → (S128x16384.Idx → Elt F .f32) → Prop
  | zero : RowsWritten base pay 0 base
  | succ (n : Nat) (hn : n < 128) (h : ∀ a, (![n, 0] : Fin 2 → Nat) a + S1x16384.size a ≤ S128x16384.size a)
      (X : S128x16384.Idx → Elt F .f32) (p : S16384.Idx → Elt F .f32) :
      RowsWritten base pay n X → p = pay n hn →
      RowsWritten base pay (n + 1) (View.write (Elt F) (rowM n h).view X p Finset.univ)

/-- A tower read at `(g, y)`: a written row shows its payload, an unwritten row what was there before. A write to row
    `n` is seen exactly at the indices whose row coordinate is `n`. -/
theorem RowsWritten.apply {base : S128x16384.Idx → Elt F .f32} {pay : (k : Nat) → k < 128 → S16384.Idx → Elt F .f32}
    {n : Nat} {X : S128x16384.Idx → Elt F .f32} (hX : RowsWritten base pay n X) (g : Fin 128) (y : Fin 16384) :
    X (ix2 g y) = if g.val < n then pay g.val g.isLt (ValueIdx.ix1 y) else base (ix2 g y) := by
  induction hX with
  | zero => rw [if_neg (Nat.not_lt_zero _)]
  | succ n hn h X p hX hp ih =>
    subst hp
    by_cases hg : g.val = n
    · -- the index is position `y` of row `n`
      have e : (ix2 g y : S128x16384.Idx) = (rowM n h).view.emb (ValueIdx.ix1 y) := by
        funext a; apply Fin.ext; rw [rowM_emb]
        fin_cases a
        · exact hg
        · rfl
      rw [e, View.write_emb_of_mem _ _ (Finset.mem_univ _), if_pos (by omega)]
      subst hg
      simp only [cast_eq]
    · -- another row: the write is not seen
      have hnot : (ix2 g y : S128x16384.Idx) ∉ (rowM n h).view.setOn Finset.univ := by
        intro hm
        obtain ⟨y', -, hy'⟩ := Finset.mem_map.1 hm
        have e0 := congrArg (fun j : S128x16384.Idx => (j 0).val) hy'
        have e1 := rowM_emb n h y' 0
        exact hg (e0.symm.trans e1)
      rw [View.write_of_not_mem _ _ _ hnot, ih]
      by_cases hlt : g.val < n
      · rw [if_pos hlt, if_pos (by omega)]
      · rw [if_neg hlt, if_neg (by omega)]

/-- With all 128 rows written nothing of the earlier contents is left: the tower is its payloads, row by row. -/
theorem RowsWritten.full {base : S128x16384.Idx → Elt F .f32} {pay : (k : Nat) → k < 128 → S16384.Idx → Elt F .f32}
    {X : S128x16384.Idx → Elt F .f32} (hX : RowsWritten base pay 128 X) (x : S128x16384.Idx) :
    X x = pay (x 0).val (x 0).isLt (ValueIdx.ix1 (x 1)) := by
  have e := hX.apply (x 0) (x 1)
  rw [if_pos (show (x 0).val < 128 from (x 0).isLt)] at e
  exact (congrArg X (eq_ix2 x)).trans e

/-! ## The copies' payloads, and the closed form -/

section Payload

variable (pf : S4096.Idx → Elt F .i32) (fh : S4096x16384.Idx → Elt F .f32) (i : grid1.Coords)

/-- The table position the body reads for row `n`, as the body computes it in 32-bit words: `s · 128 + n`. -/
abbrev offAt (n : Nat) : Fin 1 → Nat :=
  ![(Scalar.indexCast (Scalar.addi (Scalar.muli (BitVec.ofNat 32 (i 0).val) 128#32) (BitVec.ofNat 32 n))).toNat]

/-- No word wraps: `s < 32` and `n < 128`, so the position is `128 s + n`. -/
theorem offAt_val (n : Nat) (hn : n < 128) : offAt i n 0 = 128 * (i 0).val + n := by
  have hs : (i 0).val < 32 := (i 0).isLt
  show ((BitVec.ofNat 32 (i 0).val * 128#32 + BitVec.ofNat 32 n)).toNat = _
  rw [BitVec.toNat_add, BitVec.toNat_mul, BitVec.toNat_ofNat, BitVec.toNat_ofNat, BitVec.toNat_ofNat]
  omega

theorem offAt_inb (n : Nat) (hn : n < 128) : ∀ a, offAt i n a + S1.size a ≤ S4096.size a := by
  intro a; fin_cases a
  show offAt i n 0 + 1 ≤ 4096
  have hs : (i 0).val < 32 := (i 0).isLt
  rw [offAt_val i n hn]; omega

theorem one_word_pos : 0 < (⟨S4096.rank, S1.size⟩ : Shape).numel := by decide

/-- The table word the body reads for row `n`. -/
abbrev wordAt (n : Nat) (hn : n < 128) : Elt F .i32 :=
  View.readAt (Elt F) tB.view (Rect.unit (s := S4096) (offAt i n) S1.size (offAt_inb i n hn)).toLoadRect pf
    (Shape.Idx.first one_word_pos)

/-- Position `128 s + g` of the table. -/
def rowIx (g : Fin 128) : Fin 4096 :=
  ⟨128 * (i 0).val + g.val, by have hs : (i 0).val < 32 := (i 0).isLt; have := g.isLt; omega⟩

/-- The word read for row `n` is the table's entry at `128 s + n`. -/
theorem wordAt_eq (n : Nat) (hn : n < 128) : wordAt pf i n hn = pf (ValueIdx.ix1 (rowIx i ⟨n, hn⟩)) := by
  show pf _ = pf _
  congr 1
  funext a; apply Fin.ext
  fin_cases a
  show offAt i n 0 + 1 * 0 = 128 * (i 0).val + n
  rw [offAt_val i n hn]; omega

/-- A row index below 4096 leaves room for one whole row of the 4096 × 16384 array. -/
theorem row_fits (v : BitVec 32) (h : v.toNat < 4096) :
    ∀ a, (![v.toNat, 0] : Fin 2 → Nat) a + S1x16384.size a ≤ S4096x16384.size a := by
  intro a; fin_cases a
  · show v.toNat + 1 ≤ 4096; omega
  · show 0 + 16384 ≤ 16384; omega

variable (hR : Cert.Spec.InRange pf)

/-- What the copy into row `n` delivers: row `w n` of the transposed array. -/
abbrev rowPay (n : Nat) (hn : n < 128) : S16384.Idx → Elt F .f32 :=
  ReadAs.same.apply (View.read (Elt F) (srcM (BitVec.toNat (wordAt pf i n hn)) (row_fits _ (hR _))).view fh)

/-- The delivered row at position `y`: entry `(w n, y)` of the transposed array, `w n` the table's column at `128 s + n`. -/
theorem rowPay_apply (n : Nat) (hn : n < 128) (y : S16384.Idx) :
    rowPay pf fh i hR n hn y = fh (ix2 (n0 := 4096) (n1 := 16384) (Cert.Spec.col pf (rowIx i ⟨n, hn⟩)) (y 0)) := by
  rw [show rowPay pf fh i hR n hn y
      = View.read (Elt F) (srcM (BitVec.toNat (wordAt pf i n hn)) (row_fits _ (hR _))).view fh y from rfl, View.read_apply]
  simp only [cast_eq]
  congr 1
  funext a; apply Fin.ext
  rw [srcM_emb]
  fin_cases a
  · show BitVec.toNat (wordAt pf i n hn) = (Cert.Spec.col pf (rowIx i ⟨n, hn⟩)).val
    rw [Cert.Spec.col_val pf hR, wordAt_eq]
  · rfl

/-- The scratch once all 128 copies have landed: entry `(g, y)` is entry `(w g, y)` of the transposed array. -/
def gatheredRows : S128x16384.Idx → Elt F .f32 :=
  fun x => fh (ix2 (n0 := 4096) (n1 := 16384) (Cert.Spec.col pf (rowIx i (x 0))) (x 1))

/-- The tower of the 128 copies is that function, whatever the scratch held before. -/
theorem rows_closed {base X : S128x16384.Idx → Elt F .f32} (hX : RowsWritten base (rowPay pf fh i hR) 128 X) :
    X = gatheredRows pf fh i := by
  funext x
  rw [hX.full x, rowPay_apply pf fh i hR]
  rfl

end Payload

end Cert.KernelIdeal.Hand.Rows

end
-- ==== Proof.KI.Region1Run.lean ====
/-
  REGION 1's kernel body, run once at a symbolic grid point, with what it leaves stated over the scratch's contents.

  The run needs three things of its resources. The transposed array is read by sixteen copies at a time, two of which
  may read the SAME row (the table need not be injective): it is held as read shares, one per cell a copy completes on,
  so each copy borrows its own share of its row. The scratch is held whole and each copy takes only the row it writes,
  the rest staying in hand for the next copy; a wait on a cell gives that row back. Every word read from the table is
  below 4096 (the table is in range), which is the side condition each copy's source row needs.

  After the 128 copies the scratch holds a tower of 128 row writes over whatever it held before; the eight loads
  read that tower, and the eight stores write its 128 × 2048 slices, transposed, as rows `[2048 c, 2048 (c+1))` of
  the output block. The continuation is handed the tower under an existential, with the fact that it IS such a
  tower (`Rows.RowsWritten`), and the output buffer's pieces as a function of it.
-/
import proofs.«422614_j16655883174311_1_alg».proof.Proof.Gen.KernelIdeal.Launch
import proofs.«422614_j16655883174311_1_alg».proof.Proof.Gen.KernelIdeal.Skeleton
import proofs.«422614_j16655883174311_1_alg».proof.Proof.Gen.KernelIdeal.Points
import proofs.«422614_j16655883174311_1_alg».proof.Proof.Spec
import proofs.«422614_j16655883174311_1_alg».proof.Proof.KI.Region1Rows
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Any word read from the table is an entry of the table, hence below 4096. -/
theorem word_lt (pf : S4096.Idx → Elt F .i32) (hR : Cert.Spec.InRange pf) (r : LoadRect S4096) (j : r.shape.Idx) :
    BitVec.toNat (View.readAt (Elt F) Rows.tB.view r pf j) < 4096 := hR _

/-- A points-to split into read tokens: what remains after twenty-two halvings, and the twenty-two right halves
    (token `k` is lent to the copy completing on cell `k`; the rest and the tokens compose to the whole share). -/
theorem pointsTo_tokens22 {ℓ : Loc nD τ sig} {S : Finset (Idx ℓ)} {f : Buf (Elt F) ℓ} (q : PosShare TreeShare) :
    (ℓ ↦[S]{q} f : sProp 𝕄) ⊣⊢ iprop((ℓ ↦[S]{Transfers.shareDrop q 22} f) ∗ (ℓ ↦[S]{Transfers.shareTokN q 0} f) ∗ (ℓ ↦[S]{Transfers.shareTokN q 1} f) ∗ (ℓ ↦[S]{Transfers.shareTokN q 2} f) ∗ (ℓ ↦[S]{Transfers.shareTokN q 3} f) ∗ (ℓ ↦[S]{Transfers.shareTokN q 4} f) ∗ (ℓ ↦[S]{Transfers.shareTokN q 5} f) ∗ (ℓ ↦[S]{Transfers.shareTokN q 6} f) ∗ (ℓ ↦[S]{Transfers.shareTokN q 7} f) ∗ (ℓ ↦[S]{Transfers.shareTokN q 8} f) ∗ (ℓ ↦[S]{Transfers.shareTokN q 9} f) ∗ (ℓ ↦[S]{Transfers.shareTokN q 10} f) ∗ (ℓ ↦[S]{Transfers.shareTokN q 11} f) ∗ (ℓ ↦[S]{Transfers.shareTokN q 12} f) ∗ (ℓ ↦[S]{Transfers.shareTokN q 13} f) ∗ (ℓ ↦[S]{Transfers.shareTokN q 14} f) ∗ (ℓ ↦[S]{Transfers.shareTokN q 15} f) ∗ (ℓ ↦[S]{Transfers.shareTokN q 16} f) ∗ (ℓ ↦[S]{Transfers.shareTokN q 17} f) ∗ (ℓ ↦[S]{Transfers.shareTokN q 18} f) ∗ (ℓ ↦[S]{Transfers.shareTokN q 19} f) ∗ (ℓ ↦[S]{Transfers.shareTokN q 20} f) ∗ (ℓ ↦[S]{Transfers.shareTokN q 21} f)) := by
  have h := Transfers.pointsTo_toks_range (Name := ℕ) (U := Pipeline.UD sig nD τ) (Lvl := ℕ) (Ix := Unit) (ℓ := ℓ) (S := S) (f := f) q 22
  rw [BI.bigSep_eq_bigSepL_of_eq [0, 1, 2, 3, 4, 5, 6, 7, 8, 9, 10, 11, 12, 13, 14, 15, 16, 17, 18, 19, 20, 21] (by decide) (by decide)] at h
  exact h

/-- A whole buffer of core `c` held at contents `f`. -/
abbrev ptAt (c : Dev nD) {sp : Space} {S : Shape} {e : EltTy} (M : Memref sig .tc sp S e)
    (f : Buf (Elt F) (M.view.loc (c : Thread nD τ))) : sProp 𝕄 :=
  M.view.loc (c : Thread nD τ) ↦{fullShare} f

/-- The sixteen cells the copies complete on, each at zero. -/
abbrev cells0 (c : Dev nD) : sProp 𝕄 :=
  iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0)

/-- What the eight stores leave in the output block, as pieces (last first), over the scratch's contents `X` when
    the loads read it: chunk `c` of the block is the transpose of columns `[2048 c, 2048 (c+1))` of `X`. -/
def piecesAt (X : S128x16384.Idx → Elt F .f32) : List (View.Piece (Elt F) S16384x128 .f32) :=
  [
    ⟨Rect.unit (s := S16384x128) ![14336, 0] S2048x128.size Gen.inb_S16384x128_S2048x128_14336_0,
      k1_pay6 (View.readAt (Elt F) Rows.scB.view (Rect.unit (s := S128x16384) ![0, 14336] S128x2048.size Gen.inb_S128x16384_S128x2048_0_14336).toLoadRect X)⟩,
    ⟨Rect.unit (s := S16384x128) ![12288, 0] S2048x128.size Gen.inb_S16384x128_S2048x128_12288_0,
      k1_pay5 (View.readAt (Elt F) Rows.scB.view (Rect.unit (s := S128x16384) ![0, 12288] S128x2048.size Gen.inb_S128x16384_S128x2048_0_12288).toLoadRect X)⟩,
    ⟨Rect.unit (s := S16384x128) ![10240, 0] S2048x128.size Gen.inb_S16384x128_S2048x128_10240_0,
      k1_pay4 (View.readAt (Elt F) Rows.scB.view (Rect.unit (s := S128x16384) ![0, 10240] S128x2048.size Gen.inb_S128x16384_S128x2048_0_10240).toLoadRect X)⟩,
    ⟨Rect.unit (s := S16384x128) ![8192, 0] S2048x128.size Gen.inb_S16384x128_S2048x128_8192_0,
      k1_pay3 (View.readAt (Elt F) Rows.scB.view (Rect.unit (s := S128x16384) ![0, 8192] S128x2048.size Gen.inb_S128x16384_S128x2048_0_8192).toLoadRect X)⟩,
    ⟨Rect.unit (s := S16384x128) ![6144, 0] S2048x128.size Gen.inb_S16384x128_S2048x128_6144_0,
      k1_pay2 (View.readAt (Elt F) Rows.scB.view (Rect.unit (s := S128x16384) ![0, 6144] S128x2048.size Gen.inb_S128x16384_S128x2048_0_6144).toLoadRect X)⟩,
    ⟨Rect.unit (s := S16384x128) ![4096, 0] S2048x128.size Gen.inb_S16384x128_S2048x128_4096_0,
      k1_pay1 (View.readAt (Elt F) Rows.scB.view (Rect.unit (s := S128x16384) ![0, 4096] S128x2048.size Gen.inb_S128x16384_S128x2048_0_4096).toLoadRect X)⟩,
    ⟨Rect.unit (s := S16384x128) ![2048, 0] S2048x128.size Gen.inb_S16384x128_S2048x128_2048_0,
      k1_pay8 (View.readAt (Elt F) Rows.scB.view (Rect.unit (s := S128x16384) ![0, 2048] S128x2048.size Gen.inb_S128x16384_S128x2048_0_2048).toLoadRect X)⟩,
    ⟨Rect.unit (s := S16384x128) ![0, 0] S2048x128.size Gen.inb_S16384x128_S2048x128_0_0,
      k1_pay7 (View.readAt (Elt F) Rows.scB.view (Rect.unit (s := S128x16384) ![0, 0] S128x2048.size Gen.inb_S128x16384_S128x2048_0_0).toLoadRect X)⟩]

set_option sl_exec.dmaWindow true in
set_option maxHeartbeats 40000000 in
/-- The body's run: from the output buffer at `f1`, the scratch at `ds0`, the cells at zero, the transposed array at
    `fh`, the table at `pf` (in range) and the core's `owes`, it reaches its return with the scratch at a tower of the
    128 delivered rows over `ds0`, the output buffer's pieces those of that tower, and the rest as it was. -/
theorem run1_raw (c : Dev nD) (i : grid1.Coords) (arg3 : Memref sig .tc .vmem S16384x128 .f32) (harg3 : arg3.IsWhole)
    (pf : S4096.Idx → Elt F .i32) (hR : Cert.Spec.InRange pf) (fh : S4096x16384.Idx → Elt F .f32)
    (f1 : arg3.view.ty.Contents (Elt F)) (ds0 : S128x16384.Idx → Elt F .f32) (W : Waits sig Unit) (K : PUnit → sProp 𝕄) :
    iprop((arg3.view.loc (c : Thread nD τ) ↦[arg3.view.set]{fullShare} f1)
        ∗ ptAt c Rows.scB ds0 ∗ cells0 c
        ∗ ptAt c Rows.zB fh ∗ ptAt c Rows.tB pf
        ∗ owes (c : Thread nD τ) 0 W
        ∗ (iprop((∃ X : S128x16384.Idx → Elt F .f32, ptAt c Rows.scB X
                  ∗ ⌜Rows.RowsWritten ds0 (Rows.rowPay pf fh i hR) 128 X⌝
                  ∗ (arg3.view.loc (c : Thread nD τ) ↦[arg3.view.set]{fullShare} arg3.view.writes (Elt F) f1 (piecesAt X)))
            ∗ cells0 c ∗ ptAt c Rows.zB fh
            ∗ ptAt c Rows.tB pf ∗ (∃ W', owes (c : Thread nD τ) 0 W')) -∗ K ⟨⟩))
      ⊢ wp frame (wpE (defs₀ (F := F)) Variants.none c none) Set.univ
          (cc1__gather_kernel i Rows.tB (Memref.isWhole_whole _) Rows.zB (Memref.isWhole_whole _) arg3 harg3 Rows.scB (Memref.isWhole_whole _) cc1_scratch1) K := by
  simp only [cc1__gather_kernel_eq_skeleton]; unfold cc1__gather_kernel_skel
  iintro ⟨H1, HS0, ⟨Hq0, Hq1, Hq2, Hq3, Hq4, Hq5, Hq6, Hq7, Hq8, Hq9, Hq10, Hq11, Hq12, Hq13, Hq14, Hq15⟩, Hh0, Ht, HW, Hk⟩
  -- one read share of the transposed array per cell
  ihave ⟨Hd, U0, U1, U2, U3, U4, U5, T0, T1, T2, T3, T4, T5, T6, T7, T8, T9, T10, T11, T12, T13, T14, T15⟩ := (pointsTo_tokens22 fullShare).1 $$ Hh0
  sl_exec (disch := exact Rows.row_fits _ (word_lt pf hR _ _))
  sl_step
  iapply Hk
  isplitl [HS0 H1]
  · iexists _
    isplitl [HS0]; · iexact HS0
    isplitr
    · ipureintro
      iterate 128 (refine Rows.RowsWritten.succ _ (by decide) _ _ _ ?_ rfl)
      exact Rows.RowsWritten.zero
    · iexact H1
  isplitl [Hq0 Hq1 Hq2 Hq3 Hq4 Hq5 Hq6 Hq7 Hq8 Hq9 Hq10 Hq11 Hq12 Hq13 Hq14 Hq15]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    iexact Hq15
  isplitl [Hd U0 U1 U2 U3 U4 U5 T0 T1 T2 T3 T4 T5 T6 T7 T8 T9 T10 T11 T12 T13 T14 T15]
  · -- the shares put back together
    iapply (pointsTo_tokens22 fullShare).2
    isplitl [Hd]; · iexact Hd
    isplitl [U0]; · iexact U0
    isplitl [U1]; · iexact U1
    isplitl [U2]; · iexact U2
    isplitl [U3]; · iexact U3
    isplitl [U4]; · iexact U4
    isplitl [U5]; · iexact U5
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    iexact T15
  isplitl [Ht]; · iexact Ht
  iexists _; iexact HW

end Cert.KernelIdeal.Hand

end
-- ==== Proof.KI.Region1Chunks.lean ====
/-
  The stored chunks as blocks of one function.

  Chunk `c` of the output block is the transpose of columns `[2048 c, 2048 (c+1))` of the scratch: its entry `(r, g)`
  is the scratch's entry `(g, 2048 c + r)`, and it is stored at rows `[2048 c, 2048 (c+1))`, so it sits at `(2048 c + r, g)`
  of the block. Every chunk is therefore the block, at its rectangle, of ONE function of the block's index: the
  scratch read with its two coordinates exchanged.
-/
import proofs.«422614_j16655883174311_1_alg».proof.Proof.KI.Region1Rows
import Idealize.ShloMosaic.Lib.Pipeline.Value

set_option maxRecDepth 16384

noncomputable section

namespace Cert.KernelIdeal.Hand.Rows

open Cert.KernelIdeal
open Idealize.ShloMosaic Idealize.ShloMosaic.ValueIdx Idealize.SL.Sem

variable {F : FTy → Type}

/-- The scratch's contents with the two coordinates exchanged: entry `(b, g)` is the scratch's entry `(g, b)`. -/
def exchanged (G : S128x16384.Idx → Elt F .f32) : S16384x128.Idx → Elt F .f32 :=
  fun y => G (ix2 (n0 := 128) (n1 := 16384) (y 1) (y 0))

/-- A 128 × 2048 slice of the scratch at columns `[o, o + 2048)`, transposed, read at `(r, g)`: the scratch at `(g, o + r)`. -/
theorem slice_transpose_apply (G : S128x16384.Idx → Elt F .f32) (o : Nat)
    (hb : ∀ a, (![0, o] : Fin 2 → Nat) a + S128x2048.size a ≤ S128x16384.size a)
    (r : Fin 2048) (g : Fin 128) (ho : o + r.val < 16384) :
    transpose S2048x128 [1, 0]
        (View.readAt (Elt F) scB.view (Rect.unit (s := S128x16384) ![0, o] S128x2048.size hb).toLoadRect G)
        Gen.transposes_S128x2048_p1_0_S2048x128 (ix2 (n0 := 2048) (n1 := 128) r g)
      = G (ix2 (n0 := 128) (n1 := 16384) g ⟨o + r.val, ho⟩) := by
  rw [transpose_apply [1, 0] _ Gen.transposes_S128x2048_p1_0_S2048x128 (ix2 (n0 := 2048) (n1 := 128) r g)
    (ix2 (n0 := 128) (n1 := 2048) g r) (by intro b; fin_cases b <;> rfl)]
  rw [View.readAt_apply, View.read_apply]
  simp only [cast_eq]
  congr 1
  funext a; apply Fin.ext
  fin_cases a
  · show 0 + 1 * g.val = g.val; omega
  · show o + 1 * r.val = o + r.val; omega

/-- The chunk stored at rows `[o, o + 2048)` is the block of `exchanged G` at its rectangle. -/
theorem chunk_block (G : S128x16384.Idx → Elt F .f32) (o : Nat)
    (hb : ∀ a, (![0, o] : Fin 2 → Nat) a + S128x2048.size a ≤ S128x16384.size a)
    (ho : ∀ a, (![o, 0] : Fin 2 → Nat) a + S2048x128.size a ≤ S16384x128.size a)
    (x : (Rect.unit (s := S16384x128) ![o, 0] S2048x128.size ho).shape.Idx) :
    transpose S2048x128 [1, 0]
        (View.readAt (Elt F) scB.view (Rect.unit (s := S128x16384) ![0, o] S128x2048.size hb).toLoadRect G)
        Gen.transposes_S128x2048_p1_0_S2048x128 x
      = exchanged G ((Rect.unit (s := S16384x128) ![o, 0] S2048x128.size ho).emb x) := by
  obtain ⟨r, g, rfl⟩ : ∃ (r : Fin 2048) (g : Fin 128), x = ix2 (n0 := 2048) (n1 := 128) r g := ⟨x 0, x 1, eq_ix2 x⟩
  have hle : o + 2048 ≤ 16384 := ho 0
  rw [slice_transpose_apply G o hb r g (by have := r.isLt; omega)]
  unfold exchanged
  congr 1
  funext a; apply Fin.ext
  fin_cases a
  · show g.val = 0 + 1 * g.val; omega
  · show o + r.val = o + 1 * r.val; omega

end Cert.KernelIdeal.Hand.Rows

end
-- ==== Proof.KI.Region1Body.lean ====
/-
  REGION 1's kernel body, run once at a symbolic grid point.

  At point `s` of the 32 the body reads the 128 table words `perm (128 s + g)`, `g < 128`, and for each
  starts a copy of ROW `perm (128 s + g)` of the transposed array (16384 words, left in HBM) into row `g` of a
  128 × 16384 scratch buffer; the copies go in eight waves of sixteen, copy `k` of a wave completing on cell `k`
  of sixteen cells, and every copy of a wave is waited for before the next wave starts, so each cell carries one
  copy at a time and a wait on it means THAT copy has landed. Then, for each of eight column chunks of 2048, the
  128 × 2048 slice of the scratch is loaded, transposed and stored as rows `[2048 c, 2048 (c+1))` of the
  16384 × 128 output block. So entry `(b, g)` of the block is entry `(perm (128 s + g), b)` of the transposed array.
  Each copy's source row must lie inside the array: that is the side condition the body assumes of each word, and
  it is what `InRange` of the table gives.
-/
import proofs.«422614_j16655883174311_1_alg».proof.Proof.Gen.KernelIdeal.Launch
import proofs.«422614_j16655883174311_1_alg».proof.Proof.Gen.KernelIdeal.Skeleton
import proofs.«422614_j16655883174311_1_alg».proof.Proof.Gen.KernelIdeal.Points
import proofs.«422614_j16655883174311_1_alg».proof.Proof.Spec
import proofs.«422614_j16655883174311_1_alg».proof.Proof.KI.Region1Run
import proofs.«422614_j16655883174311_1_alg».proof.Proof.KI.Region1Chunks
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The operands the pipeline does not stage: the index table (in scalar memory), the transposed array (left in HBM),
    the scratch buffer; each a whole buffer. -/
abbrev tblM : Memref sig .tc .smem S4096 .i32 := Memref.whole main_arg1
abbrev zTM : Memref sig .tc .hbm S4096x16384 .f32 := Memref.whole main_v0
abbrev scM : Memref sig .tc .vmem S128x16384 .f32 := Memref.whole cc1_scratch0
/-- A memref's buffer on core `c`: its contents type, and it held whole at `f`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The sixteen cells the body's copies complete on, each at zero. -/
abbrev sems0 (c : Dev nD) : sProp 𝕄 :=
  iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0)

/-- One staging buffer of the output window, through which a block's contents are stated. -/
abbrev VO1 : View sig .tc .vmem S16384x128 .f32 := (Memref.whole cc1_stg0_0 : Memref sig .tc .vmem S16384x128 .f32).view

/-- The scratch owned whole is its points-to. -/
theorem owns_scM (c : Dev nD) (d : S128x16384.Idx → Elt F .f32) :
    (owns (c : Thread nD τ) scM fullShare d : sProp 𝕄) = hbPt c scM d := owns_whole _ _ _ _

/-- What the body's eight stores leave in the output staging memref, as pieces, WITH the proof that from the output
    buffer and the scratch at anything, the sixteen cells at zero, the transposed array at `fh`, the table at `pf` (in range)
    and the core's `owes`, the body runs to its return handing all of it back — the scratch at some contents, the cells at zero
    again, the arrays as they were — with the output buffer's pieces written. -/
noncomputable def kernelRun1 (c : Dev nD) (i : grid1.Coords) (arg3 : Memref sig .tc .vmem S16384x128 .f32) (harg3 : arg3.IsWhole)
    (pf : HbBuf (F := F) c tblM) (hR : Cert.Spec.InRange pf) (fh : HbBuf (F := F) c zTM) :
    { L : List (View.Piece (Elt F) S16384x128 .f32) //
      ∀ (W : Waits sig Unit) (K : PUnit → sProp 𝕄),
        iprop((∃ d, owns (c : Thread nD τ) arg3 fullShare d) ∗ (∃ d, owns (c : Thread nD τ) scM fullShare d) ∗ sems0 c
            ∗ hbPt c zTM fh ∗ hbPt c tblM pf ∗ owes (c : Thread nD τ) 0 W
            ∗ (iprop((∃ f, arg3.view.loc (c : Thread nD τ) ↦[arg3.view.set]{fullShare} arg3.view.writes (Elt F) f L)
                ∗ (∃ d, owns (c : Thread nD τ) scM fullShare d) ∗ sems0 c ∗ hbPt c zTM fh ∗ hbPt c tblM pf
                ∗ (∃ W', owes (c : Thread nD τ) 0 W')) -∗ K ⟨⟩))
          ⊢ wp frame (wpE (defs₀ (F := F)) Variants.none c none) Set.univ
              (cc1__gather_kernel i tblM (Memref.isWhole_whole _) zTM (Memref.isWhole_whole _) arg3 harg3 scM (Memref.isWhole_whole _) cc1_scratch1) K } := by
  -- the pieces: those of the scratch once the 128 rows have landed, a function of the table and the array alone
  refine ⟨piecesAt (Rows.gatheredRows pf fh i), fun W K => ?_⟩
  simp only [owns_scM]
  unfold owns
  iintro ⟨⟨%d1, %f1, -, H1⟩, ⟨%ds0, HS0⟩, Hq, Hh0, Ht, HW, Hk⟩
  iapply (run1_raw c i arg3 harg3 pf hR fh f1 ds0 W K)
  isplitl [H1]; · iexact H1
  isplitl [HS0]; · iexact HS0
  isplitl [Hq]; · iexact Hq
  isplitl [Hh0]; · iexact Hh0
  isplitl [Ht]; · iexact Ht
  isplitl [HW]; · iexact HW
  iintro ⟨⟨%X, HS, %hN, H1⟩, Hq, Hh0, Ht, HW⟩
  -- a tower of all 128 rows is the gathered rows, whatever lay under it
  obtain rfl := Rows.rows_closed pf fh i hR hN
  iapply Hk
  isplitl [H1]; · iexists f1; iexact H1
  isplitl [HS]; · iexists _; iexact HS
  isplitl [Hq]; · iexact Hq
  isplitl [Hh0]; · iexact Hh0
  isplitl [Ht]; · iexact Ht
  iexact HW

/-- The run's pieces cover the output block. -/
theorem cover1 (c : Dev nD) (i : grid1.Coords) (arg3 : Memref sig .tc .vmem S16384x128 .f32) (harg3 : arg3.IsWhole)
    (pf : HbBuf (F := F) c tblM) (hR : Cert.Spec.InRange pf) (fh : HbBuf (F := F) c zTM) (y : S16384x128.Idx) :
    ∃ pc ∈ (kernelRun1 c i arg3 harg3 pf hR fh).1, y ∈ pc.1.set :=
  -- eight row blocks of 2048 rows, at offsets 0, 2048, …, 14336: they tile the 16384 rows
  View.cover_of_tiledL (kernelRun1 c i arg3 harg3 pf hR fh).1 S2048x128.size (by sl_kernel_rfl) y

/-- What the run leaves in the output block: its pieces read back. -/
def out1 (c : Dev nD) (i : grid1.Coords) (arg3 : Memref sig .tc .vmem S16384x128 .f32) (harg3 : arg3.IsWhole)
    (pf : HbBuf (F := F) c tblM) (hR : Cert.Spec.InRange pf) (fh : HbBuf (F := F) c zTM) : Vec F S16384x128 .f32 :=
  VO1.read (Elt F) (VO1.writes (Elt F) VO1.junk (kernelRun1 c i arg3 harg3 pf hR fh).1)

/-- Every stored chunk is the block, at its rectangle, of the scratch read with its two coordinates exchanged. -/
theorem pieces_blocks (G : S128x16384.Idx → Elt F .f32) :
    ∀ p ∈ piecesAt G, ∀ x : p.1.shape.Idx, p.2 x = Rows.exchanged G (p.1.emb x) := by
  intro p hp
  unfold piecesAt at hp
  rcases List.mem_cons.1 hp with rfl | hp
  · exact fun x => Rows.chunk_block (F := F) G 14336 Gen.inb_S128x16384_S128x2048_0_14336 Gen.inb_S16384x128_S2048x128_14336_0 x
  rcases List.mem_cons.1 hp with rfl | hp
  · exact fun x => Rows.chunk_block (F := F) G 12288 Gen.inb_S128x16384_S128x2048_0_12288 Gen.inb_S16384x128_S2048x128_12288_0 x
  rcases List.mem_cons.1 hp with rfl | hp
  · exact fun x => Rows.chunk_block (F := F) G 10240 Gen.inb_S128x16384_S128x2048_0_10240 Gen.inb_S16384x128_S2048x128_10240_0 x
  rcases List.mem_cons.1 hp with rfl | hp
  · exact fun x => Rows.chunk_block (F := F) G 8192 Gen.inb_S128x16384_S128x2048_0_8192 Gen.inb_S16384x128_S2048x128_8192_0 x
  rcases List.mem_cons.1 hp with rfl | hp
  · exact fun x => Rows.chunk_block (F := F) G 6144 Gen.inb_S128x16384_S128x2048_0_6144 Gen.inb_S16384x128_S2048x128_6144_0 x
  rcases List.mem_cons.1 hp with rfl | hp
  · exact fun x => Rows.chunk_block (F := F) G 4096 Gen.inb_S128x16384_S128x2048_0_4096 Gen.inb_S16384x128_S2048x128_4096_0 x
  rcases List.mem_cons.1 hp with rfl | hp
  · exact fun x => Rows.chunk_block (F := F) G 2048 Gen.inb_S128x16384_S128x2048_0_2048 Gen.inb_S16384x128_S2048x128_2048_0 x
  rcases List.mem_cons.1 hp with rfl | hp
  · exact fun x => Rows.chunk_block (F := F) G 0 Gen.inb_S128x16384_S128x2048_0_0 Gen.inb_S16384x128_S2048x128_0_0 x
  exact absurd hp List.not_mem_nil

/-- THE BLOCK'S VALUE: entry `(b, g)` of the block written at point `s = i 0` is entry `(perm (128 s + g), b)` of the
    transposed array. -/
theorem out1_apply (c : Dev nD) (i : grid1.Coords) (arg3 : Memref sig .tc .vmem S16384x128 .f32) (harg3 : arg3.IsWhole)
    (pf : HbBuf (F := F) c tblM) (hR : Cert.Spec.InRange pf) (fh : HbBuf (F := F) c zTM) (b : Fin 16384) (g : Fin 128)
    (hi : 128 * (i 0).val + g.val < 4096) :
    out1 c i arg3 harg3 pf hR fh (ValueIdx.ix2 b g)
      = (fh : S4096x16384.Idx → Elt F .f32) (ValueIdx.ix2 (Cert.Spec.col pf ⟨128 * (i 0).val + g.val, hi⟩) b) := by
  unfold out1
  -- the pieces cover the block, so what they leave is their canonical contents, whatever was there before
  rw [View.read_writes_eq_canon _ _ _ (cover1 c i arg3 harg3 pf hR fh)]
  -- every piece is the block, at its rectangle, of the gathered rows with the coordinates exchanged
  rw [View.canon_apply_of_pieces (Rows.exchanged (Rows.gatheredRows pf fh i)) _ ?_ _ (cover1 c i arg3 harg3 pf hR fh _)]
  · rfl
  · exact pieces_blocks (Rows.gatheredRows pf fh i)

end Cert.KernelIdeal.Hand

end
-- ==== Proof.KI.Region1.lean ====
/-
  REGION 1 as a pipeline: its proof data at the region-entry contents `V` and at table contents `a1` in range.

  The pipeline has one window, the OUTPUT (16384 × 4096 in column blocks of 128: point `s` writes columns
  `[128 s, 128 (s+1))`). What the body leaves in the block at point `s` is `out1` (Region1Body): entry `(b, g)` is
  entry `(perm (128 s + g), b)` of the transposed array the region finds in `main_v0`. The 32 blocks tile the
  array, so after the last point entry `(b, i)` of the result is entry `(perm i, b)` of that array (`final1`).
  The invariant carried from point to point: the scratch buffer and the staging buffers of the other call at
  anything, the sixteen cells at zero, the transposed array and the table at their entry contents.
-/
import proofs.«422614_j16655883174311_1_alg».proof.Proof.KI.Region1Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (a1 : (pcfg1 (F := F)).Adm)

/-- The table's one array, as the words the body reads. -/
abbrev tblOf : S4096.Idx → BitVec 32 := a1.1 0

/-- The body's own sixteen cells (the DMA semaphores 6 … 21), for the launch. -/
abbrev osem1 : Fin 16 → SemLoc sig := fun j => SemLoc.dma ⟨6 + j.val, by have := j.isLt; show 6 + j.val < 22; omega⟩
/-- The operand left in HBM that the body copies rows of: the transposed array. -/
def H1 : Finset (Ref sig .tc) := {main_v0}

/-- The output window's current staging memref at point `t`, as the pipeline passes it, and its wholeness. -/
abbrev ms1_0 (t : Fin (cfg1 a1).N) : Memref sig .tc .vmem S16384x128 .f32 := spec1_0.stage ((cfg1 a1).slots t 0)
abbrev hs1_0 (t : Fin (cfg1 a1).N) : (ms1_0 a1 t).IsWhole := hstage1_0 (((cfg1 a1).slots t 0).cast nbuf1_0)

/-- The invariant: the class's for a body with copies of its own (scoped rest, generator register, own cells at zero, the
    HBM operand at its entry contents) beside the table at its contents. -/
def Φ1 (c : Dev nD) : sProp 𝕄 :=
  iprop(Pipeline.ΦD osem1 spec1 H1 V c ∗ Pipeline.prefHeld pre1 c (fun _ => fullShare) a1.1)

variable (hR : Cert.Spec.InRange (tblOf a1))

/-- What the output block holds after the body at point `t`. -/
def outsAt1 (c : Dev nD) (t : Fin (cfg1 a1).N) : Vec F S16384x128 .f32 :=
  out1 c (grid1.coords t) (ms1_0 a1 t) (hs1_0 a1 t) (tblOf a1) hR (V c main_v0)

/-- The proof data of pipeline 1 on core `c`. -/
def dat1 (c : Dev nD) : Dat τ (Elt F) Unit ℕ (Pipeline.UD sig nD τ) ℕ (cfg1 a1) c where
  A w := V c (Pipeline.arrRef spec1 w)
  after w t := match w with
    | ⟨0, _⟩ => outsAt1 V a1 hR c t
  Φ _ := Φ1 V a1 c
  q _ := fullShare
  owed _ := 0

theorem A_eq1 (c : Dev nD) (w : Fin (cfg1 a1).W) : (dat1 V a1 hR c).A w = V c (Pipeline.arrRef spec1 w) := by
  dsimp only [dat1]

/-- What the body leaves in the one window (the proof data's `match` reduced). -/
theorem after1_0 (c : Dev nD) (t : Fin (cfg1 a1).N) : (dat1 V a1 hR c).after 0 t = outsAt1 V a1 hR c t := by
  dsimp only [dat1]
  rfl

/-- The sixteen cells at zero, listed. -/
theorem ownSems1_eq (c : Dev nD) :
    (Pipeline.ownSems0 (Ix := Unit) (Name := ℕ) (U := Pipeline.UD sig nD τ) (Lvl := ℕ) (Val := Elt F) (τ := τ) osem1 c : sProp 𝕄)
      = sems0 c := by
  rw [Pipeline.ownSems0_eq_of_list c osem1 [0, 1, 2, 3, 4, 5, 6, 7, 8, 9, 10, 11, 12, 13, 14, 15] (by decide) (by decide)]; rfl

/-- The transposed array's points-to at the region-entry contents. -/
theorem hbmPts1_eq (c : Dev nD) :
    (bigSep H1 (fun b => ((c : Thread nD τ).loc b) ↦{fullShare} V c b) : sProp 𝕄) = iprop(hbPt c zTM (V c main_v0)) := by
  rw [BI.bigSep_eq_bigSepL_of_eq [main_v0] (by decide) (by decide)]; rfl

/-- The table's points-to at its contents. -/
theorem prefHeld1_eq (c : Dev nD) :
    (Pipeline.prefHeld pre1 c (fun _ => fullShare) a1.1 : sProp 𝕄) = iprop(hbPt c tblM (tblOf a1)) := by
  unfold Pipeline.prefHeld
  rw [bigSep_univ_eq_bigSepL [(0 : Fin 1)] (by decide) (by decide)]; rfl

/-- The invariant conjunct by conjunct: the other call's staging buffers and the scratch buffer at anything, the generator
    register at some state, the sixteen cells at zero, the transposed array at its entry contents; and the table at its contents. -/
theorem Phi1_eq (c : Dev nD) :
    (Φ1 V a1 c : sProp 𝕄)
      = iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM fullShare d)) ∗ (∃ r, prngReg c r) ∗ sems0 c ∗ iprop(hbPt c zTM (V c main_v0))) ∗ iprop(hbPt c tblM (tblOf a1))) := by
  unfold Φ1
  rw [Pipeline.ΦD_eq, scopedRest1_eq, ownSems1_eq, hbmPts1_eq, prefHeld1_eq]; simp only [scM, owns_whole]; try rfl

/-- The kernel body as the pipeline calls it at point `t`: the label table's row at the point and the current buffer. -/
abbrev bodyAt1 (t : Fin (cfg1 a1).N) : Prog (TpuEff nD τ sig (Elt F) Λ₀ .tc) PUnit :=
  cc1__gather_kernel (grid1.coords t) tblM (Memref.isWhole_whole _) zTM (Memref.isWhole_whole _) (ms1_0 a1 t) (hs1_0 a1 t) scM (Memref.isWhole_whole _) cc1_scratch1

/-- The library's body obligation, at every point. The obligation's one window written out and the label table's row
    at the point read as the kernel's call; then: the invariant hands the run the scratch buffer, the cells at zero, the
    transposed array and the table, and takes them back as they were; the output buffer goes in at anything and comes
    back at the run's pieces written, which cover it, so it reads as `outsAt1`; the core's `owes` goes in at whatever
    the points before recorded and comes back with this point's waits. -/
theorem body_obligation1 (c : Dev nD) : BodyObligation (dat1 (F := F) V a1 hR c) (defs₀ (F := F)) Variants.none () Set.univ := fun t => by
  rw [bigSep_W1, bigSep_W1]
  dsimp only
  rw [show (defs₀ (F := F)) Proc.tc 1 (t, (cfg1 a1).slots t) = bodyAt1 a1 t from rfl]
  unfold bodyAt1
  rw [show (dat1 V a1 hR c).Φ t.succ = (dat1 V a1 hR c).Φ t.castSucc from rfl, after1_0]
  rw [show (dat1 V a1 hR c).Φ t.castSucc = Φ1 V a1 c from rfl, Phi1_eq]
  unfold Dat.owesAt Pipeline.owesWithin
  rw [show (dat1 V a1 hR c).owed t.castSucc = 0 from rfl, show (dat1 V a1 hR c).owed t.succ = 0 from rfl]
  unfold outsAt1
  unfold out1
  iintro ⟨⟨⟨⟨HR0, HR1, HR2, HR3, HS0⟩, Hg, Hq, Hh⟩, Ht⟩, ⟨%W, -, HW⟩, ⟨%d0, H0⟩⟩
  iapply ((kernelRun1 c (grid1.coords t) _ _ (tblOf a1) hR (V c main_v0)).2 W _)
  isplitl [H0]; · iexists _; iexact H0
  isplitl [HS0]; · iexact HS0
  isplitl [Hq]; · iexact Hq
  isplitl [Hh]; · iexact Hh
  isplitl [Ht]; · iexact Ht
  isplitl [HW]; · iexact HW
  iintro ⟨⟨%e0, H0⟩, HS0, Hq, Hh, Ht, ⟨%W', HW'⟩⟩
  isplitl [HR0 HR1 HR2 HR3 HS0 Hg Hq Hh Ht]
  · isplitr [Ht]
    · isplitl [HR0 HR1 HR2 HR3 HS0]
      · isplitl [HR0]; · iexact HR0
        isplitl [HR1]; · iexact HR1
        isplitl [HR2]; · iexact HR2
        isplitl [HR3]; · iexact HR3
        iexact HS0
      isplitl [Hg]
      · iexact Hg
      isplitl [Hq]
      · iexact Hq
      iexact Hh
    iexact Ht
  isplitl [HW']
  · iexists W'; isplitr; · ipureintro; exact fun _ _ => Or.inl trivial
    iexact HW'
  unfold owns; iexists _; isplitr
  swap; · iexact H0
  ipureintro; exact View.read_writes_of_cover _ _ _ _ _ (cover1 c _ _ _ _ _ _)

/-! ## The result array: from the 32 blocks to the whole -/

/-- The grid has one axis: a point's one coordinate is the point's number. -/
theorem coords1 : ∀ t : Fin grid1.N, (grid1.coords t 0).val = t.val := by decide +kernel

/-- The output window's block index at point `t` is `(0, t)`, at any contents of the table (the index map reads none):
    block `t` is the columns `[128 t, 128 (t + 1))`, all rows. -/
theorem idx1 (t : Fin (cfg1 a1).N) :
    ((cfg1 a1).win 0).index t (0 : Fin 2) = 0 ∧ ((cfg1 a1).win 0).index t (1 : Fin 2) = t.val :=
  (by decide +kernel : ∀ t : Fin grid1.N, cc1_transform_1 (grid1.coords t) (0 : Fin 2) = 0 ∧ cc1_transform_1 (grid1.coords t) (1 : Fin 2) = t.val) t

/-- The output is written back at every point, at any contents of the table. -/
theorem flush1_0 : ∀ t : Fin (cfg1 a1).N, ((cfg1 a1).win 0).flush t = true :=
  (by decide +kernel : ∀ t : Fin grid1.N, Pipeline.Window.flushOf grid1 true cc1_transform_1 t = true)

/-- The result: entry `(b, i)` is entry `(perm i, b)` of the transposed array the region finds. -/
def G1 (c : Dev nD) : S16384x4096.Idx → Elt F .f32 :=
  fun j => (V c main_v0 : S4096x16384.Idx → Elt F .f32) (ValueIdx.ix2 (Cert.Spec.col (tblOf a1) (j 1)) (j 0))

/-- Entry `(b, g)` of the block written at point `t` is entry `(perm k, b)` of the transposed array, `k = 128 t + g` the
    entry's column in the result. -/
theorem outsAt1_apply (c : Dev nD) (t : Fin (cfg1 a1).N) (b : Fin 16384) (g : Fin 128) (k : Fin 4096) (hk : k.val = 128 * t.val + g.val) :
    outsAt1 V a1 hR c t (ValueIdx.ix2 b g)
      = (V c main_v0 : S4096x16384.Idx → Elt F .f32) (ValueIdx.ix2 (Cert.Spec.col (tblOf a1) k) b) := by
  have hc : (grid1.coords t 0).val = t.val := coords1 t
  have hi : 128 * (grid1.coords t 0).val + g.val < 4096 := by rw [hc, ← hk]; exact k.isLt
  unfold outsAt1
  refine (out1_apply c (grid1.coords t) (ms1_0 a1 t) (hs1_0 a1 t) (tblOf a1) hR (V c main_v0) b g hi).trans ?_
  refine congrArg (fun k' : Fin 4096 => (V c main_v0 : S4096x16384.Idx → Elt F .f32) (ValueIdx.ix2 (Cert.Spec.col (tblOf a1) k') b)) (Fin.ext ?_)
  show 128 * (grid1.coords t 0).val + g.val = k.val
  rw [hc, hk]

/-- WHAT POINT `t` WRITES BACK is block `t` of `G1`: element `(y0, y1)` of the block sits at row `y0`, column `128 t + y1`
    of the array (block index times block size plus the coordinate inside the block). -/
theorem flushed1_eq (c : Dev nD) (t : Fin (cfg1 a1).N) :
    (dat1 V a1 hR c).flushed 0 t = (((cfg1 a1).win 0).blk t).view.read (Elt F) (G1 V a1 c) := by
  show ((cfg1 a1).win 0).cut (grid1.coords t) ((dat1 V a1 hR c).after 0 t) = _
  rw [after1_0]
  funext y
  obtain ⟨e0, e1⟩ := idx1 a1 t
  have ht : t.val < 32 := Nat.lt_of_lt_of_eq t.isLt (show (cfg1 a1).N = 32 from N_1)
  have hy0 : (y (0 : Fin 2)).val < 16384 := (y (0 : Fin 2)).isLt
  have hy1 : (y (1 : Fin 2)).val < 128 := (y (1 : Fin 2)).isLt
  have hx : ((cfg1 a1).win 0).xinj (grid1.coords t) y
      = ValueIdx.ix2 (n0 := 16384) (n1 := 128) ⟨(y (0 : Fin 2)).val, hy0⟩ ⟨(y (1 : Fin 2)).val, hy1⟩ := by
    funext a; match a with | ⟨0, _⟩ => rfl | ⟨1, _⟩ => rfl
  show outsAt1 V a1 hR c t (((cfg1 a1).win 0).xinj (grid1.coords t) y) = G1 V a1 c ((((cfg1 a1).win 0).blk t).view.emb y)
  rw [hx]
  refine (outsAt1_apply V a1 hR c t ⟨(y (0 : Fin 2)).val, hy0⟩ ⟨(y (1 : Fin 2)).val, hy1⟩ ⟨128 * t.val + (y (1 : Fin 2)).val, by omega⟩ rfl).trans ?_
  unfold G1
  refine congrArg₂ (fun (k' : Fin 4096) (b' : Fin 16384) => (V c main_v0 : S4096x16384.Idx → Elt F .f32) (ValueIdx.ix2 (Cert.Spec.col (tblOf a1) k') b')) (Fin.ext ?_) (Fin.ext ?_)
  · show 128 * t.val + (y (1 : Fin 2)).val = ((cfg1 a1).win 0).index t (1 : Fin 2) * 128 + 1 * (y (1 : Fin 2)).val
    rw [e1]; omega
  · show (y (0 : Fin 2)).val = ((cfg1 a1).win 0).index t (0 : Fin 2) * 16384 + 1 * (y (0 : Fin 2)).val
    rw [e0]; omega

/-- Every entry of the array is in some point's block: column `i` is in block `i / 128`. -/
theorem cover1_arr (i : S16384x4096.Idx) :
    ∃ t : Fin (cfg1 a1).N, ((cfg1 a1).win 0).flush t = true ∧ i ∈ (((cfg1 a1).win 0).blk t).view.set := by
  have hi0 : (i (0 : Fin 2)).val < 16384 := (i (0 : Fin 2)).isLt
  have hi1 : (i (1 : Fin 2)).val < 4096 := (i (1 : Fin 2)).isLt
  have hN : (cfg1 a1).N = 32 := N_1
  have hq : (i (1 : Fin 2)).val / 128 < (cfg1 a1).N := by rw [hN]; omega
  obtain ⟨e0, e1⟩ := idx1 a1 ⟨(i (1 : Fin 2)).val / 128, hq⟩
  have e1' : ((cfg1 a1).win 0).index ⟨(i (1 : Fin 2)).val / 128, hq⟩ (1 : Fin 2) = (i (1 : Fin 2)).val / 128 := e1
  refine ⟨⟨(i (1 : Fin 2)).val / 128, hq⟩, flush1_0 a1 _, ?_⟩
  show i ∈ ((View.whole main_v1).slice (((cfg1 a1).win 0).rect ⟨(i (1 : Fin 2)).val / 128, hq⟩)).set
  refine (Finset.ext_iff.mp (View.set_slice_whole main_v1 (((cfg1 a1).win 0).rect ⟨(i (1 : Fin 2)).val / 128, hq⟩)) i).mpr ?_
  refine Rect.mem_set_unit.mpr ?_
  intro a
  match a with
  | ⟨0, _⟩ =>
    show ((cfg1 a1).win 0).index ⟨(i (1 : Fin 2)).val / 128, hq⟩ (0 : Fin 2) * 16384 ≤ (i (0 : Fin 2)).val
      ∧ (i (0 : Fin 2)).val < ((cfg1 a1).win 0).index ⟨(i (1 : Fin 2)).val / 128, hq⟩ (0 : Fin 2) * 16384 + 16384
    rw [e0]; omega
  | ⟨1, _⟩ =>
    show ((cfg1 a1).win 0).index ⟨(i (1 : Fin 2)).val / 128, hq⟩ (1 : Fin 2) * 128 ≤ (i (1 : Fin 2)).val
      ∧ (i (1 : Fin 2)).val < ((cfg1 a1).win 0).index ⟨(i (1 : Fin 2)).val / 128, hq⟩ (1 : Fin 2) * 128 + 128
    rw [e1']; omega

/-- THE RESULT ARRAY after the 32 points: entry `(b, i)` is entry `(perm i, b)` of the array found in `main_v0`. -/
theorem final1 (c : Dev nD) :
    (dat1 V a1 hR c).arrAt 0 (cfg1 a1).N
      = fun j : S16384x4096.Idx => (V c main_v0 : S4096x16384.Idx → Elt F .f32) (ValueIdx.ix2 (Cert.Spec.col (tblOf a1) (j 1)) (j 0)) :=
  (dat1 V a1 hR c).arrAt_eq_of_cover 0 (G1 V a1 c) (fun t _ => flushed1_eq V a1 hR c t) (fun i => cover1_arr a1 i)

end Cert.KernelIdeal.Hand

end
-- ==== Proof.KI.Run.lean ====
/-
  THE RUN of the kernel program: its two kernel regions in order, from the launch to the return.

  @main is two calls. The first transposes the 16384 × 4096 array z (main_arg0) into the 4096 × 16384 array main_v0. The second,
  for a table perm of 4096 words (main_arg1, placed in scalar memory and handed to the second call's pipeline as its
  prefetched table), writes into main_v1 the array whose entry (b, i) is entry (perm i, b) of main_v0. There is no host
  operation, and the program runs on one core.

  The core's unscoped buffers are followed through three boundaries. At launch they hold the memory m. Between the calls
  main_v0 holds what the transpose's write-backs leave, which is the transpose of z, and everything else is as launched;
  in particular the table still holds its launch contents, and those are the contents the gather's pipeline is pinned at.
  After the gather main_v1 holds what the gather's write-backs leave and everything else is as between the calls.

  Each call is a segment over the thread state "every unscoped buffer at the boundary's contents, the generator register at
  some state, nothing owed". The transpose takes its two arrays out of the unscoped buffers and puts them back. The gather
  takes its result array out; of the buffers that bypass its windows it hands the table whole to the pipeline, puts the
  transposed array (which the body copies rows of by transfers of its own) into the region invariant beside the kernel's
  sixteen cells at zero, and lets z pass by; at the exit all of them come back as they were.

  The final memory is read against the last boundary. main_v1: entry (b, i) is entry (perm i, b) of the transpose of z, that
  is z (b, perm i): the columns of z picked by the table. z: an input window of the transpose, which the pipeline leaves as
  it found it, and a bystander of the gather. The table: a bystander of the transpose, only read by the gather.
-/
import proofs.«422614_j16655883174311_1_alg».proof.Proof.KI.Region0Value
import proofs.«422614_j16655883174311_1_alg».proof.Proof.KI.Region1
import Idealize.ShloMosaic.Lib.Pipeline.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at the three boundaries of the run -/

/-- Core c's buffers at launch: the memory the run starts from. -/
abbrev W0 (c : Dev nD) : Valuation τ sig (Elt F) := fun b => m (c, b)
/-- The same, read at the TensorCore's references: what the transpose's proof data are stated at. -/
abbrev V0 : (c : Dev nD) → (b : Ref sig .tc) → Buf (Elt F) ((c : Thread nD τ).loc b) := fun c b => W0 m c b

/-- Between the two regions: z as launched, the transposed array's buffer at what the transpose's write-backs leave,
    every other buffer as launched. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 winFacts0.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same, read at the TensorCore's references: what the gather's proof data are stated at. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-! ## The index table -/

/-- The table's contents: what the launch memory holds in main_arg1 (the program runs on one core). -/
def tbl : pre1.Contents (Elt F) := fun k => W0 m (0 : Dev nD) (Proc.devRef .tc (pre1.ref k))
/-- The transpose does not touch the table: between the regions, on every core, its buffer holds those contents. -/
theorem V1_pre (c : Dev nD) (k : Fin pre1.K) : V1 m c (pre1.ref k) = tbl m k := by
  obtain rfl : c = 0 := Subsingleton.elim _ _
  exact W1_of_ne m 0 (pre1.ref k) ((by decide : ∀ (k : Fin pre1.K) (w : Fin cfg0.W), Pipeline.arrRef spec0 w ≠ pre1.ref k) k)
/-- The table as admissible contents of the gather's pipeline (its side condition is empty). -/
abbrev a1 : (pcfg1 (F := F)).Adm := ⟨tbl m, trivial⟩
/-- The table's one array is main_arg1 as launched. -/
theorem tblOf_a1 : tblOf (a1 m) = m (((0 : Dev nD) : Thread nD τ).loc main_arg1) := rfl

-- the gather's proof data are stated under the table in range
variable (hT : Cert.Spec.InRange (tblOf (a1 m)))

/-- After the gather: the result's buffer at what the gather's write-backs leave, every other buffer as between the
    regions. -/
def W2 (c : Dev nD) : Valuation τ sig (Elt F) :=
  Pipeline.withArrays spec1 c (W1 m c) fun w => (dat1 (V1 m) (a1 m) hT c).arrAt w (cfg1 (a1 m)).N
theorem W2_arr (c : Dev nD) (w : Fin (cfg1 (a1 m)).W) :
    W2 m hT c (Proc.devRef .tc (Pipeline.arrRef spec1 w)) = (dat1 (V1 m) (a1 m) hT c).arrAt w (cfg1 (a1 m)).N := by
  unfold W2; exact Pipeline.withArrays_arr spec1 winFacts1.arr_inj c _ _ w
theorem W2_of_ne (c : Dev nD) (b : Ref sig .tc) (hb : ∀ w, Pipeline.arrRef spec1 w ≠ b) :
    W2 m hT c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m hT c b
theorem hF1 (c : Dev nD) (w : Fin (cfg1 (a1 m)).W) : (dat1 (V1 m) (a1 m) hT c).arrAt w (cfg1 (a1 m)).N = V2 m hT c (Pipeline.arrRef spec1 w) :=
  (W2_arr m hT c w).symm
theorem hrest1 (c : Dev nD) : ∀ b, b ∉ Finset.univ.image (Pipeline.arrRef spec1) → V2 m hT c b = V1 m c b :=
  fun b hb => W2_of_ne m hT c b fun w e => hb (Finset.mem_image.mpr ⟨w, Finset.mem_univ _, e⟩)

/-! ## The proof data family and the thread state -/

/-- The tables' contents, pipeline by pipeline: the transpose has none, the gather has the index table. -/
abbrev adm : (p : Fin 2) → (pcfgs (F := F) p).Adm
  | ⟨0, _⟩ => cfg0.toPCfg_adm
  | ⟨1, _⟩ => a1 m
  | ⟨_ + 2, h⟩ => absurd h (Nat.not_lt.2 (Nat.le_add_left _ _))

/-- Every pipeline's proof data, each at its region's entry contents. -/
def pdats : (p : Fin 2) → (c : Dev nD) → Dat τ (Elt F) Unit ℕ (Pipeline.UD sig nD τ) ℕ (Pipeline.pin (pcfgs (F := F)) (adm m) p) c
  | ⟨0, _⟩ => fun c => dat0 (V0 m) c
  | ⟨1, _⟩ => fun c => dat1 (V1 m) (a1 m) hT c
  | ⟨_ + 2, h⟩ => absurd h (Nat.not_lt.2 (Nat.le_add_left _ _))

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both regions: the core's generator register at some state and its tally, at
    nothing. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the tally: every unscoped buffer at the last boundary's contents, the generator register
    at some state. -/
abbrev Tₙ (c : Dev nD) : sProp 𝕄 := iprop(StableHlo.held (c : Thread nD τ) (Pipeline.ucRefs τ sig) (W2 m hT c) ∗ ∃ r, prngReg c r)

/-! ## The regions as segments -/

set_option backward.isDefEq.respectTransparency.types false in
/-- THE TRANSPOSE over the thread state: entered from every unscoped buffer at the launch contents, left at the contents
    between the regions. Its two arrays are split out of the unscoped buffers and put back at what the pipeline leaves; the
    generator register goes into the class invariant and comes out; nothing is owed; the kernel has no semaphore of its own and
    its pipeline no table. -/
def reg0 : Pipeline.RegionSeg (pcfgs (F := F)) (adm m) (pdats m hT) () defs₀ 𝒱₀ L lv 0 where
  win := winFacts0.to₀
  block_pos := block_pos0
  stage_whole := stage_whole0
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m c)
  hentry c := by
    rw [Pipeline.ownSems0_none]
    have hsplit := Pipeline.arrays_of_unscopedBufs (p := 0) (pcfgs (F := F)) (adm m) (pdats m hT) winFacts0 arr_whole0 c
      ((pdats m hT 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hT 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m hT 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := Pipeline.UD sig nD τ) (Lvl := ℕ)
      winFacts0 arr_whole0 c (pdats m hT) ((pdats m hT 0 c).share_full fun _ => rfl)
      (V0 m c) (V1 m c) ((pdats m hT 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The gather's sixteen cells are scoped DMA semaphores, pairwise distinct, and none is a staging buffer's. -/
theorem ownSemFacts1 : Pipeline.OwnSemFacts spec1 osem1 := by decide

/-- The operand the gather copies rows of is an unscoped buffer that is neither the gather's result array nor the table. -/
theorem H1_sub : H1 ⊆ Pipeline.restRefsP sig pre1 spec1 := by decide

/-- The buffers that bypass the gather, as it finds them: the table held whole at its contents, the transposed array (which
    goes into the invariant), and the others. -/
theorem rest1_split (c : Dev nD) :
    (Pipeline.unscopedRest (Ix := Unit) (Name := ℕ) (U := Pipeline.UD sig nD τ) (Lvl := ℕ) spec1 c (V1 m c) : sProp 𝕄)
      = iprop(Pipeline.prefHeld pre1 c (fun _ => fullShare) (a1 m).1
          ∗ (bigSep H1 fun b => ((c : Thread nD τ).loc b) ↦{fullShare} V1 m c b)
          ∗ bigSep (Pipeline.restRefsP sig pre1 spec1 \ H1) fun b => ((c : Thread nD τ).loc b) ↦{fullShare} V1 m c b) := by
  rw [Pipeline.unscopedRest_split preFacts1 c (V1 m c), Pipeline.unscopedRestP_sdiff pre1 spec1 H1 H1_sub c (V1 m c),
    show (fun k => V1 m c (pre1.ref k)) = (a1 m).1 from funext fun k => V1_pre m c k]

set_option backward.isDefEq.respectTransparency.types false in
/-- THE GATHER over the thread state: entered from every unscoped buffer at the contents between the regions, left at the
    last contents. Its result array is split out of the unscoped buffers and put back at what the pipeline leaves. Of the
    bypassing buffers the table is handed to the pipeline whole (at entry it holds the admitted contents, since the transpose
    did not touch it) and comes back whole through the invariant; the transposed array goes into the invariant beside the
    generator register and the kernel's sixteen cells at zero, and comes back as it was; z bypasses the region. Nothing is owed. -/
def reg1 : Pipeline.RegionSeg (pcfgs (F := F)) (adm m) (pdats m hT) () defs₀ 𝒱₀ L lv 1 where
  win := winFacts1.to₀
  block_pos := block_pos1
  stage_whole := stage_whole1
  K := Fin 16
  osem := osem1
  ho := ownSemFacts1
  hbody c := (body_obligation1 (V1 m) (a1 m) hT c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m hT c ∗ ∃ W, owes (c : Thread nD τ) (0 : CellTallies nD τ sig Unit) W)
  X c := iprop((∃ r, prngReg c r) ∗ Pipeline.ownSems0 (Ix := Unit) (Name := ℕ) (U := Pipeline.UD sig nD τ) (Lvl := ℕ) (Val := Elt F) (τ := τ) osem1 c ∗ (bigSep H1 fun b => (((c : Thread nD τ)).loc b) ↦{fullShare} V1 m c b))
  Y c := iprop((∃ r, prngReg c r) ∗ (bigSep H1 fun b => (((c : Thread nD τ)).loc b) ↦{fullShare} V1 m c b) ∗ Pipeline.prefHeld pre1 c (fun _ => fullShare) (a1 m).1)
  Z c := bigSep (Pipeline.restRefsP sig pre1 spec1 \ H1) fun b => (((c : Thread nD τ)).loc b) ↦{fullShare} V1 m c b
  hentry c := by
    have hsplit := Pipeline.arrays_of_unscopedBufs (p := 1) (pcfgs (F := F)) (adm m) (pdats m hT) winFacts1 arr_whole1 c
      ((pdats m hT 1 c).share_full fun _ => rfl) (V1 m c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest1_split m c)) $$ Hrest
    icases H' with ⟨Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m hT 1 c).Φ 0 = Φ1 (V1 m) (a1 m) c from rfl]; unfold Φ1; rw [Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    iexact Ht
  hout c := by
    rw [show (pdats m hT 1 c).Φ (Fin.last _) = Φ1 (V1 m) (a1 m) c from rfl]; unfold Φ1; rw [Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 1) (pcfgs (F := F)) (adm m) (Ix := Unit) (Name := ℕ) (U := Pipeline.UD sig nD τ) (Lvl := ℕ)
      winFacts1 arr_whole1 c (pdats m hT) ((pdats m hT 1 c).share_full fun _ => rfl)
      (V1 m c) (V2 m hT c) ((pdats m hT 1 c).arrAt · (cfg1 (a1 m)).N) (hF1 m hT c) (hrest1 m hT c)
    rw [Pipeline.unscopedBufs_held] at hjoin
    iintro ⟨Ha, HO, ⟨HY, HH, Ht⟩, HR⟩
    ihave Hrest := (Entails.of_eq (rest1_split m c).symm) $$ [Ht HH HR]
    · isplitl [Ht]; · iexact Ht
      isplitl [HH]; · iexact HH
      iexact HR
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## What the boundaries hold at the arrays the claim names -/

/-- z ends as launched: it is the transpose's input window (the pipeline leaves an input as it found it) and bypasses the gather. -/
theorem W2_main_arg0 (c : Dev nD) : W2 m hT c (Proc.devRef .tc main_arg0) = m ((c : Thread nD τ).loc main_arg0) :=
  calc W2 m hT c (Proc.devRef .tc main_arg0)
    _ = W1 m c (Proc.devRef .tc main_arg0) := W2_of_ne m hT c main_arg0 (by decide)
    _ = W0 m c (Proc.devRef .tc main_arg0) := (W1_arr m c 0).trans (kept0 (V0 m) c)
    _ = m ((c : Thread nD τ).loc main_arg0) := rfl
/-- The table ends as launched: it bypasses the transpose, and the gather only reads it. -/
theorem W2_main_arg1 (c : Dev nD) : W2 m hT c (Proc.devRef .tc main_arg1) = m ((c : Thread nD τ).loc main_arg1) :=
  calc W2 m hT c (Proc.devRef .tc main_arg1)
    _ = W1 m c (Proc.devRef .tc main_arg1) := W2_of_ne m hT c main_arg1 (by decide)
    _ = W0 m c (Proc.devRef .tc main_arg1) := W1_of_ne m c main_arg1 (by decide)
    _ = m ((c : Thread nD τ).loc main_arg1) := rfl
/-- Between the regions main_v0 holds the transpose of z as launched. -/
theorem W1_main_v0 (c : Dev nD) :
    W1 m c (Proc.devRef .tc main_v0) = Cert.Spec.transposed (m ((c : Thread nD τ).loc main_arg0) : S16384x4096.Idx → Elt F .f32) :=
  (W1_arr m c 1).trans (final0 (V0 m) c)
/-- THE RESULT: after the gather main_v1 holds the columns of z picked by the table. Entry (b, i) of what the gather leaves is
    entry (perm i, b) of the array it found in main_v0, which is the transpose of z; and that is entry (b, perm i) of z. -/
theorem W2_main_v1 (c : Dev nD) :
    W2 m hT c (Proc.devRef .tc main_v1)
      = Cert.Spec.gathered (m ((c : Thread nD τ).loc main_arg0)) (m ((c : Thread nD τ).loc main_arg1)) := by
  obtain rfl : c = 0 := Subsingleton.elim _ _
  refine (W2_arr m hT 0 0).trans ((final1 (V1 m) (a1 m) hT 0).trans ?_)
  funext j
  exact (congrFun (W1_main_v0 m 0) _).trans (Cert.Spec.gathered_eq_transposed _ _ j).symm

/-! ## @main as segments, and the launch -/

/-- @main's two segments in order: the transpose, then the gather. -/
abbrev segs : List (Pipeline.Seg (pcfgs (F := F)) (adm m) (pdats m hT) () defs₀ 𝒱₀ L lv) :=
  [ .region (reg0 m hT),
    .region (reg1 m hT) ]
/-- @main IS the run of the segments. -/
theorem main_run (c : Dev nD) : main (F := F) c = Pipeline.Seg.run (segs m hT) :=
  main_segs (adm m) (pdats m hT) () 𝒱₀ L lv (reg0 m hT) (reg1 m hT) c

set_option backward.isDefEq.respectTransparency.types false in
/-- THE RUN, under the table in range: at the compiled mesh, from any memory with zero counters, every weakly fair execution
    of @main on the TensorCore terminates, nothing faulting, and every final state has main_v1 at the gathered columns of z
    and the two arguments as launched. The launch over the two segments; the last thread state is read against the final state,
    and each named array by its boundary fact above. -/
theorem run_core (hT : Cert.Spec.InRange (tblOf (a1 m))) : θ_run defs (onTc (τ := τ) (main (F := F))) ⟨m, fun _ => 0, ρ⟩ (fun r => ∀ c : Dev nD,
      r.2.mem ((c.tc : Thread nD τ).loc main_v1) = Cert.Spec.gathered (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) (adm m) (pdats m hT) () (cellOf_inj (adm m)) embL defs₀ 𝒱₀ L lv m ρ main (segs m hT)
    (fun c Q => by rw [main_run m hT c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m hT)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m hT c b)
    (hfin := fun c s' => by
      iintro ⟨⟨Hh, -⟩, HSI⟩
      unfold StableHlo.held
      imodintro
      iapply (pointsTo_read_all (Pipeline.ucRefs τ sig) (fun b => (((c : Thread nD τ)).1, b)) (W2 m hT c) s')
      isplitl [Hh] <;> iassumption)
    (hQ := fun s h c =>
      ⟨(h c _ (mem_uc main_v1 (by decide))).trans (W2_main_v1 m hT c),
       (h c _ (mem_uc main_arg0 (by decide))).trans (W2_main_arg0 m hT c),
       (h c _ (mem_uc main_arg1 (by decide))).trans (W2_main_arg1 m hT c)⟩)

/-- THE RUN of the kernel program, for a table every word of which names a column of z: every weakly fair execution of @main
    terminates, and every final state holds in main_v1 the columns of z picked by the table, z and the table as launched. The
    program runs on one core, whose table is the one the gather's pipeline is pinned at. -/
theorem run_main (hR : ∀ c : Dev nD, Cert.Spec.InRange (m ((c.tc : Thread nD τ).loc main_arg1))) :
    θ_run defs (onTc (τ := τ) (main (F := F))) ⟨m, fun _ => 0, ρ⟩ (fun r => ∀ c : Dev nD,
      r.2.mem ((c.tc : Thread nD τ).loc main_v1) = Cert.Spec.gathered (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_core m ρ (by rw [tblOf_a1]; exact hR 0)

end Cert.KernelIdeal.Hand

end
-- ==== Proof.K.Region0.lean ====
/-
  REGION 0: the blocked transpose, as proof data for its pipeline.

  The 16384 × 4096 array z is cut into 16 × 4 blocks of 1024 × 1024. At grid point (i, j) the pipeline stages
  block (i, j) of z; the body reads that block whole, transposes it, reads the output's staging buffer (a read
  whose value nothing uses) and overwrites that buffer whole with the transposed block; the pipeline then writes
  the buffer back as block (j, i) of the 4096 × 16384 result. So what the body leaves in the output's buffer is a
  function of the input block alone, and the buffer's earlier contents do not matter.

  Everything here is stated at an arbitrary contents V of the core's buffers at the region's entry and for an
  arbitrary float family F.
-/
import proofs.«422614_j16655883174311_1_alg».proof.Proof.Gen.Kernel.Launch
import proofs.«422614_j16655883174311_1_alg».proof.Proof.Gen.Kernel.Skeleton
import proofs.«422614_j16655883174311_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## A window's block at a grid point -/

/-- Window w's block at point t: the 1024 × 1024 sub-array of the window's array, as the region finds it, that
    the window's index map selects at t. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window is fetched at every point and its blocks tile z, so whatever proof data has z as the
    window's array and lets the body leave the block in place finds, before the body at point t, the input's
    current staging buffer holding exactly block t. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's one store -/

/-- The whole 1024 × 1024 staging buffer as a rectangle: what each of the body's two loads reads and its store writes. -/
abbrev whole0 : Rect S1024x1024 := Rect.unit (s := S1024x1024) ![0, 0] S1024x1024.size inb_S1024x1024_S1024x1024_0_0

/-- What the body leaves in the output's staging buffer, from the input block x0: the transpose of x0, written
    over the whole buffer by the one store. -/
def out0_1 (x0 : Vec F S1024x1024 .f32) : Vec F S1024x1024 .f32 :=
  View.canon [⟨whole0, k0_pay1 (View.ld x0 whole0)⟩]

/-- The store's rectangle is the whole buffer, so every index of the buffer is written. -/
theorem cover0_1 (p0 : Vec F S1024x1024 .f32) (y : S1024x1024.Idx) :
    ∃ pc ∈ ([⟨whole0, p0⟩] : List (View.Piece (Elt F) S1024x1024 .f32)), y ∈ pc.1.set :=
  View.cover_of_tiled [⟨whole0, p0⟩] S1024x1024.size (by rfl) y

/-! ## The body's triple -/

set_option maxHeartbeats 1000000 in
/-- The body on whole staging memrefs, the input's holding x0 and the output's holding anything: it ends with the
    input's buffer unchanged and the output's at out0_1 x0. The load of the output's buffer reads the contents it is
    held at and its value is used by nothing; the store then overwrites every word. -/
theorem sound_kernel0 (c : Dev nD) (E : Set ℕ) (i : grid0.Coords) (arg2 : Memref sig .tc .vmem S1024x1024 .f32) (harg2 : arg2.IsWhole) (arg3 : Memref sig .tc .vmem S1024x1024 .f32) (harg3 : arg3.IsWhole)
    (x0 : Vec F S1024x1024 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__transpose_kernel i arg2 harg2 arg3 harg3) K := by
  simp only [cc0__transpose_kernel_eq_skeleton]; unfold cc0__transpose_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the transpose's pipeline on core c. The windows' arrays are as the region finds them. After
    the body at point t the input's buffer still holds block t of z and the output's holds out0_1 of that block. The
    invariant is the untouched rest of the core (the other scoped buffers, the generator register); nothing is owed;
    every share is full. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- Before the body at point t the input's current staging buffer holds block t of z. -/
theorem before0_0 (c : Dev nD) (t : Fin cfg0.N) (d) : (dat0 V c).before 0 t d = iblk0 V c 0 t :=
  before0_0_of V (dat0 V c) (A_eq0 V c 0) (after0_0 V c) t d

/-! ## The body obligation, at a symbolic point -/

/-- What the body is called with at point t: the invariant, the core's tally, and each window's current staging
    buffer held whole, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns: the same, the buffers at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds block t, the output's holds something, so the body's triple
    applies; the invariant and the tally are not touched and do not change from one point to the next. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region0Value.lean ====
/-
  REGION 0's result: after its 64 points the result array holds the transpose of z.

  Point (i, j) of the 16 × 4 grid reads block (i, j) of z — rows 1024 i …, columns 1024 j … — and writes back
  block (j, i) of the result — rows 1024 j …, columns 1024 i …. Entry (p, q) of the written block is entry (q, p)
  of the read block, that is z (1024 i + q, 1024 j + p), and it lands at entry (1024 j + p, 1024 i + q) of the
  result: the entry of the transposed array there. The 4 × 16 output blocks tile the 4096 × 16384 result (entry
  (d, b) lies in the block of the point with i = b / 1024, j = d / 1024), so the whole result is the transpose.
  The input array is read only, so it ends as it was entered.
-/
import proofs.«422614_j16655883174311_1_alg».proof.Proof.K.Region0
import proofs.«422614_j16655883174311_1_alg».proof.Proof.Spec
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The input array is kept -/

/-- Window 0 is an input window: its array is never written back, so it ends as the region found it. -/
theorem kept0 (c : Dev nD) : (dat0 V c).arrAt 0 cfg0.N = V c main_arg0 :=
  ((dat0 V c).arrAt_in 0 rfl cfg0.N).trans (A_eq0 V c 0)

/-! ## The body's payload at an index -/

theorem hz0 : (![0, 0] : Fin 2 → Nat) = fun _ => 0 := funext fun a => by fin_cases a <;> rfl

/-- The transposed block at (p, q) is the block at (q, p). -/
theorem pay1_apply (x : Vec F S1024x1024 .f32) (j k : S1024x1024.Idx)
    (h0 : (k 0).val = (j 1).val) (h1 : (k 1).val = (j 0).val) : k0_pay1 x j = x k := by
  unfold k0_pay1
  refine transpose_apply [1, 0] x transposes_S1024x1024_p1_0_S1024x1024 j k fun b => ?_
  match b with
  | ⟨0, _⟩ => exact h1
  | ⟨1, _⟩ => exact h0

/-! ## The two index maps, related over the grid -/

/-- At every point the input's block index is the output's with the axes exchanged, and the output's block
    indices are below 4 and 16. -/
theorem idx_swap0 : ∀ t : Fin cfg0.N, win0_0.index t (0 : Fin 2) = win0_1.index t (1 : Fin 2)
    ∧ win0_0.index t (1 : Fin 2) = win0_1.index t (0 : Fin 2)
    ∧ win0_1.index t (0 : Fin 2) ≤ 3 ∧ win0_1.index t (1 : Fin 2) ≤ 15 :=
  (by decide +kernel : ∀ t : Fin grid0.N, _)

/-- Every output block is some point's. -/
theorem idx_onto0 : ∀ (q0 : Fin 4) (q1 : Fin 16), ∃ t : Fin cfg0.N, win0_1.index t = ![q0.val, q1.val] :=
  (by decide +kernel : ∀ (q0 : Fin 4) (q1 : Fin 16), ∃ t : Fin grid0.N, win0_1.index t = ![q0.val, q1.val])

/-! ## An input block read at an index -/

/-- Entry x of the input block at point t is the entry of z at block index × 1024 + x, axis by axis. -/
theorem iblk0_apply (c : Dev nD) (t : Fin cfg0.N) (x : S1024x1024.Idx) (k : S16384x4096.Idx)
    (hk0 : (k 0).val = win0_0.index t (0 : Fin 2) * 1024 + (x 0).val)
    (hk1 : (k 1).val = win0_0.index t (1 : Fin 2) * 1024 + (x 1).val) :
    (iblk0 V c 0 t : Vec F S1024x1024 .f32) x = (V c main_arg0 : S16384x4096.Idx → Elt F .f32) k := by
  unfold iblk0
  rw [View.read_apply]
  show V c main_arg0 _ = V c main_arg0 _
  congr 1
  funext a
  apply Fin.ext
  match a with
  | ⟨0, _⟩ => show win0_0.index t (0 : Fin 2) * 1024 + 1 * (x 0).val = (k 0).val; omega
  | ⟨1, _⟩ => show win0_0.index t (1 : Fin 2) * 1024 + 1 * (x 1).val = (k 1).val; omega

/-! ## What a point writes back -/

/-- What point t writes back is block t of the transposed array. -/
theorem flushed0_eq (c : Dev nD) (t : Fin cfg0.N) :
    (dat0 V c).flushed 1 t = ((cfg0.win 1).blk t).view.read (Elt F) (Cert.Spec.transposed (V c main_arg0 : S16384x4096.Idx → Elt F .f32)) := by
  show (cfg0.win 1).cut (grid0.coords t) ((dat0 V c).after 1 t) = _
  rw [after0_1]
  unfold out0_1
  rw [View.canon_unit_zero hz0]
  simp only [View.ld_unit_zero (S := S1024x1024) hz0]
  obtain ⟨e0, e1, -, -⟩ := idx_swap0 t
  funext j
  rw [View.read_apply]
  have hj0 : (j 0).val < 1024 := (j 0).isLt
  have hj1 : (j 1).val < 1024 := (j 1).isLt
  show k0_pay1 (iblk0 V c 0 t) ((cfg0.win 1).xinj (grid0.coords t) j)
    = (V c main_arg0 : S16384x4096.Idx → Elt F .f32) (ix2 (n0 := 16384) (n1 := 4096) ((((cfg0.win 1).blk t).view.emb j) 1) ((((cfg0.win 1).blk t).view.emb j) 0))
  refine (pay1_apply (iblk0 V c 0 t) ((cfg0.win 1).xinj (grid0.coords t) j)
    (ix2 (n0 := 1024) (n1 := 1024) ⟨(j 1).val, hj1⟩ ⟨(j 0).val, hj0⟩) rfl rfl).trans ?_
  refine iblk0_apply V c t _ _ ?_ ?_
  · show win0_1.index t (1 : Fin 2) * 1024 + 1 * (j 1).val = win0_0.index t (0 : Fin 2) * 1024 + (j 1).val
    omega
  · show win0_1.index t (0 : Fin 2) * 1024 + 1 * (j 0).val = win0_0.index t (1 : Fin 2) * 1024 + (j 0).val
    omega

/-! ## The output blocks tile the result -/

/-- An index of the result is in point t's block iff each coordinate is in the block's range on its axis. -/
theorem mem_blk0 (t : Fin cfg0.N) (i : S4096x16384.Idx) :
    i ∈ ((cfg0.win 1).blk t).view.set ↔ ∀ a : Fin 2, win0_1.index t a * S1024x1024.size a ≤ (i a).val ∧ (i a).val < win0_1.index t a * S1024x1024.size a + S1024x1024.size a := by
  show i ∈ ((View.whole main_v0).slice (win0_1.rect t)).set ↔ _
  rw [View.set_slice_whole, Rect.mem_set_unit]
  exact Iff.rfl

/-- Entry (d, b) of the result lies in the block with block index (d / 1024, b / 1024), which some point writes back. -/
theorem cover0 (i : S4096x16384.Idx) : ∃ t : Fin cfg0.N, (cfg0.win 1).flush t = true ∧ i ∈ ((cfg0.win 1).blk t).view.set := by
  have hi0 : (i 0).val < 4096 := (i 0).isLt
  have hi1 : (i 1).val < 16384 := (i 1).isLt
  obtain ⟨t, ht⟩ := idx_onto0 ⟨(i 0).val / 1024, by omega⟩ ⟨(i 1).val / 1024, by omega⟩
  have q0 : win0_1.index t (0 : Fin 2) = (i 0).val / 1024 := congrFun ht 0
  have q1 : win0_1.index t (1 : Fin 2) = (i 1).val / 1024 := congrFun ht 1
  refine ⟨t, flush0_1 t, ?_⟩
  rw [mem_blk0]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 1024 ≤ (i 1).val ∧ (i 1).val < win0_1.index t (1 : Fin 2) * 1024 + 1024; omega

/-! ## The result array after the run -/

/-- After the 64 points the result array holds the transpose of z: entry (d, b) is z (b, d). -/
theorem final0 (c : Dev nD) : (dat0 V c).arrAt 1 cfg0.N = Cert.Spec.transposed (V c main_arg0 : S16384x4096.Idx → Elt F .f32) :=
  (dat0 V c).arrAt_eq_of_cover 1 (Cert.Spec.transposed (V c main_arg0 : S16384x4096.Idx → Elt F .f32)) (fun t _ => flushed0_eq V c t) cover0

end Cert.Kernel.Hand

end
-- ==== Proof.K.Region1Rows.lean ====
/-
  The scratch buffer row by row.

  The body fills the 128 × 16384 scratch by 128 copies, copy `k` writing ROW `k` whole with row `w k` of the
  transposed array, where `w k` is the table word at position `128 s + k`. Written one after another the copies leave a
  tower of row writes over whatever the scratch held before. Rows are pairwise disjoint and together they are the whole
  buffer, so the tower is ONE function of the index, the earlier contents gone: entry `(g, y)` is entry `(w g, y)` of
  the transposed array. This module states the tower as a predicate (`RowsWritten`), reads it back at an index
  (a write to row `n` is seen at row `n` and at no other row), and gives the closed form `gatheredRows`.
-/
import proofs.«422614_j16655883174311_1_alg».proof.Proof.Gen.Kernel
import proofs.«422614_j16655883174311_1_alg».proof.Proof.Spec
import Idealize.ShloMosaic.Lib.ValueIdx

set_option maxRecDepth 16384

noncomputable section

namespace Cert.Kernel.Hand.Rows

open Cert.Kernel
open Idealize.ShloMosaic Idealize.ShloMosaic.ValueIdx Idealize.SL.Sem

variable {F : FTy → Type}

/-- The scratch, the transposed array and the table, each a whole buffer. -/
abbrev scB : Memref sig .tc .vmem S128x16384 .f32 := Memref.whole cc1_scratch0
abbrev zB : Memref sig .tc .hbm S4096x16384 .f32 := Memref.whole main_v0
abbrev tB : Memref sig .tc .smem S4096 .i32 := Memref.whole main_arg1

/-- Row `k` of the scratch as the rank-1 memref a copy lands in: the 1 × 16384 slice at `(k, 0)`, its unit axis dropped. -/
abbrev rowM (k : Nat) (h : ∀ a, (![k, 0] : Fin 2 → Nat) a + S1x16384.size a ≤ S128x16384.size a) :
    Memref sig .tc .vmem S16384 .f32 :=
  (scB.slice (Rect.unit (s := S128x16384) ![k, 0] S1x16384.size h) (fun _ => rfl)).squeeze S16384 Gen.squeezes_S1x16384_S16384

/-- Row `r` of the transposed array as the rank-1 memref a copy reads. -/
abbrev srcM (r : Nat) (h : ∀ a, (![r, 0] : Fin 2 → Nat) a + S1x16384.size a ≤ S4096x16384.size a) :
    Memref sig .tc .hbm S16384 .f32 :=
  (zB.slice (Rect.unit (s := S4096x16384) ![r, 0] S1x16384.size h) (fun _ => rfl)).squeeze S16384 Gen.squeezes_S1x16384_S16384

/-- Dropping the unit axis of a 1 × 16384 index: position `y` sits behind the one coordinate 0. -/
theorem squeeze_row (hn : S16384.numel = S1x16384.numel) (y : S16384.Idx) :
    (Shape.reshapeEquiv hn y : S1x16384.Idx) = ix2 (n0 := 1) (n1 := 16384) ⟨0, Nat.one_pos⟩ (y 0) :=
  Shape.reshapeEquiv_eq_of_rowMajor hn (by
    show ((⟨2, ![1, 16384]⟩ : Shape).rowMajor (ix2 (n0 := 1) (n1 := 16384) ⟨0, Nat.one_pos⟩ (y 0))).val
      = ((⟨1, ![16384]⟩ : Shape).rowMajor y).val
    rw [Shape.rowMajor_val_two, Shape.rowMajor_val_one]
    show 0 * _ + (y 0).val = (y 0).val
    omega)

/-- Where position `y` of scratch row `k` sits in the scratch: at `(k, y)`. -/
theorem rowM_emb (k : Nat) (h : ∀ a, (![k, 0] : Fin 2 → Nat) a + S1x16384.size a ≤ S128x16384.size a) (y : S16384.Idx) (a : Fin 2) :
    (((rowM k h).view.emb y : S128x16384.Idx) a).val = (![k, (y 0).val] : Fin 2 → Nat) a := by
  show (((Rect.unit (s := S128x16384) ![k, 0] S1x16384.size h).emb (Shape.reshapeEquiv _ y)) a).val = _
  rw [Rect.emb_apply, squeeze_row]
  fin_cases a
  · show k + 1 * 0 = k; omega
  · show 0 + 1 * (y 0).val = (y 0).val; omega

/-- Where position `y` of row `r` of the transposed array sits in the array: at `(r, y)`. -/
theorem srcM_emb (r : Nat) (h : ∀ a, (![r, 0] : Fin 2 → Nat) a + S1x16384.size a ≤ S4096x16384.size a) (y : S16384.Idx) (a : Fin 2) :
    (((srcM r h).view.emb y : S4096x16384.Idx) a).val = (![r, (y 0).val] : Fin 2 → Nat) a := by
  show (((Rect.unit (s := S4096x16384) ![r, 0] S1x16384.size h).emb (Shape.reshapeEquiv _ y)) a).val = _
  rw [Rect.emb_apply, squeeze_row]
  fin_cases a
  · show r + 1 * 0 = r; omega
  · show 0 + 1 * (y 0).val = (y 0).val; omega

/-! ## A tower of row writes -/

/-- `RowsWritten base pay n X`: the contents `X` are `base` with rows `0 … n-1` written one after another, row `k`
    whole with `pay k`. -/
inductive RowsWritten (base : S128x16384.Idx → Elt F .f32) (pay : (k : Nat) → k < 128 → S16384.Idx → Elt F .f32) :
    Nat → (S128x16384.Idx → Elt F .f32) → Prop
  | zero : RowsWritten base pay 0 base
  | succ (n : Nat) (hn : n < 128) (h : ∀ a, (![n, 0] : Fin 2 → Nat) a + S1x16384.size a ≤ S128x16384.size a)
      (X : S128x16384.Idx → Elt F .f32) (p : S16384.Idx → Elt F .f32) :
      RowsWritten base pay n X → p = pay n hn →
      RowsWritten base pay (n + 1) (View.write (Elt F) (rowM n h).view X p Finset.univ)

/-- A tower read at `(g, y)`: a written row shows its payload, an unwritten row what was there before. A write to row
    `n` is seen exactly at the indices whose row coordinate is `n`. -/
theorem RowsWritten.apply {base : S128x16384.Idx → Elt F .f32} {pay : (k : Nat) → k < 128 → S16384.Idx → Elt F .f32}
    {n : Nat} {X : S128x16384.Idx → Elt F .f32} (hX : RowsWritten base pay n X) (g : Fin 128) (y : Fin 16384) :
    X (ix2 g y) = if g.val < n then pay g.val g.isLt (ValueIdx.ix1 y) else base (ix2 g y) := by
  induction hX with
  | zero => rw [if_neg (Nat.not_lt_zero _)]
  | succ n hn h X p hX hp ih =>
    subst hp
    by_cases hg : g.val = n
    · -- the index is position `y` of row `n`
      have e : (ix2 g y : S128x16384.Idx) = (rowM n h).view.emb (ValueIdx.ix1 y) := by
        funext a; apply Fin.ext; rw [rowM_emb]
        fin_cases a
        · exact hg
        · rfl
      rw [e, View.write_emb_of_mem _ _ (Finset.mem_univ _), if_pos (by omega)]
      subst hg
      simp only [cast_eq]
    · -- another row: the write is not seen
      have hnot : (ix2 g y : S128x16384.Idx) ∉ (rowM n h).view.setOn Finset.univ := by
        intro hm
        obtain ⟨y', -, hy'⟩ := Finset.mem_map.1 hm
        have e0 := congrArg (fun j : S128x16384.Idx => (j 0).val) hy'
        have e1 := rowM_emb n h y' 0
        exact hg (e0.symm.trans e1)
      rw [View.write_of_not_mem _ _ _ hnot, ih]
      by_cases hlt : g.val < n
      · rw [if_pos hlt, if_pos (by omega)]
      · rw [if_neg hlt, if_neg (by omega)]

/-- With all 128 rows written nothing of the earlier contents is left: the tower is its payloads, row by row. -/
theorem RowsWritten.full {base : S128x16384.Idx → Elt F .f32} {pay : (k : Nat) → k < 128 → S16384.Idx → Elt F .f32}
    {X : S128x16384.Idx → Elt F .f32} (hX : RowsWritten base pay 128 X) (x : S128x16384.Idx) :
    X x = pay (x 0).val (x 0).isLt (ValueIdx.ix1 (x 1)) := by
  have e := hX.apply (x 0) (x 1)
  rw [if_pos (show (x 0).val < 128 from (x 0).isLt)] at e
  exact (congrArg X (eq_ix2 x)).trans e

/-! ## The copies' payloads, and the closed form -/

section Payload

variable (pf : S4096.Idx → Elt F .i32) (fh : S4096x16384.Idx → Elt F .f32) (i : grid1.Coords)

/-- The table position the body reads for row `n`, as the body computes it in 32-bit words: `s · 128 + n`. -/
abbrev offAt (n : Nat) : Fin 1 → Nat :=
  ![(Scalar.indexCast (Scalar.addi (Scalar.muli (BitVec.ofNat 32 (i 0).val) 128#32) (BitVec.ofNat 32 n))).toNat]

/-- No word wraps: `s < 32` and `n < 128`, so the position is `128 s + n`. -/
theorem offAt_val (n : Nat) (hn : n < 128) : offAt i n 0 = 128 * (i 0).val + n := by
  have hs : (i 0).val < 32 := (i 0).isLt
  show ((BitVec.ofNat 32 (i 0).val * 128#32 + BitVec.ofNat 32 n)).toNat = _
  rw [BitVec.toNat_add, BitVec.toNat_mul, BitVec.toNat_ofNat, BitVec.toNat_ofNat, BitVec.toNat_ofNat]
  omega

theorem offAt_inb (n : Nat) (hn : n < 128) : ∀ a, offAt i n a + S1.size a ≤ S4096.size a := by
  intro a; fin_cases a
  show offAt i n 0 + 1 ≤ 4096
  have hs : (i 0).val < 32 := (i 0).isLt
  rw [offAt_val i n hn]; omega

theorem one_word_pos : 0 < (⟨S4096.rank, S1.size⟩ : Shape).numel := by decide

/-- The table word the body reads for row `n`. -/
abbrev wordAt (n : Nat) (hn : n < 128) : Elt F .i32 :=
  View.readAt (Elt F) tB.view (Rect.unit (s := S4096) (offAt i n) S1.size (offAt_inb i n hn)).toLoadRect pf
    (Shape.Idx.first one_word_pos)

/-- Position `128 s + g` of the table. -/
def rowIx (g : Fin 128) : Fin 4096 :=
  ⟨128 * (i 0).val + g.val, by have hs : (i 0).val < 32 := (i 0).isLt; have := g.isLt; omega⟩

/-- The word read for row `n` is the table's entry at `128 s + n`. -/
theorem wordAt_eq (n : Nat) (hn : n < 128) : wordAt pf i n hn = pf (ValueIdx.ix1 (rowIx i ⟨n, hn⟩)) := by
  show pf _ = pf _
  congr 1
  funext a; apply Fin.ext
  fin_cases a
  show offAt i n 0 + 1 * 0 = 128 * (i 0).val + n
  rw [offAt_val i n hn]; omega

/-- A row index below 4096 leaves room for one whole row of the 4096 × 16384 array. -/
theorem row_fits (v : BitVec 32) (h : v.toNat < 4096) :
    ∀ a, (![v.toNat, 0] : Fin 2 → Nat) a + S1x16384.size a ≤ S4096x16384.size a := by
  intro a; fin_cases a
  · show v.toNat + 1 ≤ 4096; omega
  · show 0 + 16384 ≤ 16384; omega

variable (hR : Cert.Spec.InRange pf)

/-- What the copy into row `n` delivers: row `w n` of the transposed array. -/
abbrev rowPay (n : Nat) (hn : n < 128) : S16384.Idx → Elt F .f32 :=
  ReadAs.same.apply (View.read (Elt F) (srcM (BitVec.toNat (wordAt pf i n hn)) (row_fits _ (hR _))).view fh)

/-- The delivered row at position `y`: entry `(w n, y)` of the transposed array, `w n` the table's column at `128 s + n`. -/
theorem rowPay_apply (n : Nat) (hn : n < 128) (y : S16384.Idx) :
    rowPay pf fh i hR n hn y = fh (ix2 (n0 := 4096) (n1 := 16384) (Cert.Spec.col pf (rowIx i ⟨n, hn⟩)) (y 0)) := by
  rw [show rowPay pf fh i hR n hn y
      = View.read (Elt F) (srcM (BitVec.toNat (wordAt pf i n hn)) (row_fits _ (hR _))).view fh y from rfl, View.read_apply]
  simp only [cast_eq]
  congr 1
  funext a; apply Fin.ext
  rw [srcM_emb]
  fin_cases a
  · show BitVec.toNat (wordAt pf i n hn) = (Cert.Spec.col pf (rowIx i ⟨n, hn⟩)).val
    rw [Cert.Spec.col_val pf hR, wordAt_eq]
  · rfl

/-- The scratch once all 128 copies have landed: entry `(g, y)` is entry `(w g, y)` of the transposed array. -/
def gatheredRows : S128x16384.Idx → Elt F .f32 :=
  fun x => fh (ix2 (n0 := 4096) (n1 := 16384) (Cert.Spec.col pf (rowIx i (x 0))) (x 1))

/-- The tower of the 128 copies is that function, whatever the scratch held before. -/
theorem rows_closed {base X : S128x16384.Idx → Elt F .f32} (hX : RowsWritten base (rowPay pf fh i hR) 128 X) :
    X = gatheredRows pf fh i := by
  funext x
  rw [hX.full x, rowPay_apply pf fh i hR]
  rfl

end Payload

end Cert.Kernel.Hand.Rows

end
-- ==== Proof.K.Region1Run.lean ====
/-
  REGION 1's kernel body, run once at a symbolic grid point, with what it leaves stated over the scratch's contents.

  The run needs three things of its resources. The transposed array is read by sixteen copies at a time, two of which
  may read the SAME row (the table need not be injective): it is held as read shares, one per cell a copy completes on,
  so each copy borrows its own share of its row. The scratch is held whole and each copy takes only the row it writes,
  the rest staying in hand for the next copy; a wait on a cell gives that row back. Every word read from the table is
  below 4096 (the table is in range), which is the side condition each copy's source row needs.

  After the 128 copies the scratch holds a tower of 128 row writes over whatever it held before; the eight loads
  read that tower, and the eight stores write its 128 × 2048 slices, transposed, as rows `[2048 c, 2048 (c+1))` of
  the output block. The continuation is handed the tower under an existential, with the fact that it IS such a
  tower (`Rows.RowsWritten`), and the output buffer's pieces as a function of it.
-/
import proofs.«422614_j16655883174311_1_alg».proof.Proof.Gen.Kernel.Launch
import proofs.«422614_j16655883174311_1_alg».proof.Proof.Gen.Kernel.Skeleton
import proofs.«422614_j16655883174311_1_alg».proof.Proof.Gen.Kernel.Points
import proofs.«422614_j16655883174311_1_alg».proof.Proof.Spec
import proofs.«422614_j16655883174311_1_alg».proof.Proof.K.Region1Rows
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Any word read from the table is an entry of the table, hence below 4096. -/
theorem word_lt (pf : S4096.Idx → Elt F .i32) (hR : Cert.Spec.InRange pf) (r : LoadRect S4096) (j : r.shape.Idx) :
    BitVec.toNat (View.readAt (Elt F) Rows.tB.view r pf j) < 4096 := hR _

/-- A points-to split into read tokens: what remains after twenty-two halvings, and the twenty-two right halves
    (token `k` is lent to the copy completing on cell `k`; the rest and the tokens compose to the whole share). -/
theorem pointsTo_tokens22 {ℓ : Loc nD τ sig} {S : Finset (Idx ℓ)} {f : Buf (Elt F) ℓ} (q : PosShare TreeShare) :
    (ℓ ↦[S]{q} f : sProp 𝕄) ⊣⊢ iprop((ℓ ↦[S]{Transfers.shareDrop q 22} f) ∗ (ℓ ↦[S]{Transfers.shareTokN q 0} f) ∗ (ℓ ↦[S]{Transfers.shareTokN q 1} f) ∗ (ℓ ↦[S]{Transfers.shareTokN q 2} f) ∗ (ℓ ↦[S]{Transfers.shareTokN q 3} f) ∗ (ℓ ↦[S]{Transfers.shareTokN q 4} f) ∗ (ℓ ↦[S]{Transfers.shareTokN q 5} f) ∗ (ℓ ↦[S]{Transfers.shareTokN q 6} f) ∗ (ℓ ↦[S]{Transfers.shareTokN q 7} f) ∗ (ℓ ↦[S]{Transfers.shareTokN q 8} f) ∗ (ℓ ↦[S]{Transfers.shareTokN q 9} f) ∗ (ℓ ↦[S]{Transfers.shareTokN q 10} f) ∗ (ℓ ↦[S]{Transfers.shareTokN q 11} f) ∗ (ℓ ↦[S]{Transfers.shareTokN q 12} f) ∗ (ℓ ↦[S]{Transfers.shareTokN q 13} f) ∗ (ℓ ↦[S]{Transfers.shareTokN q 14} f) ∗ (ℓ ↦[S]{Transfers.shareTokN q 15} f) ∗ (ℓ ↦[S]{Transfers.shareTokN q 16} f) ∗ (ℓ ↦[S]{Transfers.shareTokN q 17} f) ∗ (ℓ ↦[S]{Transfers.shareTokN q 18} f) ∗ (ℓ ↦[S]{Transfers.shareTokN q 19} f) ∗ (ℓ ↦[S]{Transfers.shareTokN q 20} f) ∗ (ℓ ↦[S]{Transfers.shareTokN q 21} f)) := by
  have h := Transfers.pointsTo_toks_range (Name := ℕ) (U := Pipeline.UD sig nD τ) (Lvl := ℕ) (Ix := Unit) (ℓ := ℓ) (S := S) (f := f) q 22
  rw [BI.bigSep_eq_bigSepL_of_eq [0, 1, 2, 3, 4, 5, 6, 7, 8, 9, 10, 11, 12, 13, 14, 15, 16, 17, 18, 19, 20, 21] (by decide) (by decide)] at h
  exact h

/-- A whole buffer of core `c` held at contents `f`. -/
abbrev ptAt (c : Dev nD) {sp : Space} {S : Shape} {e : EltTy} (M : Memref sig .tc sp S e)
    (f : Buf (Elt F) (M.view.loc (c : Thread nD τ))) : sProp 𝕄 :=
  M.view.loc (c : Thread nD τ) ↦{fullShare} f

/-- The sixteen cells the copies complete on, each at zero. -/
abbrev cells0 (c : Dev nD) : sProp 𝕄 :=
  iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0)

/-- What the eight stores leave in the output block, as pieces (last first), over the scratch's contents `X` when
    the loads read it: chunk `c` of the block is the transpose of columns `[2048 c, 2048 (c+1))` of `X`. -/
def piecesAt (X : S128x16384.Idx → Elt F .f32) : List (View.Piece (Elt F) S16384x128 .f32) :=
  [
    ⟨Rect.unit (s := S16384x128) ![14336, 0] S2048x128.size Gen.inb_S16384x128_S2048x128_14336_0,
      k1_pay6 (View.readAt (Elt F) Rows.scB.view (Rect.unit (s := S128x16384) ![0, 14336] S128x2048.size Gen.inb_S128x16384_S128x2048_0_14336).toLoadRect X)⟩,
    ⟨Rect.unit (s := S16384x128) ![12288, 0] S2048x128.size Gen.inb_S16384x128_S2048x128_12288_0,
      k1_pay5 (View.readAt (Elt F) Rows.scB.view (Rect.unit (s := S128x16384) ![0, 12288] S128x2048.size Gen.inb_S128x16384_S128x2048_0_12288).toLoadRect X)⟩,
    ⟨Rect.unit (s := S16384x128) ![10240, 0] S2048x128.size Gen.inb_S16384x128_S2048x128_10240_0,
      k1_pay4 (View.readAt (Elt F) Rows.scB.view (Rect.unit (s := S128x16384) ![0, 10240] S128x2048.size Gen.inb_S128x16384_S128x2048_0_10240).toLoadRect X)⟩,
    ⟨Rect.unit (s := S16384x128) ![8192, 0] S2048x128.size Gen.inb_S16384x128_S2048x128_8192_0,
      k1_pay3 (View.readAt (Elt F) Rows.scB.view (Rect.unit (s := S128x16384) ![0, 8192] S128x2048.size Gen.inb_S128x16384_S128x2048_0_8192).toLoadRect X)⟩,
    ⟨Rect.unit (s := S16384x128) ![6144, 0] S2048x128.size Gen.inb_S16384x128_S2048x128_6144_0,
      k1_pay2 (View.readAt (Elt F) Rows.scB.view (Rect.unit (s := S128x16384) ![0, 6144] S128x2048.size Gen.inb_S128x16384_S128x2048_0_6144).toLoadRect X)⟩,
    ⟨Rect.unit (s := S16384x128) ![4096, 0] S2048x128.size Gen.inb_S16384x128_S2048x128_4096_0,
      k1_pay1 (View.readAt (Elt F) Rows.scB.view (Rect.unit (s := S128x16384) ![0, 4096] S128x2048.size Gen.inb_S128x16384_S128x2048_0_4096).toLoadRect X)⟩,
    ⟨Rect.unit (s := S16384x128) ![2048, 0] S2048x128.size Gen.inb_S16384x128_S2048x128_2048_0,
      k1_pay8 (View.readAt (Elt F) Rows.scB.view (Rect.unit (s := S128x16384) ![0, 2048] S128x2048.size Gen.inb_S128x16384_S128x2048_0_2048).toLoadRect X)⟩,
    ⟨Rect.unit (s := S16384x128) ![0, 0] S2048x128.size Gen.inb_S16384x128_S2048x128_0_0,
      k1_pay7 (View.readAt (Elt F) Rows.scB.view (Rect.unit (s := S128x16384) ![0, 0] S128x2048.size Gen.inb_S128x16384_S128x2048_0_0).toLoadRect X)⟩]

set_option sl_exec.dmaWindow true in
set_option maxHeartbeats 40000000 in
/-- The body's run: from the output buffer at `f1`, the scratch at `ds0`, the cells at zero, the transposed array at
    `fh`, the table at `pf` (in range) and the core's `owes`, it reaches its return with the scratch at a tower of the
    128 delivered rows over `ds0`, the output buffer's pieces those of that tower, and the rest as it was. -/
theorem run1_raw (c : Dev nD) (i : grid1.Coords) (arg3 : Memref sig .tc .vmem S16384x128 .f32) (harg3 : arg3.IsWhole)
    (pf : S4096.Idx → Elt F .i32) (hR : Cert.Spec.InRange pf) (fh : S4096x16384.Idx → Elt F .f32)
    (f1 : arg3.view.ty.Contents (Elt F)) (ds0 : S128x16384.Idx → Elt F .f32) (W : Waits sig Unit) (K : PUnit → sProp 𝕄) :
    iprop((arg3.view.loc (c : Thread nD τ) ↦[arg3.view.set]{fullShare} f1)
        ∗ ptAt c Rows.scB ds0 ∗ cells0 c
        ∗ ptAt c Rows.zB fh ∗ ptAt c Rows.tB pf
        ∗ owes (c : Thread nD τ) 0 W
        ∗ (iprop((∃ X : S128x16384.Idx → Elt F .f32, ptAt c Rows.scB X
                  ∗ ⌜Rows.RowsWritten ds0 (Rows.rowPay pf fh i hR) 128 X⌝
                  ∗ (arg3.view.loc (c : Thread nD τ) ↦[arg3.view.set]{fullShare} arg3.view.writes (Elt F) f1 (piecesAt X)))
            ∗ cells0 c ∗ ptAt c Rows.zB fh
            ∗ ptAt c Rows.tB pf ∗ (∃ W', owes (c : Thread nD τ) 0 W')) -∗ K ⟨⟩))
      ⊢ wp frame (wpE (defs₀ (F := F)) Variants.none c none) Set.univ
          (cc1__gather_kernel i Rows.tB (Memref.isWhole_whole _) Rows.zB (Memref.isWhole_whole _) arg3 harg3 Rows.scB (Memref.isWhole_whole _) cc1_scratch1) K := by
  simp only [cc1__gather_kernel_eq_skeleton]; unfold cc1__gather_kernel_skel
  iintro ⟨H1, HS0, ⟨Hq0, Hq1, Hq2, Hq3, Hq4, Hq5, Hq6, Hq7, Hq8, Hq9, Hq10, Hq11, Hq12, Hq13, Hq14, Hq15⟩, Hh0, Ht, HW, Hk⟩
  -- one read share of the transposed array per cell
  ihave ⟨Hd, U0, U1, U2, U3, U4, U5, T0, T1, T2, T3, T4, T5, T6, T7, T8, T9, T10, T11, T12, T13, T14, T15⟩ := (pointsTo_tokens22 fullShare).1 $$ Hh0
  sl_exec (disch := exact Rows.row_fits _ (word_lt pf hR _ _))
  sl_step
  iapply Hk
  isplitl [HS0 H1]
  · iexists _
    isplitl [HS0]; · iexact HS0
    isplitr
    · ipureintro
      iterate 128 (refine Rows.RowsWritten.succ _ (by decide) _ _ _ ?_ rfl)
      exact Rows.RowsWritten.zero
    · iexact H1
  isplitl [Hq0 Hq1 Hq2 Hq3 Hq4 Hq5 Hq6 Hq7 Hq8 Hq9 Hq10 Hq11 Hq12 Hq13 Hq14 Hq15]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    iexact Hq15
  isplitl [Hd U0 U1 U2 U3 U4 U5 T0 T1 T2 T3 T4 T5 T6 T7 T8 T9 T10 T11 T12 T13 T14 T15]
  · -- the shares put back together
    iapply (pointsTo_tokens22 fullShare).2
    isplitl [Hd]; · iexact Hd
    isplitl [U0]; · iexact U0
    isplitl [U1]; · iexact U1
    isplitl [U2]; · iexact U2
    isplitl [U3]; · iexact U3
    isplitl [U4]; · iexact U4
    isplitl [U5]; · iexact U5
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    iexact T15
  isplitl [Ht]; · iexact Ht
  iexists _; iexact HW

end Cert.Kernel.Hand

end
-- ==== Proof.K.Region1Chunks.lean ====
/-
  The stored chunks as blocks of one function.

  Chunk `c` of the output block is the transpose of columns `[2048 c, 2048 (c+1))` of the scratch: its entry `(r, g)`
  is the scratch's entry `(g, 2048 c + r)`, and it is stored at rows `[2048 c, 2048 (c+1))`, so it sits at `(2048 c + r, g)`
  of the block. Every chunk is therefore the block, at its rectangle, of ONE function of the block's index: the
  scratch read with its two coordinates exchanged.
-/
import proofs.«422614_j16655883174311_1_alg».proof.Proof.K.Region1Rows
import Idealize.ShloMosaic.Lib.Pipeline.Value

set_option maxRecDepth 16384

noncomputable section

namespace Cert.Kernel.Hand.Rows

open Cert.Kernel
open Idealize.ShloMosaic Idealize.ShloMosaic.ValueIdx Idealize.SL.Sem

variable {F : FTy → Type}

/-- The scratch's contents with the two coordinates exchanged: entry `(b, g)` is the scratch's entry `(g, b)`. -/
def exchanged (G : S128x16384.Idx → Elt F .f32) : S16384x128.Idx → Elt F .f32 :=
  fun y => G (ix2 (n0 := 128) (n1 := 16384) (y 1) (y 0))

/-- A 128 × 2048 slice of the scratch at columns `[o, o + 2048)`, transposed, read at `(r, g)`: the scratch at `(g, o + r)`. -/
theorem slice_transpose_apply (G : S128x16384.Idx → Elt F .f32) (o : Nat)
    (hb : ∀ a, (![0, o] : Fin 2 → Nat) a + S128x2048.size a ≤ S128x16384.size a)
    (r : Fin 2048) (g : Fin 128) (ho : o + r.val < 16384) :
    transpose S2048x128 [1, 0]
        (View.readAt (Elt F) scB.view (Rect.unit (s := S128x16384) ![0, o] S128x2048.size hb).toLoadRect G)
        Gen.transposes_S128x2048_p1_0_S2048x128 (ix2 (n0 := 2048) (n1 := 128) r g)
      = G (ix2 (n0 := 128) (n1 := 16384) g ⟨o + r.val, ho⟩) := by
  rw [transpose_apply [1, 0] _ Gen.transposes_S128x2048_p1_0_S2048x128 (ix2 (n0 := 2048) (n1 := 128) r g)
    (ix2 (n0 := 128) (n1 := 2048) g r) (by intro b; fin_cases b <;> rfl)]
  rw [View.readAt_apply, View.read_apply]
  simp only [cast_eq]
  congr 1
  funext a; apply Fin.ext
  fin_cases a
  · show 0 + 1 * g.val = g.val; omega
  · show o + 1 * r.val = o + r.val; omega

/-- The chunk stored at rows `[o, o + 2048)` is the block of `exchanged G` at its rectangle. -/
theorem chunk_block (G : S128x16384.Idx → Elt F .f32) (o : Nat)
    (hb : ∀ a, (![0, o] : Fin 2 → Nat) a + S128x2048.size a ≤ S128x16384.size a)
    (ho : ∀ a, (![o, 0] : Fin 2 → Nat) a + S2048x128.size a ≤ S16384x128.size a)
    (x : (Rect.unit (s := S16384x128) ![o, 0] S2048x128.size ho).shape.Idx) :
    transpose S2048x128 [1, 0]
        (View.readAt (Elt F) scB.view (Rect.unit (s := S128x16384) ![0, o] S128x2048.size hb).toLoadRect G)
        Gen.transposes_S128x2048_p1_0_S2048x128 x
      = exchanged G ((Rect.unit (s := S16384x128) ![o, 0] S2048x128.size ho).emb x) := by
  obtain ⟨r, g, rfl⟩ : ∃ (r : Fin 2048) (g : Fin 128), x = ix2 (n0 := 2048) (n1 := 128) r g := ⟨x 0, x 1, eq_ix2 x⟩
  have hle : o + 2048 ≤ 16384 := ho 0
  rw [slice_transpose_apply G o hb r g (by have := r.isLt; omega)]
  unfold exchanged
  congr 1
  funext a; apply Fin.ext
  fin_cases a
  · show g.val = 0 + 1 * g.val; omega
  · show o + r.val = o + 1 * r.val; omega

end Cert.Kernel.Hand.Rows

end
-- ==== Proof.K.Region1Body.lean ====
/-
  REGION 1's kernel body, run once at a symbolic grid point.

  At point `s` of the 32 the body reads the 128 table words `perm (128 s + g)`, `g < 128`, and for each
  starts a copy of ROW `perm (128 s + g)` of the transposed array (16384 words, left in HBM) into row `g` of a
  128 × 16384 scratch buffer; the copies go in eight waves of sixteen, copy `k` of a wave completing on cell `k`
  of sixteen cells, and every copy of a wave is waited for before the next wave starts, so each cell carries one
  copy at a time and a wait on it means THAT copy has landed. Then, for each of eight column chunks of 2048, the
  128 × 2048 slice of the scratch is loaded, transposed and stored as rows `[2048 c, 2048 (c+1))` of the
  16384 × 128 output block. So entry `(b, g)` of the block is entry `(perm (128 s + g), b)` of the transposed array.
  Each copy's source row must lie inside the array: that is the side condition the body assumes of each word, and
  it is what `InRange` of the table gives.
-/
import proofs.«422614_j16655883174311_1_alg».proof.Proof.Gen.Kernel.Launch
import proofs.«422614_j16655883174311_1_alg».proof.Proof.Gen.Kernel.Skeleton
import proofs.«422614_j16655883174311_1_alg».proof.Proof.Gen.Kernel.Points
import proofs.«422614_j16655883174311_1_alg».proof.Proof.Spec
import proofs.«422614_j16655883174311_1_alg».proof.Proof.K.Region1Run
import proofs.«422614_j16655883174311_1_alg».proof.Proof.K.Region1Chunks
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The operands the pipeline does not stage: the index table (in scalar memory), the transposed array (left in HBM),
    the scratch buffer; each a whole buffer. -/
abbrev tblM : Memref sig .tc .smem S4096 .i32 := Memref.whole main_arg1
abbrev zTM : Memref sig .tc .hbm S4096x16384 .f32 := Memref.whole main_v0
abbrev scM : Memref sig .tc .vmem S128x16384 .f32 := Memref.whole cc1_scratch0
/-- A memref's buffer on core `c`: its contents type, and it held whole at `f`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The sixteen cells the body's copies complete on, each at zero. -/
abbrev sems0 (c : Dev nD) : sProp 𝕄 :=
  iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0)

/-- One staging buffer of the output window, through which a block's contents are stated. -/
abbrev VO1 : View sig .tc .vmem S16384x128 .f32 := (Memref.whole cc1_stg0_0 : Memref sig .tc .vmem S16384x128 .f32).view

/-- The scratch owned whole is its points-to. -/
theorem owns_scM (c : Dev nD) (d : S128x16384.Idx → Elt F .f32) :
    (owns (c : Thread nD τ) scM fullShare d : sProp 𝕄) = hbPt c scM d := owns_whole _ _ _ _

/-- What the body's eight stores leave in the output staging memref, as pieces, WITH the proof that from the output
    buffer and the scratch at anything, the sixteen cells at zero, the transposed array at `fh`, the table at `pf` (in range)
    and the core's `owes`, the body runs to its return handing all of it back — the scratch at some contents, the cells at zero
    again, the arrays as they were — with the output buffer's pieces written. -/
noncomputable def kernelRun1 (c : Dev nD) (i : grid1.Coords) (arg3 : Memref sig .tc .vmem S16384x128 .f32) (harg3 : arg3.IsWhole)
    (pf : HbBuf (F := F) c tblM) (hR : Cert.Spec.InRange pf) (fh : HbBuf (F := F) c zTM) :
    { L : List (View.Piece (Elt F) S16384x128 .f32) //
      ∀ (W : Waits sig Unit) (K : PUnit → sProp 𝕄),
        iprop((∃ d, owns (c : Thread nD τ) arg3 fullShare d) ∗ (∃ d, owns (c : Thread nD τ) scM fullShare d) ∗ sems0 c
            ∗ hbPt c zTM fh ∗ hbPt c tblM pf ∗ owes (c : Thread nD τ) 0 W
            ∗ (iprop((∃ f, arg3.view.loc (c : Thread nD τ) ↦[arg3.view.set]{fullShare} arg3.view.writes (Elt F) f L)
                ∗ (∃ d, owns (c : Thread nD τ) scM fullShare d) ∗ sems0 c ∗ hbPt c zTM fh ∗ hbPt c tblM pf
                ∗ (∃ W', owes (c : Thread nD τ) 0 W')) -∗ K ⟨⟩))
          ⊢ wp frame (wpE (defs₀ (F := F)) Variants.none c none) Set.univ
              (cc1__gather_kernel i tblM (Memref.isWhole_whole _) zTM (Memref.isWhole_whole _) arg3 harg3 scM (Memref.isWhole_whole _) cc1_scratch1) K } := by
  -- the pieces: those of the scratch once the 128 rows have landed, a function of the table and the array alone
  refine ⟨piecesAt (Rows.gatheredRows pf fh i), fun W K => ?_⟩
  simp only [owns_scM]
  unfold owns
  iintro ⟨⟨%d1, %f1, -, H1⟩, ⟨%ds0, HS0⟩, Hq, Hh0, Ht, HW, Hk⟩
  iapply (run1_raw c i arg3 harg3 pf hR fh f1 ds0 W K)
  isplitl [H1]; · iexact H1
  isplitl [HS0]; · iexact HS0
  isplitl [Hq]; · iexact Hq
  isplitl [Hh0]; · iexact Hh0
  isplitl [Ht]; · iexact Ht
  isplitl [HW]; · iexact HW
  iintro ⟨⟨%X, HS, %hN, H1⟩, Hq, Hh0, Ht, HW⟩
  -- a tower of all 128 rows is the gathered rows, whatever lay under it
  obtain rfl := Rows.rows_closed pf fh i hR hN
  iapply Hk
  isplitl [H1]; · iexists f1; iexact H1
  isplitl [HS]; · iexists _; iexact HS
  isplitl [Hq]; · iexact Hq
  isplitl [Hh0]; · iexact Hh0
  isplitl [Ht]; · iexact Ht
  iexact HW

/-- The run's pieces cover the output block. -/
theorem cover1 (c : Dev nD) (i : grid1.Coords) (arg3 : Memref sig .tc .vmem S16384x128 .f32) (harg3 : arg3.IsWhole)
    (pf : HbBuf (F := F) c tblM) (hR : Cert.Spec.InRange pf) (fh : HbBuf (F := F) c zTM) (y : S16384x128.Idx) :
    ∃ pc ∈ (kernelRun1 c i arg3 harg3 pf hR fh).1, y ∈ pc.1.set :=
  -- eight row blocks of 2048 rows, at offsets 0, 2048, …, 14336: they tile the 16384 rows
  View.cover_of_tiledL (kernelRun1 c i arg3 harg3 pf hR fh).1 S2048x128.size (by sl_kernel_rfl) y

/-- What the run leaves in the output block: its pieces read back. -/
def out1 (c : Dev nD) (i : grid1.Coords) (arg3 : Memref sig .tc .vmem S16384x128 .f32) (harg3 : arg3.IsWhole)
    (pf : HbBuf (F := F) c tblM) (hR : Cert.Spec.InRange pf) (fh : HbBuf (F := F) c zTM) : Vec F S16384x128 .f32 :=
  VO1.read (Elt F) (VO1.writes (Elt F) VO1.junk (kernelRun1 c i arg3 harg3 pf hR fh).1)

/-- Every stored chunk is the block, at its rectangle, of the scratch read with its two coordinates exchanged. -/
theorem pieces_blocks (G : S128x16384.Idx → Elt F .f32) :
    ∀ p ∈ piecesAt G, ∀ x : p.1.shape.Idx, p.2 x = Rows.exchanged G (p.1.emb x) := by
  intro p hp
  unfold piecesAt at hp
  rcases List.mem_cons.1 hp with rfl | hp
  · exact fun x => Rows.chunk_block (F := F) G 14336 Gen.inb_S128x16384_S128x2048_0_14336 Gen.inb_S16384x128_S2048x128_14336_0 x
  rcases List.mem_cons.1 hp with rfl | hp
  · exact fun x => Rows.chunk_block (F := F) G 12288 Gen.inb_S128x16384_S128x2048_0_12288 Gen.inb_S16384x128_S2048x128_12288_0 x
  rcases List.mem_cons.1 hp with rfl | hp
  · exact fun x => Rows.chunk_block (F := F) G 10240 Gen.inb_S128x16384_S128x2048_0_10240 Gen.inb_S16384x128_S2048x128_10240_0 x
  rcases List.mem_cons.1 hp with rfl | hp
  · exact fun x => Rows.chunk_block (F := F) G 8192 Gen.inb_S128x16384_S128x2048_0_8192 Gen.inb_S16384x128_S2048x128_8192_0 x
  rcases List.mem_cons.1 hp with rfl | hp
  · exact fun x => Rows.chunk_block (F := F) G 6144 Gen.inb_S128x16384_S128x2048_0_6144 Gen.inb_S16384x128_S2048x128_6144_0 x
  rcases List.mem_cons.1 hp with rfl | hp
  · exact fun x => Rows.chunk_block (F := F) G 4096 Gen.inb_S128x16384_S128x2048_0_4096 Gen.inb_S16384x128_S2048x128_4096_0 x
  rcases List.mem_cons.1 hp with rfl | hp
  · exact fun x => Rows.chunk_block (F := F) G 2048 Gen.inb_S128x16384_S128x2048_0_2048 Gen.inb_S16384x128_S2048x128_2048_0 x
  rcases List.mem_cons.1 hp with rfl | hp
  · exact fun x => Rows.chunk_block (F := F) G 0 Gen.inb_S128x16384_S128x2048_0_0 Gen.inb_S16384x128_S2048x128_0_0 x
  exact absurd hp List.not_mem_nil

/-- THE BLOCK'S VALUE: entry `(b, g)` of the block written at point `s = i 0` is entry `(perm (128 s + g), b)` of the
    transposed array. -/
theorem out1_apply (c : Dev nD) (i : grid1.Coords) (arg3 : Memref sig .tc .vmem S16384x128 .f32) (harg3 : arg3.IsWhole)
    (pf : HbBuf (F := F) c tblM) (hR : Cert.Spec.InRange pf) (fh : HbBuf (F := F) c zTM) (b : Fin 16384) (g : Fin 128)
    (hi : 128 * (i 0).val + g.val < 4096) :
    out1 c i arg3 harg3 pf hR fh (ValueIdx.ix2 b g)
      = (fh : S4096x16384.Idx → Elt F .f32) (ValueIdx.ix2 (Cert.Spec.col pf ⟨128 * (i 0).val + g.val, hi⟩) b) := by
  unfold out1
  -- the pieces cover the block, so what they leave is their canonical contents, whatever was there before
  rw [View.read_writes_eq_canon _ _ _ (cover1 c i arg3 harg3 pf hR fh)]
  -- every piece is the block, at its rectangle, of the gathered rows with the coordinates exchanged
  rw [View.canon_apply_of_pieces (Rows.exchanged (Rows.gatheredRows pf fh i)) _ ?_ _ (cover1 c i arg3 harg3 pf hR fh _)]
  · rfl
  · exact pieces_blocks (Rows.gatheredRows pf fh i)

end Cert.Kernel.Hand

end
-- ==== Proof.K.Region1.lean ====
/-
  REGION 1 as a pipeline: its proof data at the region-entry contents `V` and at table contents `a1` in range.

  The pipeline has one window, the OUTPUT (16384 × 4096 in column blocks of 128: point `s` writes columns
  `[128 s, 128 (s+1))`). What the body leaves in the block at point `s` is `out1` (Region1Body): entry `(b, g)` is
  entry `(perm (128 s + g), b)` of the transposed array the region finds in `main_v0`. The 32 blocks tile the
  array, so after the last point entry `(b, i)` of the result is entry `(perm i, b)` of that array (`final1`).
  The invariant carried from point to point: the scratch buffer and the staging buffers of the other call at
  anything, the sixteen cells at zero, the transposed array and the table at their entry contents.
-/
import proofs.«422614_j16655883174311_1_alg».proof.Proof.K.Region1Body
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (a1 : (pcfg1 (F := F)).Adm)

/-- The table's one array, as the words the body reads. -/
abbrev tblOf : S4096.Idx → BitVec 32 := a1.1 0

/-- The body's own sixteen cells (the DMA semaphores 6 … 21), for the launch. -/
abbrev osem1 : Fin 16 → SemLoc sig := fun j => SemLoc.dma ⟨6 + j.val, by have := j.isLt; show 6 + j.val < 22; omega⟩
/-- The operand left in HBM that the body copies rows of: the transposed array. -/
def H1 : Finset (Ref sig .tc) := {main_v0}

/-- The output window's current staging memref at point `t`, as the pipeline passes it, and its wholeness. -/
abbrev ms1_0 (t : Fin (cfg1 a1).N) : Memref sig .tc .vmem S16384x128 .f32 := spec1_0.stage ((cfg1 a1).slots t 0)
abbrev hs1_0 (t : Fin (cfg1 a1).N) : (ms1_0 a1 t).IsWhole := hstage1_0 (((cfg1 a1).slots t 0).cast nbuf1_0)

/-- The invariant: the class's for a body with copies of its own (scoped rest, generator register, own cells at zero, the
    HBM operand at its entry contents) beside the table at its contents. -/
def Φ1 (c : Dev nD) : sProp 𝕄 :=
  iprop(Pipeline.ΦD osem1 spec1 H1 V c ∗ Pipeline.prefHeld pre1 c (fun _ => fullShare) a1.1)

variable (hR : Cert.Spec.InRange (tblOf a1))

/-- What the output block holds after the body at point `t`. -/
def outsAt1 (c : Dev nD) (t : Fin (cfg1 a1).N) : Vec F S16384x128 .f32 :=
  out1 c (grid1.coords t) (ms1_0 a1 t) (hs1_0 a1 t) (tblOf a1) hR (V c main_v0)

/-- The proof data of pipeline 1 on core `c`. -/
def dat1 (c : Dev nD) : Dat τ (Elt F) Unit ℕ (Pipeline.UD sig nD τ) ℕ (cfg1 a1) c where
  A w := V c (Pipeline.arrRef spec1 w)
  after w t := match w with
    | ⟨0, _⟩ => outsAt1 V a1 hR c t
  Φ _ := Φ1 V a1 c
  q _ := fullShare
  owed _ := 0

theorem A_eq1 (c : Dev nD) (w : Fin (cfg1 a1).W) : (dat1 V a1 hR c).A w = V c (Pipeline.arrRef spec1 w) := by
  dsimp only [dat1]

/-- What the body leaves in the one window (the proof data's `match` reduced). -/
theorem after1_0 (c : Dev nD) (t : Fin (cfg1 a1).N) : (dat1 V a1 hR c).after 0 t = outsAt1 V a1 hR c t := by
  dsimp only [dat1]
  rfl

/-- The sixteen cells at zero, listed. -/
theorem ownSems1_eq (c : Dev nD) :
    (Pipeline.ownSems0 (Ix := Unit) (Name := ℕ) (U := Pipeline.UD sig nD τ) (Lvl := ℕ) (Val := Elt F) (τ := τ) osem1 c : sProp 𝕄)
      = sems0 c := by
  rw [Pipeline.ownSems0_eq_of_list c osem1 [0, 1, 2, 3, 4, 5, 6, 7, 8, 9, 10, 11, 12, 13, 14, 15] (by decide) (by decide)]; rfl

/-- The transposed array's points-to at the region-entry contents. -/
theorem hbmPts1_eq (c : Dev nD) :
    (bigSep H1 (fun b => ((c : Thread nD τ).loc b) ↦{fullShare} V c b) : sProp 𝕄) = iprop(hbPt c zTM (V c main_v0)) := by
  rw [BI.bigSep_eq_bigSepL_of_eq [main_v0] (by decide) (by decide)]; rfl

/-- The table's points-to at its contents. -/
theorem prefHeld1_eq (c : Dev nD) :
    (Pipeline.prefHeld pre1 c (fun _ => fullShare) a1.1 : sProp 𝕄) = iprop(hbPt c tblM (tblOf a1)) := by
  unfold Pipeline.prefHeld
  rw [bigSep_univ_eq_bigSepL [(0 : Fin 1)] (by decide) (by decide)]; rfl

/-- The invariant conjunct by conjunct: the other call's staging buffers and the scratch buffer at anything, the generator
    register at some state, the sixteen cells at zero, the transposed array at its entry contents; and the table at its contents. -/
theorem Phi1_eq (c : Dev nD) :
    (Φ1 V a1 c : sProp 𝕄)
      = iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM fullShare d)) ∗ (∃ r, prngReg c r) ∗ sems0 c ∗ iprop(hbPt c zTM (V c main_v0))) ∗ iprop(hbPt c tblM (tblOf a1))) := by
  unfold Φ1
  rw [Pipeline.ΦD_eq, scopedRest1_eq, ownSems1_eq, hbmPts1_eq, prefHeld1_eq]; simp only [scM, owns_whole]; try rfl

/-- The kernel body as the pipeline calls it at point `t`: the label table's row at the point and the current buffer. -/
abbrev bodyAt1 (t : Fin (cfg1 a1).N) : Prog (TpuEff nD τ sig (Elt F) Λ₀ .tc) PUnit :=
  cc1__gather_kernel (grid1.coords t) tblM (Memref.isWhole_whole _) zTM (Memref.isWhole_whole _) (ms1_0 a1 t) (hs1_0 a1 t) scM (Memref.isWhole_whole _) cc1_scratch1

/-- The library's body obligation, at every point. The obligation's one window written out and the label table's row
    at the point read as the kernel's call; then: the invariant hands the run the scratch buffer, the cells at zero, the
    transposed array and the table, and takes them back as they were; the output buffer goes in at anything and comes
    back at the run's pieces written, which cover it, so it reads as `outsAt1`; the core's `owes` goes in at whatever
    the points before recorded and comes back with this point's waits. -/
theorem body_obligation1 (c : Dev nD) : BodyObligation (dat1 (F := F) V a1 hR c) (defs₀ (F := F)) Variants.none () Set.univ := fun t => by
  rw [bigSep_W1, bigSep_W1]
  dsimp only
  rw [show (defs₀ (F := F)) Proc.tc 1 (t, (cfg1 a1).slots t) = bodyAt1 a1 t from rfl]
  unfold bodyAt1
  rw [show (dat1 V a1 hR c).Φ t.succ = (dat1 V a1 hR c).Φ t.castSucc from rfl, after1_0]
  rw [show (dat1 V a1 hR c).Φ t.castSucc = Φ1 V a1 c from rfl, Phi1_eq]
  unfold Dat.owesAt Pipeline.owesWithin
  rw [show (dat1 V a1 hR c).owed t.castSucc = 0 from rfl, show (dat1 V a1 hR c).owed t.succ = 0 from rfl]
  unfold outsAt1
  unfold out1
  iintro ⟨⟨⟨⟨HR0, HR1, HR2, HR3, HS0⟩, Hg, Hq, Hh⟩, Ht⟩, ⟨%W, -, HW⟩, ⟨%d0, H0⟩⟩
  iapply ((kernelRun1 c (grid1.coords t) _ _ (tblOf a1) hR (V c main_v0)).2 W _)
  isplitl [H0]; · iexists _; iexact H0
  isplitl [HS0]; · iexact HS0
  isplitl [Hq]; · iexact Hq
  isplitl [Hh]; · iexact Hh
  isplitl [Ht]; · iexact Ht
  isplitl [HW]; · iexact HW
  iintro ⟨⟨%e0, H0⟩, HS0, Hq, Hh, Ht, ⟨%W', HW'⟩⟩
  isplitl [HR0 HR1 HR2 HR3 HS0 Hg Hq Hh Ht]
  · isplitr [Ht]
    · isplitl [HR0 HR1 HR2 HR3 HS0]
      · isplitl [HR0]; · iexact HR0
        isplitl [HR1]; · iexact HR1
        isplitl [HR2]; · iexact HR2
        isplitl [HR3]; · iexact HR3
        iexact HS0
      isplitl [Hg]
      · iexact Hg
      isplitl [Hq]
      · iexact Hq
      iexact Hh
    iexact Ht
  isplitl [HW']
  · iexists W'; isplitr; · ipureintro; exact fun _ _ => Or.inl trivial
    iexact HW'
  unfold owns; iexists _; isplitr
  swap; · iexact H0
  ipureintro; exact View.read_writes_of_cover _ _ _ _ _ (cover1 c _ _ _ _ _ _)

/-! ## The result array: from the 32 blocks to the whole -/

/-- The grid has one axis: a point's one coordinate is the point's number. -/
theorem coords1 : ∀ t : Fin grid1.N, (grid1.coords t 0).val = t.val := by decide +kernel

/-- The output window's block index at point `t` is `(0, t)`, at any contents of the table (the index map reads none):
    block `t` is the columns `[128 t, 128 (t + 1))`, all rows. -/
theorem idx1 (t : Fin (cfg1 a1).N) :
    ((cfg1 a1).win 0).index t (0 : Fin 2) = 0 ∧ ((cfg1 a1).win 0).index t (1 : Fin 2) = t.val :=
  (by decide +kernel : ∀ t : Fin grid1.N, cc1_transform_1 (grid1.coords t) (0 : Fin 2) = 0 ∧ cc1_transform_1 (grid1.coords t) (1 : Fin 2) = t.val) t

/-- The output is written back at every point, at any contents of the table. -/
theorem flush1_0 : ∀ t : Fin (cfg1 a1).N, ((cfg1 a1).win 0).flush t = true :=
  (by decide +kernel : ∀ t : Fin grid1.N, Pipeline.Window.flushOf grid1 true cc1_transform_1 t = true)

/-- The result: entry `(b, i)` is entry `(perm i, b)` of the transposed array the region finds. -/
def G1 (c : Dev nD) : S16384x4096.Idx → Elt F .f32 :=
  fun j => (V c main_v0 : S4096x16384.Idx → Elt F .f32) (ValueIdx.ix2 (Cert.Spec.col (tblOf a1) (j 1)) (j 0))

/-- Entry `(b, g)` of the block written at point `t` is entry `(perm k, b)` of the transposed array, `k = 128 t + g` the
    entry's column in the result. -/
theorem outsAt1_apply (c : Dev nD) (t : Fin (cfg1 a1).N) (b : Fin 16384) (g : Fin 128) (k : Fin 4096) (hk : k.val = 128 * t.val + g.val) :
    outsAt1 V a1 hR c t (ValueIdx.ix2 b g)
      = (V c main_v0 : S4096x16384.Idx → Elt F .f32) (ValueIdx.ix2 (Cert.Spec.col (tblOf a1) k) b) := by
  have hc : (grid1.coords t 0).val = t.val := coords1 t
  have hi : 128 * (grid1.coords t 0).val + g.val < 4096 := by rw [hc, ← hk]; exact k.isLt
  unfold outsAt1
  refine (out1_apply c (grid1.coords t) (ms1_0 a1 t) (hs1_0 a1 t) (tblOf a1) hR (V c main_v0) b g hi).trans ?_
  refine congrArg (fun k' : Fin 4096 => (V c main_v0 : S4096x16384.Idx → Elt F .f32) (ValueIdx.ix2 (Cert.Spec.col (tblOf a1) k') b)) (Fin.ext ?_)
  show 128 * (grid1.coords t 0).val + g.val = k.val
  rw [hc, hk]

/-- WHAT POINT `t` WRITES BACK is block `t` of `G1`: element `(y0, y1)` of the block sits at row `y0`, column `128 t + y1`
    of the array (block index times block size plus the coordinate inside the block). -/
theorem flushed1_eq (c : Dev nD) (t : Fin (cfg1 a1).N) :
    (dat1 V a1 hR c).flushed 0 t = (((cfg1 a1).win 0).blk t).view.read (Elt F) (G1 V a1 c) := by
  show ((cfg1 a1).win 0).cut (grid1.coords t) ((dat1 V a1 hR c).after 0 t) = _
  rw [after1_0]
  funext y
  obtain ⟨e0, e1⟩ := idx1 a1 t
  have ht : t.val < 32 := Nat.lt_of_lt_of_eq t.isLt (show (cfg1 a1).N = 32 from N_1)
  have hy0 : (y (0 : Fin 2)).val < 16384 := (y (0 : Fin 2)).isLt
  have hy1 : (y (1 : Fin 2)).val < 128 := (y (1 : Fin 2)).isLt
  have hx : ((cfg1 a1).win 0).xinj (grid1.coords t) y
      = ValueIdx.ix2 (n0 := 16384) (n1 := 128) ⟨(y (0 : Fin 2)).val, hy0⟩ ⟨(y (1 : Fin 2)).val, hy1⟩ := by
    funext a; match a with | ⟨0, _⟩ => rfl | ⟨1, _⟩ => rfl
  show outsAt1 V a1 hR c t (((cfg1 a1).win 0).xinj (grid1.coords t) y) = G1 V a1 c ((((cfg1 a1).win 0).blk t).view.emb y)
  rw [hx]
  refine (outsAt1_apply V a1 hR c t ⟨(y (0 : Fin 2)).val, hy0⟩ ⟨(y (1 : Fin 2)).val, hy1⟩ ⟨128 * t.val + (y (1 : Fin 2)).val, by omega⟩ rfl).trans ?_
  unfold G1
  refine congrArg₂ (fun (k' : Fin 4096) (b' : Fin 16384) => (V c main_v0 : S4096x16384.Idx → Elt F .f32) (ValueIdx.ix2 (Cert.Spec.col (tblOf a1) k') b')) (Fin.ext ?_) (Fin.ext ?_)
  · show 128 * t.val + (y (1 : Fin 2)).val = ((cfg1 a1).win 0).index t (1 : Fin 2) * 128 + 1 * (y (1 : Fin 2)).val
    rw [e1]; omega
  · show (y (0 : Fin 2)).val = ((cfg1 a1).win 0).index t (0 : Fin 2) * 16384 + 1 * (y (0 : Fin 2)).val
    rw [e0]; omega

/-- Every entry of the array is in some point's block: column `i` is in block `i / 128`. -/
theorem cover1_arr (i : S16384x4096.Idx) :
    ∃ t : Fin (cfg1 a1).N, ((cfg1 a1).win 0).flush t = true ∧ i ∈ (((cfg1 a1).win 0).blk t).view.set := by
  have hi0 : (i (0 : Fin 2)).val < 16384 := (i (0 : Fin 2)).isLt
  have hi1 : (i (1 : Fin 2)).val < 4096 := (i (1 : Fin 2)).isLt
  have hN : (cfg1 a1).N = 32 := N_1
  have hq : (i (1 : Fin 2)).val / 128 < (cfg1 a1).N := by rw [hN]; omega
  obtain ⟨e0, e1⟩ := idx1 a1 ⟨(i (1 : Fin 2)).val / 128, hq⟩
  have e1' : ((cfg1 a1).win 0).index ⟨(i (1 : Fin 2)).val / 128, hq⟩ (1 : Fin 2) = (i (1 : Fin 2)).val / 128 := e1
  refine ⟨⟨(i (1 : Fin 2)).val / 128, hq⟩, flush1_0 a1 _, ?_⟩
  show i ∈ ((View.whole main_v1).slice (((cfg1 a1).win 0).rect ⟨(i (1 : Fin 2)).val / 128, hq⟩)).set
  refine (Finset.ext_iff.mp (View.set_slice_whole main_v1 (((cfg1 a1).win 0).rect ⟨(i (1 : Fin 2)).val / 128, hq⟩)) i).mpr ?_
  refine Rect.mem_set_unit.mpr ?_
  intro a
  match a with
  | ⟨0, _⟩ =>
    show ((cfg1 a1).win 0).index ⟨(i (1 : Fin 2)).val / 128, hq⟩ (0 : Fin 2) * 16384 ≤ (i (0 : Fin 2)).val
      ∧ (i (0 : Fin 2)).val < ((cfg1 a1).win 0).index ⟨(i (1 : Fin 2)).val / 128, hq⟩ (0 : Fin 2) * 16384 + 16384
    rw [e0]; omega
  | ⟨1, _⟩ =>
    show ((cfg1 a1).win 0).index ⟨(i (1 : Fin 2)).val / 128, hq⟩ (1 : Fin 2) * 128 ≤ (i (1 : Fin 2)).val
      ∧ (i (1 : Fin 2)).val < ((cfg1 a1).win 0).index ⟨(i (1 : Fin 2)).val / 128, hq⟩ (1 : Fin 2) * 128 + 128
    rw [e1']; omega

/-- THE RESULT ARRAY after the 32 points: entry `(b, i)` is entry `(perm i, b)` of the array found in `main_v0`. -/
theorem final1 (c : Dev nD) :
    (dat1 V a1 hR c).arrAt 0 (cfg1 a1).N
      = fun j : S16384x4096.Idx => (V c main_v0 : S4096x16384.Idx → Elt F .f32) (ValueIdx.ix2 (Cert.Spec.col (tblOf a1) (j 1)) (j 0)) :=
  (dat1 V a1 hR c).arrAt_eq_of_cover 0 (G1 V a1 c) (fun t _ => flushed1_eq V a1 hR c t) (fun i => cover1_arr a1 i)

end Cert.Kernel.Hand

end
-- ==== Proof.K.Run.lean ====
/-
  THE RUN of the kernel program: its two kernel regions in order, from the launch to the return.

  @main is two calls. The first transposes the 16384 × 4096 array z (main_arg0) into the 4096 × 16384 array main_v0. The second,
  for a table perm of 4096 words (main_arg1, placed in scalar memory and handed to the second call's pipeline as its
  prefetched table), writes into main_v1 the array whose entry (b, i) is entry (perm i, b) of main_v0. There is no host
  operation, and the program runs on one core.

  The core's unscoped buffers are followed through three boundaries. At launch they hold the memory m. Between the calls
  main_v0 holds what the transpose's write-backs leave, which is the transpose of z, and everything else is as launched;
  in particular the table still holds its launch contents, and those are the contents the gather's pipeline is pinned at.
  After the gather main_v1 holds what the gather's write-backs leave and everything else is as between the calls.

  Each call is a segment over the thread state "every unscoped buffer at the boundary's contents, the generator register at
  some state, nothing owed". The transpose takes its two arrays out of the unscoped buffers and puts them back. The gather
  takes its result array out; of the buffers that bypass its windows it hands the table whole to the pipeline, puts the
  transposed array (which the body copies rows of by transfers of its own) into the region invariant beside the kernel's
  sixteen cells at zero, and lets z pass by; at the exit all of them come back as they were.

  The final memory is read against the last boundary. main_v1: entry (b, i) is entry (perm i, b) of the transpose of z, that
  is z (b, perm i): the columns of z picked by the table. z: an input window of the transpose, which the pipeline leaves as
  it found it, and a bystander of the gather. The table: a bystander of the transpose, only read by the gather.
-/
import proofs.«422614_j16655883174311_1_alg».proof.Proof.K.Region0Value
import proofs.«422614_j16655883174311_1_alg».proof.Proof.K.Region1
import Idealize.ShloMosaic.Lib.Pipeline.Frame
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at the three boundaries of the run -/

/-- Core c's buffers at launch: the memory the run starts from. -/
abbrev W0 (c : Dev nD) : Valuation τ sig (Elt F) := fun b => m (c, b)
/-- The same, read at the TensorCore's references: what the transpose's proof data are stated at. -/
abbrev V0 : (c : Dev nD) → (b : Ref sig .tc) → Buf (Elt F) ((c : Thread nD τ).loc b) := fun c b => W0 m c b

/-- Between the two regions: z as launched, the transposed array's buffer at what the transpose's write-backs leave,
    every other buffer as launched. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 winFacts0.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same, read at the TensorCore's references: what the gather's proof data are stated at. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-! ## The index table -/

/-- The table's contents: what the launch memory holds in main_arg1 (the program runs on one core). -/
def tbl : pre1.Contents (Elt F) := fun k => W0 m (0 : Dev nD) (Proc.devRef .tc (pre1.ref k))
/-- The transpose does not touch the table: between the regions, on every core, its buffer holds those contents. -/
theorem V1_pre (c : Dev nD) (k : Fin pre1.K) : V1 m c (pre1.ref k) = tbl m k := by
  obtain rfl : c = 0 := Subsingleton.elim _ _
  exact W1_of_ne m 0 (pre1.ref k) ((by decide : ∀ (k : Fin pre1.K) (w : Fin cfg0.W), Pipeline.arrRef spec0 w ≠ pre1.ref k) k)
/-- The table as admissible contents of the gather's pipeline (its side condition is empty). -/
abbrev a1 : (pcfg1 (F := F)).Adm := ⟨tbl m, trivial⟩
/-- The table's one array is main_arg1 as launched. -/
theorem tblOf_a1 : tblOf (a1 m) = m (((0 : Dev nD) : Thread nD τ).loc main_arg1) := rfl

-- the gather's proof data are stated under the table in range
variable (hT : Cert.Spec.InRange (tblOf (a1 m)))

/-- After the gather: the result's buffer at what the gather's write-backs leave, every other buffer as between the
    regions. -/
def W2 (c : Dev nD) : Valuation τ sig (Elt F) :=
  Pipeline.withArrays spec1 c (W1 m c) fun w => (dat1 (V1 m) (a1 m) hT c).arrAt w (cfg1 (a1 m)).N
theorem W2_arr (c : Dev nD) (w : Fin (cfg1 (a1 m)).W) :
    W2 m hT c (Proc.devRef .tc (Pipeline.arrRef spec1 w)) = (dat1 (V1 m) (a1 m) hT c).arrAt w (cfg1 (a1 m)).N := by
  unfold W2; exact Pipeline.withArrays_arr spec1 winFacts1.arr_inj c _ _ w
theorem W2_of_ne (c : Dev nD) (b : Ref sig .tc) (hb : ∀ w, Pipeline.arrRef spec1 w ≠ b) :
    W2 m hT c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m hT c b
theorem hF1 (c : Dev nD) (w : Fin (cfg1 (a1 m)).W) : (dat1 (V1 m) (a1 m) hT c).arrAt w (cfg1 (a1 m)).N = V2 m hT c (Pipeline.arrRef spec1 w) :=
  (W2_arr m hT c w).symm
theorem hrest1 (c : Dev nD) : ∀ b, b ∉ Finset.univ.image (Pipeline.arrRef spec1) → V2 m hT c b = V1 m c b :=
  fun b hb => W2_of_ne m hT c b fun w e => hb (Finset.mem_image.mpr ⟨w, Finset.mem_univ _, e⟩)

/-! ## The proof data family and the thread state -/

/-- The tables' contents, pipeline by pipeline: the transpose has none, the gather has the index table. -/
abbrev adm : (p : Fin 2) → (pcfgs (F := F) p).Adm
  | ⟨0, _⟩ => cfg0.toPCfg_adm
  | ⟨1, _⟩ => a1 m
  | ⟨_ + 2, h⟩ => absurd h (Nat.not_lt.2 (Nat.le_add_left _ _))

/-- Every pipeline's proof data, each at its region's entry contents. -/
def pdats : (p : Fin 2) → (c : Dev nD) → Dat τ (Elt F) Unit ℕ (Pipeline.UD sig nD τ) ℕ (Pipeline.pin (pcfgs (F := F)) (adm m) p) c
  | ⟨0, _⟩ => fun c => dat0 (V0 m) c
  | ⟨1, _⟩ => fun c => dat1 (V1 m) (a1 m) hT c
  | ⟨_ + 2, h⟩ => absurd h (Nat.not_lt.2 (Nat.le_add_left _ _))

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both regions: the core's generator register at some state and its tally, at
    nothing. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the tally: every unscoped buffer at the last boundary's contents, the generator register
    at some state. -/
abbrev Tₙ (c : Dev nD) : sProp 𝕄 := iprop(StableHlo.held (c : Thread nD τ) (Pipeline.ucRefs τ sig) (W2 m hT c) ∗ ∃ r, prngReg c r)

/-! ## The regions as segments -/

set_option backward.isDefEq.respectTransparency.types false in
/-- THE TRANSPOSE over the thread state: entered from every unscoped buffer at the launch contents, left at the contents
    between the regions. Its two arrays are split out of the unscoped buffers and put back at what the pipeline leaves; the
    generator register goes into the class invariant and comes out; nothing is owed; the kernel has no semaphore of its own and
    its pipeline no table. -/
def reg0 : Pipeline.RegionSeg (pcfgs (F := F)) (adm m) (pdats m hT) () defs₀ 𝒱₀ L lv 0 where
  win := winFacts0.to₀
  block_pos := block_pos0
  stage_whole := stage_whole0
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m c)
  hentry c := by
    rw [Pipeline.ownSems0_none]
    have hsplit := Pipeline.arrays_of_unscopedBufs (p := 0) (pcfgs (F := F)) (adm m) (pdats m hT) winFacts0 arr_whole0 c
      ((pdats m hT 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hT 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m hT 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := Pipeline.UD sig nD τ) (Lvl := ℕ)
      winFacts0 arr_whole0 c (pdats m hT) ((pdats m hT 0 c).share_full fun _ => rfl)
      (V0 m c) (V1 m c) ((pdats m hT 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The gather's sixteen cells are scoped DMA semaphores, pairwise distinct, and none is a staging buffer's. -/
theorem ownSemFacts1 : Pipeline.OwnSemFacts spec1 osem1 := by decide

/-- The operand the gather copies rows of is an unscoped buffer that is neither the gather's result array nor the table. -/
theorem H1_sub : H1 ⊆ Pipeline.restRefsP sig pre1 spec1 := by decide

/-- The buffers that bypass the gather, as it finds them: the table held whole at its contents, the transposed array (which
    goes into the invariant), and the others. -/
theorem rest1_split (c : Dev nD) :
    (Pipeline.unscopedRest (Ix := Unit) (Name := ℕ) (U := Pipeline.UD sig nD τ) (Lvl := ℕ) spec1 c (V1 m c) : sProp 𝕄)
      = iprop(Pipeline.prefHeld pre1 c (fun _ => fullShare) (a1 m).1
          ∗ (bigSep H1 fun b => ((c : Thread nD τ).loc b) ↦{fullShare} V1 m c b)
          ∗ bigSep (Pipeline.restRefsP sig pre1 spec1 \ H1) fun b => ((c : Thread nD τ).loc b) ↦{fullShare} V1 m c b) := by
  rw [Pipeline.unscopedRest_split preFacts1 c (V1 m c), Pipeline.unscopedRestP_sdiff pre1 spec1 H1 H1_sub c (V1 m c),
    show (fun k => V1 m c (pre1.ref k)) = (a1 m).1 from funext fun k => V1_pre m c k]

set_option backward.isDefEq.respectTransparency.types false in
/-- THE GATHER over the thread state: entered from every unscoped buffer at the contents between the regions, left at the
    last contents. Its result array is split out of the unscoped buffers and put back at what the pipeline leaves. Of the
    bypassing buffers the table is handed to the pipeline whole (at entry it holds the admitted contents, since the transpose
    did not touch it) and comes back whole through the invariant; the transposed array goes into the invariant beside the
    generator register and the kernel's sixteen cells at zero, and comes back as it was; z bypasses the region. Nothing is owed. -/
def reg1 : Pipeline.RegionSeg (pcfgs (F := F)) (adm m) (pdats m hT) () defs₀ 𝒱₀ L lv 1 where
  win := winFacts1.to₀
  block_pos := block_pos1
  stage_whole := stage_whole1
  K := Fin 16
  osem := osem1
  ho := ownSemFacts1
  hbody c := (body_obligation1 (V1 m) (a1 m) hT c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m hT c ∗ ∃ W, owes (c : Thread nD τ) (0 : CellTallies nD τ sig Unit) W)
  X c := iprop((∃ r, prngReg c r) ∗ Pipeline.ownSems0 (Ix := Unit) (Name := ℕ) (U := Pipeline.UD sig nD τ) (Lvl := ℕ) (Val := Elt F) (τ := τ) osem1 c ∗ (bigSep H1 fun b => (((c : Thread nD τ)).loc b) ↦{fullShare} V1 m c b))
  Y c := iprop((∃ r, prngReg c r) ∗ (bigSep H1 fun b => (((c : Thread nD τ)).loc b) ↦{fullShare} V1 m c b) ∗ Pipeline.prefHeld pre1 c (fun _ => fullShare) (a1 m).1)
  Z c := bigSep (Pipeline.restRefsP sig pre1 spec1 \ H1) fun b => (((c : Thread nD τ)).loc b) ↦{fullShare} V1 m c b
  hentry c := by
    have hsplit := Pipeline.arrays_of_unscopedBufs (p := 1) (pcfgs (F := F)) (adm m) (pdats m hT) winFacts1 arr_whole1 c
      ((pdats m hT 1 c).share_full fun _ => rfl) (V1 m c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest1_split m c)) $$ Hrest
    icases H' with ⟨Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m hT 1 c).Φ 0 = Φ1 (V1 m) (a1 m) c from rfl]; unfold Φ1; rw [Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    iexact Ht
  hout c := by
    rw [show (pdats m hT 1 c).Φ (Fin.last _) = Φ1 (V1 m) (a1 m) c from rfl]; unfold Φ1; rw [Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 1) (pcfgs (F := F)) (adm m) (Ix := Unit) (Name := ℕ) (U := Pipeline.UD sig nD τ) (Lvl := ℕ)
      winFacts1 arr_whole1 c (pdats m hT) ((pdats m hT 1 c).share_full fun _ => rfl)
      (V1 m c) (V2 m hT c) ((pdats m hT 1 c).arrAt · (cfg1 (a1 m)).N) (hF1 m hT c) (hrest1 m hT c)
    rw [Pipeline.unscopedBufs_held] at hjoin
    iintro ⟨Ha, HO, ⟨HY, HH, Ht⟩, HR⟩
    ihave Hrest := (Entails.of_eq (rest1_split m c).symm) $$ [Ht HH HR]
    · isplitl [Ht]; · iexact Ht
      isplitl [HH]; · iexact HH
      iexact HR
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## What the boundaries hold at the arrays the claim names -/

/-- z ends as launched: it is the transpose's input window (the pipeline leaves an input as it found it) and bypasses the gather. -/
theorem W2_main_arg0 (c : Dev nD) : W2 m hT c (Proc.devRef .tc main_arg0) = m ((c : Thread nD τ).loc main_arg0) :=
  calc W2 m hT c (Proc.devRef .tc main_arg0)
    _ = W1 m c (Proc.devRef .tc main_arg0) := W2_of_ne m hT c main_arg0 (by decide)
    _ = W0 m c (Proc.devRef .tc main_arg0) := (W1_arr m c 0).trans (kept0 (V0 m) c)
    _ = m ((c : Thread nD τ).loc main_arg0) := rfl
/-- The table ends as launched: it bypasses the transpose, and the gather only reads it. -/
theorem W2_main_arg1 (c : Dev nD) : W2 m hT c (Proc.devRef .tc main_arg1) = m ((c : Thread nD τ).loc main_arg1) :=
  calc W2 m hT c (Proc.devRef .tc main_arg1)
    _ = W1 m c (Proc.devRef .tc main_arg1) := W2_of_ne m hT c main_arg1 (by decide)
    _ = W0 m c (Proc.devRef .tc main_arg1) := W1_of_ne m c main_arg1 (by decide)
    _ = m ((c : Thread nD τ).loc main_arg1) := rfl
/-- Between the regions main_v0 holds the transpose of z as launched. -/
theorem W1_main_v0 (c : Dev nD) :
    W1 m c (Proc.devRef .tc main_v0) = Cert.Spec.transposed (m ((c : Thread nD τ).loc main_arg0) : S16384x4096.Idx → Elt F .f32) :=
  (W1_arr m c 1).trans (final0 (V0 m) c)
/-- THE RESULT: after the gather main_v1 holds the columns of z picked by the table. Entry (b, i) of what the gather leaves is
    entry (perm i, b) of the array it found in main_v0, which is the transpose of z; and that is entry (b, perm i) of z. -/
theorem W2_main_v1 (c : Dev nD) :
    W2 m hT c (Proc.devRef .tc main_v1)
      = Cert.Spec.gathered (m ((c : Thread nD τ).loc main_arg0)) (m ((c : Thread nD τ).loc main_arg1)) := by
  obtain rfl : c = 0 := Subsingleton.elim _ _
  refine (W2_arr m hT 0 0).trans ((final1 (V1 m) (a1 m) hT 0).trans ?_)
  funext j
  exact (congrFun (W1_main_v0 m 0) _).trans (Cert.Spec.gathered_eq_transposed _ _ j).symm

/-! ## @main as segments, and the launch -/

/-- @main's two segments in order: the transpose, then the gather. -/
abbrev segs : List (Pipeline.Seg (pcfgs (F := F)) (adm m) (pdats m hT) () defs₀ 𝒱₀ L lv) :=
  [ .region (reg0 m hT),
    .region (reg1 m hT) ]
/-- @main IS the run of the segments. -/
theorem main_run (c : Dev nD) : main (F := F) c = Pipeline.Seg.run (segs m hT) :=
  main_segs (adm m) (pdats m hT) () 𝒱₀ L lv (reg0 m hT) (reg1 m hT) c

set_option backward.isDefEq.respectTransparency.types false in
/-- THE RUN, under the table in range: at the compiled mesh, from any memory with zero counters, every weakly fair execution
    of @main on the TensorCore terminates, nothing faulting, and every final state has main_v1 at the gathered columns of z
    and the two arguments as launched. The launch over the two segments; the last thread state is read against the final state,
    and each named array by its boundary fact above. -/
theorem run_core (hT : Cert.Spec.InRange (tblOf (a1 m))) : θ_run defs (onTc (τ := τ) (main (F := F))) ⟨m, fun _ => 0, ρ⟩ (fun r => ∀ c : Dev nD,
      r.2.mem ((c.tc : Thread nD τ).loc main_v1) = Cert.Spec.gathered (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) (adm m) (pdats m hT) () (cellOf_inj (adm m)) embL defs₀ 𝒱₀ L lv m ρ main (segs m hT)
    (fun c Q => by rw [main_run m hT c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m hT)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m hT c b)
    (hfin := fun c s' => by
      iintro ⟨⟨Hh, -⟩, HSI⟩
      unfold StableHlo.held
      imodintro
      iapply (pointsTo_read_all (Pipeline.ucRefs τ sig) (fun b => (((c : Thread nD τ)).1, b)) (W2 m hT c) s')
      isplitl [Hh] <;> iassumption)
    (hQ := fun s h c =>
      ⟨(h c _ (mem_uc main_v1 (by decide))).trans (W2_main_v1 m hT c),
       (h c _ (mem_uc main_arg0 (by decide))).trans (W2_main_arg0 m hT c),
       (h c _ (mem_uc main_arg1 (by decide))).trans (W2_main_arg1 m hT c)⟩)

/-- THE RUN of the kernel program, for a table every word of which names a column of z: every weakly fair execution of @main
    terminates, and every final state holds in main_v1 the columns of z picked by the table, z and the table as launched. The
    program runs on one core, whose table is the one the gather's pipeline is pinned at. -/
theorem run_main (hR : ∀ c : Dev nD, Cert.Spec.InRange (m ((c.tc : Thread nD τ).loc main_arg1))) :
    θ_run defs (onTc (τ := τ) (main (F := F))) ⟨m, fun _ => 0, ρ⟩ (fun r => ∀ c : Dev nD,
      r.2.mem ((c.tc : Thread nD τ).loc main_v1) = Cert.Spec.gathered (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_core m ρ (by rw [tblOf_a1]; exact hR 0)

end Cert.Kernel.Hand

end
-- ==== Proof.lean ====
/-
  The certificate's claims, assembled.

  Under the precondition — every entry of `z` finite and every word of the index table in `[0, 4096)` — both
  kernel programs (the word-level one and its idealization, the same text read at two instances) run to the end
  and leave in the result the columns of `z` the table names: entry `(b, i)` is `z (b, perm i)`. They get there
  through the transposed array: the first pallas_call writes `zT (d, b) = z (b, d)`, the second copies row
  `perm i` of `zT` into a scratch row and writes it back transposed as column `i`. The reference takes the same
  columns directly (`jnp.take` along the last axis): with every word in range its negative-index wrap and its
  out-of-bounds fill both do nothing, and its gather reads `z (b, perm i)`. No arithmetic is done on the floats,
  so finiteness is never used; the range of the table is used twice — for the kernel's copies to stay inside the
  array, and for the reference's mask to be all ones.
-/
import proofs.«422614_j16655883174311_1_alg».proof.Defs
import proofs.«422614_j16655883174311_1_alg».proof.Proof.Gen.Kernel
import proofs.«422614_j16655883174311_1_alg».proof.Proof.Gen.KernelIdeal
import proofs.«422614_j16655883174311_1_alg».proof.Proof.Gen.ReferenceIdeal
import proofs.«422614_j16655883174311_1_alg».proof.Proof.Gen.Pre_finite_inputs
import proofs.«422614_j16655883174311_1_alg».proof.Proof.Spec
import proofs.«422614_j16655883174311_1_alg».proof.Proof.PreRange
import proofs.«422614_j16655883174311_1_alg».proof.Proof.RefRun
import proofs.«422614_j16655883174311_1_alg».proof.Proof.RefValue
import proofs.«422614_j16655883174311_1_alg».proof.Proof.KI.Run
import proofs.«422614_j16655883174311_1_alg».proof.Proof.K.Run

noncomputable section

namespace Cert.Proof

open Idealize.ShloMosaic Idealize.SL.Sem

/-- The word-level kernel runs and keeps its arguments: its run, the result forgotten. -/
theorem frame_k : Cert.frame_Kernel (hKernel := Cert.Kernel.Gen.facts) (hPre_finite_inputs := Cert.Pre_finite_inputs.Gen.facts) :=
  fun m ρ hpre =>
    (θ_run (Cert.Kernel.defs (F := Bits)) _ _).mono (fun _ h c => ⟨(h c).2.1, (h c).2.2⟩)
      (Cert.Kernel.Hand.run_main (F := Bits) m ρ fun c => Cert.PreRange.inRange_of_pre _ _ (hpre c))

/-- The idealized kernel runs and keeps its arguments. -/
theorem frame_ki : Cert.frame_KernelIdeal (hKernelIdeal := Cert.KernelIdeal.Gen.facts) (hPre_finite_inputs := Cert.Pre_finite_inputs.Gen.facts) :=
  fun m ρ hpre =>
    (θ_run (Cert.KernelIdeal.defs (F := Ideal)) _ _).mono (fun _ h c => ⟨(h c).2.1, (h c).2.2⟩)
      (Cert.KernelIdeal.Hand.run_main (F := Ideal) m ρ fun c => Cert.PreRange.inRange_of_pre _ _ (hpre c))

/-- The reference runs and keeps its arguments. -/
theorem frame_ri : Cert.frame_ReferenceIdeal (hReferenceIdeal := Cert.ReferenceIdeal.Gen.facts) (hPre_finite_inputs := Cert.Pre_finite_inputs.Gen.facts) :=
  fun m ρ _ =>
    (θ_run (Cert.ReferenceIdeal.defs (F := Ideal)) _ _).mono (fun _ h c => ⟨(h c).2.1, (h c).2.2⟩)
      (Cert.ReferenceIdeal.Hand.run (F := Ideal) m ρ)

/-- Both idealized programs end with the gathered columns of the (shared) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hR : ∀ c : Dev Cert.KernelIdeal.nD,
      Cert.Spec.InRange (m ((c.tc : Thread Cert.KernelIdeal.nD Cert.KernelIdeal.τ).loc Cert.KernelIdeal.main_arg1)) :=
    fun c => Cert.PreRange.inRange_of_pre _ _ (hpre c)
  refine ⟨fun c : Dev Cert.KernelIdeal.nD =>
      Cert.Spec.gathered (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
    Cert.KernelIdeal.Hand.run_main (F := Ideal) m ρ hR, ?_⟩
  refine (θ_run (Cert.ReferenceIdeal.defs (F := Ideal)) _ _).mono (fun _ h c => ⟨(h c).1.trans ?_, (h c).2.1, (h c).2.2⟩)
    (Cert.ReferenceIdeal.Hand.run (F := Ideal) m' ρ')
  rw [(hagree c).1, (hagree c).2]
  exact Cert.ReferenceIdeal.Hand.takeTerm_eq _ _ (hR c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
